-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x4096x2 : Shape := ⟨3, ![8, 4096, 2]⟩
abbrev S8x512x2048 : Shape := ⟨3, ![8, 512, 2048]⟩
abbrev S8x2048 : Shape := ⟨2, ![8, 2048]⟩
abbrev S8x2048x512 : Shape := ⟨3, ![8, 2048, 512]⟩
abbrev S8x512 : Shape := ⟨2, ![8, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x512 : S_.BroadcastsInDim S8x2048x512 (![] : Fin 0 → Fin S8x2048x512.rank)
  reducesTo_S8x2048x512_S_d0_1_2 : S8x2048x512.ReducesTo [0, 1, 2] S_
  bcast_S_S8x512 : S_.BroadcastsInDim S8x512 (![] : Fin 0 → Fin S8x512.rank)
  reducesTo_S8x512_S_d0_1 : S8x512.ReducesTo [0, 1] S_
  bcast_S_S8x4096x2 : S_.BroadcastsInDim S8x4096x2 (![] : Fin 0 → Fin S8x4096x2.rank)
  reducesTo_S8x4096x2_S_d0_1_2 : S8x4096x2.ReducesTo [0, 1, 2] S_

variable [Facts]

def fn_part1 {F : FTy → Type} [FloatOps F] (main_arg1 : IVec S8x4096x2 32) (main_arg5 : FVec F S8x512 .f32) (main_v13 : IVec S_ 1) (main_v16 : IVec S8x2048x512 1) : IVec S_ 1 :=
  let main_c_5 : IVec S_ 1 := constantI S_ 1 1#1
  let main_v17 : IVec S_ 1 := (fun x v => Host.reduce IntOp.andi x v reducesTo_S8x2048x512_S_d0_1_2 h_S_) main_v16 main_c_5
  let main_v18 : IVec S_ 1 := andi main_v13 main_v17
  let main_v19 : FVec F S8x512 .f32 := Host.absf main_arg5
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_c_8 : IVec S_ 32 := constantI S_ 32 0#32
  let main_v24 : IVec S8x4096x2 32 := broadcastInDim S8x4096x2 ![] bcast_S_S8x4096x2 main_c_8
  let main_v25 : IVec S8x4096x2 1 := cmpi .sge main_arg1 main_v24
  let main_c_9 : IVec S_ 1 := constantI S_ 1 1#1
  let main_v26 : IVec S_ 1 := (fun x v => Host.reduce IntOp.andi x v reducesTo_S8x4096x2_S_d0_1_2 h_S_) main_v25 main_c_9
  let main_v27 : IVec S_ 1 := andi main_v23 main_v26
  let main_c_10 : IVec S_ 32 := constantI S_ 32 8#32
  let main_v28 : IVec S8x4096x2 32 := broadcastInDim S8x4096x2 ![] bcast_S_S8x4096x2 main_c_10
  let main_v29 : IVec S8x4096x2 1 := cmpi .slt main_arg1 main_v28
  let main_c_11 : IVec S_ 1 := constantI S_ 1 1#1
  let main_v30 : IVec S_ 1 := (fun x v => Host.reduce IntOp.andi x v reducesTo_S8x4096x2_S_d0_1_2 h_S_) main_v29 main_c_11
  let main_v31 : IVec S_ 1 := andi main_v27 main_v30
  main_v31

def fn {F : FTy → Type} [FloatOps F] (main_arg0 : FVec F S8x4096x512 .f32) (main_arg1 : IVec S8x4096x2 32) (main_arg2 : FVec F S8x512x2048 .f32) (main_arg3 : FVec F S8x2048 .f32) (main_arg4 : FVec F S8x2048x512 .f32) (main_arg5 : FVec F S8x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512x2048 .f32 := Host.absf main_arg2
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x512 .f32 := Host.absf main_arg4
  let main_cst_4 : FVec F S_ .f32 := constant S_ .f32 0x7F800000#32
  let main_v15 : FVec F S8x2048x512 .f32 := broadcastInDim S8x2048x512 ![] bcast_S_S8x2048x512 main_cst_4
  let main_v16 : IVec S8x2048x512 1 := cmpf .olt main_v14 main_v15
  fn_part1 (F := F) main_arg1 main_arg5 main_v13 main_v16
-- ==== Kernel.lean ====
abbrev S8x4096x512 : Shape := ⟨3, ![8, 4096, 512]⟩
abbrev S8x4096x2 : Shape := ⟨3, ![8, 4096, 2]⟩
abbrev S8x512x2048 : Shape := ⟨3, ![8, 512, 2048]⟩
abbrev S8x2048 : Shape := ⟨2, ![8, 2048]⟩
abbrev S8x2048x512 : Shape := ⟨3, ![8, 2048, 512]⟩
abbrev S8x512 : Shape := ⟨2, ![8, 512]⟩
abbrev S32768x512 : Shape := ⟨2, ![32768, 512]⟩
abbrev S32768x2 : Shape := ⟨2, ![32768, 2]⟩
abbrev S65536 : Shape := ⟨1, ![65536]⟩
abbrev S32768 : Shape := ⟨1, ![32768]⟩
abbrev S_ : Shape := ⟨0, ![]⟩
abbrev S65536x1 : Shape := ⟨2, ![65536, 1]⟩
abbrev S8 : Shape := ⟨1, ![8]⟩
abbrev S1 : Shape := ⟨1, ![1]⟩
abbrev S7 : Shape := ⟨1, ![7]⟩
abbrev S69632 : Shape := ⟨1, ![69632]⟩
abbrev S69632x1 : Shape := ⟨2, ![69632, 1]⟩
abbrev S136 : Shape := ⟨1, ![136]⟩
abbrev S136x1 : Shape := ⟨2, ![136, 1]⟩
abbrev S1x8 : Shape := ⟨2, ![1, 8]⟩
abbrev S136x8 : Shape := ⟨2, ![136, 8]⟩
abbrev S69632x512 : Shape := ⟨2, ![69632, 512]⟩
abbrev S8x1x2048 : Shape := ⟨3, ![8, 1, 2048]⟩
abbrev S8x1x512 : Shape := ⟨3, ![8, 1, 512]⟩
abbrev S512x512 : Shape := ⟨2, ![512, 512]⟩
abbrev S1x512x2048 : Shape := ⟨3, ![1, 512, 2048]⟩
abbrev S1x1x2048 : Shape := ⟨3, ![1, 1, 2048]⟩
abbrev S1x2048x512 : Shape := ⟨3, ![1, 2048, 512]⟩
abbrev S1x1x512 : Shape := ⟨3, ![1, 1, 512]⟩
abbrev S512x1 : Shape := ⟨2, ![512, 1]⟩
abbrev S512x2048 : Shape := ⟨2, ![512, 2048]⟩
abbrev S1x2048 : Shape := ⟨2, ![1, 2048]⟩
abbrev S2048x512 : Shape := ⟨2, ![2048, 512]⟩
abbrev S1x512 : Shape := ⟨2, ![1, 512]⟩
abbrev S65536x2 : Shape := ⟨2, ![65536, 2]⟩
abbrev S65536x512 : Shape := ⟨2, ![65536, 512]⟩
abbrev S32768x2x512 : Shape := ⟨3, ![32768, 2, 512]⟩

abbrev nBuf : Space → Nat
  | .hbm => 269
  | .vmem => 14
  | .smem => 1
  | _ => 0

abbrev hbmTy0_0 (i : Nat) : BufTy := match i % 128 with
  | 0 => ⟨S8x4096x512, .f32⟩
  | 1 => ⟨S8x4096x2, .i32⟩
  | 2 => ⟨S8x512x2048, .f32⟩
  | 3 => ⟨S8x2048, .f32⟩
  | 4 => ⟨S8x2048x512, .f32⟩
  | 5 => ⟨S8x512, .f32⟩
  | 6 => ⟨S32768x512, .f32⟩
  | 7 => ⟨S32768x2, .i32⟩
  | 8 => ⟨S65536, .i32⟩
  | 9 => ⟨S32768, .i32⟩
  | 10 => ⟨S32768x2, .i32⟩
  | 11 => ⟨S65536, .i32⟩
  | 12 => ⟨S65536, .i32⟩
  | 13 => ⟨S65536, .i32⟩
  | 14 => ⟨S65536, .i32⟩
  | 15 => ⟨S_, .i32⟩
  | 16 => ⟨S65536, .i32⟩
  | 17 => ⟨S65536, .i1⟩
  | 18 => ⟨S_, .i32⟩
  | 19 => ⟨S65536, .i32⟩
  | 20 => ⟨S65536, .i32⟩
  | 21 => ⟨S65536, .i32⟩
  | 22 => ⟨S65536x1, .i32⟩
  | 23 => ⟨S65536, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S65536, .i32⟩
  | 33 => ⟨S_, .i32⟩
  | 34 => ⟨S8, .i32⟩
  | 35 => ⟨S_, .i32⟩
  | 36 => ⟨S65536, .i32⟩
  | 37 => ⟨S65536, .i1⟩
  | 38 => ⟨S_, .i32⟩
  | 39 => ⟨S65536, .i32⟩
  | 40 => ⟨S65536, .i32⟩
  | 41 => ⟨S65536, .i32⟩
  | 42 => ⟨S65536x1, .i32⟩
  | 43 => ⟨S_, .i32⟩
  | 44 => ⟨S65536, .i32⟩
  | 45 => ⟨S8, .i32⟩
  | 46 => ⟨S_, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S8, .i32⟩
  | 61 => ⟨S8, .i32⟩
  | 62 => ⟨S_, .i32⟩
  | 63 => ⟨S8, .i32⟩
  | 64 => ⟨S8, .i1⟩
  | 65 => ⟨S8, .i1⟩
  | 66 => ⟨S_, .i32⟩
  | 67 => ⟨S8, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S1, .i32⟩
  | 75 => ⟨S_, .i32⟩
  | 76 => ⟨S_, .i32⟩
  | 77 => ⟨S8, .i32⟩
  | 78 => ⟨S7, .i32⟩
  | 79 => ⟨S8, .i32⟩
  | 80 => ⟨S_, .i32⟩
  | 81 => ⟨S1, .i32⟩
  | 82 => ⟨S_, .i32⟩
  | 83 => ⟨S_, .i32⟩
  | 84 => ⟨S8, .i32⟩
  | 85 => ⟨S7, .i32⟩
  | 86 => ⟨S8, .i32⟩
  | 87 => ⟨S65536, .i32⟩
  | 88 => ⟨S_, .i32⟩
  | 89 => ⟨S65536, .i32⟩
  | 90 => ⟨S65536, .i1⟩
  | 91 => ⟨S_, .i32⟩
  | 92 => ⟨S65536, .i32⟩
  | 93 => ⟨S65536, .i32⟩
  | 94 => ⟨S65536, .i32⟩
  | 95 => ⟨S65536x1, .i32⟩
  | 96 => ⟨S65536, .i32⟩
  | 97 => ⟨S65536, .i32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S65536, .i32⟩
  | 105 => ⟨S65536x1, .i32⟩
  | 106 => ⟨S65536, .i32⟩
  | 107 => ⟨S65536, .i32⟩
  | 108 => ⟨S_, .i32⟩
  | 109 => ⟨S69632, .i32⟩
  | 110 => ⟨S_, .i32⟩
  | 111 => ⟨S65536, .i32⟩
  | 112 => ⟨S65536, .i1⟩
  | 113 => ⟨S_, .i32⟩
  | 114 => ⟨S65536, .i32⟩
  | 115 => ⟨S65536, .i32⟩
  | 116 => ⟨S65536, .i32⟩
  | 117 => ⟨S65536x1, .i32⟩
  | 118 => ⟨S69632, .i32⟩
  | 119 => ⟨S_, .i1⟩
  | 120 => ⟨S69632, .i1⟩
  | 121 => ⟨S_, .i32⟩
  | 122 => ⟨S65536, .i32⟩
  | 123 => ⟨S65536, .i1⟩
  | 124 => ⟨S_, .i32⟩
  | 125 => ⟨S65536, .i32⟩
  | 126 => ⟨S65536, .i32⟩
  | 127 => ⟨S65536, .i32⟩
  | _ => ⟨S8x4096x512, .f32⟩

abbrev hbmTy0_1 (i : Nat) : BufTy := match i % 128 with
  | 0 => ⟨S65536x1, .i32⟩
  | 1 => ⟨S_, .i1⟩
  | 2 => ⟨S65536, .i1⟩
  | 3 => ⟨S69632, .i1⟩
  | 4 => ⟨S69632, .f32⟩
  | 5 => ⟨S_, .f32⟩
  | 6 => ⟨S69632, .f32⟩
  | 7 => ⟨S69632, .f32⟩
  | 8 => ⟨S69632x1, .f32⟩
  | 9 => ⟨S_, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S8, .i32⟩
  | 18 => ⟨S8, .i32⟩
  | 19 => ⟨S_, .i32⟩
  | 20 => ⟨S8, .i32⟩
  | 21 => ⟨S8, .i1⟩
  | 22 => ⟨S8, .i1⟩
  | 23 => ⟨S_, .i32⟩
  | 24 => ⟨S8, .i32⟩
  | 25 => ⟨S8, .i32⟩
  | 26 => ⟨S8, .i32⟩
  | 27 => ⟨S_, .i32⟩
  | 28 => ⟨S_, .i32⟩
  | 29 => ⟨S8, .i32⟩
  | 30 => ⟨S8, .i32⟩
  | 31 => ⟨S8, .i32⟩
  | 32 => ⟨S_, .i32⟩
  | 33 => ⟨S8, .i32⟩
  | 34 => ⟨S8, .i1⟩
  | 35 => ⟨S8, .i32⟩
  | 36 => ⟨S8, .i32⟩
  | 37 => ⟨S_, .i32⟩
  | 38 => ⟨S8, .i32⟩
  | 39 => ⟨S8, .i1⟩
  | 40 => ⟨S8, .i1⟩
  | 41 => ⟨S_, .i32⟩
  | 42 => ⟨S8, .i32⟩
  | 43 => ⟨S8, .i32⟩
  | 44 => ⟨S8, .i32⟩
  | 45 => ⟨S136, .i32⟩
  | 46 => ⟨S136x1, .i32⟩
  | 47 => ⟨S1x8, .i32⟩
  | 48 => ⟨S136x8, .i32⟩
  | 49 => ⟨S136x8, .i32⟩
  | 50 => ⟨S136x8, .i1⟩
  | 51 => ⟨S8, .i32⟩
  | 52 => ⟨S1x8, .i32⟩
  | 53 => ⟨S136x8, .i32⟩
  | 54 => ⟨S136x8, .i32⟩
  | 55 => ⟨S136x8, .i1⟩
  | 56 => ⟨S136x8, .i1⟩
  | 57 => ⟨S136x8, .i32⟩
  | 58 => ⟨S8, .i32⟩
  | 59 => ⟨S1x8, .i32⟩
  | 60 => ⟨S136x8, .i32⟩
  | 61 => ⟨S136x8, .i32⟩
  | 62 => ⟨S_, .i32⟩
  | 63 => ⟨S136, .i32⟩
  | 64 => ⟨S_, .i1⟩
  | 65 => ⟨S136, .i1⟩
  | 66 => ⟨S_, .i32⟩
  | 67 => ⟨S_, .i32⟩
  | 68 => ⟨S136, .i32⟩
  | 69 => ⟨S32768x512, .bf16⟩
  | 70 => ⟨S_, .i32⟩
  | 71 => ⟨S69632, .i32⟩
  | 72 => ⟨S69632, .i1⟩
  | 73 => ⟨S_, .i32⟩
  | 74 => ⟨S69632, .i32⟩
  | 75 => ⟨S69632, .i32⟩
  | 76 => ⟨S69632, .i32⟩
  | 77 => ⟨S69632x1, .i32⟩
  | 78 => ⟨S69632x512, .bf16⟩
  | 79 => ⟨S8x512x2048, .bf16⟩
  | 80 => ⟨S8x2048x512, .bf16⟩
  | 81 => ⟨S8x1x2048, .f32⟩
  | 82 => ⟨S8x1x512, .f32⟩
  | 83 => ⟨S69632x512, .bf16⟩
  | 84 => ⟨S_, .i32⟩
  | 85 => ⟨S32768x2, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S65536, .i32⟩
  | 93 => ⟨S65536, .i32⟩
  | 94 => ⟨S_, .i32⟩
  | 95 => ⟨S65536, .i32⟩
  | 96 => ⟨S65536, .i1⟩
  | 97 => ⟨S_, .i32⟩
  | 98 => ⟨S65536, .i32⟩
  | 99 => ⟨S65536, .i1⟩
  | 100 => ⟨S_, .i32⟩
  | 101 => ⟨S_, .i1⟩
  | 102 => ⟨S65536, .i1⟩
  | 103 => ⟨S65536, .i1⟩
  | 104 => ⟨S65536, .i1⟩
  | 105 => ⟨S65536, .i32⟩
  | 106 => ⟨S65536, .i32⟩
  | 107 => ⟨S65536, .i32⟩
  | 108 => ⟨S_, .i32⟩
  | 109 => ⟨S65536, .i32⟩
  | 110 => ⟨S65536, .i1⟩
  | 111 => ⟨S_, .i32⟩
  | 112 => ⟨S65536, .i32⟩
  | 113 => ⟨S65536, .i32⟩
  | 114 => ⟨S65536, .i32⟩
  | 115 => ⟨S_, .i32⟩
  | 116 => ⟨S65536, .i32⟩
  | 117 => ⟨S65536, .i1⟩
  | 118 => ⟨S_, .i32⟩
  | 119 => ⟨S65536, .i32⟩
  | 120 => ⟨S65536, .i32⟩
  | 121 => ⟨S65536, .i32⟩
  | 122 => ⟨S65536x1, .i32⟩
  | 123 => ⟨S65536x1, .i32⟩
  | 124 => ⟨S65536x2, .i32⟩
  | 125 => ⟨S32768x2, .i32⟩
  | 126 => ⟨S65536, .i32⟩
  | 127 => ⟨S_, .i32⟩
  | _ => ⟨S8x4096x512, .f32⟩

abbrev hbmTy0_2 (i : Nat) : BufTy := match i % 128 with
  | 0 => ⟨S65536, .i32⟩
  | 1 => ⟨S65536, .i1⟩
  | 2 => ⟨S_, .i32⟩
  | 3 => ⟨S65536, .i32⟩
  | 4 => ⟨S65536, .i32⟩
  | 5 => ⟨S65536, .i32⟩
  | 6 => ⟨S65536x1, .i32⟩
  | 7 => ⟨S65536x512, .bf16⟩
  | 8 => ⟨S65536x512, .f32⟩
  | 9 => ⟨S32768x2x512, .f32⟩
  | 10 => ⟨S_, .f32⟩
  | 11 => ⟨S32768x512, .f32⟩
  | 12 => ⟨S8x4096x512, .f32⟩
  | _ => ⟨S8x4096x512, .f32⟩

abbrev hbmTy (i : Nat) : BufTy := match i / 128 with
  | 0 => hbmTy0_0 i
  | 1 => hbmTy0_1 i
  | 2 => hbmTy0_2 i
  | _ => ⟨S8x4096x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x1x512, .f32⟩
  | .local _ .vmem, ⟨9, _⟩ => ⟨S1x1x512, .f32⟩
  | .local _ .vmem, ⟨10, _⟩ => ⟨S512x1, .f32⟩
  | .local _ .vmem, ⟨11, _⟩ => ⟨S512x1, .f32⟩
  | .local _ .vmem, ⟨12, _⟩ => ⟨S512x512, .bf16⟩
  | .local _ .vmem, ⟨13, _⟩ => ⟨S512x512, .bf16⟩
  | .local _ .smem, ⟨0, _⟩ => ⟨S136, .i32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v34 : Ref sig .tc := ⟨.hbm, 69, rfl⟩
abbrev main_c_10 : Ref sig .tc := ⟨.hbm, 70, rfl⟩
abbrev main_v35 : Ref sig .tc := ⟨.hbm, 71, rfl⟩
abbrev main_v36 : Ref sig .tc := ⟨.hbm, 72, rfl⟩
abbrev main_c_11 : Ref sig .tc := ⟨.hbm, 73, rfl⟩
abbrev main_v37 : Ref sig .tc := ⟨.hbm, 74, rfl⟩
abbrev main_call2_call0_c : Ref sig .tc := ⟨.hbm, 75, rfl⟩
abbrev main_call2_call0_v0 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_12 : Ref sig .tc := ⟨.hbm, 80, rfl⟩
abbrev main_v41 : Ref sig .tc := ⟨.hbm, 81, rfl⟩
abbrev main_call3_call0_c : Ref sig .tc := ⟨.hbm, 82, rfl⟩
abbrev main_call3_call0_v0 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_13 : Ref sig .tc := ⟨.hbm, 88, rfl⟩
abbrev main_v46 : Ref sig .tc := ⟨.hbm, 89, rfl⟩
abbrev main_v47 : Ref sig .tc := ⟨.hbm, 90, rfl⟩
abbrev main_c_14 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_15 : Ref sig .tc := ⟨.hbm, 98, rfl⟩
abbrev main_v54 : Ref sig .tc := ⟨.hbm, 99, rfl⟩
abbrev main_v55 : Ref sig .tc := ⟨.hbm, 100, rfl⟩
abbrev main_c_16 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_17 : Ref sig .tc := ⟨.hbm, 108, rfl⟩
abbrev main_v62 : Ref sig .tc := ⟨.hbm, 109, rfl⟩
abbrev main_c_18 : Ref sig .tc := ⟨.hbm, 110, rfl⟩
abbrev main_v63 : Ref sig .tc := ⟨.hbm, 111, rfl⟩
abbrev main_v64 : Ref sig .tc := ⟨.hbm, 112, rfl⟩
abbrev main_c_19 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_20 : Ref sig .tc := ⟨.hbm, 119, rfl⟩
abbrev main_v70 : Ref sig .tc := ⟨.hbm, 120, rfl⟩
abbrev main_c_21 : Ref sig .tc := ⟨.hbm, 121, rfl⟩
abbrev main_v71 : Ref sig .tc := ⟨.hbm, 122, rfl⟩
abbrev main_v72 : Ref sig .tc := ⟨.hbm, 123, rfl⟩
abbrev main_c_22 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_23 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_24 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_c : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_0 : Ref sig .tc := ⟨.hbm, 151, rfl⟩
abbrev main_call4_v12 : Ref sig .tc := ⟨.hbm, 152, rfl⟩
abbrev main_call4_v13 : Ref sig .tc := ⟨.hbm, 153, rfl⟩
abbrev main_v83 : Ref sig .tc := ⟨.hbm, 154, rfl⟩
abbrev main_c_25 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_c : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_0 : Ref sig .tc := ⟨.hbm, 169, rfl⟩
abbrev main_call5_v12 : Ref sig .tc := ⟨.hbm, 170, rfl⟩
abbrev main_call5_v13 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_c_26 : Ref sig .tc := ⟨.hbm, 190, rfl⟩
abbrev main_v102 : Ref sig .tc := ⟨.hbm, 191, rfl⟩
abbrev main_c_27 : Ref sig .tc := ⟨.hbm, 192, rfl⟩
abbrev main_v103 : Ref sig .tc := ⟨.hbm, 193, rfl⟩
abbrev main_c_28 : Ref sig .tc := ⟨.hbm, 194, rfl⟩
abbrev main_call6_v0 : Ref sig .tc := ⟨.hbm, 195, rfl⟩
abbrev main_call6_v1 : Ref sig .tc := ⟨.hbm, 196, rfl⟩
abbrev main_v105 : Ref sig .tc := ⟨.hbm, 197, rfl⟩
abbrev main_c_29 : Ref sig .tc := ⟨.hbm, 198, rfl⟩
abbrev main_v106 : Ref sig .tc := ⟨.hbm, 199, rfl⟩
abbrev main_v107 : Ref sig .tc := ⟨.hbm, 200, rfl⟩
abbrev main_c_30 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_c_31 : Ref sig .tc := ⟨.hbm, 212, rfl⟩
abbrev main_v118 : Ref sig .tc := ⟨.hbm, 213, rfl⟩
abbrev main_c_32 : Ref sig .tc := ⟨.hbm, 214, rfl⟩
abbrev main_call7_v0 : Ref sig .tc := ⟨.hbm, 215, rfl⟩
abbrev main_call7_c : Ref sig .tc := ⟨.hbm, 216, rfl⟩
abbrev main_call7_v1 : Ref sig .tc := ⟨.hbm, 217, rfl⟩
abbrev main_call7_c_0 : Ref sig .tc := ⟨.hbm, 218, rfl⟩
abbrev main_call7_v2 : Ref sig .tc := ⟨.hbm, 219, rfl⟩
abbrev main_call7_v3 : Ref sig .tc := ⟨.hbm, 220, rfl⟩
abbrev main_call7_v4 : Ref sig .tc := ⟨.hbm, 221, rfl⟩
abbrev main_call7_c_1 : Ref sig .tc := ⟨.hbm, 222, rfl⟩
abbrev main_call7_v5 : Ref sig .tc := ⟨.hbm, 223, rfl⟩
abbrev main_call7_v6 : Ref sig .tc := ⟨.hbm, 224, rfl⟩
abbrev main_call7_c_2 : Ref sig .tc := ⟨.hbm, 225, rfl⟩
abbrev main_call7_v7 : Ref sig .tc := ⟨.hbm, 226, rfl⟩
abbrev main_call7_v8 : Ref sig .tc := ⟨.hbm, 227, rfl⟩
abbrev main_call7_c_3 : Ref sig .tc := ⟨.hbm, 228, rfl⟩
abbrev main_call7_v9 : Ref sig .tc := ⟨.hbm, 229, rfl⟩
abbrev main_call7_v10 : Ref sig .tc := ⟨.hbm, 230, rfl⟩
abbrev main_call7_v11 : Ref sig .tc := ⟨.hbm, 231, rfl⟩
abbrev main_call7_v12 : Ref sig .tc := ⟨.hbm, 232, rfl⟩
abbrev main_call7_v13 : Ref sig .tc := ⟨.hbm, 233, rfl⟩
abbrev main_call7_v14 : Ref sig .tc := ⟨.hbm, 234, rfl⟩
abbrev main_v119 : Ref sig .tc := ⟨.hbm, 235, rfl⟩
abbrev main_c_33 : Ref sig .tc := ⟨.hbm, 236, rfl⟩
abbrev main_v120 : Ref sig .tc := ⟨.hbm, 237, rfl⟩
abbrev main_v121 : Ref sig .tc := ⟨.hbm, 238, rfl⟩
abbrev main_c_34 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_c_35 : Ref sig .tc := ⟨.hbm, 243, rfl⟩
abbrev main_v125 : Ref sig .tc := ⟨.hbm, 244, rfl⟩
abbrev main_v126 : Ref sig .tc := ⟨.hbm, 245, rfl⟩
abbrev main_c_36 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_c_37 : Ref sig .tc := ⟨.hbm, 255, rfl⟩
abbrev main_v135 : Ref sig .tc := ⟨.hbm, 256, rfl⟩
abbrev main_v136 : Ref sig .tc := ⟨.hbm, 257, rfl⟩
abbrev main_c_38 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_cst_39 : Ref sig .tc := ⟨.hbm, 266, rfl⟩
abbrev main_v144 : Ref sig .tc := ⟨.hbm, 267, rfl⟩
abbrev main_v145 : Ref sig .tc := ⟨.hbm, 268, rfl⟩
abbrev main_v104 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![136], ![false]⟩

abbrev pre0 : Pipeline.Prefetch sig := ⟨1, ![main_v104.idx], fun | 0 => main_v104.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sge v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32 : BitVec 32 := 0#32
  let v2 : BitVec 1 := Scalar.cmpi .sge v1 c0_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x512_S32768x512 : S8x4096x512.ShapeCasts S32768x512
  shapeCasts_S8x4096x2_S32768x2 : S8x4096x2.ShapeCasts S32768x2
  shapeCasts_S32768x2_S65536 : S32768x2.ShapeCasts S65536
  bcast_S32768_S32768x2_0 : S32768.BroadcastsInDim S32768x2 (![0] : Fin 1 → Fin S32768x2.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S69632 : S_.BroadcastsInDim S69632 (![] : Fin 0 → Fin S69632.rank)
  shapeCasts_S69632_S69632x1 : S69632.ShapeCasts S69632x1
  bcast_S136_S136x1_0 : S136.BroadcastsInDim S136x1 (![0] : Fin 1 → Fin S136x1.rank)
  bcast_S8_S1x8_1 : S8.BroadcastsInDim S1x8 (![1] : Fin 1 → Fin S1x8.rank)
  bcast_S136x1_S136x8_0_1 : S136x1.BroadcastsInDim S136x8 (![0, 1] : Fin 2 → Fin S136x8.rank)
  bcast_S1x8_S136x8_0_1 : S1x8.BroadcastsInDim S136x8 (![0, 1] : Fin 2 → Fin S136x8.rank)
  natLt_1_32 : 1 < 32
  reducesTo_S136x8_S136_d1 : S136x8.ReducesTo [1] S136
  bcast_S_S136 : S_.BroadcastsInDim S136 (![] : Fin 0 → Fin S136.rank)
  bitsLt_bf16_f32 : FTy.bits .bf16 < FTy.bits .f32
  bcast_S69632_S69632x1_0 : S69632.BroadcastsInDim S69632x1 (![0] : Fin 1 → Fin S69632x1.rank)
  shapeCasts_S8x2048_S8x1x2048 : S8x2048.ShapeCasts S8x1x2048
  shapeCasts_S8x512_S8x1x512 : S8x512.ShapeCasts S8x1x512
  numel1_S1 : S1.numel = 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x2048_S512x2048 : S1x2048.Broadcasts S512x2048
  broadcasts_S1x512_S512x512 : S1x512.Broadcasts S512x512
  broadcasts_S512x1_S512x512 : S512x1.Broadcasts S512x512
  packedbf16_S512x512_S512x512_0_0 : (Rect.unit (s := S512x512) ![0, 0] S512x512.size inb_S512x512_S512x512_0_0).PackedRows (EltTy.packing .bf16)
  bcast_S_S32768x2 : S_.BroadcastsInDim S32768x2 (![] : Fin 0 → Fin S32768x2.rank)
  concatenates_S65536x1_S65536x1_S65536x2_d1 : Shape.Concatenates [S65536x1, S65536x1] S65536x2 1
  shapeCasts_S65536x512_S32768x2x512 : S65536x512.ShapeCasts S32768x2x512
  reducesTo_S32768x2x512_S32768x512_d1 : S32768x2x512.ReducesTo [1] S32768x512
  shapeCasts_S32768x512_S8x4096x512 : S32768x512.ShapeCasts S8x4096x512
  gather_S65536_S65536x1_S65536_n_0_n_n_0_1_1_wf : GatherDims.WF S65536 S65536x1 S65536 [] [0] [] [0] [] 1 ![1]
  scatter_S8_S65536x1_S65536_n_0_0_1_wf : ScatterDims.WF S8 S65536x1 S65536 [] [0] [0] 1
  gather_S8_S65536x1_S65536_n_0_n_n_0_1_1_wf : GatherDims.WF S8 S65536x1 S65536 [] [0] [] [0] [] 1 ![1]
  scatter_S69632_S65536x1_S65536_n_0_0_1_wf : ScatterDims.WF S69632 S65536x1 S65536 [] [0] [0] 1
  gather_S32768x512_S69632x1_S69632x512_1_0_n_n_0_1_1512_wf : GatherDims.WF S32768x512 S69632x1 S69632x512 [1] [0] [] [0] [] 1 ![1, 512]
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  scatter_S32768x2_S65536x2_S65536_n_01_01_1_wf : ScatterDims.WF S32768x2 S65536x2 S65536 [] [0, 1] [0, 1] 1
  gather_S69632x512_S65536x1_S65536x512_1_0_n_n_0_1_1512_wf : GatherDims.WF S69632x512 S65536x1 S65536x512 [1] [0] [] [0] [] 1 ![1, 512]
  hrank0 : 0 < grid0.rank
  k0_off1_inb : ∀ i : grid0.Coords, ∀ a, (k0_off1 i) a + S1.size a ≤ S136.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S69632x512.size a
  hwx0_0 : ∀ i : grid0.Coords, EltTy.bits .bf16 = 32 ∨ (Rect.block (s := S69632x512) S512x512.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S69632x1.size a
  hwx0_5 : ∀ i : grid0.Coords, EltTy.bits .f32 = 32 ∨ (Rect.block (s := S69632x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S69632x512.size a
  hwx0_6 : ∀ i : grid0.Coords, EltTy.bits .bf16 = 32 ∨ (Rect.block (s := S69632x512) S512x512.size (cc0_transform_6 i) (hinb0_6 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S65536_S65536x1_S65536_n_0_n_n_0_1_1 : GatherDims S65536 S65536x1 S65536 where
  offsetDims := []
  collapsedSliceDims := [0]
  operandBatchingDims := []
  startIndicesBatchingDims := []
  startIndexMap := [0]
  indexVectorDim := 1
  sliceSizes := ![1]
  wf := gather_S65536_S65536x1_S65536_n_0_n_n_0_1_1_wf
def scatter_S8_S65536x1_S65536_n_0_0_1 : ScatterDims S8 S65536x1 S65536 where
  updateWindowDims := []
  insertedWindowDims := [0]
  scatterDimsToOperandDims := [0]
  indexVectorDim := 1
  wf := scatter_S8_S65536x1_S65536_n_0_0_1_wf
def gather_S8_S65536x1_S65536_n_0_n_n_0_1_1 : GatherDims S8 S65536x1 S65536 where
  offsetDims := []
  collapsedSliceDims := [0]
  operandBatchingDims := []
  startIndicesBatchingDims := []
  startIndexMap := [0]
  indexVectorDim := 1
  sliceSizes := ![1]
  wf := gather_S8_S65536x1_S65536_n_0_n_n_0_1_1_wf
def scatter_S69632_S65536x1_S65536_n_0_0_1 : ScatterDims S69632 S65536x1 S65536 where
  updateWindowDims := []
  insertedWindowDims := [0]
  scatterDimsToOperandDims := [0]
  indexVectorDim := 1
  wf := scatter_S69632_S65536x1_S65536_n_0_0_1_wf
def gather_S32768x512_S69632x1_S69632x512_1_0_n_n_0_1_1512 : GatherDims S32768x512 S69632x1 S69632x512 where
  offsetDims := [1]
  collapsedSliceDims := [0]
  operandBatchingDims := []
  startIndicesBatchingDims := []
  startIndexMap := [0]
  indexVectorDim := 1
  sliceSizes := ![1, 512]
  wf := gather_S32768x512_S69632x1_S69632x512_1_0_n_n_0_1_1512_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def scatter_S32768x2_S65536x2_S65536_n_01_01_1 : ScatterDims S32768x2 S65536x2 S65536 where
  updateWindowDims := []
  insertedWindowDims := [0, 1]
  scatterDimsToOperandDims := [0, 1]
  indexVectorDim := 1
  wf := scatter_S32768x2_S65536x2_S65536_n_01_01_1_wf
def gather_S69632x512_S65536x1_S65536x512_1_0_n_n_0_1_1512 : GatherDims S69632x512 S65536x1 S65536x512 where
  offsetDims := [1]
  collapsedSliceDims := [0]
  operandBatchingDims := []
  startIndicesBatchingDims := []
  startIndexMap := [0]
  indexVectorDim := 1
  sliceSizes := ![1, 512]
  wf := gather_S69632x512_S65536x1_S65536x512_1_0_n_n_0_1_1512_wf

abbrev spec0_0 : Pipeline.WinSpec sig grid0.rank :=
  Pipeline.WinSpec.ofSpec (Memref.whole main_v112) S512x512.size reads0_0 false false 2 stage0_0 sem0_0 nbuf0_0 hstage0_0

abbrev spec0_1 : Pipeline.WinSpec sig grid0.rank :=
  Pipeline.WinSpec.ofSpec (Memref.whole main_v113) S1x512x2048.size reads0_1 false false 2 stage0_1 sem0_1 nbuf0_1 hstage0_1

abbrev spec0_2 : Pipeline.WinSpec sig grid0.rank :=
  Pipeline.WinSpec.ofSpec (Memref.whole main_v115) S1x1x2048.size reads0_2 false false 2 stage0_2 sem0_2 nbuf0_2 hstage0_2

abbrev spec0_3 : Pipeline.WinSpec sig grid0.rank :=
  Pipeline.WinSpec.ofSpec (Memref.whole main_v114) S1x2048x512.size reads0_3 false false 2 stage0_3 sem0_3 nbuf0_3 hstage0_3

abbrev spec0_4 : Pipeline.WinSpec sig grid0.rank :=
  Pipeline.WinSpec.ofSpec (Memref.whole main_v116) S1x1x512.size reads0_4 false false 2 stage0_4 sem0_4 nbuf0_4 hstage0_4

abbrev spec0_5 : Pipeline.WinSpec sig grid0.rank :=
  Pipeline.WinSpec.ofSpec (Memref.whole main_v82) S512x1.size reads0_5 false false 2 stage0_5 sem0_5 nbuf0_5 hstage0_5

abbrev spec0_6 : Pipeline.WinSpec sig grid0.rank :=
  Pipeline.WinSpec.ofSpec (Memref.whole main_v117) S512x512.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x2048.size a ≤ S8x512x2048.size a), EltTy.bits .bf16 = 32 ∨ (Rect.block (s := S8x512x2048) S1x512x2048.size (cc0_transform_1 k0_off1_inb numel1_S1 pf i) h).WholeWords (EltTy.packing .bf16)) ∧
  (∀ i : grid0.Coords, ∃ h : (∀ a, (cc0_transform_2 k0_off1_inb numel1_S1 pf i a + 1) * S1x1x2048.size a ≤ S8x1x2048.size a), EltTy.bits .f32 = 32 ∨ (Rect.block (s := S8x1x2048) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x2048x512.size a ≤ S8x2048x512.size a), EltTy.bits .bf16 = 32 ∨ (Rect.block (s := S8x2048x512) S1x2048x512.size (cc0_transform_3 k0_off1_inb numel1_S1 pf i) h).WholeWords (EltTy.packing .bf16)) ∧
  (∀ i : grid0.Coords, ∃ h : (∀ a, (cc0_transform_4 k0_off1_inb numel1_S1 pf i a + 1) * S1x1x512.size a ≤ S8x1x512.size a), EltTy.bits .f32 = 32 ∨ (Rect.block (s := S8x1x512) S1x1x512.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | 6 => hwx0_6 | ⟨_ + 7, h⟩ => absurd h (Nat.not_lt.2 (Nat.le_add_left _ _))
abbrev idle0 (pf : pre0.Contents (Elt F)) : Fin 7 → grid0.Coords → Bool := fun | 0 => fun _ => false | 1 => fun _ => false | 2 => fun _ => false | 3 => fun _ => false | 4 => fun _ => false | 5 => fun _ => false | 6 => fun i => !(k0_cond1 (pf.atD 0 (k0_off1 i)) == 1#1) && !(k0_cond2 (pf.atD 0 (k0_off1 i)) == 1#1) | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S8x4096x512 : Shape := ⟨3, ![8, 4096, 512]⟩
abbrev S8x4096x2 : Shape := ⟨3, ![8, 4096, 2]⟩
abbrev S8x512x2048 : Shape := ⟨3, ![8, 512, 2048]⟩
abbrev S8x2048 : Shape := ⟨2, ![8, 2048]⟩
abbrev S8x2048x512 : Shape := ⟨3, ![8, 2048, 512]⟩
abbrev S8x512 : Shape := ⟨2, ![8, 512]⟩
abbrev S32768x512 : Shape := ⟨2, ![32768, 512]⟩
abbrev S32768x2 : Shape := ⟨2, ![32768, 2]⟩
abbrev S_ : Shape := ⟨0, ![]⟩
abbrev S32768 : Shape := ⟨1, ![32768]⟩
abbrev S1x512x2048 : Shape := ⟨3, ![1, 512, 2048]⟩
abbrev S512x2048 : Shape := ⟨2, ![512, 2048]⟩
abbrev S32768x2048 : Shape := ⟨2, ![32768, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S1x512 : Shape := ⟨2, ![1, 512]⟩
abbrev S512 : Shape := ⟨1, ![512]⟩
abbrev S32768x1 : Shape := ⟨2, ![32768, 1]⟩

abbrev nBuf : Space → Nat
  | .hbm => 275
  | .vmem => 0
  | .smem => 0
  | _ => 0

abbrev hbmTy0_0 (i : Nat) : BufTy := match i % 128 with
  | 0 => ⟨S8x4096x512, .f32⟩
  | 1 => ⟨S8x4096x2, .i32⟩
  | 2 => ⟨S8x512x2048, .f32⟩
  | 3 => ⟨S8x2048, .f32⟩
  | 4 => ⟨S8x2048x512, .f32⟩
  | 5 => ⟨S8x512, .f32⟩
  | 6 => ⟨S32768x512, .f32⟩
  | 7 => ⟨S32768x2, .i32⟩
  | 8 => ⟨S_, .f32⟩
  | 9 => ⟨S32768x512, .f32⟩
  | 10 => ⟨S_, .i32⟩
  | 11 => ⟨S32768x2, .i32⟩
  | 12 => ⟨S32768x2, .i1⟩
  | 13 => ⟨S32768x2, .i32⟩
  | 14 => ⟨S_, .i32⟩
  | 15 => ⟨S32768, .i32⟩
  | 16 => ⟨S32768, .f32⟩
  | 17 => ⟨S_, .f32⟩
  | 18 => ⟨S32768, .f32⟩
  | 19 => ⟨S32768, .f32⟩
  | 20 => ⟨S1x512x2048, .f32⟩
  | 21 => ⟨S512x2048, .f32⟩
  | 22 => ⟨S32768x2048, .f32⟩
  | 23 => ⟨S1x2048, .f32⟩
  | 24 => ⟨S2048, .f32⟩
  | 25 => ⟨S1x2048, .f32⟩
  | 26 => ⟨S32768x2048, .f32⟩
  | 27 => ⟨S32768x2048, .f32⟩
  | 28 => ⟨S_, .f32⟩
  | 29 => ⟨S32768x2048, .f32⟩
  | 30 => ⟨S32768x2048, .f32⟩
  | 31 => ⟨S1x2048x512, .f32⟩
  | 32 => ⟨S2048x512, .f32⟩
  | 33 => ⟨S32768x512, .f32⟩
  | 34 => ⟨S1x512, .f32⟩
  | 35 => ⟨S512, .f32⟩
  | 36 => ⟨S1x512, .f32⟩
  | 37 => ⟨S32768x512, .f32⟩
  | 38 => ⟨S32768x512, .f32⟩
  | 39 => ⟨S32768x1, .f32⟩
  | 40 => ⟨S32768x512, .f32⟩
  | 41 => ⟨S32768x512, .f32⟩
  | 42 => ⟨S32768x512, .f32⟩
  | 43 => ⟨S_, .i32⟩
  | 44 => ⟨S32768x2, .i32⟩
  | 45 => ⟨S32768x2, .i1⟩
  | 46 => ⟨S32768x2, .i32⟩
  | 47 => ⟨S_, .i32⟩
  | 48 => ⟨S32768, .i32⟩
  | 49 => ⟨S32768, .f32⟩
  | 50 => ⟨S_, .f32⟩
  | 51 => ⟨S32768, .f32⟩
  | 52 => ⟨S32768, .f32⟩
  | 53 => ⟨S1x512x2048, .f32⟩
  | 54 => ⟨S512x2048, .f32⟩
  | 55 => ⟨S32768x2048, .f32⟩
  | 56 => ⟨S1x2048, .f32⟩
  | 57 => ⟨S2048, .f32⟩
  | 58 => ⟨S1x2048, .f32⟩
  | 59 => ⟨S32768x2048, .f32⟩
  | 60 => ⟨S32768x2048, .f32⟩
  | 61 => ⟨S_, .f32⟩
  | 62 => ⟨S32768x2048, .f32⟩
  | 63 => ⟨S32768x2048, .f32⟩
  | 64 => ⟨S1x2048x512, .f32⟩
  | 65 => ⟨S2048x512, .f32⟩
  | 66 => ⟨S32768x512, .f32⟩
  | 67 => ⟨S1x512, .f32⟩
  | 68 => ⟨S512, .f32⟩
  | 69 => ⟨S1x512, .f32⟩
  | 70 => ⟨S32768x512, .f32⟩
  | 71 => ⟨S32768x512, .f32⟩
  | 72 => ⟨S32768x1, .f32⟩
  | 73 => ⟨S32768x512, .f32⟩
  | 74 => ⟨S32768x512, .f32⟩
  | 75 => ⟨S32768x512, .f32⟩
  | 76 => ⟨S_, .i32⟩
  | 77 => ⟨S32768x2, .i32⟩
  | 78 => ⟨S32768x2, .i1⟩
  | 79 => ⟨S32768x2, .i32⟩
  | 80 => ⟨S_, .i32⟩
  | 81 => ⟨S32768, .i32⟩
  | 82 => ⟨S32768, .f32⟩
  | 83 => ⟨S_, .f32⟩
  | 84 => ⟨S32768, .f32⟩
  | 85 => ⟨S32768, .f32⟩
  | 86 => ⟨S1x512x2048, .f32⟩
  | 87 => ⟨S512x2048, .f32⟩
  | 88 => ⟨S32768x2048, .f32⟩
  | 89 => ⟨S1x2048, .f32⟩
  | 90 => ⟨S2048, .f32⟩
  | 91 => ⟨S1x2048, .f32⟩
  | 92 => ⟨S32768x2048, .f32⟩
  | 93 => ⟨S32768x2048, .f32⟩
  | 94 => ⟨S_, .f32⟩
  | 95 => ⟨S32768x2048, .f32⟩
  | 96 => ⟨S32768x2048, .f32⟩
  | 97 => ⟨S1x2048x512, .f32⟩
  | 98 => ⟨S2048x512, .f32⟩
  | 99 => ⟨S32768x512, .f32⟩
  | 100 => ⟨S1x512, .f32⟩
  | 101 => ⟨S512, .f32⟩
  | 102 => ⟨S1x512, .f32⟩
  | 103 => ⟨S32768x512, .f32⟩
  | 104 => ⟨S32768x512, .f32⟩
  | 105 => ⟨S32768x1, .f32⟩
  | 106 => ⟨S32768x512, .f32⟩
  | 107 => ⟨S32768x512, .f32⟩
  | 108 => ⟨S32768x512, .f32⟩
  | 109 => ⟨S_, .i32⟩
  | 110 => ⟨S32768x2, .i32⟩
  | 111 => ⟨S32768x2, .i1⟩
  | 112 => ⟨S32768x2, .i32⟩
  | 113 => ⟨S_, .i32⟩
  | 114 => ⟨S32768, .i32⟩
  | 115 => ⟨S32768, .f32⟩
  | 116 => ⟨S_, .f32⟩
  | 117 => ⟨S32768, .f32⟩
  | 118 => ⟨S32768, .f32⟩
  | 119 => ⟨S1x512x2048, .f32⟩
  | 120 => ⟨S512x2048, .f32⟩
  | 121 => ⟨S32768x2048, .f32⟩
  | 122 => ⟨S1x2048, .f32⟩
  | 123 => ⟨S2048, .f32⟩
  | 124 => ⟨S1x2048, .f32⟩
  | 125 => ⟨S32768x2048, .f32⟩
  | 126 => ⟨S32768x2048, .f32⟩
  | 127 => ⟨S_, .f32⟩
  | _ => ⟨S8x4096x512, .f32⟩

abbrev hbmTy0_1 (i : Nat) : BufTy := match i % 128 with
  | 0 => ⟨S32768x2048, .f32⟩
  | 1 => ⟨S32768x2048, .f32⟩
  | 2 => ⟨S1x2048x512, .f32⟩
  | 3 => ⟨S2048x512, .f32⟩
  | 4 => ⟨S32768x512, .f32⟩
  | 5 => ⟨S1x512, .f32⟩
  | 6 => ⟨S512, .f32⟩
  | 7 => ⟨S1x512, .f32⟩
  | 8 => ⟨S32768x512, .f32⟩
  | 9 => ⟨S32768x512, .f32⟩
  | 10 => ⟨S32768x1, .f32⟩
  | 11 => ⟨S32768x512, .f32⟩
  | 12 => ⟨S32768x512, .f32⟩
  | 13 => ⟨S32768x512, .f32⟩
  | 14 => ⟨S_, .i32⟩
  | 15 => ⟨S32768x2, .i32⟩
  | 16 => ⟨S32768x2, .i1⟩
  | 17 => ⟨S32768x2, .i32⟩
  | 18 => ⟨S_, .i32⟩
  | 19 => ⟨S32768, .i32⟩
  | 20 => ⟨S32768, .f32⟩
  | 21 => ⟨S_, .f32⟩
  | 22 => ⟨S32768, .f32⟩
  | 23 => ⟨S32768, .f32⟩
  | 24 => ⟨S1x512x2048, .f32⟩
  | 25 => ⟨S512x2048, .f32⟩
  | 26 => ⟨S32768x2048, .f32⟩
  | 27 => ⟨S1x2048, .f32⟩
  | 28 => ⟨S2048, .f32⟩
  | 29 => ⟨S1x2048, .f32⟩
  | 30 => ⟨S32768x2048, .f32⟩
  | 31 => ⟨S32768x2048, .f32⟩
  | 32 => ⟨S_, .f32⟩
  | 33 => ⟨S32768x2048, .f32⟩
  | 34 => ⟨S32768x2048, .f32⟩
  | 35 => ⟨S1x2048x512, .f32⟩
  | 36 => ⟨S2048x512, .f32⟩
  | 37 => ⟨S32768x512, .f32⟩
  | 38 => ⟨S1x512, .f32⟩
  | 39 => ⟨S512, .f32⟩
  | 40 => ⟨S1x512, .f32⟩
  | 41 => ⟨S32768x512, .f32⟩
  | 42 => ⟨S32768x512, .f32⟩
  | 43 => ⟨S32768x1, .f32⟩
  | 44 => ⟨S32768x512, .f32⟩
  | 45 => ⟨S32768x512, .f32⟩
  | 46 => ⟨S32768x512, .f32⟩
  | 47 => ⟨S_, .i32⟩
  | 48 => ⟨S32768x2, .i32⟩
  | 49 => ⟨S32768x2, .i1⟩
  | 50 => ⟨S32768x2, .i32⟩
  | 51 => ⟨S_, .i32⟩
  | 52 => ⟨S32768, .i32⟩
  | 53 => ⟨S32768, .f32⟩
  | 54 => ⟨S_, .f32⟩
  | 55 => ⟨S32768, .f32⟩
  | 56 => ⟨S32768, .f32⟩
  | 57 => ⟨S1x512x2048, .f32⟩
  | 58 => ⟨S512x2048, .f32⟩
  | 59 => ⟨S32768x2048, .f32⟩
  | 60 => ⟨S1x2048, .f32⟩
  | 61 => ⟨S2048, .f32⟩
  | 62 => ⟨S1x2048, .f32⟩
  | 63 => ⟨S32768x2048, .f32⟩
  | 64 => ⟨S32768x2048, .f32⟩
  | 65 => ⟨S_, .f32⟩
  | 66 => ⟨S32768x2048, .f32⟩
  | 67 => ⟨S32768x2048, .f32⟩
  | 68 => ⟨S1x2048x512, .f32⟩
  | 69 => ⟨S2048x512, .f32⟩
  | 70 => ⟨S32768x512, .f32⟩
  | 71 => ⟨S1x512, .f32⟩
  | 72 => ⟨S512, .f32⟩
  | 73 => ⟨S1x512, .f32⟩
  | 74 => ⟨S32768x512, .f32⟩
  | 75 => ⟨S32768x512, .f32⟩
  | 76 => ⟨S32768x1, .f32⟩
  | 77 => ⟨S32768x512, .f32⟩
  | 78 => ⟨S32768x512, .f32⟩
  | 79 => ⟨S32768x512, .f32⟩
  | 80 => ⟨S_, .i32⟩
  | 81 => ⟨S32768x2, .i32⟩
  | 82 => ⟨S32768x2, .i1⟩
  | 83 => ⟨S32768x2, .i32⟩
  | 84 => ⟨S_, .i32⟩
  | 85 => ⟨S32768, .i32⟩
  | 86 => ⟨S32768, .f32⟩
  | 87 => ⟨S_, .f32⟩
  | 88 => ⟨S32768, .f32⟩
  | 89 => ⟨S32768, .f32⟩
  | 90 => ⟨S1x512x2048, .f32⟩
  | 91 => ⟨S512x2048, .f32⟩
  | 92 => ⟨S32768x2048, .f32⟩
  | 93 => ⟨S1x2048, .f32⟩
  | 94 => ⟨S2048, .f32⟩
  | 95 => ⟨S1x2048, .f32⟩
  | 96 => ⟨S32768x2048, .f32⟩
  | 97 => ⟨S32768x2048, .f32⟩
  | 98 => ⟨S_, .f32⟩
  | 99 => ⟨S32768x2048, .f32⟩
  | 100 => ⟨S32768x2048, .f32⟩
  | 101 => ⟨S1x2048x512, .f32⟩
  | 102 => ⟨S2048x512, .f32⟩
  | 103 => ⟨S32768x512, .f32⟩
  | 104 => ⟨S1x512, .f32⟩
  | 105 => ⟨S512, .f32⟩
  | 106 => ⟨S1x512, .f32⟩
  | 107 => ⟨S32768x512, .f32⟩
  | 108 => ⟨S32768x512, .f32⟩
  | 109 => ⟨S32768x1, .f32⟩
  | 110 => ⟨S32768x512, .f32⟩
  | 111 => ⟨S32768x512, .f32⟩
  | 112 => ⟨S32768x512, .f32⟩
  | 113 => ⟨S_, .i32⟩
  | 114 => ⟨S32768x2, .i32⟩
  | 115 => ⟨S32768x2, .i1⟩
  | 116 => ⟨S32768x2, .i32⟩
  | 117 => ⟨S_, .i32⟩
  | 118 => ⟨S32768, .i32⟩
  | 119 => ⟨S32768, .f32⟩
  | 120 => ⟨S_, .f32⟩
  | 121 => ⟨S32768, .f32⟩
  | 122 => ⟨S32768, .f32⟩
  | 123 => ⟨S1x512x2048, .f32⟩
  | 124 => ⟨S512x2048, .f32⟩
  | 125 => ⟨S32768x2048, .f32⟩
  | 126 => ⟨S1x2048, .f32⟩
  | 127 => ⟨S2048, .f32⟩
  | _ => ⟨S8x4096x512, .f32⟩

abbrev hbmTy0_2 (i : Nat) : BufTy := match i % 128 with
  | 0 => ⟨S1x2048, .f32⟩
  | 1 => ⟨S32768x2048, .f32⟩
  | 2 => ⟨S32768x2048, .f32⟩
  | 3 => ⟨S_, .f32⟩
  | 4 => ⟨S32768x2048, .f32⟩
  | 5 => ⟨S32768x2048, .f32⟩
  | 6 => ⟨S1x2048x512, .f32⟩
  | 7 => ⟨S2048x512, .f32⟩
  | 8 => ⟨S32768x512, .f32⟩
  | 9 => ⟨S1x512, .f32⟩
  | 10 => ⟨S512, .f32⟩
  | 11 => ⟨S1x512, .f32⟩
  | 12 => ⟨S32768x512, .f32⟩
  | 13 => ⟨S32768x512, .f32⟩
  | 14 => ⟨S32768x1, .f32⟩
  | 15 => ⟨S32768x512, .f32⟩
  | 16 => ⟨S32768x512, .f32⟩
  | 17 => ⟨S32768x512, .f32⟩
  | 18 => ⟨S8x4096x512, .f32⟩
  | _ => ⟨S8x4096x512, .f32⟩

abbrev hbmTy (i : Nat) : BufTy := match i / 128 with
  | 0 => hbmTy0_0 i
  | 1 => hbmTy0_1 i
  | 2 => hbmTy0_2 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_6 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_call2_cst : Ref sig .tc := ⟨.hbm, 94, rfl⟩
abbrev main_call2_v0 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_8 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_9 : Ref sig .tc := ⟨.hbm, 113, rfl⟩
abbrev main_v90 : Ref sig .tc := ⟨.hbm, 114, rfl⟩
abbrev main_v91 : Ref sig .tc := ⟨.hbm, 115, rfl⟩
abbrev main_cst_10 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_call3_cst : Ref sig .tc := ⟨.hbm, 127, rfl⟩
abbrev main_call3_v0 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_c_11 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_c_12 : Ref sig .tc := ⟨.hbm, 146, rfl⟩
abbrev main_v118 : Ref sig .tc := ⟨.hbm, 147, rfl⟩
abbrev main_v119 : Ref sig .tc := ⟨.hbm, 148, rfl⟩
abbrev main_cst_13 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_call4_cst : Ref sig .tc := ⟨.hbm, 160, rfl⟩
abbrev main_call4_v0 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_c_14 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_c_15 : Ref sig .tc := ⟨.hbm, 179, rfl⟩
abbrev main_v146 : Ref sig .tc := ⟨.hbm, 180, rfl⟩
abbrev main_v147 : Ref sig .tc := ⟨.hbm, 181, rfl⟩
abbrev main_cst_16 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_call5_cst : Ref sig .tc := ⟨.hbm, 193, rfl⟩
abbrev main_call5_v0 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_c_17 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_c_18 : Ref sig .tc := ⟨.hbm, 212, rfl⟩
abbrev main_v174 : Ref sig .tc := ⟨.hbm, 213, rfl⟩
abbrev main_v175 : Ref sig .tc := ⟨.hbm, 214, rfl⟩
abbrev main_cst_19 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_call6_cst : Ref sig .tc := ⟨.hbm, 226, rfl⟩
abbrev main_call6_v0 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_c_20 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_c_21 : Ref sig .tc := ⟨.hbm, 245, rfl⟩
abbrev main_v202 : Ref sig .tc := ⟨.hbm, 246, rfl⟩
abbrev main_v203 : Ref sig .tc := ⟨.hbm, 247, rfl⟩
abbrev main_cst_22 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_call7_cst : Ref sig .tc := ⟨.hbm, 259, rfl⟩
abbrev main_call7_v0 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩

abbrev nD : Nat := 1
abbrev τ : Topo := Topo.v7x

variable {F : FTy → Type} [FloatOps F]

class Facts₀ : Prop where
  shapeCasts_S8x4096x512_S32768x512 : S8x4096x512.ShapeCasts S32768x512
  shapeCasts_S8x4096x2_S32768x2 : S8x4096x2.ShapeCasts S32768x2
  bcast_S_S32768x512 : S_.BroadcastsInDim S32768x512 (![] : Fin 0 → Fin S32768x512.rank)
  bcast_S_S32768x2 : S_.BroadcastsInDim S32768x2 (![] : Fin 0 → Fin S32768x2.rank)
  natLt_1_32 : 1 < 32
  reducesTo_S32768x2_S32768_d1 : S32768x2.ReducesTo [1] S32768
  h_S_ : 0 < S_.numel
  bcast_S_S32768 : S_.BroadcastsInDim S32768 (![] : Fin 0 → Fin S32768.rank)
  slices_S8x512x2048_S1x512x2048_0_0_0 : S8x512x2048.Slices ![0, 0, 0] S1x512x2048
  shapeCasts_S1x512x2048_S512x2048 : S1x512x2048.ShapeCasts S512x2048
  slices_S8x2048_S1x2048_0_0 : S8x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  slices_S8x2048x512_S1x2048x512_0_0_0 : S8x2048x512.Slices ![0, 0, 0] S1x2048x512
  shapeCasts_S1x2048x512_S2048x512 : S1x2048x512.ShapeCasts S2048x512
  slices_S8x512_S1x512_0_0 : S8x512.Slices ![0, 0] S1x512
  shapeCasts_S1x512_S512 : S1x512.ShapeCasts S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S32768_S32768x1_0 : S32768.BroadcastsInDim S32768x1 (![0] : Fin 1 → Fin S32768x1.rank)
  bcast_S32768x1_S32768x512_0_1 : S32768x1.BroadcastsInDim S32768x512 (![0, 1] : Fin 2 → Fin S32768x512.rank)
  slices_S8x512x2048_S1x512x2048_1_0_0 : S8x512x2048.Slices ![1, 0, 0] S1x512x2048
  slices_S8x2048_S1x2048_1_0 : S8x2048.Slices ![1, 0] S1x2048
  slices_S8x2048x512_S1x2048x512_1_0_0 : S8x2048x512.Slices ![1, 0, 0] S1x2048x512
  slices_S8x512_S1x512_1_0 : S8x512.Slices ![1, 0] S1x512
  slices_S8x512x2048_S1x512x2048_2_0_0 : S8x512x2048.Slices ![2, 0, 0] S1x512x2048
  slices_S8x2048_S1x2048_2_0 : S8x2048.Slices ![2, 0] S1x2048
  slices_S8x2048x512_S1x2048x512_2_0_0 : S8x2048x512.Slices ![2, 0, 0] S1x2048x512
  slices_S8x512_S1x512_2_0 : S8x512.Slices ![2, 0] S1x512
  slices_S8x512x2048_S1x512x2048_3_0_0 : S8x512x2048.Slices ![3, 0, 0] S1x512x2048
  slices_S8x2048_S1x2048_3_0 : S8x2048.Slices ![3, 0] S1x2048
  slices_S8x2048x512_S1x2048x512_3_0_0 : S8x2048x512.Slices ![3, 0, 0] S1x2048x512
  slices_S8x512_S1x512_3_0 : S8x512.Slices ![3, 0] S1x512
  slices_S8x512x2048_S1x512x2048_4_0_0 : S8x512x2048.Slices ![4, 0, 0] S1x512x2048
  slices_S8x2048_S1x2048_4_0 : S8x2048.Slices ![4, 0] S1x2048
  slices_S8x2048x512_S1x2048x512_4_0_0 : S8x2048x512.Slices ![4, 0, 0] S1x2048x512
  slices_S8x512_S1x512_4_0 : S8x512.Slices ![4, 0] S1x512
  slices_S8x512x2048_S1x512x2048_5_0_0 : S8x512x2048.Slices ![5, 0, 0] S1x512x2048
  slices_S8x2048_S1x2048_5_0 : S8x2048.Slices ![5, 0] S1x2048
  slices_S8x2048x512_S1x2048x512_5_0_0 : S8x2048x512.Slices ![5, 0, 0] S1x2048x512
  slices_S8x512_S1x512_5_0 : S8x512.Slices ![5, 0] S1x512
  slices_S8x512x2048_S1x512x2048_6_0_0 : S8x512x2048.Slices ![6, 0, 0] S1x512x2048
  slices_S8x2048_S1x2048_6_0 : S8x2048.Slices ![6, 0] S1x2048
  slices_S8x2048x512_S1x2048x512_6_0_0 : S8x2048x512.Slices ![6, 0, 0] S1x2048x512
  slices_S8x512_S1x512_6_0 : S8x512.Slices ![6, 0] S1x512
  slices_S8x512x2048_S1x512x2048_7_0_0 : S8x512x2048.Slices ![7, 0, 0] S1x512x2048
  slices_S8x2048_S1x2048_7_0 : S8x2048.Slices ![7, 0] S1x2048
  slices_S8x2048x512_S1x2048x512_7_0_0 : S8x2048x512.Slices ![7, 0, 0] S1x2048x512
  slices_S8x512_S1x512_7_0 : S8x512.Slices ![7, 0] S1x512
  shapeCasts_S32768x512_S8x4096x512 : S32768x512.ShapeCasts S8x4096x512
  dot_S32768x512_S512x2048_S32768x2048_1_0_0_1_n_n_wf : DotDims.WF S32768x512 S512x2048 S32768x2048 [1] [0] [0] [1] [] []
  dot_S32768x2048_S2048x512_S32768x512_1_0_0_1_n_n_wf : DotDims.WF S32768x2048 S2048x512 S32768x512 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x2048_S2048x512_S32768x512_1_0_0_1_n_n : DotDims S32768x2048 S2048x512 S32768x512 where
  lhsContracting := [1]
  rhsContracting := [0]
  lhsNonContracting := [0]
  rhsNonContracting := [1]
  lhsBatch := []
  rhsBatch := []
  wf := dot_S32768x2048_S2048x512_S32768x512_1_0_0_1_n_n_wf

class Facts : Prop extends Facts₀ where

variable [Facts]
-- ==== Proof.EntryBits.lean ====
/-
  The program around its one region: the host lines before it, what the buffers hold when the region is entered,
  the table of tile experts the region prefetches, and the pipeline at that table's contents.
-/
import proofs.«423054_j31275951850054_3_alg».proof.Proof.Gen.Kernel.Launch
import proofs.«423054_j31275951850054_3_alg».proof.Proof.Gen.Kernel.Skeleton
import Idealize.ShloMosaic.Lib.Pipeline.FrameSuffix
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- The stretches of host operations before the region, in order (a called function's operations a stretch of their own). -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]
/-- The stretches after it. -/
abbrev postOps : List (List (HloOp τ sig (Elt F))) := [hostOps1, hostOps1_1, hostOps1_2]

/-- Core `c`'s buffers when the region is entered: the lines before it have run on the launch memory. -/
abbrev V₀ (c : Dev nD) : Valuation τ sig (Elt F) := StableHlo.after (preOps (F := F)).flatten (fun b => m (c, b))
abbrev V (c : Dev nD) (b : Ref sig .tc) : Buf (Elt F) ((c : Thread nD τ).loc b) := V₀ m c (Proc.devRef .tc b)

/-- @main is the lines before the region, the region, the lines after it. -/
theorem hmain (𝒱₀ : Variants) :
    Pipeline.HMainPK (Ix := Unit) (Name := ℕ) (U := UR sig nD τ) (Lvl := ℕ) pcfgs 0 defs₀ 𝒱₀ m (main (F := F))
      (fun c b => V₀ m c (Proc.devRef .tc b)) (fun _ => Pipeline.chain ((postOps (F := F)).map StableHlo.seq)) :=
  Pipeline.hmainP_around pcfgs 0 defs₀ 𝒱₀ m main preOps postOps
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩
    (by
      refine List.forall_iff_forall_mem.mpr fun ops hops => List.forall_iff_forall_mem.mpr fun op hop => ?_
      simp only [preOps, List.mem_cons, List.mem_nil_iff, or_false] at hops
      rcases hops with rfl | rfl | rfl | rfl | rfl | rfl | rfl | rfl | rfl | rfl | rfl | rfl | rfl | rfl | rfl <;>
        ((repeat (cases hop with | head => rfl | tail _ hop => ?_)); exact nomatch hop))
    (fun c => (main_chain c).trans rfl)

/-! ## The prefetched table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table: each window whose block index is read off it stays inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The table's word for point `t`: the expert of tile `t`, or −1. -/
def word (hO : Ok m) (t : Fin (cfgM m hO).N) : BitVec 32 := (tbl m).atD 0 (k0_off1 ((cfgM m hO).grid.coords t))

/-- What the body leaves in the output window's buffer at point `t`: the weighted feed-forward block of the tile's rows
    when the tile has an expert, zeros when it has none. -/
def outAt (hO : Ok m) (c : Dev nD) (t : Fin (cfgM m hO).N) : Vec F S512x512 .bf16 :=
  if k0_cond1 (word m hO t) = 1#1 then
    k0_pay1 (iblk m hO c 0 t) (iblk m hO c 1 t) (iblk m hO c 2 t) (iblk m hO c 3 t) (iblk m hO c 4 t) (iblk m hO c 5 t)
  else k0_pay2 (F := F)

/-- The proof data: the arrays as the region finds them; after the body each input's buffer at its block and the
    output's at `outAt`; the invariant the scoped rest, the generator register and the table; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

end Cert.Kernel.Hand

end
-- ==== Proof.FrameRunBits.lean ====
/-
  The launch: the program's run is the host lines before its region, the region at the prefetched table's contents, and
  the host lines after it. From the run's post: the frame claim (every argument ends as it was launched) and where the
  result's buffer ends.
-/
import proofs.«423054_j31275951850054_3_alg».proof.Proof.EntryBits
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a host line touches -/

/-- The program's arguments. -/
abbrev args : List (Ref sig .tc) := [main_arg0, main_arg1, main_arg2, main_arg3, main_arg4, main_arg5]
/-- The arrays of the region's seven windows, in window order. -/
abbrev arrs : List (Ref sig .tc) := [main_v112, main_v113, main_v115, main_v114, main_v116, main_v82, main_v117]

/-- Each window's array is one of `arrs`. -/
theorem arrRef_mem_arrs : ∀ w : Fin 7, Pipeline.arrRef spec0 w ∈ arrs := by decide
/-- No argument is a window's array. -/
theorem arrRef_ne_of_mem_args {r : Ref sig .tc} (hr : r ∈ args) (w : Fin 7) : Pipeline.arrRef spec0 w ≠ r := by
  intro e
  have h := arrRef_mem_arrs w
  rw [e] at h
  revert h
  simp only [args, List.mem_cons, List.mem_nil_iff, or_false] at hr
  rcases hr with rfl | rfl | rfl | rfl | rfl | rfl <;> decide

/-- A host line writes the one buffer `y`, which is none of the list `L`. -/
def WritesOutside (L : List (Ref sig .tc)) (op : HloOp τ sig (Elt F)) : Prop :=
  ∃ y : Ref sig .tc, op.writes = {Proc.devRef .tc y} ∧ y ∉ L

/-- Such a line writes no buffer of `L`. -/
theorem WritesOutside.not_mem {L : List (Ref sig .tc)} {op : HloOp τ sig (Elt F)} (h : WritesOutside L op)
    {r : Ref sig .tc} (hr : r ∈ L) : Proc.devRef (τ := τ) .tc r ∉ op.writes := by
  obtain ⟨y, hw, hy⟩ := h
  rw [hw, Finset.mem_singleton]
  exact StableHlo.devRef_ne_of_ne fun e => hy (e ▸ hr)

/-- A reference is in none of a line's buffers when it differs from each of them: by the number of buffers. -/
theorem not_mem_bufs1 {r y : Ref sig .tc} (hy : r ≠ y) :
    Proc.devRef (τ := τ) .tc r ∉ ({Proc.devRef .tc y} : Finset (DevRef τ sig)) := by
  rw [Finset.mem_singleton]; exact StableHlo.devRef_ne_of_ne hy
theorem not_mem_bufs2 {r x y : Ref sig .tc} (hx : r ≠ x) (hy : r ≠ y) :
    Proc.devRef (τ := τ) .tc r ∉ ({Proc.devRef .tc x, Proc.devRef .tc y} : Finset (DevRef τ sig)) := by
  rw [Finset.mem_insert, not_or]; exact ⟨StableHlo.devRef_ne_of_ne hx, not_mem_bufs1 hy⟩
theorem not_mem_bufs3 {r a x y : Ref sig .tc} (ha : r ≠ a) (hx : r ≠ x) (hy : r ≠ y) :
    Proc.devRef (τ := τ) .tc r ∉ ({Proc.devRef .tc a, Proc.devRef .tc x, Proc.devRef .tc y} : Finset (DevRef τ sig)) := by
  rw [Finset.mem_insert, not_or]; exact ⟨StableHlo.devRef_ne_of_ne ha, not_mem_bufs2 hx hy⟩
theorem not_mem_bufs4 {r b a x y : Ref sig .tc} (hb : r ≠ b) (ha : r ≠ a) (hx : r ≠ x) (hy : r ≠ y) :
    Proc.devRef (τ := τ) .tc r ∉ ({Proc.devRef .tc b, Proc.devRef .tc a, Proc.devRef .tc x, Proc.devRef .tc y} : Finset (DevRef τ sig)) := by
  rw [Finset.mem_insert, not_or]; exact ⟨StableHlo.devRef_ne_of_ne hb, not_mem_bufs3 ha hx hy⟩

/-- What the run asks of a line after the region: it allocates nothing, the prefetched table is none of its buffers, and
    the one buffer it writes is no argument and no window's array. -/
structure TailLine (op : HloOp τ sig (Elt F)) : Prop where
  fresh : op.fresh = ∅
  table : Proc.devRef (τ := τ) .tc main_v104 ∉ op.bufs
  writes : WritesOutside (args ++ arrs) op

/-- Every line after the region is such a line: stretch by stretch, line by line (the table and the line's buffers told
    apart as references). -/
theorem hostOps1_tailLine : ∀ op ∈ (hostOps1 : List (HloOp τ sig (Elt F))), TailLine op := by
  intro op hop
  ((repeat (cases hop with
      | head =>
        refine ⟨rfl, ?_, ⟨_, rfl, by decide⟩⟩
        first
          | (rw [StableHlo.nullary_bufs]; exact not_mem_bufs1 (by decide))
          | (rw [StableHlo.unary_bufs]; exact not_mem_bufs2 (by decide) (by decide))
          | (rw [StableHlo.reshape_bufs]; exact not_mem_bufs2 (by decide) (by decide))
          | (rw [StableHlo.binary_bufs]; exact not_mem_bufs3 (by decide) (by decide) (by decide))
          | (rw [StableHlo.ternary_bufs]; exact not_mem_bufs4 (by decide) (by decide) (by decide) (by decide))
      | tail _ hop => ?_)); exact nomatch hop)
theorem hostOps1_1_tailLine : ∀ op ∈ (hostOps1_1 : List (HloOp τ sig (Elt F))), TailLine op := by
  intro op hop
  ((repeat (cases hop with
      | head =>
        refine ⟨rfl, ?_, ⟨_, rfl, by decide⟩⟩
        first
          | (rw [StableHlo.nullary_bufs]; exact not_mem_bufs1 (by decide))
          | (rw [StableHlo.unary_bufs]; exact not_mem_bufs2 (by decide) (by decide))
          | (rw [StableHlo.reshape_bufs]; exact not_mem_bufs2 (by decide) (by decide))
          | (rw [StableHlo.binary_bufs]; exact not_mem_bufs3 (by decide) (by decide) (by decide))
          | (rw [StableHlo.ternary_bufs]; exact not_mem_bufs4 (by decide) (by decide) (by decide) (by decide))
      | tail _ hop => ?_)); exact nomatch hop)
theorem hostOps1_2_tailLine : ∀ op ∈ (hostOps1_2 : List (HloOp τ sig (Elt F))), TailLine op := by
  intro op hop
  ((repeat (cases hop with
      | head =>
        refine ⟨rfl, ?_, ⟨_, rfl, by decide⟩⟩
        first
          | (rw [StableHlo.nullary_bufs]; exact not_mem_bufs1 (by decide))
          | (rw [StableHlo.unary_bufs]; exact not_mem_bufs2 (by decide) (by decide))
          | (rw [StableHlo.reshape_bufs]; exact not_mem_bufs2 (by decide) (by decide))
          | (rw [StableHlo.binary_bufs]; exact not_mem_bufs3 (by decide) (by decide) (by decide))
          | (rw [StableHlo.ternary_bufs]; exact not_mem_bufs4 (by decide) (by decide) (by decide) (by decide))
      | tail _ hop => ?_)); exact nomatch hop)
theorem postOps_tailLine : ∀ ops ∈ (postOps (F := F)), ∀ op ∈ ops, TailLine op := by
  intro ops hops op hop
  simp only [postOps, List.mem_cons, List.mem_nil_iff, or_false] at hops
  rcases hops with rfl | rfl | rfl
  · exact hostOps1_tailLine op hop
  · exact hostOps1_1_tailLine op hop
  · exact hostOps1_2_tailLine op hop

/-- No line before the region writes an argument: each writes its own result's buffer. -/
theorem preOps_writes : ∀ ops ∈ (preOps (F := F)), ∀ op ∈ ops, WritesOutside args op := by
  intro ops hops op hop
  simp only [preOps, List.mem_cons, List.mem_nil_iff, or_false] at hops
  rcases hops with rfl | rfl | rfl | rfl | rfl | rfl | rfl | rfl | rfl | rfl | rfl | rfl | rfl | rfl | rfl <;>
    ((repeat (cases hop with | head => exact ⟨_, rfl, by decide⟩ | tail _ hop => ?_)); exact nomatch hop)

/-! ## The lines after the region, as the run wants them -/

/-- The lines after the region touch the pipeline's arrays and the bypassing buffers only: TensorCore references, none
    of them the prefetched table. -/
theorem sfx_sub : ∀ ops ∈ (postOps (F := F)), ∀ op ∈ ops, op.bufs ⊆ Pipeline.tailRefs sig pre0 spec0 := by
  intro ops hops op hop
  have h₁ : op.bufs ⊆ StableHlo.tcRefs τ sig := by
    have hops' := hops
    simp only [postOps, List.mem_cons, List.mem_nil_iff, or_false] at hops'
    rcases hops' with rfl | rfl | rfl
    · exact (List.forall_iff_forall_mem.mp hostOps1_sub) op hop
    · exact (List.forall_iff_forall_mem.mp hostOps1_1_sub) op hop
    · exact (List.forall_iff_forall_mem.mp hostOps1_2_sub) op hop
  refine Pipeline.sub_tailRefs pre0 spec0 op h₁ fun (k : Fin 1) => ?_
  obtain rfl : k = 0 := Subsingleton.elim _ _
  exact (postOps_tailLine ops hops op hop).table
/-- They allocate nothing. -/
theorem sfx_fresh : ∀ ops ∈ (postOps (F := F)), ∀ op ∈ ops, op.fresh = ∅ :=
  fun ops hops op hop => (postOps_tailLine ops hops op hop).fresh
/-- And write no array of the pipeline. -/
theorem sfx_keeps : ∀ ops ∈ (postOps (F := F)), ∀ op ∈ ops, ∀ w, Proc.devRef .tc (Pipeline.arrRef spec0 w) ∉ op.writes :=
  fun ops hops op hop w => (postOps_tailLine ops hops op hop).writes.not_mem (List.mem_append_right _ (arrRef_mem_arrs w))

/-! ## The run -/

-- matching the launch theorem's conclusion against this statement has to unfold definitions that occur inside the types
-- of its implicit arguments
set_option backward.isDefEq.respectTransparency.types false in
/-- From any memory with zero counters, given the body's obligation at the proof data: every weakly fair execution of
    @main on the TensorCore terminates, and every final state has each array of the pipeline at what the library computes
    from the proof data and every other unscoped buffer as the lines after the region leave it. -/
theorem run_main (hO : Ok m) (hbody : ∀ c, BodyObligation (dats (F := F) m hO 0 c) (defs₀ (F := F)) Variants.none () Set.univ) :
    θ_run defs (onTc (τ := τ) (main (F := F))) (s₀ m ρ)
      (Pipeline.FramePost (Pipeline.pin pcfgs fun _ => adm m hO) (dats m hO) 0
        (Pipeline.afterTail pcfgs (fun _ => adm m hO) (dats m hO) 0 (V₀ m) postOps)) :=
  Pipeline.θ_run_frameP_around pcfgs (fun _ => adm m hO) (dats m hO) (0 : Fin 1) launch0 defs₀ Variants.none m ρ main
    (hbody := fun c => (hbody c).loose) (hshare := fun c => (dats m hO 0 c).share_full fun _ => rfl)
    (howed := fun _ _ => rfl) (V₀ := V₀ m) (opss := postOps) (hsub := sfx_sub) (hfresh := sfx_fresh) (hkeep := sfx_keeps)
    (hmain := hmain m Variants.none) (hA := A_eq m hO) (hpf := V_pre m) (hΦ := fun _ _ => rfl)

/-! ## The arguments, before and after the region -/

/-- When the region is entered an argument holds what it was launched with: no line before the region writes it. -/
theorem V_arg (c : Dev nD) {r : Ref sig .tc} (hr : r ∈ args) : V m c r = m ((c : Thread nD τ).loc r) :=
  StableHlo.after_of_forall_not_mem (preOps (F := F)).flatten (fun b => m (c, b)) fun op hop => by
    obtain ⟨ops, hops, hop'⟩ := List.mem_flatten.mp hop
    exact (preOps_writes ops hops op hop').not_mem hr
theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)

/-- After the lines that follow the region it still does: none of them writes it, and it is no window's array. -/
theorem tail_arg (hO : Ok m) (c : Dev nD) {r : Ref sig .tc} (hr : r ∈ args) :
    Pipeline.afterTail pcfgs (fun _ => adm m hO) (dats m hO) 0 (V₀ m) postOps c r = m ((c : Thread nD τ).loc r) := by
  unfold Pipeline.afterTail
  refine (StableHlo.after_of_forall_not_mem _ _ fun op hop => ?_).trans
    ((Pipeline.withArrays_of_ne spec0 c (V₀ m c) _ r fun w => arrRef_ne_of_mem_args hr w).trans (V_arg m c hr))
  obtain ⟨ops, hops, hop'⟩ := List.mem_flatten.mp hop
  exact (postOps_tailLine ops hops op hop').writes.not_mem (List.mem_append_left _ hr)
theorem tail_main_arg0 (hO : Ok m) (c : Dev nD) :
    Pipeline.afterTail pcfgs (fun _ => adm m hO) (dats m hO) 0 (V₀ m) postOps c main_arg0 = m ((c : Thread nD τ).loc main_arg0) :=
  tail_arg m hO c (by decide)
theorem tail_main_arg1 (hO : Ok m) (c : Dev nD) :
    Pipeline.afterTail pcfgs (fun _ => adm m hO) (dats m hO) 0 (V₀ m) postOps c main_arg1 = m ((c : Thread nD τ).loc main_arg1) :=
  tail_arg m hO c (by decide)
theorem tail_main_arg2 (hO : Ok m) (c : Dev nD) :
    Pipeline.afterTail pcfgs (fun _ => adm m hO) (dats m hO) 0 (V₀ m) postOps c main_arg2 = m ((c : Thread nD τ).loc main_arg2) :=
  tail_arg m hO c (by decide)
theorem tail_main_arg3 (hO : Ok m) (c : Dev nD) :
    Pipeline.afterTail pcfgs (fun _ => adm m hO) (dats m hO) 0 (V₀ m) postOps c main_arg3 = m ((c : Thread nD τ).loc main_arg3) :=
  tail_arg m hO c (by decide)
theorem tail_main_arg4 (hO : Ok m) (c : Dev nD) :
    Pipeline.afterTail pcfgs (fun _ => adm m hO) (dats m hO) 0 (V₀ m) postOps c main_arg4 = m ((c : Thread nD τ).loc main_arg4) :=
  tail_arg m hO c (by decide)
theorem tail_main_arg5 (hO : Ok m) (c : Dev nD) :
    Pipeline.afterTail pcfgs (fun _ => adm m hO) (dats m hO) 0 (V₀ m) postOps c main_arg5 = m ((c : Thread nD τ).loc main_arg5) :=
  tail_arg m hO c (by decide)

/-! ## The frame, and where the result ends -/

/-- An argument bypasses the region: it is unscoped and no window's array. -/
theorem arg_mem_restRefs {r : Ref sig .tc} (hr : r ∈ args) : r ∈ Pipeline.restRefs sig spec0 := by
  refine Pipeline.mem_restRefs_of r ?_ fun w => arrRef_ne_of_mem_args hr w
  simp only [args, List.mem_cons, List.mem_nil_iff, or_false] at hr
  rcases hr with rfl | rfl | rfl | rfl | rfl | rfl <;> rfl
/-- So does the result's buffer. -/
theorem v145_mem_restRefs : main_v145 ∈ Pipeline.restRefs sig spec0 :=
  Pipeline.mem_restRefs_of main_v145 rfl (by decide)

/-- What the run's post says of an argument: it ends as it was launched. -/
theorem arg_of_post (hO : Ok m) {s : PUnit × MemSt nD τ sig (Elt F)}
    (h : Pipeline.FramePost (Pipeline.pin pcfgs fun _ => adm m hO) (dats m hO) 0
      (Pipeline.afterTail pcfgs (fun _ => adm m hO) (dats m hO) 0 (V₀ m) postOps) s)
    (c : Dev nD) {r : Ref sig .tc} (hr : r ∈ args) :
    s.2.mem ((c.tc : Thread nD τ).loc r) = m ((c.tc : Thread nD τ).loc r) :=
  ((h c).2 r (arg_mem_restRefs hr)).trans (tail_arg m hO c hr)

/-- THE FRAME: @main terminates and every argument ends as it was launched. -/
theorem frame (hO : Ok m) (hbody : ∀ c, BodyObligation (dats (F := F) m hO 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨arg_of_post m hO h c (by decide), arg_of_post m hO h c (by decide),
      arg_of_post m hO h c (by decide), arg_of_post m hO h c (by decide), arg_of_post m hO h c (by decide),
      arg_of_post m hO h c (by decide)⟩) (run_main m ρ hO hbody)

/-- THE RESULT: besides, the result's buffer ends at what the lines after the region compute from the region's exit. -/
theorem run_result (hO : Ok m) (hbody : ∀ c, BodyObligation (dats (F := F) m hO 0 c) (defs₀ (F := F)) Variants.none () Set.univ) :
    θ_run defs (onTc (τ := τ) (main (F := F))) ⟨m, fun _ => 0, ρ⟩ (fun r => ∀ c : Dev nD,
      r.2.mem ((c.tc : Thread nD τ).loc main_v145)
          = Pipeline.afterTail pcfgs (fun _ => adm m hO) (dats m hO) 0 (V₀ m) postOps c main_v145
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v145 v145_mem_restRefs, arg_of_post m hO h c (by decide),
      arg_of_post m hO h c (by decide), arg_of_post m hO h c (by decide), arg_of_post m hO h c (by decide),
      arg_of_post m hO h c (by decide), arg_of_post m hO h c (by decide)⟩) (run_main m ρ hO hbody)

end Cert.Kernel.Hand

end
-- ==== Proof.BodyRunBits.lean ====
/-
  The kernel body on any staging memrefs. It reads one word of the prefetched table; where the word is
  non-negative it loads its six input buffers whole and stores the feed-forward block into the output buffer;
  where the word is negative it stores the zero block there. Exactly one of the two happens.
-/
import proofs.«423054_j31275951850054_3_alg».proof.Proof.Gen.Kernel.Launch
import proofs.«423054_j31275951850054_3_alg».proof.Proof.Gen.Kernel.Skeleton
import Idealize.ShloMosaic.Lib.Tactic
import Idealize.ShloMosaic.Lib.Pipeline.FrameBody
import Idealize.ShloMosaic.Lib.WritesUnit
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

theorem cond2_of_not_cond1 (w : BitVec 32) (h : k0_cond1 w ≠ 1#1) : k0_cond2 w = 1#1 := by
  unfold k0_cond1 at h; unfold k0_cond2
  simp only [Scalar.cmpi, IntOp.cmpi, Scalar.extui, Scalar.xori, IntOp.xori] at h ⊢
  cases hb : (0#32).sle w
  · rfl
  · exact absurd rfl (hb ▸ h)

theorem not_cond2_of_cond1 (w : BitVec 32) (h : k0_cond1 w = 1#1) : k0_cond2 w ≠ 1#1 := by
  unfold k0_cond1 at h; unfold k0_cond2
  simp only [Scalar.cmpi, IntOp.cmpi, Scalar.extui, Scalar.xori, IntOp.xori] at h ⊢
  cases hb : (0#32).sle w
  · rw [hb] at h; exact absurd h (by decide)
  · decide

/-! ## Whole loads and whole stores through a whole memref -/

/-- A load of the whole of a whole memref held at the contents that read `X` reads `X`. -/
theorem readAt_whole_unread {S : Shape} {e : EltTy} {sp : Space} (M : Memref sig .tc sp S e) (h : M.IsWhole) (X : S.Idx → Elt F e)
    (off : Fin S.rank → ℕ) (h0 : ∀ a, off a = 0) (inb : ∀ a, off a + S.size a ≤ S.size a) :
    M.view.readAt (Elt F) (Rect.unit (s := S) off S.size inb).toLoadRect (h.unread X) = X := by
  funext x
  refine (h.readAt_unread X _ x).trans (congrArg X (funext fun a => Fin.ext ?_))
  show off a + 1 * (x a).val = (x a).val
  rw [h0, Nat.zero_add, Nat.one_mul]

/-- After a store of `w` through the whole of a view, the view reads `w`, whatever was written before. -/
theorem read_writes_whole_unit {S : Shape} {e : EltTy} {sp : Space} (v : View sig .tc sp S e) (f : v.ty.Contents (Elt F))
    (off : Fin S.rank → ℕ) (h0 : ∀ a, off a = 0) (inb : ∀ a, off a + S.size a ≤ S.size a) (w : S.Idx → Elt F e)
    (L : List (View.Piece (Elt F) S e)) :
    v.read (Elt F) (v.writes (Elt F) f ((⟨Rect.unit (s := S) off S.size inb, w⟩ : View.Piece (Elt F) S e) :: L)) = w :=
  funext fun y => View.read_writes_cons_unit_of_mem v f inb w L y y rfl fun a => by rw [h0, Nat.zero_add]

/-! ## The table as the body is handed it -/

/-- The prefetched table as the body is handed it: its whole buffer as a memref. -/
abbrev tbM : Memref sig .tc .smem S136 .i32 := Memref.whole main_v104
abbrev htbM : tbM.IsWhole := Memref.isWhole_whole _
/-- The table's buffer on core `c`: its contents type, and it held at half the full share at `f` (the pipeline keeps the
    other half: the body only reads it). -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f
/-- The word the body's one scalar load reads at point `i` off the table's contents `xt`. -/
abbrev wordAt (c : Dev nD) (i : grid0.Coords) (xt : TbBuf (F := F) c) : BitVec 32 :=
  tbM.view.readAt (Elt F) (Rect.unit (s := S136) (k0_off1 i) S1.size (k0_off1_inb i)).toLoadRect xt (Shape.Idx.first (numel1_S1.symm ▸ Nat.one_pos))

/-! ## The run, by the word's sign -/

set_option maxHeartbeats 1000000 in
/-- The word non-negative: the six inputs are loaded whole and the feed-forward block of them is stored whole. -/
theorem kernelRun_pos (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c)
    (hw : k0_cond1 (wordAt c i xt) = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay1 x0 x1 x2 x3 x4 x5) ∗ tbPt c xt) -∗ K ⟨⟩))
      ⊢ wp frame (wpE (defs₀ (F := F)) Variants.none c none) Set.univ
          (cc0__moe_kernel (F := F) i tbM htbM arg2 harg2 arg3 harg3 arg4 harg4 arg5 harg5 arg6 harg6 arg7 harg7 arg8 harg8) K := by
  have hw2 : ¬ k0_cond2 (wordAt c i xt) = 1#1 := not_cond2_of_cond1 _ hw
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (read_writes_whole_unit _ _ _ (by decide) _ _ _).trans ?_
    rw [readAt_whole_unread arg2 harg2 x0 _ (by decide), readAt_whole_unread arg3 harg3 x1 _ (by decide),
      readAt_whole_unread arg4 harg4 x2 _ (by decide), readAt_whole_unread arg5 harg5 x3 _ (by decide),
      readAt_whole_unread arg6 harg6 x4 _ (by decide), readAt_whole_unread arg7 harg7 x5 _ (by decide)]
  iexact HT

set_option maxHeartbeats 1000000 in
/-- The word negative: the zero block is stored whole; the inputs are not read. -/
theorem kernelRun_neg (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c)
    (hw : ¬ k0_cond1 (wordAt c i xt) = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay2 (F := F)) ∗ tbPt c xt) -∗ K ⟨⟩))
      ⊢ wp frame (wpE (defs₀ (F := F)) Variants.none c none) Set.univ
          (cc0__moe_kernel (F := F) i tbM htbM arg2 harg2 arg3 harg3 arg4 harg4 arg5 harg5 arg6 harg6 arg7 harg7 arg8 harg8) K := by
  have hw2 : k0_cond2 (wordAt c i xt) = 1#1 := cond2_of_not_cond1 _ hw
  simp only [cc0__moe_kernel_eq_skeleton]; unfold cc0__moe_kernel_skel
  iintro ⟨H0, H1, H2, H3, H4, H5, ⟨%d6, H6⟩, HT, Hk⟩
  unfold owns
  icases H6 with ⟨%f6, -, H6⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    exact read_writes_whole_unit _ _ _ (by decide) _ _ _
  iexact HT

/-! ## The run -/

/-- THE BODY'S RUN on any whole staging memrefs: from the six inputs' buffers at `x0 … x5`, the output's at anything and
    the table's half at `xt`, the body runs to its return with the inputs and the table as they were and the output's
    buffer at the feed-forward block of the inputs where the word it read is non-negative, at the zero block where it is
    negative; stated over a continuation `K`, which takes whatever else the caller holds across the run. -/
theorem kernelRunK (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (if k0_cond1 (wordAt c i xt) = 1#1 then k0_pay1 x0 x1 x2 x3 x4 x5 else k0_pay2 (F := F))
            ∗ tbPt c xt) -∗ K ⟨⟩))
      ⊢ wp frame (wpE (defs₀ (F := F)) Variants.none c none) Set.univ
          (cc0__moe_kernel (F := F) i tbM htbM arg2 harg2 arg3 harg3 arg4 harg4 arg5 harg5 arg6 harg6 arg7 harg7 arg8 harg8) K := by
  by_cases hw : k0_cond1 (wordAt c i xt) = 1#1
  · rw [if_pos hw]; exact kernelRun_pos c i arg2 harg2 arg3 harg3 arg4 harg4 arg5 harg5 arg6 harg6 arg7 harg7 arg8 harg8 x0 x1 x2 x3 x4 x5 xt hw K
  · rw [if_neg hw]; exact kernelRun_neg c i arg2 harg2 arg3 harg3 arg4 harg4 arg5 harg5 arg6 harg6 arg7 harg7 arg8 harg8 x0 x1 x2 x3 x4 x5 xt hw K

/-- The same as a triple. -/
theorem kernelRun (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt)
      ⊢ wp frame (wpE (defs₀ (F := F)) Variants.none c none) Set.univ
          (cc0__moe_kernel (F := F) i tbM htbM arg2 harg2 arg3 harg3 arg4 harg4 arg5 harg5 arg6 harg6 arg7 harg7 arg8 harg8)
          (fun _ => iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (if k0_cond1 (wordAt c i xt) = 1#1 then k0_pay1 x0 x1 x2 x3 x4 x5 else k0_pay2 (F := F))
            ∗ tbPt c xt)) := by
  iintro ⟨H0, H1, H2, H3, H4, H5, H6, HT⟩
  iapply (kernelRunK c i arg2 harg2 arg3 harg3 arg4 harg4 arg5 harg5 arg6 harg6 arg7 harg7 arg8 harg8 x0 x1 x2 x3 x4 x5 xt _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT]; · iexact HT
  iintro H; iexact H

end Cert.Kernel.Hand

end
-- ==== Proof.BodyBits.lean ====
/-
  The body obligation of the pipeline's proof data: at every point the body, handed the invariant and each window's
  current staging buffer, runs to the invariant and the buffers at what the proof data state.
-/
import proofs.«423054_j31275951850054_3_alg».proof.Proof.EntryBits
import proofs.«423054_j31275951850054_3_alg».proof.Proof.BodyRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The table's half, and the word -/

/-- The tables' halves the region hands the body are the one table's. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The word the body's load reads off the table's contents is the table's element at the load's offsets. -/
theorem wordAt_tbl (hO : Ok m) (c : Dev nD) (t : Fin (cfgM m hO).N) :
    wordAt c (grid0.coords t) (tbl m 0) = word m hO t := by
  unfold word
  refine Eq.trans ?_ (dif_pos (show ∀ a, k0_off1 ((cfgM m hO).grid.coords t) a + 1 ≤ (pre0.ref 0).ty.shape.size a from
    Fin.forall_fin_one.mpr (k0_off1_inb _ 0))).symm
  exact congrArg (tbl m 0) (funext fun a => Fin.ext (by show _ + 1 * 0 = _; rw [Nat.mul_zero, Nat.add_zero]; rfl))

/-- The output window is idle at no point: one of the body's two stores runs. -/
theorem idle6 (hO : Ok m) (i : (cfgM m hO).grid.Coords) : (cfgM m hO).idle 6 i = false := by
  show (!(k0_cond1 ((tbl m).atD 0 (k0_off1 i)) == 1#1) && !(k0_cond2 ((tbl m).atD 0 (k0_off1 i)) == 1#1)) = false
  by_cases h : k0_cond1 ((tbl m).atD 0 (k0_off1 i)) = 1#1
  · simp [h]
  · simp [h, cond2_of_not_cond1 _ h]

/-! ## What the body leaves, window by window -/

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = outAt m hO c t := by dsimp only [dats]; try rfl

/-! ## What the body finds in each input's buffer -/

/-- An input window's current staging buffer holds its block at every point, fetched there or not: a window whose block
    index has not moved is not fetched again and still holds the block. -/
theorem before_in (hO : Ok m) (c : Dev nD) (w : Fin (cfgM m hO).W) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = (dats m hO 0 c).blockOf w t)
    (hfetched : ∀ t d, (dats m hO 0 c).fetched w t d = iblk m hO c w t)
    (t : Fin (cfgM m hO).N) (d) : (dats m hO 0 c).before w t d = iblk m hO c w t :=
  ((dats m hO 0 c).before_in_eq_fetched w hw hlive hclip hkeep t d).trans (hfetched t d)

theorem before_0 (hO : Ok m) (c : Dev nD) (t : Fin (cfgM m hO).N) (d) : (dats m hO 0 c).before 0 t d = iblk m hO c 0 t :=
  before_in m hO c 0 rfl (fun _ => rfl) (fun _ _ _ => rfl)
    (fun t => by rw [after_0]; unfold Dat.blockOf iblk; rw [A_eq]; try rfl)
    (fun t d => by unfold Dat.fetched Dat.blockOf iblk; rw [A_eq]; try rfl) t d
theorem before_1 (hO : Ok m) (c : Dev nD) (t : Fin (cfgM m hO).N) (d) : (dats m hO 0 c).before 1 t d = iblk m hO c 1 t :=
  before_in m hO c 1 rfl (fun _ => rfl) (fun _ _ _ => rfl)
    (fun t => by rw [after_1]; unfold Dat.blockOf iblk; rw [A_eq]; try rfl)
    (fun t d => by unfold Dat.fetched Dat.blockOf iblk; rw [A_eq]; try rfl) t d
theorem before_2 (hO : Ok m) (c : Dev nD) (t : Fin (cfgM m hO).N) (d) : (dats m hO 0 c).before 2 t d = iblk m hO c 2 t :=
  before_in m hO c 2 rfl (fun _ => rfl) (fun _ _ _ => rfl)
    (fun t => by rw [after_2]; unfold Dat.blockOf iblk; rw [A_eq]; try rfl)
    (fun t d => by unfold Dat.fetched Dat.blockOf iblk; rw [A_eq]; try rfl) t d
theorem before_3 (hO : Ok m) (c : Dev nD) (t : Fin (cfgM m hO).N) (d) : (dats m hO 0 c).before 3 t d = iblk m hO c 3 t :=
  before_in m hO c 3 rfl (fun _ => rfl) (fun _ _ _ => rfl)
    (fun t => by rw [after_3]; unfold Dat.blockOf iblk; rw [A_eq]; try rfl)
    (fun t d => by unfold Dat.fetched Dat.blockOf iblk; rw [A_eq]; try rfl) t d
theorem before_4 (hO : Ok m) (c : Dev nD) (t : Fin (cfgM m hO).N) (d) : (dats m hO 0 c).before 4 t d = iblk m hO c 4 t :=
  before_in m hO c 4 rfl (fun _ => rfl) (fun _ _ _ => rfl)
    (fun t => by rw [after_4]; unfold Dat.blockOf iblk; rw [A_eq]; try rfl)
    (fun t d => by unfold Dat.fetched Dat.blockOf iblk; rw [A_eq]; try rfl) t d
theorem before_5 (hO : Ok m) (c : Dev nD) (t : Fin (cfgM m hO).N) (d) : (dats m hO 0 c).before 5 t d = iblk m hO c 5 t :=
  before_in m hO c 5 rfl (fun _ => rfl) (fun _ _ _ => rfl)
    (fun t => by rw [after_5]; unfold Dat.blockOf iblk; rw [A_eq]; try rfl)
    (fun t d => by unfold Dat.fetched Dat.blockOf iblk; rw [A_eq]; try rfl) t d

/-! ## The body at a point -/

/-- Each window's current staging memref at point `t`, spelled as the pipeline passes it, and its wholeness. -/
abbrev ms0 (hO : Ok m) (t : Fin (cfgM m hO).N) : Memref sig .tc .vmem S512x512 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x512x2048 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x2048x512 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x512 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S512x1 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S512x512 .bf16 := spec0_6.stage ((cfgM m hO).slots t 6)
abbrev hs6 (hO : Ok m) (t : Fin (cfgM m hO).N) : (ms6 m hO t).IsWhole := hstage0_6 (((cfgM m hO).slots t 6).cast nbuf0_6)

/-- The kernel body at point `t`, on what the pipeline calls it with. -/
abbrev bodyAt (hO : Ok m) (t : Fin (cfgM m hO).N) : Prog (TpuEff nD τ sig (Elt F) Λ₀ .tc) PUnit :=
  cc0__moe_kernel (grid0.coords t) tbM htbM (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t)

/-- What the body is called with at point `t`: the invariant, what the core owes, each window's current buffer at what it
    then holds. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t))

/-- The body at any point: the inputs' buffers hold their blocks, the word the load reads is the table's word for the
    point, so the run applies; the invariant passes through, the table's half read and handed back; the core owes
    nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6]
  rw [show (dats m hO 0 c).Φ t.castSucc = iprop(Pipeline.ΦA spec0 c ∗ Pipeline.ΦT pre0 (tbl m) c) from rfl, PhiT_eq]
  unfold outAt
  rw [← wordAt_tbl m hO c t]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (kernelRunK c (grid0.coords t) _ _ _ _ _ _ _ _ _ _ _ _ _ _ (iblk m hO c 0 t) (iblk m hO c 1 t) (iblk m hO c 2 t) (iblk m hO c 3 t) (iblk m hO c 4 t) (iblk m hO c 5 t) (tbl m 0) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT]; · iexact HT
  iintro ⟨H0, H1, H2, H3, H4, H5, H6, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- The library's body obligation, at every point: the windows conjoined one by one, the output window live (not idle) at
    the point, and the body's run. -/
theorem body_obligation (hO : Ok m) (c : Dev nD) : BodyObligation (dats (F := F) m hO 0 c) (defs₀ (F := F)) Variants.none () Set.univ := fun t => by
  rw [bigSep_W0, bigSep_W0]
  refine (sound_body m hO c t).trans (wp_mono _ _ _ fun _ => ?_)
  unfold bodyPost
  refine sep_mono .rfl (sep_mono .rfl (sep_mono .rfl (sep_mono .rfl (sep_mono .rfl (sep_mono .rfl (sep_mono .rfl (sep_mono .rfl ?_)))))))
  show _ ⊢ (dats m hO 0 c).leavesExact 6 t
  unfold Dat.leavesExact
  rw [idle6 m hO]
  exact .rfl

end Cert.Kernel.Hand

end
-- ==== Proof.ChainBits.lean ====
/-
  The host side of the routed feed-forward layer, as pure functions of the argument arrays.

  The program flattens the (token, slot) pairs, P = 65536 of them, with the expert of pair p in `pairExpert`.
  It sorts the pairs by expert (`order`), counts the pairs of each expert (`counts`), rounds each expert's run up
  to whole tiles of 512 rows (`paddedCount`), and lays the runs out one after the other (`paddedStart`, the
  exclusive prefix sums; `unpaddedStart` the same for the unpadded runs). The pair at sorted position j with expert e goes to
  row `paddedStart e + (j − unpaddedStart e)` (`destIndex`). `paddedToken` holds the token of each occupied row,
  `paddedValid` marks the occupied rows, `weight` is one half on them and zero elsewhere, `tileExpert` is the
  expert a tile of rows belongs to (−1 for a tile of no expert), `xPadded` the token rows gathered into the layout.
  After the region, `pos` sends each (token, slot) to its row, and `result` adds a token's two rows.

  Every definition is the composition of the printed operations, operation by operation, so that the value a
  buffer holds after the host lines is one of these by unfolding.
-/
import proofs.«423054_j31275951850054_3_alg».proof.Kernel

noncomputable section

namespace Cert.Kernel.Chain

open Cert.Kernel Idealize.ShloMosaic
open Facts₀ Facts

variable [Facts] {F : FTy → Type} [FloatOps F]

/-! ## Small pieces the chain repeats -/

/-- A scalar word spread over 65536 entries. -/
abbrev fill65536 (n : BitVec 32) : IVec S65536 32 := broadcastInDim S65536 ![] bcast_S_S65536 (constantI S_ 32 n)
/-- A scalar word spread over 69632 entries. -/
abbrev fill69632 (n : BitVec 32) : IVec S69632 32 := broadcastInDim S69632 ![] bcast_S_S69632 (constantI S_ 32 n)
/-- A scalar word spread over 8 entries. -/
abbrev fill8 (n : BitVec 32) : IVec S8 32 := broadcastInDim S8 ![] bcast_S_S8 (constantI S_ 32 n)

/-- An index below zero counts from the end of an axis of extent `n`; other indices stand. -/
def wrap65536 (n : BitVec 32) (x : IVec S65536 32) : IVec S65536 32 :=
  select (cmpi .slt x (fill65536 0#32)) (addi x (fill65536 n)) x
/-- The same over 69632 entries. -/
def wrap69632 (n : BitVec 32) (x : IVec S69632 32) : IVec S69632 32 :=
  select (cmpi .slt x (fill69632 0#32)) (addi x (fill69632 n)) x
/-- A vector of 65536 indices as a column of one-component index vectors. -/
abbrev col65536 (x : IVec S65536 32) : IVec S65536x1 32 := broadcastInDim S65536x1 ![0] bcast_S65536_S65536x1_0 x

/-- The quotient rounded toward minus infinity, of 8 words by a scalar word: the truncated quotient, less one
    where the signs differ and the division is not exact. -/
def floorDiv8 (x : IVec S8 32) (d : IVec S_ 32) : IVec S8 32 :=
  let v0 : IVec S_ 32 := id d
  let v1 : IVec S8 32 := broadcastInDim S8 ![] bcast_S_S8 v0
  let v2 : IVec S8 32 := Host.divsi x v1
  let v3 : IVec S8 32 := signi x
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi x v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  select v11 v13 v2

/-- The remainder with the divisor's sign, of 65536 words by a scalar word (a zero divisor read as one). -/
def remainderP (x : IVec S65536 32) (d : IVec S_ 32) : IVec S65536 32 :=
  let v0 : IVec S_ 32 := id d
  let c : IVec S_ 32 := constantI S_ 32 0#32
  let v1 : IVec S_ 1 := cmpi .eq v0 c
  let c_0 : IVec S_ 32 := constantI S_ 32 1#32
  let w : IVec S_ 32 := select v1 c_0 v0
  let v3 : IVec S65536 32 := broadcastInDim S65536 ![] bcast_S_S65536 w
  let v4 : IVec S65536 32 := Host.remsi x v3
  let c_1 : IVec S_ 32 := constantI S_ 32 0#32
  let v5 : IVec S65536 32 := broadcastInDim S65536 ![] bcast_S_S65536 c_1
  let v6 : IVec S65536 1 := cmpi .ne v4 v5
  let c_2 : IVec S_ 32 := constantI S_ 32 0#32
  let v7 : IVec S65536 32 := broadcastInDim S65536 ![] bcast_S_S65536 c_2
  let v8 : IVec S65536 1 := cmpi .slt v4 v7
  let c_3 : IVec S_ 32 := constantI S_ 32 0#32
  let v9 : IVec S_ 1 := cmpi .slt w c_3
  let v10 : IVec S65536 1 := broadcastInDim S65536 ![] bcast_S_S65536 v9
  let v11 : IVec S65536 1 := cmpi .ne v8 v10
  let v12 : IVec S65536 1 := andi v11 v6
  let v13 : IVec S65536 32 := broadcastInDim S65536 ![] bcast_S_S65536 w
  let v14 : IVec S65536 32 := addi v4 v13
  select v12 v14 v4

/-- The running sums of 8 words. -/
def cumsum8 (x : IVec S8 32) : IVec S8 32 :=
  Host.reduceWindow IntOp.addi ![8] ![1] ![7] ![0] x (broadcastInDim S_ ![] bcast_S_S_ (constantI S_ 32 0#32)) reduceWindows_S8_S8_w8s1p7_0 h_S_
/-- The sums of the words before each of 8 words: a zero, then the first seven running sums. -/
def exclPrefix8 (x : IVec S8 32) : IVec S8 32 :=
  concatenate S8 0 [⟨S1, broadcastInDim S1 ![] bcast_S_S1 (constantI S_ 32 0#32)⟩, ⟨S7, extractStridedSlice S7 ![0] (cumsum8 x) slices_S8_S7_0⟩] concatenates_S1_S7_S8_d0

/-! ## The routing tables, from the assignment array -/

variable (a1 : IVec S8x4096x2 32)

/-- The expert of each (token, slot) pair, pairs in row-major order. -/
def pairExpert : IVec S65536 32 := shapeCast S65536 (shapeCast S32768x2 a1 shapeCasts_S8x4096x2_S32768x2) shapeCasts_S32768x2_S65536
/-- The token of each pair: pair p belongs to token p / 2. -/
def pairToken : IVec S65536 32 := shapeCast S65536 (broadcastInDim S32768x2 ![0] bcast_S32768_S32768x2_0 (iotaInDim S32768 32 0)) shapeCasts_S32768x2_S65536
/-- The pairs in order of their expert, ties in order of the pairs. -/
def order : IVec S65536 32 := (Host.sort2 S65536 0 comparator_i32_i32_d0 (pairExpert a1) (iotaInDim S65536 32 0)).2
/-- The sorted positions as gather indices. -/
abbrev orderIdx : IVec S65536x1 32 := col65536 (wrap65536 65536#32 (order a1))
/-- The expert at each sorted position. -/
def sortedExpert : IVec S65536 32 := Host.gather gather_S65536_S65536x1_S65536_n_0_n_n_0_1_1 (pairExpert a1) (orderIdx a1)
/-- The token at each sorted position. -/
def sortedToken : IVec S65536 32 := Host.gather gather_S65536_S65536x1_S65536_n_0_n_n_0_1_1 pairToken (orderIdx a1)
/-- The number of pairs of each expert. -/
def counts : IVec S8 32 :=
  Host.scatter scatter_S8_S65536x1_S65536_n_0_0_1 IntOp.addi (fill8 0#32) (col65536 (wrap65536 8#32 (pairExpert a1))) (fill65536 1#32)
/-- Each expert's run rounded up to whole tiles of 512 rows. -/
def paddedCount : IVec S8 32 :=
  muli (floorDiv8 (subi (addi (counts a1) (fill8 512#32)) (fill8 1#32)) (constantI S_ 32 512#32)) (fill8 512#32)
/-- Where each expert's padded run starts. -/
def paddedStart : IVec S8 32 := exclPrefix8 (paddedCount a1)
/-- Where each expert's run starts among the sorted pairs. -/
def unpaddedStart : IVec S8 32 := exclPrefix8 (counts a1)
/-- The sorted experts as gather indices into a table of 8. -/
abbrev sortedExpertIdx : IVec S65536x1 32 := col65536 (wrap65536 8#32 (sortedExpert a1))
/-- A sorted position's offset inside its expert's run. -/
def localOffset : IVec S65536 32 :=
  subi (iotaInDim S65536 32 0) (Host.gather gather_S8_S65536x1_S65536_n_0_n_n_0_1_1 (unpaddedStart a1) (sortedExpertIdx a1))
/-- The row each sorted position is sent to. -/
def destIndex : IVec S65536 32 :=
  addi (Host.gather gather_S8_S65536x1_S65536_n_0_n_n_0_1_1 (paddedStart a1) (sortedExpertIdx a1)) (localOffset a1)
/-- The rows as scatter indices into 69632 rows. -/
abbrev destIdx : IVec S65536x1 32 := col65536 (wrap65536 69632#32 (destIndex a1))
/-- The token of each occupied row (zero on the others). -/
def paddedToken : IVec S69632 32 :=
  Host.scatter scatter_S69632_S65536x1_S65536_n_0_0_1 (fun _ b => b) (fill69632 0#32) (destIdx a1) (sortedToken a1)
/-- Which rows are occupied. -/
def paddedValid : IVec S69632 1 :=
  Host.scatter scatter_S69632_S65536x1_S65536_n_0_0_1 (fun _ b => b) (broadcastInDim S69632 ![] bcast_S_S69632 (constantI S_ 1 0#1)) (destIdx a1)
    (broadcastInDim S65536 ![] bcast_S_S65536 (constantI S_ 1 1#1))
/-- The first tile of each expert, and its number of tiles. -/
def tileStart : IVec S8 32 := floorDiv8 (paddedStart a1) (constantI S_ 32 512#32)
def tileCount : IVec S8 32 := floorDiv8 (paddedCount a1) (constantI S_ 32 512#32)
/-- Tile i belongs to expert e: at or after the expert's first tile and before its last. -/
def inRange : IVec S136x8 1 :=
  andi
    (cmpi .sge (broadcastInDim S136x8 ![0, 1] bcast_S136x1_S136x8_0_1 (broadcastInDim S136x1 ![0] bcast_S136_S136x1_0 (iotaInDim S136 32 0)))
      (broadcastInDim S136x8 ![0, 1] bcast_S1x8_S136x8_0_1 (broadcastInDim S1x8 ![1] bcast_S8_S1x8_1 (tileStart a1))))
    (cmpi .slt (broadcastInDim S136x8 ![0, 1] bcast_S136x1_S136x8_0_1 (broadcastInDim S136x1 ![0] bcast_S136_S136x1_0 (iotaInDim S136 32 0)))
      (broadcastInDim S136x8 ![0, 1] bcast_S1x8_S136x8_0_1 (broadcastInDim S1x8 ![1] bcast_S8_S1x8_1 (addi (tileStart a1) (tileCount a1)))))
/-- The expert of each tile of 512 rows, −1 for a tile of no expert: the prefetched table. -/
def tileExpert : IVec S136 32 :=
  select (Host.reduce IntOp.ori (inRange a1) (constantI S_ 1 0#1) reducesTo_S136x8_S136_d1 h_S_)
    (Host.reduce IntOp.addi
      (muli (extui 32 (inRange a1) natLt_1_32)
        (broadcastInDim S136x8 ![0, 1] bcast_S1x8_S136x8_0_1 (broadcastInDim S1x8 ![1] bcast_S8_S1x8_1 (iotaInDim S8 32 0))))
      (constantI S_ 32 0#32) reducesTo_S136x8_S136_d1 h_S_)
    (broadcastInDim S136 ![] bcast_S_S136 (id (constantI S_ 32 4294967295#32)))

/-! ## The region's float operands -/

/-- One half on the occupied rows, zero on the others, as a column. -/
def weight : FVec F S69632x1 .f32 :=
  shapeCast S69632x1 (mulf (uitofp .f32 (paddedValid a1)) (broadcastInDim S69632 ![] bcast_S_S69632 (constant S_ .f32 0x3F000000#32))) shapeCasts_S69632_S69632x1
/-- The token rows in the padded layout: row r is the row of token `paddedToken r`, narrowed. -/
def xPadded (a0 : FVec F S8x4096x512 .f32) : FVec F S69632x512 .bf16 :=
  Host.gather gather_S32768x512_S69632x1_S69632x512_1_0_n_n_0_1_1512
    (truncf .bf16 (shapeCast S32768x512 a0 shapeCasts_S8x4096x512_S32768x512) bitsLt_bf16_f32)
    (broadcastInDim S69632x1 ![0] bcast_S69632_S69632x1_0 (wrap69632 32768#32 (paddedToken a1)))
/-- The experts' matrices narrowed, their bias rows with a unit axis. -/
def w1 (a2 : FVec F S8x512x2048 .f32) : FVec F S8x512x2048 .bf16 := truncf .bf16 a2 bitsLt_bf16_f32
def w2 (a4 : FVec F S8x2048x512 .f32) : FVec F S8x2048x512 .bf16 := truncf .bf16 a4 bitsLt_bf16_f32
def b1r (a3 : FVec F S8x2048 .f32) : FVec F S8x1x2048 .f32 := shapeCast S8x1x2048 a3 shapeCasts_S8x2048_S8x1x2048
def b2r (a5 : FVec F S8x512 .f32) : FVec F S8x1x512 .f32 := shapeCast S8x1x512 a5 shapeCasts_S8x512_S8x1x512

/-! ## After the region: each (token, slot) pair's row, and the sum of a token's two rows -/

/-- The slot of each sorted position: its pair modulo 2. -/
def sortedSlot : IVec S65536 32 := remainderP (order a1) (constantI S_ 32 2#32)
/-- The (token, slot) cells as two-component scatter indices. -/
def cellIdx : IVec S65536x2 32 :=
  concatenate S65536x2 1 [⟨S65536x1, col65536 (wrap65536 32768#32 (sortedToken a1))⟩, ⟨S65536x1, col65536 (wrap65536 2#32 (sortedSlot a1))⟩]
    concatenates_S65536x1_S65536x1_S65536x2_d1
/-- The row of each (token, slot) cell. -/
def pos : IVec S32768x2 32 :=
  Host.scatter scatter_S32768x2_S65536x2_S65536_n_01_01_1 (fun _ b => b) (broadcastInDim S32768x2 ![] bcast_S_S32768x2 (constantI S_ 32 0#32)) (cellIdx a1) (destIndex a1)
/-- The rows of the pairs, pairs in row-major order, as gather indices. -/
abbrev posIdx : IVec S65536x1 32 := col65536 (wrap65536 69632#32 (shapeCast S65536 (pos a1) shapeCasts_S32768x2_S65536))
/-- The program's result from the region's output `y`: each token's two rows, widened and added. -/
def result (y : FVec F S69632x512 .bf16) : FVec F S8x4096x512 .f32 :=
  shapeCast S8x4096x512
    (Host.reduceAdd
      (shapeCast S32768x2x512 (extf .f32 (Host.gather gather_S69632x512_S65536x1_S65536x512_1_0_n_n_0_1_1512 y (posIdx a1)) bitsLt_bf16_f32) shapeCasts_S65536x512_S32768x2x512)
      (constant S_ .f32 0x00000000#32) reducesTo_S32768x2x512_S32768x512_d1 h_S_)
    shapeCasts_S32768x512_S8x4096x512

end Cert.Kernel.Chain

end
-- ==== Proof.HostValsBits.lean ====
/-
  What the buffers the region reads hold when it is entered, and what the result buffer holds after the lines that
  follow it: each is one of the pure functions of the argument arrays that spell the host lines out.

  The lines before the region are cut in three where a later line joins two earlier values end to end (the
  exclusive prefix sums): a value joined there is first read at the cut, so that the joined pieces are named buffers
  of the valuation at the cut and not lines still to be read.
-/
import proofs.«423054_j31275951850054_3_alg».proof.Proof.EntryBits
import proofs.«423054_j31275951850054_3_alg».proof.Proof.ChainBits
import Idealize.ShloMosaic.Lib.StableHlo.Run
import Idealize.ShloMosaic.Lib.Pipeline.FrameSuffix

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

/-! ## The lines before the region, cut where a later line joins two earlier values end to end -/

/-- The lines up to the running sums of the padded counts. -/
abbrev opsA : List (HloOp τ sig (Elt F)) := hostOps0 ++ (hostOps0_1 ++ (hostOps0_2 ++ (hostOps0_3 ++ (hostOps0_4 ++ hostOps0_5))))
/-- The lines that lay the padded runs out and sum the unpadded counts. -/
abbrev opsB : List (HloOp τ sig (Elt F)) := hostOps0_6 ++ hostOps0_7
/-- The rest of the lines before the region. -/
abbrev opsC : List (HloOp τ sig (Elt F)) := hostOps0_8 ++ (hostOps0_9 ++ (hostOps0_10 ++ (hostOps0_11 ++ (hostOps0_12 ++ (hostOps0_13 ++ hostOps0_14)))))

/-- Core `c`'s buffers after the first cut, and after the second. -/
def EA (c : Dev nD) : Valuation τ sig (Elt F) := StableHlo.after (opsA (F := F)) (fun b => m (c, b))
def EB (c : Dev nD) : Valuation τ sig (Elt F) := StableHlo.after (opsB (F := F)) (EA m c)

theorem V₀_eq (c : Dev nD) : V₀ m c = StableHlo.after (opsC (F := F)) (EB m c) := by
  unfold EB EA
  rw [← StableHlo.after_append, ← StableHlo.after_append]
  simp only [V₀, preOps, opsA, opsB, opsC, List.flatten_cons, List.flatten_nil, List.append_nil, List.append_assoc]

/-- Reads a buffer after a literal list of lines: each line's result at its own buffer, what was there at any other. -/
local macro "read_lines" : tactic =>
  `(tactic| (after_results_simp; try simp only [StableHlo.TRef.ofBuf, StableHlo.TRef.toBuf, cast_eq]))

/-! ### After the first cut: the flattened tokens, the pairs' experts, the sorted order, the counts and the padded counts -/

theorem EA_v0 (c : Dev nD) : EA m c (Proc.devRef .tc main_v0)
    = shapeCast S32768x512 (m ((c : Thread nD τ).loc main_arg0)) shapeCasts_S8x4096x512_S32768x512 := by
  unfold EA
  simp only [opsA, hostOps0, hostOps0_1, hostOps0_2, hostOps0_3, hostOps0_4, hostOps0_5, List.cons_append, List.nil_append]
  read_lines
  all_goals rfl

theorem EA_v6 (c : Dev nD) : EA m c (Proc.devRef .tc main_v6) = Chain.order (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v13 (c : Dev nD) : EA m c (Proc.devRef .tc main_v13) = Chain.sortedExpert (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v20 (c : Dev nD) : EA m c (Proc.devRef .tc main_v20) = Chain.sortedToken (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v29 (c : Dev nD) : EA m c (Proc.devRef .tc main_v29) = Chain.counts (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v36 (c : Dev nD) : EA m c (Proc.devRef .tc main_v36) = Chain.paddedCount (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v37 (c : Dev nD) : EA m c (Proc.devRef .tc main_v37) = broadcastInDim S1 ![] bcast_S_S1 (constantI S_ 32 0#32) := by
  unfold EA
  simp only [opsA, hostOps0, hostOps0_1, hostOps0_2, hostOps0_3, hostOps0_4, hostOps0_5, List.cons_append, List.nil_append]
  read_lines
  all_goals rfl

theorem EA_v38 (c : Dev nD) : EA m c (Proc.devRef .tc main_v38)
    = Chain.cumsum8 (Chain.paddedCount (m ((c : Thread nD τ).loc main_arg1))) := by
  unfold EA
  simp only [opsA, hostOps0, hostOps0_1, hostOps0_2, hostOps0_3, hostOps0_4, hostOps0_5, List.cons_append, List.nil_append]
  read_lines
  all_goals rfl

/-! ### After the second cut: where the padded runs start, the running sums of the counts, and what the cut leaves alone -/

theorem EB_v40 (c : Dev nD) : EB m c (Proc.devRef .tc main_v40) = Chain.paddedStart (m ((c : Thread nD τ).loc main_arg1)) := by
  unfold EB
  simp only [opsB, hostOps0_6, hostOps0_7, List.cons_append, List.nil_append]
  after_results
  rw [EA_v37, EA_v38]
  rfl

theorem EB_v41 (c : Dev nD) : EB m c (Proc.devRef .tc main_v41) = broadcastInDim S1 ![] bcast_S_S1 (constantI S_ 32 0#32) := by
  unfold EB
  simp only [opsB, hostOps0_6, hostOps0_7, List.cons_append, List.nil_append]
  read_lines
  all_goals rfl

theorem EB_v42 (c : Dev nD) : EB m c (Proc.devRef .tc main_v42)
    = Chain.cumsum8 (Chain.counts (m ((c : Thread nD τ).loc main_arg1))) := by
  unfold EB
  simp only [opsB, hostOps0_6, hostOps0_7, List.cons_append, List.nil_append]
  read_lines
  rw [EA_v29]
  rfl

theorem EB_v0 (c : Dev nD) : EB m c (Proc.devRef .tc main_v0)
    = shapeCast S32768x512 (m ((c : Thread nD τ).loc main_arg0)) shapeCasts_S8x4096x512_S32768x512 := by
  unfold EB
  simp only [opsB, hostOps0_6, hostOps0_7, List.cons_append, List.nil_append]
  read_lines
  exact EA_v0 m c

theorem EB_v6 (c : Dev nD) : EB m c (Proc.devRef .tc main_v6) = Chain.order (m ((c : Thread nD τ).loc main_arg1)) := by
  unfold EB
  simp only [opsB, hostOps0_6, hostOps0_7, List.cons_append, List.nil_append]
  read_lines
  exact EA_v6 m c

theorem EB_v13 (c : Dev nD) : EB m c (Proc.devRef .tc main_v13) = Chain.sortedExpert (m ((c : Thread nD τ).loc main_arg1)) := by
  unfold EB
  simp only [opsB, hostOps0_6, hostOps0_7, List.cons_append, List.nil_append]
  read_lines
  exact EA_v13 m c

theorem EB_v20 (c : Dev nD) : EB m c (Proc.devRef .tc main_v20) = Chain.sortedToken (m ((c : Thread nD τ).loc main_arg1)) := by
  unfold EB
  simp only [opsB, hostOps0_6, hostOps0_7, List.cons_append, List.nil_append]
  read_lines
  exact EA_v20 m c

theorem EB_v36 (c : Dev nD) : EB m c (Proc.devRef .tc main_v36) = Chain.paddedCount (m ((c : Thread nD τ).loc main_arg1)) := by
  unfold EB
  simp only [opsB, hostOps0_6, hostOps0_7, List.cons_append, List.nil_append]
  read_lines
  exact EA_v36 m c

/-! ## What the region finds -/

/-- The prefetched table is the expert of each tile. -/
theorem V_tbl (c : Dev nD) : V m c main_v104 = Chain.tileExpert (m ((c : Thread nD τ).loc main_arg1)) := by
  show V₀ m c (Proc.devRef .tc main_v104) = _
  rw [V₀_eq]
  simp only [opsC, hostOps0_8, hostOps0_9, hostOps0_10, hostOps0_11, hostOps0_12, hostOps0_13, hostOps0_14, List.cons_append, List.nil_append]
  read_lines
  rw [EB_v40, EB_v36]
  rfl

theorem tbl_eq : tbl m 0 = Chain.tileExpert (m (((0 : Dev nD) : Thread nD τ).loc main_arg1)) := V_tbl m 0

/-- The row each sorted position is sent to. The running sums of the counts are sliced by the first of the remaining
    lines, and joined to a zero by the second: the two joined pieces are read by hand. -/
theorem V₀_v61 (c : Dev nD) : V₀ m c (Proc.devRef .tc main_v61) = Chain.destIndex (m ((c : Thread nD τ).loc main_arg1)) := by
  rw [V₀_eq]
  simp only [opsC, hostOps0_8, hostOps0_9, hostOps0_10, hostOps0_11, hostOps0_12, hostOps0_13, hostOps0_14, List.cons_append, List.nil_append]
  read_lines
  rw [StableHlo.unary_result, StableHlo.unary_result_ne _ _ _ _ _ _ (by decide)]
  rw [EB_v40, EB_v13, EB_v41, EB_v42]
  rfl

/-- The sorted order and the token of each sorted position stay as the earlier lines left them. -/
theorem V₀_v6 (c : Dev nD) : V₀ m c (Proc.devRef .tc main_v6) = Chain.order (m ((c : Thread nD τ).loc main_arg1)) := by
  rw [V₀_eq]
  simp only [opsC, hostOps0_8, hostOps0_9, hostOps0_10, hostOps0_11, hostOps0_12, hostOps0_13, hostOps0_14, List.cons_append, List.nil_append]
  read_lines
  exact EB_v6 m c

theorem V₀_v20 (c : Dev nD) : V₀ m c (Proc.devRef .tc main_v20) = Chain.sortedToken (m ((c : Thread nD τ).loc main_arg1)) := by
  rw [V₀_eq]
  simp only [opsC, hostOps0_8, hostOps0_9, hostOps0_10, hostOps0_11, hostOps0_12, hostOps0_13, hostOps0_14, List.cons_append, List.nil_append]
  read_lines
  exact EB_v20 m c

/-- The token rows in the padded layout. -/
theorem V_xPadded (c : Dev nD) : V m c main_v112
    = Chain.xPadded (m ((c : Thread nD τ).loc main_arg1)) (m ((c : Thread nD τ).loc main_arg0)) := by
  show V₀ m c (Proc.devRef .tc main_v112) = _
  rw [V₀_eq]
  simp only [opsC, hostOps0_8, hostOps0_9, hostOps0_10, hostOps0_11, hostOps0_12, hostOps0_13, hostOps0_14, List.cons_append, List.nil_append]
  read_lines
  rw [StableHlo.unary_result, StableHlo.unary_result_ne _ _ _ _ _ _ (by decide)]
  rw [EB_v40, EB_v13, EB_v41, EB_v42, EB_v20, EB_v0]
  rfl

/-- The row weights: one half on the occupied rows. -/
theorem V_weight (c : Dev nD) : V m c main_v82 = Chain.weight (F := F) (m ((c : Thread nD τ).loc main_arg1)) := by
  show V₀ m c (Proc.devRef .tc main_v82) = _
  rw [V₀_eq]
  simp only [opsC, hostOps0_8, hostOps0_9, hostOps0_10, hostOps0_11, hostOps0_12, hostOps0_13, hostOps0_14, List.cons_append, List.nil_append]
  read_lines
  rw [StableHlo.unary_result, StableHlo.unary_result_ne _ _ _ _ _ _ (by decide)]
  rw [EB_v40, EB_v13, EB_v41, EB_v42]
  rfl

/-! The experts' matrices and bias rows are one line each from an argument no line writes. -/

theorem V_w1 (c : Dev nD) : V m c main_v113 = Chain.w1 (m ((c : Thread nD τ).loc main_arg2)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

theorem V_b1r (c : Dev nD) : V m c main_v115 = Chain.b1r (m ((c : Thread nD τ).loc main_arg3)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

theorem V_w2 (c : Dev nD) : V m c main_v114 = Chain.w2 (m ((c : Thread nD τ).loc main_arg4)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

theorem V_b2r (c : Dev nD) : V m c main_v116 = Chain.b2r (m ((c : Thread nD τ).loc main_arg5)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

/-! ## The lines after the region

They are cut before the line that joins the token column and the slot column side by side: the two columns are read
at the cut. -/

/-- The lines after the region up to the two index columns, and the lines from the one that joins them on. -/
abbrev opsD : List (HloOp τ sig (Elt F)) := hostOps1 ++ (hostOps1_1 ++ hostOps1_2.take 16)
abbrev opsE : List (HloOp τ sig (Elt F)) := hostOps1_2.drop 16

theorem tail_cut (W : Valuation τ sig (Elt F)) :
    StableHlo.after (postOps (F := F)).flatten W = StableHlo.after (opsE (F := F)) (StableHlo.after (opsD (F := F)) W) := by
  rw [← StableHlo.after_append]
  simp only [postOps, opsD, opsE, List.flatten_cons, List.flatten_nil, List.append_nil, List.append_assoc, List.take_append_drop]

variable (W : Valuation τ sig (Elt F))

/-- The zero table of rows the pairs' rows are written into. -/
theorem D_v118 : StableHlo.after (opsD (F := F)) W (Proc.devRef .tc main_v118)
    = broadcastInDim S32768x2 ![] bcast_S_S32768x2 (constantI S_ 32 0#32) := by
  simp only [opsD, hostOps1, hostOps1_1, hostOps1_2, List.take_succ_cons, List.take_zero, List.cons_append, List.nil_append]
  read_lines
  all_goals rfl

/-- The token column: the token of each sorted position, as a scatter index. -/
theorem D_v130 : StableHlo.after (opsD (F := F)) W (Proc.devRef .tc main_v130)
    = Chain.col65536 (Chain.wrap65536 32768#32 (W (Proc.devRef .tc main_v20))) := by
  simp only [opsD, hostOps1, hostOps1_1, hostOps1_2, List.take_succ_cons, List.take_zero, List.cons_append, List.nil_append]
  read_lines
  all_goals rfl

/-- The slot column: each sorted pair modulo 2, as a scatter index. -/
theorem D_v131 : StableHlo.after (opsD (F := F)) W (Proc.devRef .tc main_v131)
    = Chain.col65536 (Chain.wrap65536 2#32 (Chain.remainderP (W (Proc.devRef .tc main_v6)) (constantI S_ 32 2#32))) := by
  simp only [opsD, hostOps1, hostOps1_1, hostOps1_2, List.take_succ_cons, List.take_zero, List.cons_append, List.nil_append]
  read_lines
  all_goals rfl

/-- These lines write neither the rows of the sorted positions nor the region's output. -/
theorem D_v61 : StableHlo.after (opsD (F := F)) W (Proc.devRef .tc main_v61) = W (Proc.devRef .tc main_v61) := by
  simp only [opsD, hostOps1, hostOps1_1, hostOps1_2, List.take_succ_cons, List.take_zero, List.cons_append, List.nil_append]
  read_lines

theorem D_v117 : StableHlo.after (opsD (F := F)) W (Proc.devRef .tc main_v117) = W (Proc.devRef .tc main_v117) := by
  simp only [opsD, hostOps1, hostOps1_1, hostOps1_2, List.take_succ_cons, List.take_zero, List.cons_append, List.nil_append]
  read_lines

/-- The result buffer after the lines, from any contents that hold the region's output `y`, the sorted order, the
    token and the row of each sorted position. -/
theorem tail_of (a1 : IVec S8x4096x2 32) (y : FVec F S69632x512 .bf16)
    (h117 : W (Proc.devRef .tc main_v117) = y) (h6 : W (Proc.devRef .tc main_v6) = Chain.order a1)
    (h20 : W (Proc.devRef .tc main_v20) = Chain.sortedToken a1) (h61 : W (Proc.devRef .tc main_v61) = Chain.destIndex a1) :
    StableHlo.after (postOps (F := F)).flatten W (Proc.devRef .tc main_v145) = Chain.result a1 y := by
  rw [tail_cut]
  simp only [opsE, hostOps1_2, List.drop_succ_cons, List.drop_zero]
  read_lines
  rw [D_v117, D_v118, D_v130, D_v131, D_v61, h117, h6, h20, h61]
  rfl

theorem tail_result (hO : Ok m) (c : Dev nD) :
    Pipeline.afterTail pcfgs (fun _ => adm m hO) (dats m hO) 0 (V₀ m) postOps c main_v145
      = Chain.result (m ((c : Thread nD τ).loc main_arg1)) ((dats m hO 0 c).arrAt 6 (cfgM m hO).N) := by
  unfold Pipeline.afterTail
  exact tail_of _ _ _
    (Pipeline.withArrays_arr spec0 winFacts0.arr_inj c (V₀ m c) (fun w => (dats m hO 0 c).arrAt w (cfgM m hO).N) 6)
    ((Pipeline.withArrays_of_ne spec0 c (V₀ m c) _ main_v6 (by decide)).trans (V₀_v6 m c))
    ((Pipeline.withArrays_of_ne spec0 c (V₀ m c) _ main_v20 (by decide)).trans (V₀_v20 m c))
    ((Pipeline.withArrays_of_ne spec0 c (V₀ m c) _ main_v61 (by decide)).trans (V₀_v61 m c))

end Cert.Kernel.Hand

end
-- ==== Proof.OkOfRangeBits.lean ====
/-
  The prefetched table of the one pipelined region, read as facts about its words.

  The region prefetches one table of 136 words, one per grid point. The index maps of four of its
  windows read the word w of the grid point and return the block index (max(w, 0), 0, 0) into an
  array of 8 blocks along its leading axis; the body's two conditions test the sign of w.

  When every word of the table is either −1 or a natural number below 8, max(w, 0) is below 8 at
  every grid point, so every block lies inside its array: this is the pipeline's side condition.
  The two windows of 16-bit elements also owe that their transfers' ends are whole words; their
  blocks take every row of the slabs they meet (512 of 512, 2048 of 2048), whatever the block index.

  Nothing here looks at what the table holds: its contents are a variable throughout.
-/
import proofs.«423054_j31275951850054_3_alg».proof.Proof.Gen.Kernel
import Idealize.ShloMosaic.Lib.SortFacts
import Idealize.ShloMosaic.Lib.Affine
import Mathlib.Tactic.FinCases

noncomputable section

namespace Cert.Kernel.Hand

open Cert.Kernel Idealize.ShloMosaic

variable {F : FTy → Type} [FloatOps F]
variable [Facts]
open Facts₀ Facts

/-! ## The two conditions and the block index, as facts about a word -/

/-- The first condition holds exactly when the word, read signed, is not negative. -/
theorem cond1_iff (w : BitVec 32) : k0_cond1 w = 1#1 ↔ 0 ≤ w.toInt := by
  show Scalar.cmpi .ne (Scalar.extui (Scalar.cmpi .sge w 0#32)) 0#32 = 1#1 ↔ _
  rw [Scalar.guard_iff, Scalar.cmpi, IntOp.cmpi_sge, show (0#32 : BitVec 32).toInt = 0 from by decide]

/-- The second condition is the first one negated: it holds exactly when the word is negative. -/
theorem cond2_iff (w : BitVec 32) : k0_cond2 w = 1#1 ↔ w.toInt < 0 := by
  show Scalar.cmpi .ne (Scalar.extui (Scalar.xori (Scalar.cmpi .sge w 0#32) 1#1)) 0#32 = 1#1 ↔ _
  rw [Scalar.guard_iff]
  have hx : ∀ c : BitVec 1, Scalar.xori c 1#1 = 1#1 ↔ ¬ c = 1#1 := by decide
  rw [hx, Scalar.cmpi, IntOp.cmpi_sge, show (0#32 : BitVec 32).toInt = 0 from by decide]
  omega

/-- A word below 8 unsigned reads the same signed. -/
theorem toInt_of_nat (w : BitVec 32) (h : w.toNat < 8) : w.toInt = w.toNat :=
  BitVec.toInt_eq_toNat_of_lt (by omega)

theorem cond1_of_nat (w : BitVec 32) (h : w.toNat < 8) : k0_cond1 w = 1#1 := by
  rw [cond1_iff, toInt_of_nat w h]; omega

theorem cond1_of_neg1 : k0_cond1 4294967295#32 ≠ 1#1 := by
  rw [Ne, cond1_iff]; decide

theorem cond2_of_nat (w : BitVec 32) (h : w.toNat < 8) : k0_cond2 w ≠ 1#1 := by
  rw [Ne, cond2_iff, toInt_of_nat w h]; omega

theorem cond2_of_neg1 : k0_cond2 4294967295#32 = 1#1 := by
  rw [cond2_iff]; decide

/-- max(w, 0) of a word below 8 is the word. -/
theorem maxsi_of_nat (w : BitVec 32) (h : w.toNat < 8) : (Scalar.maxsi w 0#32).toNat = w.toNat := by
  rw [Scalar.maxsi_zero_of_nonneg (by omega)]

/-- max(−1, 0) = 0. -/
theorem maxsi_of_neg1 : (Scalar.maxsi 4294967295#32 0#32).toNat = 0 := by decide

/-! ## The word of a grid point -/

/-- The offset of grid point i's word lies inside the table of 136 words. -/
theorem off1_inb (i : grid0.Coords) : ∀ a, k0_off1 i a + 1 ≤ S136.size a := fun a => by
  have ha : a = 0 := Subsingleton.elim _ _
  subst ha
  exact k0_off1_inb i 0

/-- The table's word at offsets inside it is its entry there. -/
theorem atD_pos (pf : pre0.Contents (Elt F)) (off : Fin 1 → Nat) (h : ∀ a, off a + 1 ≤ S136.size a) :
    pf.atD 0 off = pf 0 (fun a => ⟨off a, h a⟩) := dif_pos h

/-- The word an index map reads through the unit rectangle at grid point i's offset is the word at that offset. -/
theorem at_eq_atD (pf : pre0.Contents (Elt F)) (i : grid0.Coords) :
    pf.at 0 (Rect.unit (s := S136) (k0_off1 i) S1.size (k0_off1_inb i)) numel1_S1 = pf.atD 0 (k0_off1 i) :=
  (atD_pos pf (k0_off1 i) (off1_inb i)).symm

/-- Grid point i's offset is the index i of the table. -/
theorem idx_eq (i : grid0.Coords) :
    ((fun a => ⟨k0_off1 i a, off1_inb i a⟩ : S136.Idx)) = Shape.Idx.ofFin (n := 136) ⟨(i 0).val, (i 0).isLt⟩ := by
  funext a
  have ha : a = 0 := Subsingleton.elim _ _
  subst ha
  apply Fin.ext
  show k0_off1 i 0 = (i 0).val
  rw [Gen.k0_off1_eq]; rfl

/-- The word for grid point i is the table's entry i. -/
theorem atD_eq (pf : pre0.Contents (Elt F)) (i : grid0.Coords) :
    pf.atD 0 (k0_off1 i) = pf 0 (Shape.Idx.ofFin (n := 136) ⟨(i 0).val, (i 0).isLt⟩) := by
  rw [atD_pos pf (k0_off1 i) (off1_inb i)]
  exact congrArg (pf 0) (idx_eq i)

/-! ## The four index maps that read the table: block (max(w, 0), 0, 0) -/

theorem transform1_at (pf : pre0.Contents (Elt F)) (i : grid0.Coords) :
    cc0_transform_1 k0_off1_inb numel1_S1 pf i
      = ![(Scalar.maxsi (pf.at 0 (Rect.unit (s := S136) (k0_off1 i) S1.size (k0_off1_inb i)) numel1_S1) 0#32).toNat, 0, 0] := rfl

theorem transform1_eq (pf : pre0.Contents (Elt F)) (i : grid0.Coords) :
    cc0_transform_1 k0_off1_inb numel1_S1 pf i = ![(Scalar.maxsi (pf.atD 0 (k0_off1 i)) 0#32).toNat, 0, 0] :=
  (transform1_at pf i).trans (congrArg (fun w : BitVec 32 => ![(Scalar.maxsi w 0#32).toNat, 0, 0]) (at_eq_atD pf i))

theorem transform2_at (pf : pre0.Contents (Elt F)) (i : grid0.Coords) :
    cc0_transform_2 k0_off1_inb numel1_S1 pf i
      = ![(Scalar.maxsi (pf.at 0 (Rect.unit (s := S136) (k0_off1 i) S1.size (k0_off1_inb i)) numel1_S1) 0#32).toNat, 0, 0] := rfl

theorem transform2_eq (pf : pre0.Contents (Elt F)) (i : grid0.Coords) :
    cc0_transform_2 k0_off1_inb numel1_S1 pf i = ![(Scalar.maxsi (pf.atD 0 (k0_off1 i)) 0#32).toNat, 0, 0] :=
  (transform2_at pf i).trans (congrArg (fun w : BitVec 32 => ![(Scalar.maxsi w 0#32).toNat, 0, 0]) (at_eq_atD pf i))

theorem transform3_at (pf : pre0.Contents (Elt F)) (i : grid0.Coords) :
    cc0_transform_3 k0_off1_inb numel1_S1 pf i
      = ![(Scalar.maxsi (pf.at 0 (Rect.unit (s := S136) (k0_off1 i) S1.size (k0_off1_inb i)) numel1_S1) 0#32).toNat, 0, 0] := rfl

theorem transform3_eq (pf : pre0.Contents (Elt F)) (i : grid0.Coords) :
    cc0_transform_3 k0_off1_inb numel1_S1 pf i = ![(Scalar.maxsi (pf.atD 0 (k0_off1 i)) 0#32).toNat, 0, 0] :=
  (transform3_at pf i).trans (congrArg (fun w : BitVec 32 => ![(Scalar.maxsi w 0#32).toNat, 0, 0]) (at_eq_atD pf i))

theorem transform4_at (pf : pre0.Contents (Elt F)) (i : grid0.Coords) :
    cc0_transform_4 k0_off1_inb numel1_S1 pf i
      = ![(Scalar.maxsi (pf.at 0 (Rect.unit (s := S136) (k0_off1 i) S1.size (k0_off1_inb i)) numel1_S1) 0#32).toNat, 0, 0] := rfl

theorem transform4_eq (pf : pre0.Contents (Elt F)) (i : grid0.Coords) :
    cc0_transform_4 k0_off1_inb numel1_S1 pf i = ![(Scalar.maxsi (pf.atD 0 (k0_off1 i)) 0#32).toNat, 0, 0] :=
  (transform4_at pf i).trans (congrArg (fun w : BitVec 32 => ![(Scalar.maxsi w 0#32).toNat, 0, 0]) (at_eq_atD pf i))

/-! ## The pipeline's side condition from the table's range -/

/-- With every word −1 or below 8, the block index read at any grid point is below 8. -/
theorem blk_lt (pf : pre0.Contents (Elt F))
    (h : ∀ i : Fin 136, pf 0 (Shape.Idx.ofFin i) = 4294967295#32 ∨ (pf 0 (Shape.Idx.ofFin i)).toNat < 8) (i : grid0.Coords) :
    (Scalar.maxsi (pf.atD 0 (k0_off1 i)) 0#32).toNat < 8 := by
  rw [atD_eq]
  rcases h ⟨(i 0).val, (i 0).isLt⟩ with e | e
  · rw [e, maxsi_of_neg1]; omega
  · rw [maxsi_of_nat _ e]; exact e

/-- Block (n, 0, 0) of sizes (1, b, c) lies inside an array of sizes (8, b, c) when n < 8. -/
theorem blk_inb {n b c : Nat} (hn : n < 8) :
    ∀ a, ((![n, 0, 0] : Fin 3 → Nat) a + 1) * (⟨3, ![1, b, c]⟩ : Shape).size a ≤ (⟨3, ![8, b, c]⟩ : Shape).size a := by
  intro a
  fin_cases a
  · show (n + 1) * 1 ≤ 8
    omega
  · show (0 + 1) * b ≤ b
    omega
  · show (0 + 1) * c ≤ c
    omega

theorem ok0_of_range (pf : pre0.Contents (Elt F))
    (h : ∀ i : Fin 136, pf 0 (Shape.Idx.ofFin i) = 4294967295#32 ∨ (pf 0 (Shape.Idx.ofFin i)).toNat < 8) :
    ok0 (F := F) pf := by
  refine ⟨fun i => ?_, fun i => ?_, fun i => ?_, fun i => ?_⟩
  · have hinb : ∀ a, (cc0_transform_1 k0_off1_inb numel1_S1 pf i a + 1) * S1x512x2048.size a ≤ S8x512x2048.size a := by
      rw [transform1_eq]; exact blk_inb (blk_lt pf h i)
    exact ⟨hinb, Or.inr (Affine.block_words_rows (by decide) rfl)⟩
  · have hinb : ∀ a, (cc0_transform_2 k0_off1_inb numel1_S1 pf i a + 1) * S1x1x2048.size a ≤ S8x1x2048.size a := by
      rw [transform2_eq]; exact blk_inb (blk_lt pf h i)
    exact ⟨hinb, Or.inl rfl⟩
  · have hinb : ∀ a, (cc0_transform_3 k0_off1_inb numel1_S1 pf i a + 1) * S1x2048x512.size a ≤ S8x2048x512.size a := by
      rw [transform3_eq]; exact blk_inb (blk_lt pf h i)
    exact ⟨hinb, Or.inr (Affine.block_words_rows (by decide) rfl)⟩
  · have hinb : ∀ a, (cc0_transform_4 k0_off1_inb numel1_S1 pf i a + 1) * S1x1x512.size a ≤ S8x1x512.size a := by
      rw [transform4_eq]; exact blk_inb (blk_lt pf h i)
    exact ⟨hinb, Or.inl rfl⟩

end Cert.Kernel.Hand
-- ==== Proof.LibGroupLayout.lean ====
import Mathlib.Data.Fintype.Card
import Mathlib.Data.Fintype.BigOperators
import Mathlib.Algebra.BigOperators.Fin
import Mathlib.Algebra.Order.BigOperators.Group.Finset
import Mathlib.Order.Interval.Finset.Fin

/-!
# Layout of key-grouped, tile-padded runs

A list of `n` items is sorted by an integer key in `[0, E)`.  Key `e` occurs `cnt e` times; its run
is padded up to a multiple of the tile height `T`, and the padded runs are laid end to end.  The item
at sorted position `j` with key `e` goes to row `padStart e + (j - runStart e)`.

This file proves the arithmetic of that layout: the position of an item inside its run is determined
by counting (`rank_bounds`, `offset_bounds`), the row map is injective and in range
(`dest_injective`, `padStart_add_padCnt_le_total`), every row of key `e` lies in a tile owned by
`e` (`tile_of_dest`), and a tile has at most one owner (`tile_owner_unique`).
-/

namespace Cert.Moe

open Finset

/-- In a sequence sorted through the bijection `σ`, the number of items whose key is strictly below
that of position `j` is at most `j`, and the number whose key is at most that of position `j` exceeds
`j`: the former all sit before `j`, and the positions `0..j` all carry keys of the latter kind. -/
theorem rank_bounds {n : ℕ} (key : Fin n → ℕ) (σ : Fin n → Fin n) (hσ : Function.Bijective σ)
    (hs : ∀ i j : Fin n, i ≤ j → key (σ i) ≤ key (σ j)) (j : Fin n) :
    (Finset.univ.filter fun p : Fin n => key p < key (σ j)).card ≤ j.val ∧
      j.val < (Finset.univ.filter fun p : Fin n => key p ≤ key (σ j)).card := by
  constructor
  · have hsub : (Finset.univ.filter fun p : Fin n => key p < key (σ j)) ⊆
        (Finset.Iio j).image σ := by
      intro p hp
      rw [Finset.mem_filter] at hp
      obtain ⟨i, rfl⟩ := hσ.2 p
      rw [Finset.mem_image]
      refine ⟨i, ?_, rfl⟩
      rw [Finset.mem_Iio]
      by_contra hij
      exact absurd (hs j i (not_lt.mp hij)) (not_le.mpr hp.2)
    calc (Finset.univ.filter fun p : Fin n => key p < key (σ j)).card
        ≤ ((Finset.Iio j).image σ).card := Finset.card_le_card hsub
      _ ≤ (Finset.Iio j).card := Finset.card_image_le
      _ = j.val := Fin.card_Iio j
  · have hsub : (Finset.Iic j).image σ ⊆
        (Finset.univ.filter fun p : Fin n => key p ≤ key (σ j)) := by
      intro p hp
      rw [Finset.mem_image] at hp
      obtain ⟨i, hi, rfl⟩ := hp
      rw [Finset.mem_filter]
      exact ⟨Finset.mem_univ _, hs i j (Finset.mem_Iic.mp hi)⟩
    have hcard : ((Finset.Iic j).image σ).card = j.val + 1 := by
      rw [Finset.card_image_of_injective _ hσ.1, Fin.card_Iic]
    have hle := Finset.card_le_card hsub
    omega

/-- A strict prefix sum plus its next term is at most any later strict prefix sum. -/
theorem prefixSum_add_le {E : ℕ} (f : Fin E → ℕ) {e e' : Fin E} (h : e < e') :
    (∑ x ∈ Finset.univ.filter (fun x : Fin E => x < e), f x) + f e ≤
      ∑ x ∈ Finset.univ.filter (fun x : Fin E => x < e'), f x := by
  have hne : e ∉ Finset.univ.filter (fun x : Fin E => x < e) := by
    rw [Finset.mem_filter]
    exact fun hx => lt_irrefl e hx.2
  rw [add_comm, ← Finset.sum_insert hne]
  apply Finset.sum_le_sum_of_subset
  intro x hx
  rw [Finset.mem_insert] at hx
  rw [Finset.mem_filter]
  refine ⟨Finset.mem_univ _, ?_⟩
  rcases hx with rfl | hx
  · exact h
  · exact lt_trans (Finset.mem_filter.mp hx).2 h

/-- A strict prefix sum plus its next term is at most the full sum. -/
theorem prefixSum_add_le_sum {E : ℕ} (f : Fin E → ℕ) (e : Fin E) :
    (∑ x ∈ Finset.univ.filter (fun x : Fin E => x < e), f x) + f e ≤ ∑ x, f x := by
  have hne : e ∉ Finset.univ.filter (fun x : Fin E => x < e) := by
    rw [Finset.mem_filter]
    exact fun hx => lt_irrefl e hx.2
  rw [add_comm, ← Finset.sum_insert hne]
  exact Finset.sum_le_sum_of_subset (Finset.subset_univ _)

section Layout

variable {E : ℕ} (T : ℕ) (cnt : Fin E → ℕ)

/-- The run of key `e`, padded up to a multiple of `T`. -/
def padCnt (e : Fin E) : ℕ := (cnt e + T - 1) / T * T

/-- First row of the padded run of key `e`: the padded lengths of the smaller keys. -/
def padStart (e : Fin E) : ℕ :=
  ∑ e' ∈ Finset.univ.filter (fun e' : Fin E => e' < e), padCnt T cnt e'

/-- First sorted position of key `e`: the run lengths of the smaller keys. -/
def runStart (e : Fin E) : ℕ := ∑ e' ∈ Finset.univ.filter (fun e' : Fin E => e' < e), cnt e'

theorem cnt_le_padCnt (hT : 0 < T) (e : Fin E) : cnt e ≤ padCnt T cnt e := by
  unfold padCnt
  have h := Nat.lt_div_mul_add (a := cnt e + T - 1) hT
  omega

theorem padCnt_le (hT : 0 < T) (e : Fin E) : padCnt T cnt e ≤ cnt e + (T - 1) := by
  unfold padCnt
  have h := Nat.div_mul_le_self (cnt e + T - 1) T
  omega

theorem dvd_padCnt (e : Fin E) : T ∣ padCnt T cnt e :=
  Nat.dvd_mul_left T _

theorem dvd_padStart (e : Fin E) : T ∣ padStart T cnt e :=
  Finset.dvd_sum fun e' _ => dvd_padCnt T cnt e'

theorem padCnt_div (hT : 0 < T) (e : Fin E) : padCnt T cnt e / T = (cnt e + T - 1) / T :=
  Nat.mul_div_cancel _ hT

theorem filter_lt_zero (h : 0 < E) :
    Finset.univ.filter (fun e' : Fin E => e' < ⟨0, h⟩) = ∅ := by
  apply Finset.filter_eq_empty_iff.mpr
  intro x _ hx
  exact Nat.not_lt_zero _ (Fin.lt_def.mp hx)

theorem filter_lt_succ (k : ℕ) (hk : k + 1 < E) :
    Finset.univ.filter (fun e' : Fin E => e' < ⟨k + 1, hk⟩) =
      Finset.univ.filter (fun e' : Fin E => e'.val ≤ k) := by
  apply Finset.filter_congr
  intro x _
  rw [Fin.lt_def]
  exact Nat.lt_succ_iff

theorem padStart_zero (h : 0 < E) : padStart T cnt ⟨0, h⟩ = 0 := by
  unfold padStart
  rw [filter_lt_zero h, Finset.sum_empty]

theorem runStart_zero (h : 0 < E) : runStart cnt ⟨0, h⟩ = 0 := by
  unfold runStart
  rw [filter_lt_zero h, Finset.sum_empty]

/-- The start of key `k + 1` is the inclusive prefix sum through key `k`. -/
theorem padStart_succ (k : ℕ) (hk : k + 1 < E) :
    padStart T cnt ⟨k + 1, hk⟩ =
      ∑ e' ∈ Finset.univ.filter (fun e' : Fin E => e'.val ≤ k), padCnt T cnt e' := by
  unfold padStart
  rw [filter_lt_succ k hk]

theorem runStart_succ (k : ℕ) (hk : k + 1 < E) :
    runStart cnt ⟨k + 1, hk⟩ =
      ∑ e' ∈ Finset.univ.filter (fun e' : Fin E => e'.val ≤ k), cnt e' := by
  unfold runStart
  rw [filter_lt_succ k hk]

/-- Padded runs do not overlap: a later run starts after an earlier one ends. -/
theorem padStart_add_padCnt_le {e e' : Fin E} (h : e < e') :
    padStart T cnt e + padCnt T cnt e ≤ padStart T cnt e' :=
  prefixSum_add_le (padCnt T cnt) h

/-- Every padded run ends within `n + E * (T - 1)` rows. -/
theorem padStart_add_padCnt_le_total (hT : 0 < T) (e : Fin E) :
    padStart T cnt e + padCnt T cnt e ≤ (∑ e, cnt e) + E * (T - 1) := by
  calc padStart T cnt e + padCnt T cnt e
      ≤ ∑ x, padCnt T cnt x := prefixSum_add_le_sum (padCnt T cnt) e
    _ ≤ ∑ x : Fin E, (cnt x + (T - 1)) :=
        Finset.sum_le_sum fun x _ => padCnt_le T cnt hT x
    _ = (∑ e, cnt e) + E * (T - 1) := by
        rw [Finset.sum_add_distrib, Finset.sum_const, Finset.card_univ, Fintype.card_fin,
          smul_eq_mul]

/-- A row of key `e` lies strictly before the start of any later key. -/
theorem dest_lt_padStart (hT : 0 < T) {e e' : Fin E} {off : ℕ} (h : off < cnt e) (hlt : e < e') :
    padStart T cnt e + off < padStart T cnt e' := by
  have h1 := cnt_le_padCnt T cnt hT e
  have h2 := padStart_add_padCnt_le T cnt hlt
  omega

/-- The row map `(e, off) ↦ padStart e + off`, `off < cnt e`, is injective. -/
theorem dest_injective (hT : 0 < T) {e e' : Fin E} {off off' : ℕ} (h : off < cnt e)
    (h' : off' < cnt e') (heq : padStart T cnt e + off = padStart T cnt e' + off') :
    e = e' ∧ off = off' := by
  have hee : e = e' := by
    rcases lt_trichotomy e e' with hlt | heq' | hgt
    · have := dest_lt_padStart T cnt hT h hlt
      omega
    · exact heq'
    · have := dest_lt_padStart T cnt hT h' hgt
      omega
  subst hee
  exact ⟨rfl, Nat.add_left_cancel heq⟩

/-- The tile of a row of key `e` is one of the tiles of the padded run of `e`. -/
theorem tile_of_dest (hT : 0 < T) (e : Fin E) (off : ℕ) (h : off < cnt e) :
    padStart T cnt e / T ≤ (padStart T cnt e + off) / T ∧
      (padStart T cnt e + off) / T < padStart T cnt e / T + padCnt T cnt e / T := by
  constructor
  · exact Nat.div_le_div_right (Nat.le_add_right _ _)
  · obtain ⟨a, ha⟩ := dvd_padStart T cnt e
    have hc := cnt_le_padCnt T cnt hT e
    rw [padCnt_div T cnt hT e]
    have hq : padCnt T cnt e = (cnt e + T - 1) / T * T := rfl
    rw [ha, Nat.mul_add_div hT, Nat.mul_div_cancel_left _ hT]
    have : off / T < (cnt e + T - 1) / T := by
      rw [Nat.div_lt_iff_lt_mul hT]
      omega
    omega

/-- A tile belongs to the padded run of at most one key. -/
theorem tile_owner_unique (hT : 0 < T) (i : ℕ) {e e' : Fin E}
    (h : padStart T cnt e / T ≤ i ∧ i < padStart T cnt e / T + padCnt T cnt e / T)
    (h' : padStart T cnt e' / T ≤ i ∧ i < padStart T cnt e' / T + padCnt T cnt e' / T) :
    e = e' := by
  have key : ∀ {a b : Fin E}, a < b →
      padStart T cnt a / T + padCnt T cnt a / T ≤ padStart T cnt b / T := by
    intro a b hab
    have h1 := padStart_add_padCnt_le T cnt hab
    obtain ⟨k, hk⟩ := dvd_padStart T cnt a
    rw [hk] at h1 ⊢
    rw [Nat.mul_div_cancel_left _ hT, ← Nat.mul_add_div hT]
    exact Nat.div_le_div_right h1
  rcases lt_trichotomy e e' with hlt | heq | hgt
  · have := key hlt
    omega
  · exact heq
  · have := key hgt
    omega

/-- With `cnt` the histogram of `key`, the run start of `e` counts the items of smaller key. -/
theorem runStart_eq_card {n : ℕ} (key : Fin n → Fin E) (e : Fin E) :
    runStart (fun e => (Finset.univ.filter fun p : Fin n => key p = e).card) e =
      (Finset.univ.filter fun p : Fin n => key p < e).card := by
  unfold runStart
  have hmaps : ∀ p ∈ Finset.univ.filter (fun p : Fin n => key p < e),
      key p ∈ Finset.univ.filter (fun e' : Fin E => e' < e) := by
    intro p hp
    rw [Finset.mem_filter] at hp ⊢
    exact ⟨Finset.mem_univ _, hp.2⟩
  rw [Finset.card_eq_sum_card_fiberwise hmaps]
  apply Finset.sum_congr rfl
  intro b hb
  rw [Finset.mem_filter] at hb
  show (Finset.univ.filter fun p : Fin n => key p = b).card = _
  rw [Finset.filter_filter]
  refine congrArg Finset.card ?_
  apply Finset.filter_congr
  intro p _
  constructor
  · intro hp
    exact ⟨hp ▸ hb.2, hp⟩
  · exact fun hp => hp.2

/-- The histogram of `key` sums to the number of items. -/
theorem sum_cnt_eq {n : ℕ} (key : Fin n → Fin E) :
    ∑ e, (Finset.univ.filter fun p : Fin n => key p = e).card = n := by
  have h := Finset.card_eq_sum_card_fiberwise (s := (Finset.univ : Finset (Fin n)))
    (t := (Finset.univ : Finset (Fin E))) (f := key) (fun _ _ => Finset.mem_univ _)
  rw [← h, Finset.card_univ, Fintype.card_fin]

/-- Sorted position `j` lies inside the run of its own key. -/
theorem offset_bounds {n : ℕ} (key : Fin n → Fin E) (σ : Fin n → Fin n)
    (hσ : Function.Bijective σ) (hs : ∀ i j : Fin n, i ≤ j → key (σ i) ≤ key (σ j)) (j : Fin n) :
    runStart (fun e => (Finset.univ.filter fun p : Fin n => key p = e).card) (key (σ j)) ≤ j.val ∧
      j.val - runStart (fun e => (Finset.univ.filter fun p : Fin n => key p = e).card)
          (key (σ j)) <
        (Finset.univ.filter fun p : Fin n => key p = key (σ j)).card := by
  rw [runStart_eq_card]
  obtain ⟨h1, h2⟩ := rank_bounds (fun p => (key p).val) σ hσ (fun i j hij => hs i j hij) j
  have e1 : (Finset.univ.filter fun p : Fin n => (key p).val < (key (σ j)).val) =
      Finset.univ.filter fun p : Fin n => key p < key (σ j) :=
    Finset.filter_congr fun p _ => Fin.lt_def.symm
  have e2 : (Finset.univ.filter fun p : Fin n => (key p).val ≤ (key (σ j)).val) =
      (Finset.univ.filter fun p : Fin n => key p < key (σ j)) ∪
        Finset.univ.filter fun p : Fin n => key p = key (σ j) := by
    rw [← Finset.filter_or]
    apply Finset.filter_congr
    intro p _
    rw [← Fin.le_def]
    exact le_iff_lt_or_eq
  have hdisj : Disjoint (Finset.univ.filter fun p : Fin n => key p < key (σ j))
      (Finset.univ.filter fun p : Fin n => key p = key (σ j)) := by
    rw [Finset.disjoint_filter]
    intro p _ hlt heq
    exact absurd heq (ne_of_lt hlt)
  rw [e1] at h1
  rw [e2, Finset.card_union_of_disjoint hdisj] at h2
  constructor
  · exact h1
  · omega

end Layout

end Cert.Moe
-- ==== Proof.HostSpecBits.lean ====
/-
  The routing tables read as natural numbers: what each stage of the host's integer chain computes, stated as
  facts about `Chain`'s definitions, so that each stage is proved from the stage before it as a hypothesis.

  P = 65536 pairs; pair p has expert `key p` in [0, 8) (under `InRange`); `cnt e` pairs have expert e; a bijection σ of
  the pairs lists them in order of their experts; the pair at sorted position j goes to row
  `dest σ j = padStart (key (σ j)) + (j − runStart (key (σ j)))` of a layout in which expert e owns the rows from
  `padStart e` on, `padCnt e` of them (its count rounded up to whole tiles of 512 rows).
-/
import proofs.«423054_j31275951850054_3_alg».proof.Proof.ChainBits
import proofs.«423054_j31275951850054_3_alg».proof.Proof.LibGroupLayout
import Idealize.ShloMosaic.Lib.SortFacts

noncomputable section

namespace Cert.Kernel.Host

open Cert.Kernel Cert.Kernel.Chain Cert.Moe Idealize.ShloMosaic
open Facts₀ Facts

variable [Facts] (a1 : IVec S8x4096x2 32)

/-- Every entry of the assignment array is an expert's number: a word in [0, 8). -/
def InRange : Prop := ∀ i : S8x4096x2.Idx, (a1 i).toNat < 8

/-- The expert of pair `p`, as a number. -/
def key (p : Fin 65536) : ℕ := (pairExpert a1 (Shape.Idx.ofFin p)).toNat
/-- The number of pairs of expert `e`. -/
def cnt (e : Fin 8) : ℕ := (Finset.univ.filter fun p : Fin 65536 => key a1 p = e.val).card

/-- The experts are in range, pair by pair. -/
structure KeyFacts : Prop where
  key_lt : ∀ p : Fin 65536, key a1 p < 8
  pairExpert_eq : ∀ p : Fin 65536, pairExpert a1 (Shape.Idx.ofFin p) = BitVec.ofNat 32 (key a1 p)

/-- The expert of pair `p` as an element of `Fin 8`. -/
def keyF (hk : KeyFacts a1) (p : Fin 65536) : Fin 8 := ⟨key a1 p, hk.key_lt p⟩

/-- What the counting stage computes: the counts, the padded counts, both kinds of run starts, and the runs in tiles. -/
structure CountFacts : Prop where
  counts_eq : ∀ e : Fin 8, counts a1 (Shape.Idx.ofFin e) = BitVec.ofNat 32 (cnt a1 e)
  paddedCount_eq : ∀ e : Fin 8, paddedCount a1 (Shape.Idx.ofFin e) = BitVec.ofNat 32 (padCnt 512 (cnt a1) e)
  paddedStart_eq : ∀ e : Fin 8, paddedStart a1 (Shape.Idx.ofFin e) = BitVec.ofNat 32 (padStart 512 (cnt a1) e)
  unpaddedStart_eq : ∀ e : Fin 8, unpaddedStart a1 (Shape.Idx.ofFin e) = BitVec.ofNat 32 (runStart (cnt a1) e)
  tileStart_eq : ∀ e : Fin 8, tileStart a1 (Shape.Idx.ofFin e) = BitVec.ofNat 32 (padStart 512 (cnt a1) e / 512)
  tileCount_eq : ∀ e : Fin 8, tileCount a1 (Shape.Idx.ofFin e) = BitVec.ofNat 32 (padCnt 512 (cnt a1) e / 512)
  sum_cnt : ∑ e : Fin 8, cnt a1 e = 65536

/-- Tile `i` is one of expert `e`'s. -/
def Owns (e : Fin 8) (i : ℕ) : Prop :=
  padStart 512 (cnt a1) e / 512 ≤ i ∧ i < padStart 512 (cnt a1) e / 512 + padCnt 512 (cnt a1) e / 512

/-- What the table stage computes: a tile's word is its owner's number, or −1 when it has no owner. -/
structure TableFacts : Prop where
  of_owner : ∀ (i : Fin 136) (e : Fin 8), Owns a1 e i.val → tileExpert a1 (Shape.Idx.ofFin i) = BitVec.ofNat 32 e.val
  of_no_owner : ∀ i : Fin 136, (∀ e : Fin 8, ¬ Owns a1 e i.val) → tileExpert a1 (Shape.Idx.ofFin i) = 4294967295#32

/-- The row the pair at sorted position `j` is sent to, for an ordering σ of the pairs. -/
def dest (hk : KeyFacts a1) (σ : Fin 65536 → Fin 65536) (j : Fin 65536) : ℕ :=
  padStart 512 (cnt a1) (keyF a1 hk (σ j)) + (j.val - runStart (cnt a1) (keyF a1 hk (σ j)))

/-- What the sorting stage computes, for its ordering σ: σ lists the pairs in order of their experts, and at each
    sorted position the expert, token and slot of the pair there and its destination row. -/
structure SortFacts (hk : KeyFacts a1) (σ : Fin 65536 → Fin 65536) : Prop where
  bij : Function.Bijective σ
  sorted : ∀ i j : Fin 65536, i ≤ j → key a1 (σ i) ≤ key a1 (σ j)
  order_eq : ∀ j : Fin 65536, order a1 (Shape.Idx.ofFin j) = BitVec.ofNat 32 (σ j).val
  sortedExpert_eq : ∀ j : Fin 65536, sortedExpert a1 (Shape.Idx.ofFin j) = BitVec.ofNat 32 (key a1 (σ j))
  sortedToken_eq : ∀ j : Fin 65536, sortedToken a1 (Shape.Idx.ofFin j) = BitVec.ofNat 32 ((σ j).val / 2)
  sortedSlot_eq : ∀ j : Fin 65536, sortedSlot a1 (Shape.Idx.ofFin j) = BitVec.ofNat 32 ((σ j).val % 2)
  offset_lt : ∀ j : Fin 65536, runStart (cnt a1) (keyF a1 hk (σ j)) ≤ j.val ∧ j.val - runStart (cnt a1) (keyF a1 hk (σ j)) < cnt a1 (keyF a1 hk (σ j))
  destIndex_eq : ∀ j : Fin 65536, destIndex a1 (Shape.Idx.ofFin j) = BitVec.ofNat 32 (dest a1 hk σ j)
  dest_lt : ∀ j : Fin 65536, dest a1 hk σ j < 69632
  dest_inj : ∀ i j : Fin 65536, dest a1 hk σ i = dest a1 hk σ j → i = j

/-- What the value proof needs of the whole chain: each pair `p` (token p / 2, slot p % 2) has a row `row p`
    such that the cell's entry of `pos` is that row, the row's tile belongs to the pair's expert, the row holds the
    pair's token, and the row is marked occupied. -/
structure RowFacts (row : Fin 65536 → Fin 69632) : Prop where
  pos_eq : ∀ p : Fin 65536, shapeCast S65536 (pos a1) shapeCasts_S32768x2_S65536 (Shape.Idx.ofFin p) = BitVec.ofNat 32 (row p).val
  tile_eq : ∀ p : Fin 65536, ∀ h : (row p).val / 512 < 136, tileExpert a1 (Shape.Idx.ofFin ⟨(row p).val / 512, h⟩) = BitVec.ofNat 32 (key a1 p)
  token_eq : ∀ p : Fin 65536, paddedToken a1 (Shape.Idx.ofFin (row p)) = BitVec.ofNat 32 (p.val / 2)
  valid_eq : ∀ p : Fin 65536, paddedValid a1 (Shape.Idx.ofFin (row p)) = 1#1

/-- What the frame needs of the table: every word is −1 or an expert's number. -/
def TableRange : Prop := ∀ i : Fin 136, tileExpert a1 (Shape.Idx.ofFin i) = 4294967295#32 ∨ (tileExpert a1 (Shape.Idx.ofFin i)).toNat < 8

end Cert.Kernel.Host

end
-- ==== Proof.LibScatter.lean ====
/-
  The host scatter read at one element.

  The scatter of the model is a left fold over the update numbers in row-major order: each update whose result index
  is inside the operand replaces the element there by the body applied to that element and the update; an update whose
  result index falls outside is dropped. This file reads that fold at one operand index `i`:

  * no update lands at `i`: the operand's element is kept (`scatter_apply_of_not_hit`);
  * the body returns the update and exactly one update lands at `i`: that update (`scatter_set_apply_of_unique_hit`);
  * the body returns the update, every update is the same value and some update lands at `i`: that value
    (`scatter_set_const_apply_of_hit`);
  * the body adds and every update is `1`: the operand's element plus the NUMBER of updates that land at `i`
    (`scatter_add_ones_apply`).

  Each is proved for the fold over an ARBITRARY list of update numbers first, by induction on the list with the
  accumulator general. Then where an update lands (`resultIdx?_eq_some_iff`: start plus window coordinate equals the
  coordinate on every axis) and the two index shapes with one scalar index vector per update and every operand axis
  inserted: a rank-1 operand (`resultIdx?_take`) and a rank-2 operand (`resultIdx?_cell`); the start is read SIGNED
  and is not clamped.
-/
import Idealize.ShloMosaic.PureOps.ShapeOps
import Idealize.ShloMosaic.PureOps.Dims
import Idealize.ShloMosaic.PureOps.Values
import Idealize.ShloMosaic.Lib.ValueIdx
import Mathlib.Data.Fintype.Card
import Mathlib.Data.List.Nodup

namespace Cert.Moe

open Idealize.ShloMosaic

variable {α : Type} {s si u : Shape} {w : ℕ}

/-- One step of the scatter's fold: update number `n` applied to the accumulated result `r`. -/
def scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of that step over all update numbers in order. -/
theorem scatter_eq_foldl (d : ScatterDims s si u) (f : α → α → α) (x : s.Idx → α) (idx : IVec si w) (upd : u.Idx → α) :
    Host.scatter d f x idx upd = (List.finRange u.numel).foldl (scatterStep d f idx upd) x := rfl

/-- A step whose update lands at `i` combines the element at `i` with the update. -/
theorem scatterStep_hit (d : ScatterDims s si u) (f : α → α → α) (idx : IVec si w) (upd : u.Idx → α)
    (r : s.Idx → α) (n : Fin u.numel) (i : s.Idx) (h : d.resultIdx? (u.rowMajor.symm n) idx = some i) :
    scatterStep d f idx upd r n i = f (r i) (upd (u.rowMajor.symm n)) := by
  unfold scatterStep
  rw [h]
  exact if_pos rfl

/-- A step whose update lands elsewhere, or nowhere, leaves the element at `i` alone. -/
theorem scatterStep_miss (d : ScatterDims s si u) (f : α → α → α) (idx : IVec si w) (upd : u.Idx → α)
    (r : s.Idx → α) (n : Fin u.numel) (i : s.Idx) (h : d.resultIdx? (u.rowMajor.symm n) idx ≠ some i) :
    scatterStep d f idx upd r n i = r i := by
  unfold scatterStep
  cases h' : d.resultIdx? (u.rowMajor.symm n) idx with
  | none => rfl
  | some i0 =>
    have hne : i ≠ i0 := fun e => h (by rw [h', e])
    exact if_neg hne

/-- Over any list of update numbers none of which lands at `i`, the fold leaves the element at `i` alone. -/
theorem foldl_scatterStep_of_not_hit (d : ScatterDims s si u) (f : α → α → α) (idx : IVec si w) (upd : u.Idx → α)
    (i : s.Idx) (l : List (Fin u.numel)) (r : s.Idx → α)
    (h : ∀ n ∈ l, d.resultIdx? (u.rowMajor.symm n) idx ≠ some i) :
    l.foldl (scatterStep d f idx upd) r i = r i := by
  induction l generalizing r with
  | nil => rfl
  | cons n l ih =>
    rw [List.foldl_cons, ih _ (fun m hm => h m (List.mem_cons_of_mem _ hm))]
    exact scatterStep_miss d f idx upd r n i (h n List.mem_cons_self)

/-- No update lands at `i`: the scatter keeps the operand's element there. -/
theorem scatter_apply_of_not_hit (d : ScatterDims s si u) (f : α → α → α) (x : s.Idx → α) (idx : IVec si w)
    (upd : u.Idx → α) (i : s.Idx) (h : ∀ n : u.Idx, d.resultIdx? n idx ≠ some i) :
    Host.scatter d f x idx upd i = x i :=
  foldl_scatterStep_of_not_hit d f idx upd i _ x (fun n _ => h _)

/-- With the body "take the update", the fold over `l₁ ++ n :: l₂`, where `n` lands at `i` and nothing in `l₂` does,
    leaves update `n` at `i`. -/
theorem foldl_scatterStep_set_last (d : ScatterDims s si u) (idx : IVec si w) (upd : u.Idx → α)
    (i : s.Idx) (l₁ l₂ : List (Fin u.numel)) (n : Fin u.numel) (r : s.Idx → α)
    (hn : d.resultIdx? (u.rowMajor.symm n) idx = some i)
    (h₂ : ∀ m ∈ l₂, d.resultIdx? (u.rowMajor.symm m) idx ≠ some i) :
    (l₁ ++ n :: l₂).foldl (scatterStep d (fun _ b => b) idx upd) r i = upd (u.rowMajor.symm n) := by
  rw [List.foldl_append, List.foldl_cons, foldl_scatterStep_of_not_hit d _ idx upd i l₂ _ h₂]
  exact scatterStep_hit d _ idx upd _ n i hn

/-- The body returns the update and `n₀` is the one update that lands at `i`: the scatter holds update `n₀` there. -/
theorem scatter_set_apply_of_unique_hit (d : ScatterDims s si u) (x : s.Idx → α) (idx : IVec si w) (upd : u.Idx → α)
    (i : s.Idx) (n₀ : u.Idx) (h₀ : d.resultIdx? n₀ idx = some i)
    (huniq : ∀ n : u.Idx, d.resultIdx? n idx = some i → n = n₀) :
    Host.scatter d (fun _ b => b) x idx upd i = upd n₀ := by
  rw [scatter_eq_foldl]
  have hmem : u.rowMajor n₀ ∈ List.finRange u.numel := List.mem_finRange _
  obtain ⟨l₁, l₂, hl⟩ := List.append_of_mem hmem
  have hnd : (l₁ ++ u.rowMajor n₀ :: l₂).Nodup := hl ▸ List.nodup_finRange _
  have hnot : u.rowMajor n₀ ∉ l₂ := by
    have := (List.nodup_append.1 hnd).2.1
    exact (List.nodup_cons.1 this).1
  have hs : u.rowMajor.symm (u.rowMajor n₀) = n₀ := u.rowMajor.symm_apply_apply n₀
  rw [hl, foldl_scatterStep_set_last d idx upd i l₁ l₂ (u.rowMajor n₀) x (by rw [hs]; exact h₀), hs]
  intro m hm hhit
  have : u.rowMajor.symm m = n₀ := huniq _ hhit
  apply hnot
  rw [← this, Equiv.apply_symm_apply]
  exact hm

/-- With the body "take the update" and every update the same value `c`: once the element at `i` is `c` it stays `c`. -/
theorem foldl_scatterStep_set_const_of_eq (d : ScatterDims s si u) (idx : IVec si w) (c : α)
    (i : s.Idx) (l : List (Fin u.numel)) (r : s.Idx → α) (hr : r i = c) :
    l.foldl (scatterStep d (fun _ b => b) idx (fun _ => c)) r i = c := by
  induction l generalizing r with
  | nil => exact hr
  | cons n l ih =>
    rw [List.foldl_cons]
    apply ih
    by_cases h : d.resultIdx? (u.rowMajor.symm n) idx = some i
    · exact scatterStep_hit d _ idx _ r n i h
    · rw [scatterStep_miss d _ idx _ r n i h]; exact hr

/-- The body returns the update, every update is `c`, and some update lands at `i`: the scatter holds `c` there. -/
theorem scatter_set_const_apply_of_hit (d : ScatterDims s si u) (x : s.Idx → α) (idx : IVec si w) (c : α)
    (i : s.Idx) (n₀ : u.Idx) (h₀ : d.resultIdx? n₀ idx = some i) :
    Host.scatter d (fun _ b => b) x idx (fun _ => c) i = c := by
  rw [scatter_eq_foldl]
  have hmem : u.rowMajor n₀ ∈ List.finRange u.numel := List.mem_finRange _
  obtain ⟨l₁, l₂, hl⟩ := List.append_of_mem hmem
  rw [hl, List.foldl_append, List.foldl_cons]
  apply foldl_scatterStep_set_const_of_eq
  exact scatterStep_hit d _ idx _ _ _ i (by rw [Equiv.symm_apply_apply]; exact h₀)

/-- With the body "add" and every update `1`, the fold over any list adds to the element at `i` the number of the
    list's entries that land at `i` (as a 32-bit word). -/
theorem foldl_scatterStep_add_ones (d : ScatterDims s si u) (idx : IVec si w) (upd : u.Idx → BitVec 32)
    (hupd : ∀ n, upd n = 1#32) (i : s.Idx) (l : List (Fin u.numel)) (r : s.Idx → BitVec 32) :
    l.foldl (scatterStep d IntOp.addi idx upd) r i
      = r i + BitVec.ofNat 32 (l.countP fun n => decide (d.resultIdx? (u.rowMajor.symm n) idx = some i)) := by
  induction l generalizing r with
  | nil => simp
  | cons n l ih =>
    rw [List.foldl_cons, ih]
    by_cases h : d.resultIdx? (u.rowMajor.symm n) idx = some i
    · rw [scatterStep_hit d _ idx upd r n i h, hupd, List.countP_cons_of_pos (by simpa using h)]
      show r i + 1#32 + _ = _
      rw [BitVec.ofNat_add, BitVec.add_assoc, BitVec.add_comm (1#32)]
    · rw [scatterStep_miss d _ idx upd r n i h, List.countP_cons_of_neg (by simpa using h)]

/-- Counting along the list of all of `Fin N` is the cardinality of the filtered set. -/
theorem countP_finRange_eq_card {N : ℕ} (p : Fin N → Prop) [DecidablePred p] :
    (List.finRange N).countP (fun n => decide (p n)) = (Finset.univ.filter p).card := by
  rw [List.countP_eq_length_filter]
  rfl

/-- The body adds and every update is `1`: the scatter holds at `i` the operand's element plus the number of updates
    that land at `i`. -/
theorem scatter_add_ones_apply (d : ScatterDims s si u) (x : s.Idx → BitVec 32) (idx : IVec si w)
    (upd : u.Idx → BitVec 32) (hupd : ∀ n, upd n = 1#32) (i : s.Idx) :
    Host.scatter d IntOp.addi x idx upd i
      = x i + BitVec.ofNat 32 (Finset.univ.filter fun n : u.Idx => d.resultIdx? n idx = some i).card := by
  rw [scatter_eq_foldl, foldl_scatterStep_add_ones d idx upd hupd i]
  congr 2
  rw [countP_finRange_eq_card]
  exact Finset.card_equiv u.rowMajor.symm (fun n => by simp)

/-! ## Where an update lands -/

/-- An update lands at `i` exactly when on every operand axis its start plus its window coordinate is `i`'s coordinate. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · next hin =>
      have e := Option.some.inj h
      have ea := congrArg (fun g => (g a).val) e
      simp only at ea
      have := hin a
      omega
    · exact absurd h (by simp)
  · intro h
    have hin : ∀ a, 0 ≤ d.start j idx a + d.window j a ∧ d.start j idx a + d.window j a < s.size a := by
      intro a
      have := h a
      have hlt := (i a).isLt
      omega
    rw [dif_pos hin]
    congr 1
    funext a
    apply Fin.ext
    have := h a
    show (d.start j idx a + d.window j a).toNat = (i a).val
    omega

/-- On an operand axis the map names, the start is the scatter indices' entry for that axis, read signed. -/
theorem start_of_mem (d : ScatterDims s si u) (j : u.Idx) (idx : IVec si w) (a : Fin s.rank)
    (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an inserted operand axis the window coordinate is `0`. -/
theorem window_of_inserted (d : ScatterDims s si u) (j : u.Idx) (a : Fin s.rank) (ha : a ∈ d.insertedWindowDims) :
    d.window j a = 0 := by
  unfold ScatterDims.window
  rw [dif_neg]
  intro hk
  have : a ∉ d.insertedWindowDims := by
    have := (List.mem_filter.1 hk).2
    simpa using this
  exact this ha

/-- One scatter index per update, the index vector along the second axis of an [n × k] table: update `j` reads
    component `c` of its start index at row `j`, column `c`. -/
theorem siIdx_rows {S : Shape} {n k : ℕ} (d : ScatterDims S ⟨2, ![n, k]⟩ ⟨1, ![n]⟩) (hv : d.indexVectorDim = 1)
    (j : (⟨1, ![n]⟩ : Shape).Idx) (c : Fin d.scatterDimsToOperandDims.length) (hc : c.val < k) :
    d.siIdx j c = ValueIdx.ix2 (j 0) ⟨c.val, hc⟩ := by
  funext b
  match b with
  | ⟨0, _⟩ =>
    unfold ScatterDims.siIdx
    rw [dif_neg (by rw [hv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hv])]
    rfl

/-- A rank-1 operand whose one axis is inserted and start-indexed, one scalar index per update in an [n × 1] column:
    update `j` lands at `i` exactly when row `j` of the column, read signed, is `i`'s coordinate. -/
theorem resultIdx?_take {N n w : ℕ} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (idx : IVec ⟨2, ![n, 1]⟩ w) (j : (⟨1, ![n]⟩ : Shape).Idx)
    (i : (⟨1, ![N]⟩ : Shape).Idx) :
    d.resultIdx? j idx = some i ↔ (idx (ValueIdx.ix2 (j 0) 0)).toInt = ((i 0).val : ℤ) := by
  have hm : (0 : Fin 1) ∈ d.scatterDimsToOperandDims := by rw [hs]; exact List.mem_singleton.mpr rfl
  have hw0 : d.window j (0 : Fin 1) = 0 := window_of_inserted d j 0 (by rw [hi]; exact List.mem_singleton.mpr rfl)
  have hpos : d.scatterDimsToOperandDims.idxOf (0 : Fin 1) = 0 := by rw [hs]; simp
  have hst : d.start j idx (0 : Fin 1) = (idx (ValueIdx.ix2 (j 0) 0)).toInt := by
    rw [start_of_mem d j idx 0 hm, siIdx_rows d hv j _ (by show d.scatterDimsToOperandDims.idxOf (0 : Fin 1) < 1; omega)]
    congr 3
    apply Fin.ext
    exact hpos
  rw [resultIdx?_eq_some_iff]
  constructor
  · intro h
    have h0 := h (0 : Fin 1)
    rw [hst, hw0] at h0
    simpa using h0
  · intro h a
    have ha : a = (0 : Fin 1) := Subsingleton.elim _ _
    subst ha
    rw [hst, hw0]
    simpa using h

/-- A rank-2 operand whose two axes are inserted and start-indexed in order, one index pair per update in an [n × 2]
    table: update `j` lands at `i` exactly when row `j` of the table, read signed, is `i`'s pair of coordinates. -/
theorem resultIdx?_cell {N M n w : ℕ} (d : ScatterDims ⟨2, ![N, M]⟩ ⟨2, ![n, 2]⟩ ⟨1, ![n]⟩)
    (hu : d.updateWindowDims = []) (hi : d.insertedWindowDims = [0, 1]) (hs : d.scatterDimsToOperandDims = [0, 1])
    (hv : d.indexVectorDim = 1) (idx : IVec ⟨2, ![n, 2]⟩ w) (j : (⟨1, ![n]⟩ : Shape).Idx)
    (i : (⟨2, ![N, M]⟩ : Shape).Idx) :
    d.resultIdx? j idx = some i ↔
      (idx (ValueIdx.ix2 (j 0) 0)).toInt = ((i 0).val : ℤ) ∧ (idx (ValueIdx.ix2 (j 0) 1)).toInt = ((i 1).val : ℤ) := by
  have hm0 : (0 : Fin 2) ∈ d.scatterDimsToOperandDims := by rw [hs]; simp
  have hm1 : (1 : Fin 2) ∈ d.scatterDimsToOperandDims := by rw [hs]; simp
  have hw0 : d.window j (0 : Fin 2) = 0 := window_of_inserted d j 0 (by rw [hi]; simp)
  have hw1 : d.window j (1 : Fin 2) = 0 := window_of_inserted d j 1 (by rw [hi]; simp)
  have hpos0 : d.scatterDimsToOperandDims.idxOf (0 : Fin 2) = 0 := by rw [hs]; simp
  have hpos1 : d.scatterDimsToOperandDims.idxOf (1 : Fin 2) = 1 := by rw [hs]; rfl
  have hst0 : d.start j idx (0 : Fin 2) = (idx (ValueIdx.ix2 (j 0) 0)).toInt := by
    rw [start_of_mem d j idx 0 hm0, siIdx_rows d hv j _ (by show d.scatterDimsToOperandDims.idxOf (0 : Fin 2) < 2; omega)]
    congr 3
    apply Fin.ext
    exact hpos0
  have hst1 : d.start j idx (1 : Fin 2) = (idx (ValueIdx.ix2 (j 0) 1)).toInt := by
    rw [start_of_mem d j idx 1 hm1, siIdx_rows d hv j _ (by show d.scatterDimsToOperandDims.idxOf (1 : Fin 2) < 2; omega)]
    congr 3
    apply Fin.ext
    exact hpos1
  rw [resultIdx?_eq_some_iff]
  constructor
  · intro h
    have h0 := h (0 : Fin 2)
    have h1 := h (1 : Fin 2)
    rw [hst0, hw0] at h0
    rw [hst1, hw1] at h1
    exact ⟨by simpa using h0, by simpa using h1⟩
  · intro h a
    match a with
    | ⟨0, _⟩ =>
      show d.start j idx (0 : Fin 2) + (d.window j (0 : Fin 2) : ℤ) = _
      rw [hst0, hw0]
      simpa using h.1
    | ⟨1, _⟩ =>
      show d.start j idx (1 : Fin 2) + (d.window j (1 : Fin 2) : ℤ) = _
      rw [hst1, hw1]
      simpa using h.2

end Cert.Moe
-- ==== Proof.LibPrefix.lean ====
/-
  Prefix sums of eight words.

  A windowed reduction with an additive combiner, window 8, stride 1, seven places of padding below
  and none above, over a vector of eight words, reads at place `i` the sum of the words at places
  `0 … i`: window position `n` of result place `i` looks at padded place `i + n`, which is operand
  place `i + n - 7` when `7 ≤ i + n` and padding (the additive identity) otherwise, so the eight
  positions contribute exactly the operand places `≤ i`.  This is the INCLUSIVE prefix sum.  Dropping
  its last place and putting one zero in front shifts every sum one place up: place `0` reads the
  zero, place `i ≥ 1` reads the inclusive sum at `i - 1`, the sum of the words at places `< i`.  This
  is the EXCLUSIVE prefix sum.

  The words are given as `BitVec.ofNat 32 (c k)` for a table `c` of naturals; `BitVec.ofNat 32` is
  additive (`BitVec.ofNat_add`), so the sums of words are the words of the sums of naturals with no
  bound on the naturals.
-/
import Idealize.ShloMosaic.PureOps.Contract
import Idealize.ShloMosaic.PureOps.ShapeOps
import Idealize.ShloMosaic.Lib.SortFacts
import Idealize.ShloMosaic.Lib.Pipeline.Value
import Mathlib.Algebra.BigOperators.Fin
import Mathlib.Algebra.BigOperators.Group.Finset.Basic
import Mathlib.Data.BitVec
import Mathlib.Data.Finset.Filter
import Mathlib.Tactic.FinCases

namespace Cert.Moe
open Idealize.ShloMosaic

/-! ## The window fold as a finite sum -/

/-- On a rank-one shape the row-major position of an index is its one coordinate: the coordinate
    is the position divided by the (empty) product of the trailing extents. -/
private theorem rowMajor_symm_rank1 (m : ℕ) (n : Fin (⟨1, ![m]⟩ : Shape).numel) (a : Fin 1) :
    ((⟨1, ![m]⟩ : Shape).rowMajor.symm n a).val = n.val := by
  have : a = 0 := Subsingleton.elim _ _
  subst this
  show n.val / 1 = n.val
  exact Nat.div_one _

/-- A left fold of addition is the start value plus the sum of the terms. -/
private theorem foldl_add_eq {β ι : Type} [AddCommMonoid β] (g : ι → β) (l : List ι) (v : β) :
    l.foldl (fun r n => r + g n) v = v + (l.map g).sum := by
  induction l generalizing v with
  | nil => simp
  | cons a l ih => simp [ih, add_assoc]

/-- One window position's term.  With every coordinate of the padded place equal to `i + m`
    (`m < 8` the window position), the padding test "`7 ≤ q` and `q - 7 < 8`" is `7 ≤ i + m` — the
    upper bound holds by itself, `i + m ≤ 14` — and the operand place read is `i + m - 7`. -/
private theorem window_term (x : IVec ⟨1, ![8]⟩ 32) (v0 : BitVec 32) (i : Fin 8) (q : Fin 1 → Nat) (m : Nat)
    (hq : ∀ a, q a = i.val + m) (hm : m < 8)
    {d : Decidable (∀ a : Fin 1, (![7] : Fin 1 → Nat) a ≤ q a ∧ q a - (![7] : Fin 1 → Nat) a < (![8] : Fin 1 → Nat) a)} :
    (@dite _ (∀ a : Fin 1, (![7] : Fin 1 → Nat) a ≤ q a ∧ q a - (![7] : Fin 1 → Nat) a < (![8] : Fin 1 → Nat) a) d
      (fun hin => x (fun a => ⟨q a - (![7] : Fin 1 → Nat) a, (hin a).2⟩)) (fun _ => v0))
      = if hin : 7 ≤ i.val + m then x (Shape.Idx.ofFin ⟨i.val + m - 7, by omega⟩) else v0 := by
  obtain rfl : q = fun _ => i.val + m := funext hq
  by_cases hc : 7 ≤ i.val + m
  · have hin : ∀ a : Fin 1, (![7] : Fin 1 → Nat) a ≤ i.val + m
        ∧ i.val + m - (![7] : Fin 1 → Nat) a < (![8] : Fin 1 → Nat) a := by
      intro a
      have : a = 0 := Subsingleton.elim _ _
      subst this
      show 7 ≤ i.val + m ∧ i.val + m - 7 < 8
      omega
    rw [dif_pos hc, dif_pos hin]
    refine congrArg x (funext fun a => ?_)
    have : a = 0 := Subsingleton.elim _ _
    subst this
    exact Fin.ext rfl
  · have hin : ¬ ∀ a : Fin 1, (![7] : Fin 1 → Nat) a ≤ i.val + m
        ∧ i.val + m - (![7] : Fin 1 → Nat) a < (![8] : Fin 1 → Nat) a := by
      intro H
      exact hc (H 0).1
    rw [dif_neg hc, dif_neg hin]

/-- The windowed reduction read at place `i`: the initial value, plus over the eight window
    positions `n` the operand at place `i + n - 7` where `7 ≤ i + n` and the initial value where the
    position is padding. -/
private theorem reduceWindow8_read (x : IVec ⟨1, ![8]⟩ 32) (v : IVec ⟨0, ![]⟩ 32)
    (h : (⟨1, ![8]⟩ : Shape).ReduceWindows (![8] : Fin 1 → Nat) ![1] ![7] ![0] ⟨1, ![8]⟩)
    (hu : 0 < (⟨0, ![]⟩ : Shape).numel) (i : Fin 8) :
    Host.reduceWindow IntOp.addi ![8] ![1] ![7] ![0] x v h hu (Shape.Idx.ofFin i)
      = v (Shape.Idx.first hu) + ∑ n : Fin 8,
          if hin : 7 ≤ i.val + n.val then x (Shape.Idx.ofFin ⟨i.val + n.val - 7, by omega⟩)
          else v (Shape.Idx.first hu) := by
  unfold Host.reduceWindow
  dsimp only
  refine (foldl_add_eq (β := BitVec 32) _ _ _).trans ?_
  rw [← Fin.sum_univ_def]
  refine congrArg (v (Shape.Idx.first hu) + ·) ?_
  -- the window's positions number its extent, eight
  refine Fintype.sum_equiv (finCongr (rfl : (⟨1, ![8]⟩ : Shape).numel = 8)) _ _ fun n => ?_
  refine window_term x _ i _ _ (fun a => ?_) (finCongr (rfl : (⟨1, ![8]⟩ : Shape).numel = 8) n).isLt
  have : a = 0 := Subsingleton.elim _ _
  subst this
  rw [rowMajor_symm_rank1]
  -- result place `i` at stride one, plus the window position
  show i.val * 1 + n.val = i.val + n.val
  rw [Nat.mul_one]

/-! ## The sums of naturals behind the words -/

/-- `BitVec.ofNat 32` is additive, so it carries a finite sum of naturals to the sum of the words. -/
private theorem ofNat_sum {ι : Type} (S : Finset ι) (f : ι → ℕ) :
    BitVec.ofNat 32 (∑ k ∈ S, f k) = ∑ k ∈ S, BitVec.ofNat 32 (f k) := by
  classical
  induction S using Finset.induction_on with
  | empty => simp
  | insert a S ha ih => rw [Finset.sum_insert ha, Finset.sum_insert ha, BitVec.ofNat_add, ih]

/-- The window positions `n` with `7 ≤ i + n` are `7 - i … 7`, and `n ↦ i + n - 7` carries them onto
    the places `0 … i`: the window's sum is the sum over the places `≤ i`.  Eight places: each `i`
    is checked on the eight terms written out. -/
private theorem window_natsum (c : Fin 8 → ℕ) (i : Fin 8) :
    (∑ n : Fin 8, if hin : 7 ≤ i.val + n.val then c ⟨i.val + n.val - 7, by omega⟩ else 0)
      = ∑ k ∈ Finset.univ.filter (fun k : Fin 8 => k.val ≤ i.val), c k := by
  rw [Finset.sum_filter]
  fin_cases i <;> simp [Fin.sum_univ_eight]

/-! ## The two prefix sums -/

/-- The windowed sum (window 8, stride 1, padding 7 below) of eight words `ofNat (c k)`, from a zero
    initial value, is at place `i` the word of `c 0 + … + c i`: the inclusive prefix sum. -/
theorem cumsum8_ofNat (c : Fin 8 → ℕ) (x : IVec ⟨1, ![8]⟩ 32)
    (hx : ∀ k : Fin 8, x (Shape.Idx.ofFin k) = BitVec.ofNat 32 (c k)) (v : IVec ⟨0, ![]⟩ 32) (hv : ∀ z, v z = 0#32)
    (h : (⟨1, ![8]⟩ : Shape).ReduceWindows (![8] : Fin 1 → Nat) ![1] ![7] ![0] ⟨1, ![8]⟩)
    (hu : 0 < (⟨0, ![]⟩ : Shape).numel) (i : Fin 8) :
    Host.reduceWindow IntOp.addi ![8] ![1] ![7] ![0] x v h hu (Shape.Idx.ofFin i)
      = BitVec.ofNat 32 (∑ k ∈ Finset.univ.filter (fun k : Fin 8 => k.val ≤ i.val), c k) := by
  rw [reduceWindow8_read, hv, BitVec.zero_add, ← window_natsum, ofNat_sum]
  refine Finset.sum_congr rfl fun n _ => ?_
  by_cases hc : 7 ≤ i.val + n.val
  · rw [dif_pos hc, dif_pos hc, hx]
  · rw [dif_neg hc, dif_neg hc]

/-- One zero followed by the first seven places of the inclusive prefix sum is the exclusive prefix
    sum: place `0` reads the zero (the empty sum), place `i ≥ 1` reads the inclusive sum at `i - 1`,
    and `k ≤ i - 1` is `k < i` there. -/
theorem exclPrefix8_ofNat (c : Fin 8 → ℕ) (y : IVec ⟨1, ![8]⟩ 32)
    (hy : ∀ i : Fin 8, y (Shape.Idx.ofFin i)
      = BitVec.ofNat 32 (∑ k ∈ Finset.univ.filter (fun k : Fin 8 => k.val ≤ i.val), c k))
    (z : IVec ⟨1, ![1]⟩ 32) (hz : ∀ a, z a = 0#32) (hs : (⟨1, ![8]⟩ : Shape).Slices ![0] ⟨1, ![7]⟩)
    (hc : Shape.Concatenates [⟨1, ![1]⟩, ⟨1, ![7]⟩] ⟨1, ![8]⟩ 0) (i : Fin 8) :
    concatenate ⟨1, ![8]⟩ 0 [⟨⟨1, ![1]⟩, z⟩, ⟨⟨1, ![7]⟩, extractStridedSlice ⟨1, ![7]⟩ ![0] y hs⟩] hc
        (Shape.Idx.ofFin i)
      = BitVec.ofNat 32 (∑ k ∈ Finset.univ.filter (fun k : Fin 8 => k.val < i.val), c k) := by
  by_cases h0 : i.val = 0
  · -- the first piece: the one zero, and no place lies below place 0
    refine (concatenate_pair_apply_left (s₂ := ⟨1, ![7]⟩) (0 : Fin 1) z _ hc (Shape.Idx.ofFin i) rfl
      (Shape.Idx.ofFin (0 : Fin 1)) fun b => ?_).trans ?_
    · show (0 : Fin 1).val = i.val
      rw [h0]; rfl
    · rw [hz, Finset.filter_false_of_mem (fun k _ => by omega), Finset.sum_empty]
  · -- the second piece, one place earlier: the inclusive sum at `i - 1`
    have hi7 : i.val - 1 < 7 := by omega
    have hi8 : i.val - 1 < 8 := by omega
    refine (concatenate_pair_apply_right (s₂ := ⟨1, ![7]⟩) (0 : Fin 1) z _ hc (Shape.Idx.ofFin i) rfl rfl
      (Shape.Idx.ofFin (⟨i.val - 1, hi7⟩ : Fin 7)) (fun b hb => ?_) ?_).trans ?_
    · exact absurd (Subsingleton.elim _ _) hb
    · show i.val - 1 + 1 = i.val
      omega
    · refine (extractStridedSlice_apply ![0] y hs _ (Shape.Idx.ofFin (⟨i.val - 1, hi8⟩ : Fin 8)) fun a => ?_).trans ?_
      · have : a = 0 := Subsingleton.elim _ _
        subst this
        show i.val - 1 = 0 + (i.val - 1)
        omega
      · rw [hy]
        refine congrArg (BitVec.ofNat 32) (Finset.sum_congr (Finset.filter_congr fun k _ => ?_) fun _ _ => rfl)
        show k.val ≤ i.val - 1 ↔ k.val < i.val
        omega

end Cert.Moe
-- ==== Proof.LibWord.lean ====
/-
  NON-NEGATIVE 32-BIT WORDS AS NATURAL NUMBERS.

  A host program computes its indices, counts and offsets in 32-bit two's-complement words.  Where every
  word of such a chain is known to be a natural number below 2³¹, the chain IS natural-number arithmetic:
  sums, differences and products that stay in range do not wrap, the signed comparisons are the order of
  the naturals, the truncating signed quotient and remainder by a positive divisor are `k / D` and
  `k % D`, and the sign corrections that turn truncating division into floor division (and the
  remainder into the one with the divisor's sign), as well as the wrap of a negative index by the axis
  length, never fire.

  `IsNat v k` says: the word `v` is the natural number `k`, and `k < 2³¹`.  The first half of the file is
  the calculus on single words (the meaning `IntOp` the scalar, vector and host forms share); the second
  half reads the vector compositions (an elementwise operation at an index is the word operation on the
  elements; a broadcast scalar reads the scalar everywhere) and restates the floor-division, remainder
  and index-wrap compositions at an index.
-/
import Idealize.ShloMosaic.PureOps.Vector
import Idealize.ShloMosaic.PureOps.ShapeOps
import Idealize.ShloMosaic.Lib.Affine
import Mathlib.Data.Fin.VecNotation

namespace Cert.Moe

open Idealize.ShloMosaic

/-- The word `v` is the natural number `k`, which is below 2³¹: `v` reads `k` both signed and unsigned. -/
def IsNat (v : BitVec 32) (k : ℕ) : Prop := v = BitVec.ofNat 32 k ∧ k < 2 ^ 31

/-! ## Reading a word -/

section Basic
variable {v : BitVec 32} {k l : ℕ}

theorem IsNat.toNat_eq (h : IsNat v k) : v.toNat = k := by
  obtain ⟨rfl, hk⟩ := h
  rw [BitVec.toNat_ofNat]
  exact Nat.mod_eq_of_lt (by omega)

theorem IsNat.lt (h : IsNat v k) : k < 2 ^ 31 := h.2

theorem IsNat.toInt_eq (h : IsNat v k) : v.toInt = (k : ℤ) := by
  have hn := h.toNat_eq
  have hk := h.2
  rw [BitVec.toInt_eq_toNat_of_lt (by rw [hn]; omega), hn]

/-- The signed reading, clamped at zero and taken as a natural number (how a start index is read). -/
theorem IsNat.toInt_toNat (h : IsNat v k) : v.toInt.toNat = k := by
  rw [h.toInt_eq]; exact Int.toNat_natCast k

theorem IsNat.unique (h : IsNat v k) (h' : IsNat v l) : k = l :=
  h.toNat_eq.symm.trans h'.toNat_eq

theorem isNat_ofNat (h : k < 2 ^ 31) : IsNat (BitVec.ofNat 32 k) k := ⟨rfl, h⟩

theorem isNat_zero : IsNat 0#32 0 := ⟨rfl, by omega⟩
theorem isNat_one : IsNat 1#32 1 := ⟨rfl, by omega⟩

theorem isNat_of_toNat_lt (h : v.toNat < 2 ^ 31) : IsNat v v.toNat := by
  refine ⟨BitVec.eq_of_toNat_eq ?_, h⟩
  rw [BitVec.toNat_ofNat]
  exact (Nat.mod_eq_of_lt v.isLt).symm

/-- A word that reads non-negative signed is the natural number it reads unsigned. -/
theorem isNat_of_toInt (h0 : 0 ≤ v.toInt) : IsNat v v.toNat := by
  have h := BitVec.toInt_pos_iff.mp h0
  exact isNat_of_toNat_lt (by omega)

/-- The sign bit of a natural-number word is clear. -/
theorem IsNat.msb (h : IsNat v k) : v.msb = false := by
  rw [BitVec.msb_eq_false_iff_two_mul_lt, h.toNat_eq]; have := h.2; omega

theorem IsNat.eq_zero_iff (h : IsNat v k) : v = 0#32 ↔ k = 0 := by
  rw [← BitVec.toNat_inj, h.toNat_eq]; rfl

end Basic

/-! ## Sums, differences, products that stay in range -/

section Arith
variable {a b : BitVec 32} {k l : ℕ}

theorem IsNat.add (ha : IsNat a k) (hb : IsNat b l) (h : k + l < 2 ^ 31) : IsNat (IntOp.addi a b) (k + l) := by
  refine ⟨BitVec.eq_of_toNat_eq ?_, h⟩
  show (a + b).toNat = _
  rw [BitVec.toNat_add, ha.toNat_eq, hb.toNat_eq, BitVec.toNat_ofNat]

theorem IsNat.sub (ha : IsNat a k) (hb : IsNat b l) (h : l ≤ k) : IsNat (IntOp.subi a b) (k - l) := by
  have hk := ha.2
  refine ⟨BitVec.eq_of_toNat_eq ?_, by omega⟩
  show (a - b).toNat = _
  rw [BitVec.toNat_sub, ha.toNat_eq, hb.toNat_eq, BitVec.toNat_ofNat]
  omega

theorem IsNat.mul (ha : IsNat a k) (hb : IsNat b l) (h : k * l < 2 ^ 31) : IsNat (IntOp.muli a b) (k * l) := by
  refine ⟨BitVec.eq_of_toNat_eq ?_, h⟩
  show (a * b).toNat = _
  rw [BitVec.toNat_mul, ha.toNat_eq, hb.toNat_eq, BitVec.toNat_ofNat]

end Arith

/-! ## Comparisons: the order and equality of the naturals -/

section Compare
variable {a b : BitVec 32} {k l : ℕ}

/-- A one-bit word is `0` exactly when it is not `1`. -/
theorem bit_eq_zero_iff (c : BitVec 1) : c = 0#1 ↔ ¬c = 1#1 := by revert c; decide

/-- A selection on a bit that is not set is its second operand; on a set bit, its first. -/
theorem select_of_not {α : Type} {c : BitVec 1} (h : ¬c = 1#1) (x y : α) : Scalar.select c x y = y := if_neg h
theorem select_of_one {α : Type} {c : BitVec 1} (h : c = 1#1) (x y : α) : Scalar.select c x y = x := if_pos h

theorem IsNat.slt_iff (ha : IsNat a k) (hb : IsNat b l) : IntOp.cmpi .slt a b = 1#1 ↔ k < l := by
  rw [IntOp.cmpi_slt, ha.toInt_eq, hb.toInt_eq]; exact Int.ofNat_lt

theorem IsNat.sge_iff (ha : IsNat a k) (hb : IsNat b l) : IntOp.cmpi .sge a b = 1#1 ↔ l ≤ k := by
  rw [IntOp.cmpi_sge, ha.toInt_eq, hb.toInt_eq]; exact Int.ofNat_le

theorem IsNat.sle_iff (ha : IsNat a k) (hb : IsNat b l) : IntOp.cmpi .sle a b = 1#1 ↔ k ≤ l := by
  rw [IntOp.cmpi_sle, ha.toInt_eq, hb.toInt_eq]; exact Int.ofNat_le

theorem IsNat.sgt_iff (ha : IsNat a k) (hb : IsNat b l) : IntOp.cmpi .sgt a b = 1#1 ↔ l < k := by
  rw [IntOp.cmpi_sgt, ha.toInt_eq, hb.toInt_eq]; exact Int.ofNat_lt

theorem IsNat.word_eq_iff (ha : IsNat a k) (hb : IsNat b l) : a = b ↔ k = l := by
  rw [← BitVec.toNat_inj, ha.toNat_eq, hb.toNat_eq]

theorem IsNat.eq_iff (ha : IsNat a k) (hb : IsNat b l) : IntOp.cmpi .eq a b = 1#1 ↔ k = l := by
  rw [IntOp.cmpi_eq, ha.word_eq_iff hb]

theorem IsNat.ne_iff (ha : IsNat a k) (hb : IsNat b l) : IntOp.cmpi .ne a b = 1#1 ↔ k ≠ l := by
  rw [IntOp.cmpi_ne, Ne, ha.word_eq_iff hb]

theorem IsNat.slt_eq_zero_iff (ha : IsNat a k) (hb : IsNat b l) : IntOp.cmpi .slt a b = 0#1 ↔ ¬k < l := by
  rw [bit_eq_zero_iff, ha.slt_iff hb]
theorem IsNat.sge_eq_zero_iff (ha : IsNat a k) (hb : IsNat b l) : IntOp.cmpi .sge a b = 0#1 ↔ ¬l ≤ k := by
  rw [bit_eq_zero_iff, ha.sge_iff hb]
theorem IsNat.sle_eq_zero_iff (ha : IsNat a k) (hb : IsNat b l) : IntOp.cmpi .sle a b = 0#1 ↔ ¬k ≤ l := by
  rw [bit_eq_zero_iff, ha.sle_iff hb]
theorem IsNat.sgt_eq_zero_iff (ha : IsNat a k) (hb : IsNat b l) : IntOp.cmpi .sgt a b = 0#1 ↔ ¬l < k := by
  rw [bit_eq_zero_iff, ha.sgt_iff hb]
theorem IsNat.eq_eq_zero_iff (ha : IsNat a k) (hb : IsNat b l) : IntOp.cmpi .eq a b = 0#1 ↔ ¬k = l := by
  rw [bit_eq_zero_iff, ha.eq_iff hb]
theorem IsNat.ne_eq_zero_iff (ha : IsNat a k) (hb : IsNat b l) : IntOp.cmpi .ne a b = 0#1 ↔ ¬k ≠ l := by
  rw [bit_eq_zero_iff, ha.ne_iff hb]

/-- A selection between natural-number words is the selection between the naturals. -/
theorem IsNat.select {c : BitVec 1} (ha : IsNat a k) (hb : IsNat b l) :
    IsNat (Scalar.select c a b) (if c = 1#1 then k else l) := by
  by_cases hc : c = 1#1
  · rw [select_of_one hc, if_pos hc]; exact ha
  · rw [select_of_not hc, if_neg hc]; exact hb

end Compare

/-! ## The wrap of a negative index is the identity on a natural-number word

An index `a` into an axis of length `c` is normalised as "`a + c` if `a < 0`, else `a`". -/

section Wrap
variable {a : BitVec 32} {k : ℕ}

theorem IsNat.not_slt_zero (ha : IsNat a k) : ¬IntOp.cmpi .slt a 0#32 = 1#1 := by
  rw [ha.slt_iff isNat_zero]; exact Nat.not_lt_zero k

theorem IsNat.slt_zero (ha : IsNat a k) : IntOp.cmpi .slt a 0#32 = 0#1 :=
  (bit_eq_zero_iff _).mpr ha.not_slt_zero

theorem IsNat.wrap_id (ha : IsNat a k) (c : BitVec 32) :
    (if IntOp.cmpi .slt a 0#32 = 1#1 then IntOp.addi a c else a) = a :=
  if_neg ha.not_slt_zero

/-- The same, in the form a vector selection takes at an index. -/
theorem IsNat.wrap_select (ha : IsNat a k) (c : BitVec 32) :
    Scalar.select (IntOp.cmpi .slt a 0#32) (IntOp.addi a c) a = a :=
  select_of_not ha.not_slt_zero _ _

end Wrap

/-! ## Signed quotient and remainder by a positive divisor -/

section DivRem
variable {a : BitVec 32} {k D : ℕ}

theorem ofNat_pos_toInt (hD : 0 < D) (hD' : D < 2 ^ 31) : 0 < (BitVec.ofNat 32 D).toInt := by
  rw [(isNat_ofNat hD').toInt_eq]; exact_mod_cast hD

/-- The truncating signed quotient of a natural-number word by a positive divisor is `k / D`: neither operand is
    negative, so it is the unsigned quotient, and a positive divisor is no corner of the division. -/
theorem IsNat.divsi (u : ArithUnit) (ha : IsNat a k) (hD : 0 < D) (hD' : D < 2 ^ 31) :
    IsNat (IntOp.divsi u a (BitVec.ofNat 32 D)) (k / D) := by
  have hk := ha.2
  have hd : IsNat (BitVec.ofNat 32 D) D := isNat_ofNat hD'
  have hq : k / D < 2 ^ 31 := Nat.lt_of_le_of_lt (Nat.div_le_self k D) hk
  refine ⟨?_, hq⟩
  rw [IntOp.divsi, if_neg (IntOp.not_corner_of_pos (ofNat_pos_toInt hD hD')), BitVec.sdiv_eq, ha.msb, hd.msb]
  show a / BitVec.ofNat 32 D = _
  apply BitVec.eq_of_toNat_eq
  rw [BitVec.toNat_udiv, ha.toNat_eq, hd.toNat_eq, BitVec.toNat_ofNat]
  exact (Nat.mod_eq_of_lt (by omega)).symm

/-- The signed remainder of a natural-number word by a positive divisor is `k % D`. -/
theorem IsNat.remsi (u : ArithUnit) (ha : IsNat a k) (hD : 0 < D) (hD' : D < 2 ^ 31) :
    IsNat (IntOp.remsi u a (BitVec.ofNat 32 D)) (k % D) := by
  have hk := ha.2
  have hr : k % D < 2 ^ 31 := Nat.lt_of_le_of_lt (Nat.mod_le k D) hk
  refine ⟨BitVec.eq_of_toNat_eq ?_, hr⟩
  rw [IntOp.toNat_remsi u (by rw [ha.toNat_eq]; omega) D hD (by omega), ha.toNat_eq, BitVec.toNat_ofNat]
  exact (Nat.mod_eq_of_lt (by omega)).symm

end DivRem

/-! ## Floor division and the remainder with the divisor's sign

Floor division is computed from the truncating quotient `q` and remainder `r` as "`q - 1` if the operands' signs
differ and `r ≠ 0`, else `q`"; the remainder with the divisor's sign as "`r + d` if `r` and `d` differ in
sign and `r ≠ 0`, else `r`", a zero divisor first replaced by one.  On a natural-number dividend and a positive
divisor neither correction fires: a dividend whose sign differs from the divisor's is `0`, whose remainder
is `0`; and a remainder `k % D` is not negative. -/

section FloorRem
variable {a : BitVec 32} {k D : ℕ}

/-- The sign of a word as a word: `0`, `-1` or `1`. -/
def signWord {w : ℕ} (x : BitVec w) : BitVec w := if x = 0 then 0 else if x.msb then -1 else 1

theorem IsNat.signWord_eq (ha : IsNat a k) : signWord a = if k = 0 then 0#32 else 1#32 := by
  by_cases h : k = 0
  · rw [if_pos h]
    exact if_pos (ha.eq_zero_iff.mpr h)
  · rw [if_neg h]
    refine (if_neg (mt ha.eq_zero_iff.mp h)).trans ?_
    rw [ha.msb]; rfl

/-- Floor division of the word `x` by the word `d`, as the host program computes it. -/
def floorDivWord (x d : BitVec 32) : BitVec 32 :=
  Scalar.select
    (IntOp.andi (IntOp.cmpi .ne (signWord x) (signWord d)) (IntOp.cmpi .ne (IntOp.remsi .host x d) 0#32))
    (IntOp.subi (IntOp.divsi .host x d) 1#32) (IntOp.divsi .host x d)

theorem IsNat.floorDiv (ha : IsNat a k) (hD : 0 < D) (hD' : D < 2 ^ 31) :
    IsNat (floorDivWord a (BitVec.ofNat 32 D)) (k / D) := by
  have hd := isNat_ofNat hD'
  have hr := ha.remsi .host hD hD'
  have hc : ¬IntOp.andi (IntOp.cmpi .ne (Cert.Moe.signWord a) (Cert.Moe.signWord (BitVec.ofNat 32 D)))
      (IntOp.cmpi .ne (IntOp.remsi .host a (BitVec.ofNat 32 D)) 0#32) = 1#1 := by
    rw [IntOp.andi_eq_one, IntOp.cmpi_ne, hr.ne_iff isNat_zero, ha.signWord_eq, hd.signWord_eq,
      if_neg (Nat.pos_iff_ne_zero.mp hD)]
    rintro ⟨h1, h2⟩
    by_cases hk : k = 0
    · subst hk; exact h2 (Nat.zero_mod D)
    · rw [if_neg hk] at h1; exact h1 rfl
  unfold floorDivWord
  rw [select_of_not hc]
  exact ha.divsi .host hD hD'

/-- The divisor a remainder is taken by: one in place of zero. -/
def divisorWord (d : BitVec 32) : BitVec 32 := Scalar.select (IntOp.cmpi .eq d 0#32) 1#32 d

theorem divisorWord_ofNat (hD : 0 < D) (hD' : D < 2 ^ 31) : divisorWord (BitVec.ofNat 32 D) = BitVec.ofNat 32 D := by
  unfold divisorWord
  refine select_of_not ?_ _ _
  rw [(isNat_ofNat hD').eq_iff isNat_zero]
  exact Nat.pos_iff_ne_zero.mp hD

/-- The remainder with the divisor's sign, of `x` by a divisor `d` already made non-zero. -/
def remCoreWord (x d : BitVec 32) : BitVec 32 :=
  Scalar.select
    (IntOp.andi
      (IntOp.cmpi .ne (IntOp.cmpi .slt (IntOp.remsi .host x d) 0#32) (IntOp.cmpi .slt d 0#32))
      (IntOp.cmpi .ne (IntOp.remsi .host x d) 0#32))
    (IntOp.addi (IntOp.remsi .host x d) d)
    (IntOp.remsi .host x d)

/-- The remainder with the divisor's sign, as the host program computes it. -/
def remainderWord (x d : BitVec 32) : BitVec 32 := remCoreWord x (divisorWord d)

theorem IsNat.remCore (ha : IsNat a k) (hD : 0 < D) (hD' : D < 2 ^ 31) :
    IsNat (remCoreWord a (BitVec.ofNat 32 D)) (k % D) := by
  have hd := isNat_ofNat hD'
  have hr := ha.remsi .host hD hD'
  have hc : ¬IntOp.andi
      (IntOp.cmpi .ne (IntOp.cmpi .slt (IntOp.remsi .host a (BitVec.ofNat 32 D)) 0#32) (IntOp.cmpi .slt (BitVec.ofNat 32 D) 0#32))
      (IntOp.cmpi .ne (IntOp.remsi .host a (BitVec.ofNat 32 D)) 0#32) = 1#1 := by
    rw [IntOp.andi_eq_one, hr.slt_zero, hd.slt_zero]
    rintro ⟨h1, -⟩
    exact absurd h1 (by decide)
  unfold remCoreWord
  rw [select_of_not hc]
  exact hr

theorem IsNat.remainder (ha : IsNat a k) (hD : 0 < D) (hD' : D < 2 ^ 31) :
    IsNat (remainderWord a (BitVec.ofNat 32 D)) (k % D) := by
  unfold remainderWord
  rw [divisorWord_ofNat hD hD']
  exact ha.remCore hD hD'

end FloorRem

/-! ## Vectors read at an index -/

section Vec
variable {t : Shape}

/-- The one index of the scalar shape. -/
def idx0 : (⟨0, ![]⟩ : Shape).Idx := fun a => a.elim0

theorem idx0_eq (j : (⟨0, ![]⟩ : Shape).Idx) : j = idx0 := funext fun a => a.elim0

/-- A scalar broadcast to any shape is the constant vector of the scalar's one element. -/
theorem bcast0 {α : Type} (h : (⟨0, ![]⟩ : Shape).BroadcastsInDim t (![] : Fin 0 → Fin t.rank))
    (v : (⟨0, ![]⟩ : Shape).Idx → α) : broadcastInDim t ![] h v = fun _ => v idx0 := by
  funext j
  exact congrArg v (funext fun a => a.elim0)

theorem bcast0_at {α : Type} (h : (⟨0, ![]⟩ : Shape).BroadcastsInDim t (![] : Fin 0 → Fin t.rank))
    (v : (⟨0, ![]⟩ : Shape).Idx → α) (j : t.Idx) : broadcastInDim t ![] h v j = v idx0 :=
  congrFun (bcast0 h v) j

/-! The elementwise integer operations at an index are the word operations on the elements (each by unfolding). -/

theorem constantI_at {w : ℕ} (b : BitVec w) (i : t.Idx) : constantI t w b i = b := rfl
theorem addi_at {w : ℕ} (x y : IVec t w) (i : t.Idx) : addi x y i = IntOp.addi (x i) (y i) := rfl
theorem subi_at {w : ℕ} (x y : IVec t w) (i : t.Idx) : subi x y i = IntOp.subi (x i) (y i) := rfl
theorem muli_at {w : ℕ} (x y : IVec t w) (i : t.Idx) : muli x y i = IntOp.muli (x i) (y i) := rfl
theorem andi_at {w : ℕ} (x y : IVec t w) (i : t.Idx) : andi x y i = IntOp.andi (x i) (y i) := rfl
theorem ori_at {w : ℕ} (x y : IVec t w) (i : t.Idx) : ori x y i = IntOp.ori (x i) (y i) := rfl
theorem cmpi_at {w : ℕ} (p : CmpIPredicate) (x y : IVec t w) (i : t.Idx) : cmpi p x y i = IntOp.cmpi p (x i) (y i) := rfl
theorem divsi_at {w : ℕ} (x y : IVec t w) (i : t.Idx) : Host.divsi x y i = IntOp.divsi .host (x i) (y i) := rfl
theorem remsi_at {w : ℕ} (x y : IVec t w) (i : t.Idx) : Host.remsi x y i = IntOp.remsi .host (x i) (y i) := rfl
theorem signi_at {w : ℕ} (x : IVec t w) (i : t.Idx) : signi x i = signWord (x i) := rfl
theorem select_at {α : Type} (c : IVec t 1) (x y : t.Idx → α) (i : t.Idx) :
    select c x y i = Scalar.select (c i) (x i) (y i) := rfl

/-- THE INDEX WRAP at an index: "`x + c` where `x < z`, else `x`", `z` reading zero there, is `x` where `x` is a natural number. -/
theorem wrap_select_apply (x z c : IVec t 32) (i : t.Idx) {k : ℕ} (hx : IsNat (x i) k) (hz : z i = 0#32) :
    select (cmpi .slt x z) (addi x c) x i = x i := by
  show Scalar.select (IntOp.cmpi .slt (x i) (z i)) (IntOp.addi (x i) (c i)) (x i) = x i
  rw [hz]
  exact hx.wrap_select (c i)

/-- The index wrap of a whole vector of natural-number words is that vector. -/
theorem wrap_select_eq (x z c : IVec t 32) {k : t.Idx → ℕ} (hx : ∀ i, IsNat (x i) (k i)) (hz : ∀ i, z i = 0#32) :
    select (cmpi .slt x z) (addi x c) x = x :=
  funext fun i => wrap_select_apply x z c i (hx i) (hz i)

/-- FLOOR DIVISION of a vector by a broadcast scalar, read at an index: the word formula on the element and the scalar. -/
theorem floorDiv_vec_eq (h : (⟨0, ![]⟩ : Shape).BroadcastsInDim t (![] : Fin 0 → Fin t.rank))
    (x : IVec t 32) (d : IVec ⟨0, ![]⟩ 32) (i : t.Idx) :
    select
      (andi (cmpi .ne (signi x) (broadcastInDim t ![] h (signi d)))
        (cmpi .ne (Host.remsi x (broadcastInDim t ![] h d)) (broadcastInDim t ![] h (constantI ⟨0, ![]⟩ 32 0#32))))
      (subi (Host.divsi x (broadcastInDim t ![] h d)) (broadcastInDim t ![] h (constantI ⟨0, ![]⟩ 32 1#32)))
      (Host.divsi x (broadcastInDim t ![] h d)) i
      = floorDivWord (x i) (d idx0) := by
  rw [bcast0 h d, bcast0 h (signi d), bcast0 h (constantI ⟨0, ![]⟩ 32 0#32), bcast0 h (constantI ⟨0, ![]⟩ 32 1#32)]
  rfl

/-- … which on a natural-number element `k` and a positive scalar `D` is the natural number `k / D`. -/
theorem floorDiv_vec_isNat (h : (⟨0, ![]⟩ : Shape).BroadcastsInDim t (![] : Fin 0 → Fin t.rank))
    (x : IVec t 32) (d : IVec ⟨0, ![]⟩ 32) (i : t.Idx) {k D : ℕ}
    (hx : IsNat (x i) k) (hd : ∀ j, d j = BitVec.ofNat 32 D) (hD : 0 < D) (hD' : D < 2 ^ 31) :
    IsNat (select
      (andi (cmpi .ne (signi x) (broadcastInDim t ![] h (signi d)))
        (cmpi .ne (Host.remsi x (broadcastInDim t ![] h d)) (broadcastInDim t ![] h (constantI ⟨0, ![]⟩ 32 0#32))))
      (subi (Host.divsi x (broadcastInDim t ![] h d)) (broadcastInDim t ![] h (constantI ⟨0, ![]⟩ 32 1#32)))
      (Host.divsi x (broadcastInDim t ![] h d)) i) (k / D) := by
  rw [floorDiv_vec_eq h x d i, hd idx0]
  exact hx.floorDiv hD hD'

theorem floorDiv_vec_apply (h : (⟨0, ![]⟩ : Shape).BroadcastsInDim t (![] : Fin 0 → Fin t.rank))
    (x : IVec t 32) (d : IVec ⟨0, ![]⟩ 32) (i : t.Idx) {k D : ℕ}
    (hx : IsNat (x i) k) (hd : ∀ j, d j = BitVec.ofNat 32 D) (hD : 0 < D) (hD' : D < 2 ^ 31) :
    select
      (andi (cmpi .ne (signi x) (broadcastInDim t ![] h (signi d)))
        (cmpi .ne (Host.remsi x (broadcastInDim t ![] h d)) (broadcastInDim t ![] h (constantI ⟨0, ![]⟩ 32 0#32))))
      (subi (Host.divsi x (broadcastInDim t ![] h d)) (broadcastInDim t ![] h (constantI ⟨0, ![]⟩ 32 1#32)))
      (Host.divsi x (broadcastInDim t ![] h d)) i = BitVec.ofNat 32 (k / D) :=
  (floorDiv_vec_isNat h x d i hx hd hD hD').1

/-- The scalar divisor of a remainder, one in place of zero, read at its index. -/
theorem divisor_vec_eq (d : IVec ⟨0, ![]⟩ 32) (j : (⟨0, ![]⟩ : Shape).Idx) :
    select (cmpi .eq d (constantI ⟨0, ![]⟩ 32 0#32)) (constantI ⟨0, ![]⟩ 32 1#32) d j = divisorWord (d j) := rfl

theorem divisor_vec_apply (d : IVec ⟨0, ![]⟩ 32) {D : ℕ} (hd : ∀ j, d j = BitVec.ofNat 32 D) (hD : 0 < D) (hD' : D < 2 ^ 31)
    (j : (⟨0, ![]⟩ : Shape).Idx) :
    select (cmpi .eq d (constantI ⟨0, ![]⟩ 32 0#32)) (constantI ⟨0, ![]⟩ 32 1#32) d j = BitVec.ofNat 32 D := by
  rw [divisor_vec_eq, hd j, divisorWord_ofNat hD hD']

/-- THE REMAINDER of a vector by a broadcast non-zero scalar `e`, read at an index: the word formula. -/
theorem remCore_vec_eq (h : (⟨0, ![]⟩ : Shape).BroadcastsInDim t (![] : Fin 0 → Fin t.rank))
    (x : IVec t 32) (e : IVec ⟨0, ![]⟩ 32) (i : t.Idx) :
    select
      (andi
        (cmpi .ne
          (cmpi .slt (Host.remsi x (broadcastInDim t ![] h e)) (broadcastInDim t ![] h (constantI ⟨0, ![]⟩ 32 0#32)))
          (broadcastInDim t ![] h (cmpi .slt e (constantI ⟨0, ![]⟩ 32 0#32))))
        (cmpi .ne (Host.remsi x (broadcastInDim t ![] h e)) (broadcastInDim t ![] h (constantI ⟨0, ![]⟩ 32 0#32))))
      (addi (Host.remsi x (broadcastInDim t ![] h e)) (broadcastInDim t ![] h e))
      (Host.remsi x (broadcastInDim t ![] h e)) i
      = remCoreWord (x i) (e idx0) := by
  rw [bcast0 h e, bcast0 h (constantI ⟨0, ![]⟩ 32 0#32), bcast0 h (cmpi .slt e (constantI ⟨0, ![]⟩ 32 0#32))]
  rfl

theorem remCore_vec_isNat (h : (⟨0, ![]⟩ : Shape).BroadcastsInDim t (![] : Fin 0 → Fin t.rank))
    (x : IVec t 32) (e : IVec ⟨0, ![]⟩ 32) (i : t.Idx) {k D : ℕ}
    (hx : IsNat (x i) k) (he : ∀ j, e j = BitVec.ofNat 32 D) (hD : 0 < D) (hD' : D < 2 ^ 31) :
    IsNat (select
      (andi
        (cmpi .ne
          (cmpi .slt (Host.remsi x (broadcastInDim t ![] h e)) (broadcastInDim t ![] h (constantI ⟨0, ![]⟩ 32 0#32)))
          (broadcastInDim t ![] h (cmpi .slt e (constantI ⟨0, ![]⟩ 32 0#32))))
        (cmpi .ne (Host.remsi x (broadcastInDim t ![] h e)) (broadcastInDim t ![] h (constantI ⟨0, ![]⟩ 32 0#32))))
      (addi (Host.remsi x (broadcastInDim t ![] h e)) (broadcastInDim t ![] h e))
      (Host.remsi x (broadcastInDim t ![] h e)) i) (k % D) := by
  rw [remCore_vec_eq h x e i, he idx0]
  exact hx.remCore hD hD'

theorem remCore_vec_apply (h : (⟨0, ![]⟩ : Shape).BroadcastsInDim t (![] : Fin 0 → Fin t.rank))
    (x : IVec t 32) (e : IVec ⟨0, ![]⟩ 32) (i : t.Idx) {k D : ℕ}
    (hx : IsNat (x i) k) (he : ∀ j, e j = BitVec.ofNat 32 D) (hD : 0 < D) (hD' : D < 2 ^ 31) :
    select
      (andi
        (cmpi .ne
          (cmpi .slt (Host.remsi x (broadcastInDim t ![] h e)) (broadcastInDim t ![] h (constantI ⟨0, ![]⟩ 32 0#32)))
          (broadcastInDim t ![] h (cmpi .slt e (constantI ⟨0, ![]⟩ 32 0#32))))
        (cmpi .ne (Host.remsi x (broadcastInDim t ![] h e)) (broadcastInDim t ![] h (constantI ⟨0, ![]⟩ 32 0#32))))
      (addi (Host.remsi x (broadcastInDim t ![] h e)) (broadcastInDim t ![] h e))
      (Host.remsi x (broadcastInDim t ![] h e)) i = BitVec.ofNat 32 (k % D) :=
  (remCore_vec_isNat h x e i hx he hD hD').1

/-- THE REMAINDER by a broadcast scalar `d` with its zero guard (`e` above is "one if `d` is zero, else `d`"), on a
    natural-number element `k` and a positive `D`: the natural number `k % D`. -/
theorem remainder_vec_isNat (h : (⟨0, ![]⟩ : Shape).BroadcastsInDim t (![] : Fin 0 → Fin t.rank))
    (x : IVec t 32) (d : IVec ⟨0, ![]⟩ 32) (i : t.Idx) {k D : ℕ}
    (hx : IsNat (x i) k) (hd : ∀ j, d j = BitVec.ofNat 32 D) (hD : 0 < D) (hD' : D < 2 ^ 31) :
    IsNat (select
      (andi
        (cmpi .ne
          (cmpi .slt
            (Host.remsi x (broadcastInDim t ![] h
              (select (cmpi .eq d (constantI ⟨0, ![]⟩ 32 0#32)) (constantI ⟨0, ![]⟩ 32 1#32) d)))
            (broadcastInDim t ![] h (constantI ⟨0, ![]⟩ 32 0#32)))
          (broadcastInDim t ![] h
            (cmpi .slt (select (cmpi .eq d (constantI ⟨0, ![]⟩ 32 0#32)) (constantI ⟨0, ![]⟩ 32 1#32) d)
              (constantI ⟨0, ![]⟩ 32 0#32))))
        (cmpi .ne
          (Host.remsi x (broadcastInDim t ![] h
            (select (cmpi .eq d (constantI ⟨0, ![]⟩ 32 0#32)) (constantI ⟨0, ![]⟩ 32 1#32) d)))
          (broadcastInDim t ![] h (constantI ⟨0, ![]⟩ 32 0#32))))
      (addi
        (Host.remsi x (broadcastInDim t ![] h
          (select (cmpi .eq d (constantI ⟨0, ![]⟩ 32 0#32)) (constantI ⟨0, ![]⟩ 32 1#32) d)))
        (broadcastInDim t ![] h (select (cmpi .eq d (constantI ⟨0, ![]⟩ 32 0#32)) (constantI ⟨0, ![]⟩ 32 1#32) d)))
      (Host.remsi x (broadcastInDim t ![] h
        (select (cmpi .eq d (constantI ⟨0, ![]⟩ 32 0#32)) (constantI ⟨0, ![]⟩ 32 1#32) d))) i) (k % D) :=
  remCore_vec_isNat h x _ i hx (divisor_vec_apply d hd hD hD') hD hD'

theorem remainder_vec_apply (h : (⟨0, ![]⟩ : Shape).BroadcastsInDim t (![] : Fin 0 → Fin t.rank))
    (x : IVec t 32) (d : IVec ⟨0, ![]⟩ 32) (i : t.Idx) {k D : ℕ}
    (hx : IsNat (x i) k) (hd : ∀ j, d j = BitVec.ofNat 32 D) (hD : 0 < D) (hD' : D < 2 ^ 31) :
    select
      (andi
        (cmpi .ne
          (cmpi .slt
            (Host.remsi x (broadcastInDim t ![] h
              (select (cmpi .eq d (constantI ⟨0, ![]⟩ 32 0#32)) (constantI ⟨0, ![]⟩ 32 1#32) d)))
            (broadcastInDim t ![] h (constantI ⟨0, ![]⟩ 32 0#32)))
          (broadcastInDim t ![] h
            (cmpi .slt (select (cmpi .eq d (constantI ⟨0, ![]⟩ 32 0#32)) (constantI ⟨0, ![]⟩ 32 1#32) d)
              (constantI ⟨0, ![]⟩ 32 0#32))))
        (cmpi .ne
          (Host.remsi x (broadcastInDim t ![] h
            (select (cmpi .eq d (constantI ⟨0, ![]⟩ 32 0#32)) (constantI ⟨0, ![]⟩ 32 1#32) d)))
          (broadcastInDim t ![] h (constantI ⟨0, ![]⟩ 32 0#32))))
      (addi
        (Host.remsi x (broadcastInDim t ![] h
          (select (cmpi .eq d (constantI ⟨0, ![]⟩ 32 0#32)) (constantI ⟨0, ![]⟩ 32 1#32) d)))
        (broadcastInDim t ![] h (select (cmpi .eq d (constantI ⟨0, ![]⟩ 32 0#32)) (constantI ⟨0, ![]⟩ 32 1#32) d)))
      (Host.remsi x (broadcastInDim t ![] h
        (select (cmpi .eq d (constantI ⟨0, ![]⟩ 32 0#32)) (constantI ⟨0, ![]⟩ 32 1#32) d))) i
      = BitVec.ofNat 32 (k % D) :=
  (remainder_vec_isNat h x d i hx hd hD hD').1

end Vec

end Cert.Moe
-- ==== Proof.HostCountsBits.lean ====
/-
  The counting stage of the host's integer chain, read as natural numbers.

  Every pair's expert is an entry of the assignment array, so under `InRange` it is a number below 8. The scatter
  that adds a one at each pair's expert holds, at expert e, the number of pairs whose expert is e. From these counts
  everything else is arithmetic on numbers far below 2³¹: the count rounded up to whole tiles of 512 rows, the
  exclusive prefix sums of the counts and of the rounded counts, and both of the latter in tiles.
-/
import proofs.«423054_j31275951850054_3_alg».proof.Proof.HostSpecBits
import proofs.«423054_j31275951850054_3_alg».proof.Proof.LibScatter
import proofs.«423054_j31275951850054_3_alg».proof.Proof.LibPrefix
import proofs.«423054_j31275951850054_3_alg».proof.Proof.LibWord
import Idealize.ShloMosaic.Lib.ValueIdx
import Idealize.ShloMosaic.Lib.SortFacts
import Idealize.ShloMosaic.Lib.Pipeline.Value
import Mathlib.Data.Fintype.Card
import Mathlib.Algebra.BigOperators.Fin

noncomputable section

namespace Cert.Kernel.Host

open Cert.Kernel Cert.Kernel.Chain Cert.Moe Idealize.ShloMosaic
open Facts₀ Facts

variable [Facts] (a1 : IVec S8x4096x2 32)

/-! ## The experts of the pairs -/

/-- Each pair's expert is an entry of the assignment array: the two reshapes only re-index. -/
theorem pairExpert_entry (j : S65536.Idx) : ∃ i : S8x4096x2.Idx, pairExpert a1 j = a1 i := ⟨_, rfl⟩

/-- The experts are in range, pair by pair. -/
theorem keyFacts (ha : InRange a1) : KeyFacts a1 := by
  have hlt : ∀ p : Fin 65536, key a1 p < 8 := by
    intro p
    obtain ⟨i, hi⟩ := pairExpert_entry a1 (Shape.Idx.ofFin p)
    unfold key
    rw [hi]
    exact ha i
  refine ⟨hlt, fun p => ?_⟩
  have h := hlt p
  exact (isNat_of_toNat_lt (v := pairExpert a1 (Shape.Idx.ofFin p)) (by unfold key at h; omega)).1

/-- A pair's expert is the natural number `key`. -/
theorem pairExpert_isNat (hk : KeyFacts a1) (p : Fin 65536) : IsNat (pairExpert a1 (Shape.Idx.ofFin p)) (key a1 p) :=
  ⟨hk.pairExpert_eq p, by have := hk.key_lt p; omega⟩

/-! ## The counts -/

/-- A vector as a column, read at row `p`. -/
theorem col65536_apply (x : IVec S65536 32) (p : Fin 65536) :
    col65536 x (ValueIdx.ix2 p 0) = x (Shape.Idx.ofFin p) := by
  refine broadcastInDim_apply ![0] bcast_S65536_S65536x1_0 x _ _ fun a => ?_
  have ha : a = 0 := Subsingleton.elim _ _
  subst ha
  exact (if_neg (by decide)).symm

/-- The scatter's index column at row `p` is pair `p`'s expert: a number below 8 is not wrapped. -/
theorem expertCol_apply (hk : KeyFacts a1) (p : Fin 65536) :
    col65536 (wrap65536 8#32 (pairExpert a1)) (ValueIdx.ix2 p 0) = BitVec.ofNat 32 (key a1 p) := by
  refine (col65536_apply _ p).trans ?_
  unfold wrap65536
  refine (wrap_select_apply (pairExpert a1) (fill65536 0#32) (fill65536 8#32) (Shape.Idx.ofFin p)
    (pairExpert_isNat a1 hk p) rfl).trans ?_
  exact hk.pairExpert_eq p

/-- Update `n` of the counting scatter lands at expert `e` exactly when pair `n`'s expert is `e`. -/
theorem count_hit_iff (hk : KeyFacts a1) (n : S65536.Idx) (e : Fin 8) :
    scatter_S8_S65536x1_S65536_n_0_0_1.resultIdx? n (col65536 (wrap65536 8#32 (pairExpert a1))) = some (Shape.Idx.ofFin e)
      ↔ key a1 (n 0) = e.val := by
  rw [resultIdx?_take scatter_S8_S65536x1_S65536_n_0_0_1 rfl rfl rfl rfl, expertCol_apply a1 hk (n 0),
    (isNat_ofNat (by have := hk.key_lt (n 0); omega)).toInt_eq]
  show ((key a1 (n 0) : ℕ) : ℤ) = ((e.val : ℕ) : ℤ) ↔ _
  exact Nat.cast_inj

/-- The counting scatter holds at expert `e` the number of pairs of expert `e`. -/
theorem counts_apply (hk : KeyFacts a1) (e : Fin 8) :
    counts a1 (Shape.Idx.ofFin e) = BitVec.ofNat 32 (cnt a1 e) := by
  unfold counts
  refine (scatter_add_ones_apply scatter_S8_S65536x1_S65536_n_0_0_1 (fill8 0#32)
    (col65536 (wrap65536 8#32 (pairExpert a1))) (fill65536 1#32) (fun _ => rfl) (Shape.Idx.ofFin e)).trans ?_
  refine (BitVec.zero_add _).trans (congrArg (BitVec.ofNat 32) ?_)
  unfold cnt
  refine Finset.card_bij (fun n _ => (show Fin 65536 from n 0)) (fun n hn => ?_) (fun n₁ _ n₂ _ h => ?_) (fun p hp => ?_)
  · exact Finset.mem_filter.mpr ⟨Finset.mem_univ _, (count_hit_iff a1 hk n e).mp (Finset.mem_filter.mp hn).2⟩
  · have h' : n₁ 0 = n₂ 0 := h
    rw [Shape.Idx.eq_ofFin n₁, Shape.Idx.eq_ofFin n₂, h']
  · refine ⟨Shape.Idx.ofFin p, ?_, rfl⟩
    exact Finset.mem_filter.mpr
      ⟨Finset.mem_univ _, (count_hit_iff a1 hk (Shape.Idx.ofFin p) e).mpr (Finset.mem_filter.mp hp).2⟩

/-- An expert has at most all the pairs. -/
theorem cnt_le (e : Fin 8) : cnt a1 e ≤ 65536 := by
  unfold cnt
  refine (Finset.card_filter_le _ _).trans ?_
  rw [Finset.card_univ, Fintype.card_fin]

/-- The counts add up to the number of pairs. -/
theorem sum_cnt (hk : KeyFacts a1) : ∑ e : Fin 8, cnt a1 e = 65536 := by
  refine Eq.trans (Finset.sum_congr rfl fun e _ => ?_) (sum_cnt_eq (keyF a1 hk))
  unfold cnt
  refine congrArg Finset.card (Finset.filter_congr fun p _ => ?_)
  exact (Fin.ext_iff (a := keyF a1 hk p) (b := e)).symm

/-! ## Rounded counts, run starts, tiles -/

/-- Floor division of 8 natural-number words by a positive scalar. -/
theorem floorDiv8_isNat (x : IVec S8 32) (i : S8.Idx) {k D : ℕ} (hx : IsNat (x i) k) (hD : 0 < D) (hD' : D < 2 ^ 31) :
    IsNat (floorDiv8 x (constantI S_ 32 (BitVec.ofNat 32 D)) i) (k / D) :=
  floorDiv_vec_isNat bcast_S_S8 x (constantI S_ 32 (BitVec.ofNat 32 D)) i hx (fun _ => rfl) hD hD'

theorem counts_isNat (hk : KeyFacts a1) (e : Fin 8) : IsNat (counts a1 (Shape.Idx.ofFin e)) (cnt a1 e) :=
  ⟨counts_apply a1 hk e, by have := cnt_le a1 e; omega⟩

/-- The rounded count: (count + 512 − 1) floor-divided by 512, times 512. -/
theorem paddedCount_isNat (hk : KeyFacts a1) (e : Fin 8) :
    IsNat (paddedCount a1 (Shape.Idx.ofFin e)) (padCnt 512 (cnt a1) e) := by
  have hc := cnt_le a1 e
  have h1 : IsNat (addi (counts a1) (fill8 512#32) (Shape.Idx.ofFin e)) (cnt a1 e + 512) :=
    (counts_isNat a1 hk e).add (isNat_ofNat (k := 512) (by omega)) (by omega)
  have h2 : IsNat (subi (addi (counts a1) (fill8 512#32)) (fill8 1#32) (Shape.Idx.ofFin e)) (cnt a1 e + 512 - 1) :=
    h1.sub isNat_one (by omega)
  have h3 := floorDiv8_isNat (subi (addi (counts a1) (fill8 512#32)) (fill8 1#32)) (Shape.Idx.ofFin e) h2
    (D := 512) (by omega) (by omega)
  have hq : (cnt a1 e + 512 - 1) / 512 * 512 < 2 ^ 31 :=
    Nat.lt_of_le_of_lt (Nat.div_mul_le_self _ _) (by omega)
  exact h3.mul (isNat_ofNat (k := 512) (by omega)) hq

/-- The exclusive prefix sums of 8 words that are the naturals `c`. -/
theorem exclPrefix8_apply (c : Fin 8 → ℕ) (x : IVec S8 32)
    (hx : ∀ k : Fin 8, x (Shape.Idx.ofFin k) = BitVec.ofNat 32 (c k)) (e : Fin 8) :
    exclPrefix8 x (Shape.Idx.ofFin e) = BitVec.ofNat 32 (∑ k ∈ Finset.univ.filter (fun k : Fin 8 => k < e), c k) := by
  unfold exclPrefix8
  refine (exclPrefix8_ofNat c (cumsum8 x) (fun i => ?_) _ (fun _ => rfl) slices_S8_S7_0 concatenates_S1_S7_S8_d0 e).trans ?_
  · unfold cumsum8
    exact cumsum8_ofNat c x hx _ (fun _ => rfl) reduceWindows_S8_S8_w8s1p7_0 h_S_ i
  · exact congrArg (BitVec.ofNat 32) (Finset.sum_congr (Finset.filter_congr fun k _ => Fin.lt_def.symm) fun _ _ => rfl)

/-- A padded run ends within the 65536 pairs plus 8 tiles' worth of rounding. -/
theorem padStart_add_padCnt_le' (hk : KeyFacts a1) (e : Fin 8) :
    padStart 512 (cnt a1) e + padCnt 512 (cnt a1) e ≤ 69624 := by
  have h := padStart_add_padCnt_le_total 512 (cnt a1) (by omega) e
  rw [sum_cnt a1 hk] at h
  exact h

theorem paddedStart_isNat (hk : KeyFacts a1) (e : Fin 8) :
    IsNat (paddedStart a1 (Shape.Idx.ofFin e)) (padStart 512 (cnt a1) e) := by
  refine ⟨?_, by have := padStart_add_padCnt_le' a1 hk e; omega⟩
  unfold paddedStart
  exact exclPrefix8_apply (padCnt 512 (cnt a1)) (paddedCount a1) (fun k => (paddedCount_isNat a1 hk k).1) e

/-- What the counting stage computes. -/
theorem countFacts (ha : InRange a1) : CountFacts a1 := by
  have hk := keyFacts a1 ha
  refine ⟨counts_apply a1 hk, fun e => (paddedCount_isNat a1 hk e).1, fun e => (paddedStart_isNat a1 hk e).1,
    fun e => ?_, fun e => ?_, fun e => ?_, sum_cnt a1 hk⟩
  · unfold unpaddedStart
    exact exclPrefix8_apply (cnt a1) (counts a1) (counts_apply a1 hk) e
  · unfold tileStart
    exact (floorDiv8_isNat (paddedStart a1) (Shape.Idx.ofFin e) (paddedStart_isNat a1 hk e) (D := 512) (by omega) (by omega)).1
  · unfold tileCount
    exact (floorDiv8_isNat (paddedCount a1) (Shape.Idx.ofFin e) (paddedCount_isNat a1 hk e) (D := 512) (by omega) (by omega)).1

end Cert.Kernel.Host

end
-- ==== Proof.HostTableBits.lean ====
/-
  The table stage of the host's integer chain: the word of each tile of 512 rows.

  Expert e owns the tiles from padStart e / 512 on, padCnt e / 512 of them.  The program builds the [136, 8] array of
  bits "tile i is one of expert e's" from two signed comparisons of the tile number with the expert's first tile and
  with the tile after its last, reduces it along the experts with "or" to know whether the tile has an owner and, weighted
  by the experts' numbers, with "+" to know which, and selects between that sum and −1.

  Every word compared is a natural number below 137, so the comparisons are those of the naturals and a bit of the array
  is set exactly when the expert owns the tile.  The padded runs do not overlap, so at most one bit of a row is set:
  the weighted sum of a row with a set bit is the number of the one expert whose bit it is.
-/
import proofs.«423054_j31275951850054_3_alg».proof.Proof.HostSpecBits
import proofs.«423054_j31275951850054_3_alg».proof.Proof.LibWord
import Idealize.ShloMosaic.Lib.StableHlo.Predicate
import Idealize.ShloMosaic.Lib.Affine
import Idealize.ShloMosaic.PureOps.Reduce

noncomputable section

namespace Cert.Kernel.Host

open Cert.Kernel Cert.Kernel.Chain Cert.Moe Idealize.ShloMosaic
open Idealize.ShloMosaic.StableHlo.Predicate (ij)
open Facts₀ Facts

namespace Table

/-! ## Folds of bits under "or" and of words under "+" over a finite set -/

/-- An "or" of bits is set exactly when one of the bits is. -/
theorem fold_ori_eq_one_iff {ι : Type} [DecidableEq ι] (S : Finset ι) (f : ι → BitVec 1) :
    S.fold IntOp.ori 0#1 f = 1#1 ↔ ∃ k ∈ S, f k = 1#1 := by
  induction S using Finset.induction_on with
  | empty =>
    rw [Finset.fold_empty]
    constructor
    · intro h; exact absurd h (by decide)
    · rintro ⟨k, hk, -⟩; exact absurd hk (Finset.notMem_empty k)
  | insert a S ha ih =>
    rw [Finset.fold_insert ha, IntOp.ori_eq_one, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.mp hk with rfl | hk
      · exact Or.inl h
      · exact Or.inr ⟨k, hk, h⟩

/-- A sum of zero words is zero. -/
theorem fold_addi_eq_zero {ι : Type} [DecidableEq ι] (S : Finset ι) (f : ι → BitVec 32) (h0 : ∀ k ∈ S, f k = 0#32) :
    S.fold IntOp.addi 0#32 f = 0#32 := by
  induction S using Finset.induction_on with
  | empty => rfl
  | insert a S ha ih =>
    rw [Finset.fold_insert ha, h0 a (Finset.mem_insert_self a S), ih fun k hk => h0 k (Finset.mem_insert_of_mem hk)]
    rfl

/-- A sum of words all zero but one is that one. -/
theorem fold_addi_eq_single {ι : Type} [DecidableEq ι] (S : Finset ι) (f : ι → BitVec 32) (e : ι) (he : e ∈ S)
    (h0 : ∀ k ∈ S, k ≠ e → f k = 0#32) : S.fold IntOp.addi 0#32 f = f e := by
  rw [← Finset.insert_erase he, Finset.fold_insert (Finset.notMem_erase e S),
    fold_addi_eq_zero _ _ fun k hk => h0 k (Finset.mem_of_mem_erase hk) (Finset.ne_of_mem_erase hk)]
  exact BitVec.add_zero (f e)

/-! ## A reduction of the [136, 8] array along its second axis, read at a row -/

/-- The index of the [136, 8] array over row `i` with column `k` inserted is (i, k). -/
theorem lift_row (h : S136x8.Reduces [1] S136) (i : Fin 136) (k : Fin 8) :
    h.lift (Shape.Idx.ofFin i) k = ij i k := by
  funext c
  match c with
  | ⟨0, _⟩ => exact Fin.ext rfl
  | ⟨1, _⟩ => exact Fin.ext rfl

variable [Facts]

/-- A commutative and associative reduction over the experts is, at tile `i`, the fold of row `i`. -/
theorem reduce_row {α : Type} (f : α → α → α) [Std.Commutative f] [Std.Associative f] (x : S136x8.Idx → α)
    (init : S_.Idx → α) (i : Fin 136) :
    Host.reduce f x init reducesTo_S136x8_S136_d1 h_S_ (Shape.Idx.ofFin i)
      = (Finset.univ : Finset (Fin 8)).fold f (init (Shape.Idx.first h_S_)) (fun k => x (ij i k)) := by
  have h : S136x8.Reduces [1] S136 := by decide
  refine (Host.reduce_eq_fold_single f x init reducesTo_S136x8_S136_d1 h h_S_ (Shape.Idx.ofFin i)).trans ?_
  show (Finset.univ : Finset (Fin 8)).fold f _ (x ∘ h.lift (Shape.Idx.ofFin i)) = _
  congr 1
  funext k
  exact congrArg x (lift_row h i k)

variable (a1 : IVec S8x4096x2 32)

/-! ## The array of bits -/

/-- An expert's tiles end by tile 135: the padded runs fit in 65536 + 8 · 511 rows. -/
theorem tiles_le (hc : CountFacts a1) (e : Fin 8) :
    padStart 512 (cnt a1) e / 512 + padCnt 512 (cnt a1) e / 512 ≤ 135 := by
  have h := padStart_add_padCnt_le_total 512 (cnt a1) (by omega) e
  rw [hc.sum_cnt] at h
  obtain ⟨a, ha⟩ := dvd_padStart 512 (cnt a1) e
  obtain ⟨b, hb⟩ := dvd_padCnt 512 (cnt a1) e
  rw [ha, hb] at h ⊢
  rw [Nat.mul_div_cancel_left _ (by omega), Nat.mul_div_cancel_left _ (by omega)]
  omega

/-- The bit of tile i and expert e: the two comparisons of the tile's number with the expert's words. -/
theorem inRange_apply (i : Fin 136) (e : Fin 8) :
    inRange a1 (ij i e) =
      IntOp.andi (IntOp.cmpi .sge (BitVec.ofNat 32 i.val) (tileStart a1 (Shape.Idx.ofFin e)))
        (IntOp.cmpi .slt (BitVec.ofNat 32 i.val)
          (IntOp.addi (tileStart a1 (Shape.Idx.ofFin e)) (tileCount a1 (Shape.Idx.ofFin e)))) := by
  unfold inRange
  rw [andi_at, cmpi_at, cmpi_at, StableHlo.Predicate.bcast_rows, StableHlo.Predicate.bcast_cols,
    StableHlo.Predicate.bcast_cols, StableHlo.Predicate.iota_apply, addi_at]

/-- The bit is set exactly when the expert owns the tile. -/
theorem inRange_eq_one_iff (hc : CountFacts a1) (i : Fin 136) (e : Fin 8) :
    inRange a1 (ij i e) = 1#1 ↔ Owns a1 e i.val := by
  have hle := tiles_le a1 hc e
  have hs : IsNat (tileStart a1 (Shape.Idx.ofFin e)) (padStart 512 (cnt a1) e / 512) :=
    ⟨hc.tileStart_eq e, by omega⟩
  have hn : IsNat (tileCount a1 (Shape.Idx.ofFin e)) (padCnt 512 (cnt a1) e / 512) :=
    ⟨hc.tileCount_eq e, by omega⟩
  have hi : IsNat (BitVec.ofNat 32 i.val) i.val := isNat_ofNat (by have := i.isLt; omega)
  rw [inRange_apply, IntOp.andi_eq_one, hi.sge_iff hs, hi.slt_iff (hs.add hn (by omega))]
  rfl

/-! ## The table -/

/-- A cleared bit weighs nothing; a set bit weighs the expert's number. -/
theorem weight_zero (x : BitVec 32) : IntOp.muli ((0#1 : BitVec 1).setWidth 32) x = 0#32 := by
  show (0#1 : BitVec 1).setWidth 32 * x = 0#32
  rw [show (0#1 : BitVec 1).setWidth 32 = 0#32 from rfl, BitVec.zero_mul]
theorem weight_one (x : BitVec 32) : IntOp.muli ((1#1 : BitVec 1).setWidth 32) x = x := by
  show (1#1 : BitVec 1).setWidth 32 * x = x
  rw [show (1#1 : BitVec 1).setWidth 32 = 1#32 from rfl, BitVec.one_mul]

/-- The weighted bit of tile i and expert k: the bit widened, times the expert's number. -/
theorem weighted_apply (i : Fin 136) (k : Fin 8) :
    muli (extui 32 (inRange a1) natLt_1_32)
        (broadcastInDim S136x8 ![0, 1] bcast_S1x8_S136x8_0_1 (broadcastInDim S1x8 ![1] bcast_S8_S1x8_1 (iotaInDim S8 32 0)))
        (ij i k)
      = IntOp.muli ((inRange a1 (ij i k)).setWidth 32) (BitVec.ofNat 32 k.val) := by
  rw [muli_at, StableHlo.Predicate.bcast_cols, StableHlo.Predicate.iota_apply]
  rfl

/-- The word of tile i: the selection, on the "or" of row i, between the weighted sum of row i and −1. -/
theorem tileExpert_apply (i : Fin 136) :
    tileExpert a1 (Shape.Idx.ofFin i) =
      Scalar.select ((Finset.univ : Finset (Fin 8)).fold IntOp.ori 0#1 fun k => inRange a1 (ij i k))
        ((Finset.univ : Finset (Fin 8)).fold IntOp.addi 0#32 fun k =>
          IntOp.muli ((inRange a1 (ij i k)).setWidth 32) (BitVec.ofNat 32 k.val))
        4294967295#32 := by
  unfold tileExpert
  rw [select_at, reduce_row, reduce_row, bcast0_at]
  simp only [weighted_apply]
  rfl

end Table

open Table

variable [Facts] (a1 : IVec S8x4096x2 32)

/-- THE TABLE STAGE: a tile's word is its owner's number, or −1 when it has no owner. -/
theorem tableFacts (hc : CountFacts a1) : TableFacts a1 := by
  refine ⟨fun i e ho => ?_, fun i hno => ?_⟩
  · have hbit : ∀ k : Fin 8, k ≠ e → inRange a1 (ij i k) = 0#1 := fun k hk =>
      (bit_eq_zero_iff _).mpr fun h1 =>
        hk (tile_owner_unique 512 (cnt a1) (by omega) i.val ((inRange_eq_one_iff a1 hc i k).mp h1) ho)
    have hone : inRange a1 (ij i e) = 1#1 := (inRange_eq_one_iff a1 hc i e).mpr ho
    have hor : (Finset.univ : Finset (Fin 8)).fold IntOp.ori 0#1 (fun k => inRange a1 (ij i k)) = 1#1 :=
      (fold_ori_eq_one_iff _ _).mpr ⟨e, Finset.mem_univ e, hone⟩
    rw [tileExpert_apply, select_of_one hor,
      fold_addi_eq_single _ _ e (Finset.mem_univ e) fun k _ hk => by rw [hbit k hk]; exact weight_zero _,
      hone]
    exact weight_one _
  · have hor : ¬(Finset.univ : Finset (Fin 8)).fold IntOp.ori 0#1 (fun k => inRange a1 (ij i k)) = 1#1 := by
      rw [fold_ori_eq_one_iff]
      rintro ⟨k, -, hk⟩
      exact hno k ((inRange_eq_one_iff a1 hc i k).mp hk)
    rw [tileExpert_apply, select_of_not hor]

/-- Every word of the table is −1 or an expert's number: a tile has an owner or has none. -/
theorem tableRange (ht : TableFacts a1) : TableRange a1 := by
  intro i
  by_cases h : ∃ e : Fin 8, Owns a1 e i.val
  · obtain ⟨e, he⟩ := h
    refine Or.inr ?_
    rw [ht.of_owner i e he, BitVec.toNat_ofNat]
    have := e.isLt
    omega
  · exact Or.inl (ht.of_no_owner i fun e he => h ⟨e, he⟩)

end Cert.Kernel.Host

end
-- ==== Proof.HostRangeBits.lean ====
/-
  The table's range from the assignment array's entries being experts' numbers: what the pipeline's side condition needs.
-/
import proofs.«423054_j31275951850054_3_alg».proof.Proof.HostCountsBits
import proofs.«423054_j31275951850054_3_alg».proof.Proof.HostTableBits

noncomputable section

namespace Cert.Kernel.Host

open Cert.Kernel Cert.Kernel.Chain Cert.Moe Idealize.ShloMosaic
open Facts₀ Facts

variable [Facts] (a1 : IVec S8x4096x2 32)

/-- Every word of the table is −1 or an expert's number. -/
theorem table_range (ha : InRange a1) : TableRange a1 :=
  tableRange a1 (tableFacts a1 (countFacts a1 ha))

end Cert.Kernel.Host

end
-- ==== Proof.FrameOfPreBits.lean ====
/-
  The frame from the assignment array's range: when every entry is an expert's number, every word of the prefetched
  table is −1 or an expert's number, so each block the table selects lies inside its array, and the program runs to
  its end with its arguments unchanged.
-/
import proofs.«423054_j31275951850054_3_alg».proof.Proof.FrameRunBits
import proofs.«423054_j31275951850054_3_alg».proof.Proof.BodyBits
import proofs.«423054_j31275951850054_3_alg».proof.Proof.HostValsBits
import proofs.«423054_j31275951850054_3_alg».proof.Proof.OkOfRangeBits
import proofs.«423054_j31275951850054_3_alg».proof.Proof.HostRangeBits

noncomputable section

namespace Cert.Kernel.Hand

open Cert.Kernel Cert.Kernel.Gen
open Idealize.ShloMosaic Idealize.ShloMosaic.TcCoe
open Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The pipeline's side condition of the table, from the range of the assignment array. -/
theorem ok_of_inRange (ha : Host.InRange (m (((0 : Dev nD) : Thread nD τ).loc main_arg1))) : Ok m :=
  ok0_of_range (tbl m) (by
    intro i
    rw [tbl_eq m]
    exact Host.table_range _ ha i)

/-- The frame claim's post, from the range of the assignment array. -/
theorem frame_of_inRange (ha : Host.InRange (m (((0 : Dev nD) : Thread nD τ).loc main_arg1))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m ρ (ok_of_inRange m ha) (fun c => body_obligation m (ok_of_inRange m ha) c)

end Cert.Kernel.Hand

end
-- ==== Proof.Entry.lean ====
/-
  The program around its one region: the host lines before it, what the buffers hold when the region is entered,
  the table of tile experts the region prefetches, and the pipeline at that table's contents.
-/
import proofs.«423054_j31275951850054_3_alg».proof.Proof.Gen.KernelIdeal.Launch
import proofs.«423054_j31275951850054_3_alg».proof.Proof.Gen.KernelIdeal.Skeleton
import Idealize.ShloMosaic.Lib.Pipeline.FrameSuffix
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- The stretches of host operations before the region, in order (a called function's operations a stretch of their own). -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]
/-- The stretches after it. -/
abbrev postOps : List (List (HloOp τ sig (Elt F))) := [hostOps1, hostOps1_1, hostOps1_2]

/-- Core `c`'s buffers when the region is entered: the lines before it have run on the launch memory. -/
abbrev V₀ (c : Dev nD) : Valuation τ sig (Elt F) := StableHlo.after (preOps (F := F)).flatten (fun b => m (c, b))
abbrev V (c : Dev nD) (b : Ref sig .tc) : Buf (Elt F) ((c : Thread nD τ).loc b) := V₀ m c (Proc.devRef .tc b)

/-- @main is the lines before the region, the region, the lines after it. -/
theorem hmain (𝒱₀ : Variants) :
    Pipeline.HMainPK (Ix := Unit) (Name := ℕ) (U := UR sig nD τ) (Lvl := ℕ) pcfgs 0 defs₀ 𝒱₀ m (main (F := F))
      (fun c b => V₀ m c (Proc.devRef .tc b)) (fun _ => Pipeline.chain ((postOps (F := F)).map StableHlo.seq)) :=
  Pipeline.hmainP_around pcfgs 0 defs₀ 𝒱₀ m main preOps postOps
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩
    (by
      refine List.forall_iff_forall_mem.mpr fun ops hops => List.forall_iff_forall_mem.mpr fun op hop => ?_
      simp only [preOps, List.mem_cons, List.mem_nil_iff, or_false] at hops
      rcases hops with rfl | rfl | rfl | rfl | rfl | rfl | rfl | rfl | rfl | rfl | rfl | rfl | rfl | rfl | rfl <;>
        ((repeat (cases hop with | head => rfl | tail _ hop => ?_)); exact nomatch hop))
    (fun c => (main_chain c).trans rfl)

/-! ## The prefetched table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table: each window whose block index is read off it stays inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The table's word for point `t`: the expert of tile `t`, or −1. -/
def word (hO : Ok m) (t : Fin (cfgM m hO).N) : BitVec 32 := (tbl m).atD 0 (k0_off1 ((cfgM m hO).grid.coords t))

/-- What the body leaves in the output window's buffer at point `t`: the weighted feed-forward block of the tile's rows
    when the tile has an expert, zeros when it has none. -/
def outAt (hO : Ok m) (c : Dev nD) (t : Fin (cfgM m hO).N) : Vec F S512x512 .bf16 :=
  if k0_cond1 (word m hO t) = 1#1 then
    k0_pay1 (iblk m hO c 0 t) (iblk m hO c 1 t) (iblk m hO c 2 t) (iblk m hO c 3 t) (iblk m hO c 4 t) (iblk m hO c 5 t)
  else k0_pay2 (F := F)

/-- The proof data: the arrays as the region finds them; after the body each input's buffer at its block and the
    output's at `outAt`; the invariant the scoped rest, the generator register and the table; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

end Cert.KernelIdeal.Hand

end
-- ==== Proof.Chain.lean ====
/-
  The host side of the routed feed-forward layer, as pure functions of the argument arrays.

  The program flattens the (token, slot) pairs, P = 65536 of them, with the expert of pair p in `pairExpert`.
  It sorts the pairs by expert (`order`), counts the pairs of each expert (`counts`), rounds each expert's run up
  to whole tiles of 512 rows (`paddedCount`), and lays the runs out one after the other (`paddedStart`, the
  exclusive prefix sums; `unpaddedStart` the same for the unpadded runs). The pair at sorted position j with expert e goes to
  row `paddedStart e + (j − unpaddedStart e)` (`destIndex`). `paddedToken` holds the token of each occupied row,
  `paddedValid` marks the occupied rows, `weight` is one half on them and zero elsewhere, `tileExpert` is the
  expert a tile of rows belongs to (−1 for a tile of no expert), `xPadded` the token rows gathered into the layout.
  After the region, `pos` sends each (token, slot) to its row, and `result` adds a token's two rows.

  Every definition is the composition of the printed operations, operation by operation, so that the value a
  buffer holds after the host lines is one of these by unfolding.
-/
import proofs.«423054_j31275951850054_3_alg».proof.KernelIdeal

noncomputable section

namespace Cert.KernelIdeal.Chain

open Cert.KernelIdeal Idealize.ShloMosaic
open Facts₀ Facts

variable [Facts] {F : FTy → Type} [FloatOps F]

/-! ## Small pieces the chain repeats -/

/-- A scalar word spread over 65536 entries. -/
abbrev fill65536 (n : BitVec 32) : IVec S65536 32 := broadcastInDim S65536 ![] bcast_S_S65536 (constantI S_ 32 n)
/-- A scalar word spread over 69632 entries. -/
abbrev fill69632 (n : BitVec 32) : IVec S69632 32 := broadcastInDim S69632 ![] bcast_S_S69632 (constantI S_ 32 n)
/-- A scalar word spread over 8 entries. -/
abbrev fill8 (n : BitVec 32) : IVec S8 32 := broadcastInDim S8 ![] bcast_S_S8 (constantI S_ 32 n)

/-- An index below zero counts from the end of an axis of extent `n`; other indices stand. -/
def wrap65536 (n : BitVec 32) (x : IVec S65536 32) : IVec S65536 32 :=
  select (cmpi .slt x (fill65536 0#32)) (addi x (fill65536 n)) x
/-- The same over 69632 entries. -/
def wrap69632 (n : BitVec 32) (x : IVec S69632 32) : IVec S69632 32 :=
  select (cmpi .slt x (fill69632 0#32)) (addi x (fill69632 n)) x
/-- A vector of 65536 indices as a column of one-component index vectors. -/
abbrev col65536 (x : IVec S65536 32) : IVec S65536x1 32 := broadcastInDim S65536x1 ![0] bcast_S65536_S65536x1_0 x

/-- The quotient rounded toward minus infinity, of 8 words by a scalar word: the truncated quotient, less one
    where the signs differ and the division is not exact. -/
def floorDiv8 (x : IVec S8 32) (d : IVec S_ 32) : IVec S8 32 :=
  let v0 : IVec S_ 32 := id d
  let v1 : IVec S8 32 := broadcastInDim S8 ![] bcast_S_S8 v0
  let v2 : IVec S8 32 := Host.divsi x v1
  let v3 : IVec S8 32 := signi x
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi x v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  select v11 v13 v2

/-- The remainder with the divisor's sign, of 65536 words by a scalar word (a zero divisor read as one). -/
def remainderP (x : IVec S65536 32) (d : IVec S_ 32) : IVec S65536 32 :=
  let v0 : IVec S_ 32 := id d
  let c : IVec S_ 32 := constantI S_ 32 0#32
  let v1 : IVec S_ 1 := cmpi .eq v0 c
  let c_0 : IVec S_ 32 := constantI S_ 32 1#32
  let w : IVec S_ 32 := select v1 c_0 v0
  let v3 : IVec S65536 32 := broadcastInDim S65536 ![] bcast_S_S65536 w
  let v4 : IVec S65536 32 := Host.remsi x v3
  let c_1 : IVec S_ 32 := constantI S_ 32 0#32
  let v5 : IVec S65536 32 := broadcastInDim S65536 ![] bcast_S_S65536 c_1
  let v6 : IVec S65536 1 := cmpi .ne v4 v5
  let c_2 : IVec S_ 32 := constantI S_ 32 0#32
  let v7 : IVec S65536 32 := broadcastInDim S65536 ![] bcast_S_S65536 c_2
  let v8 : IVec S65536 1 := cmpi .slt v4 v7
  let c_3 : IVec S_ 32 := constantI S_ 32 0#32
  let v9 : IVec S_ 1 := cmpi .slt w c_3
  let v10 : IVec S65536 1 := broadcastInDim S65536 ![] bcast_S_S65536 v9
  let v11 : IVec S65536 1 := cmpi .ne v8 v10
  let v12 : IVec S65536 1 := andi v11 v6
  let v13 : IVec S65536 32 := broadcastInDim S65536 ![] bcast_S_S65536 w
  let v14 : IVec S65536 32 := addi v4 v13
  select v12 v14 v4

/-- The running sums of 8 words. -/
def cumsum8 (x : IVec S8 32) : IVec S8 32 :=
  Host.reduceWindow IntOp.addi ![8] ![1] ![7] ![0] x (broadcastInDim S_ ![] bcast_S_S_ (constantI S_ 32 0#32)) reduceWindows_S8_S8_w8s1p7_0 h_S_
/-- The sums of the words before each of 8 words: a zero, then the first seven running sums. -/
def exclPrefix8 (x : IVec S8 32) : IVec S8 32 :=
  concatenate S8 0 [⟨S1, broadcastInDim S1 ![] bcast_S_S1 (constantI S_ 32 0#32)⟩, ⟨S7, extractStridedSlice S7 ![0] (cumsum8 x) slices_S8_S7_0⟩] concatenates_S1_S7_S8_d0

/-! ## The routing tables, from the assignment array -/

variable (a1 : IVec S8x4096x2 32)

/-- The expert of each (token, slot) pair, pairs in row-major order. -/
def pairExpert : IVec S65536 32 := shapeCast S65536 (shapeCast S32768x2 a1 shapeCasts_S8x4096x2_S32768x2) shapeCasts_S32768x2_S65536
/-- The token of each pair: pair p belongs to token p / 2. -/
def pairToken : IVec S65536 32 := shapeCast S65536 (broadcastInDim S32768x2 ![0] bcast_S32768_S32768x2_0 (iotaInDim S32768 32 0)) shapeCasts_S32768x2_S65536
/-- The pairs in order of their expert, ties in order of the pairs. -/
def order : IVec S65536 32 := (Host.sort2 S65536 0 comparator_i32_i32_d0 (pairExpert a1) (iotaInDim S65536 32 0)).2
/-- The sorted positions as gather indices. -/
abbrev orderIdx : IVec S65536x1 32 := col65536 (wrap65536 65536#32 (order a1))
/-- The expert at each sorted position. -/
def sortedExpert : IVec S65536 32 := Host.gather gather_S65536_S65536x1_S65536_n_0_n_n_0_1_1 (pairExpert a1) (orderIdx a1)
/-- The token at each sorted position. -/
def sortedToken : IVec S65536 32 := Host.gather gather_S65536_S65536x1_S65536_n_0_n_n_0_1_1 pairToken (orderIdx a1)
/-- The number of pairs of each expert. -/
def counts : IVec S8 32 :=
  Host.scatter scatter_S8_S65536x1_S65536_n_0_0_1 IntOp.addi (fill8 0#32) (col65536 (wrap65536 8#32 (pairExpert a1))) (fill65536 1#32)
/-- Each expert's run rounded up to whole tiles of 512 rows. -/
def paddedCount : IVec S8 32 :=
  muli (floorDiv8 (subi (addi (counts a1) (fill8 512#32)) (fill8 1#32)) (constantI S_ 32 512#32)) (fill8 512#32)
/-- Where each expert's padded run starts. -/
def paddedStart : IVec S8 32 := exclPrefix8 (paddedCount a1)
/-- Where each expert's run starts among the sorted pairs. -/
def unpaddedStart : IVec S8 32 := exclPrefix8 (counts a1)
/-- The sorted experts as gather indices into a table of 8. -/
abbrev sortedExpertIdx : IVec S65536x1 32 := col65536 (wrap65536 8#32 (sortedExpert a1))
/-- A sorted position's offset inside its expert's run. -/
def localOffset : IVec S65536 32 :=
  subi (iotaInDim S65536 32 0) (Host.gather gather_S8_S65536x1_S65536_n_0_n_n_0_1_1 (unpaddedStart a1) (sortedExpertIdx a1))
/-- The row each sorted position is sent to. -/
def destIndex : IVec S65536 32 :=
  addi (Host.gather gather_S8_S65536x1_S65536_n_0_n_n_0_1_1 (paddedStart a1) (sortedExpertIdx a1)) (localOffset a1)
/-- The rows as scatter indices into 69632 rows. -/
abbrev destIdx : IVec S65536x1 32 := col65536 (wrap65536 69632#32 (destIndex a1))
/-- The token of each occupied row (zero on the others). -/
def paddedToken : IVec S69632 32 :=
  Host.scatter scatter_S69632_S65536x1_S65536_n_0_0_1 (fun _ b => b) (fill69632 0#32) (destIdx a1) (sortedToken a1)
/-- Which rows are occupied. -/
def paddedValid : IVec S69632 1 :=
  Host.scatter scatter_S69632_S65536x1_S65536_n_0_0_1 (fun _ b => b) (broadcastInDim S69632 ![] bcast_S_S69632 (constantI S_ 1 0#1)) (destIdx a1)
    (broadcastInDim S65536 ![] bcast_S_S65536 (constantI S_ 1 1#1))
/-- The first tile of each expert, and its number of tiles. -/
def tileStart : IVec S8 32 := floorDiv8 (paddedStart a1) (constantI S_ 32 512#32)
def tileCount : IVec S8 32 := floorDiv8 (paddedCount a1) (constantI S_ 32 512#32)
/-- Tile i belongs to expert e: at or after the expert's first tile and before its last. -/
def inRange : IVec S136x8 1 :=
  andi
    (cmpi .sge (broadcastInDim S136x8 ![0, 1] bcast_S136x1_S136x8_0_1 (broadcastInDim S136x1 ![0] bcast_S136_S136x1_0 (iotaInDim S136 32 0)))
      (broadcastInDim S136x8 ![0, 1] bcast_S1x8_S136x8_0_1 (broadcastInDim S1x8 ![1] bcast_S8_S1x8_1 (tileStart a1))))
    (cmpi .slt (broadcastInDim S136x8 ![0, 1] bcast_S136x1_S136x8_0_1 (broadcastInDim S136x1 ![0] bcast_S136_S136x1_0 (iotaInDim S136 32 0)))
      (broadcastInDim S136x8 ![0, 1] bcast_S1x8_S136x8_0_1 (broadcastInDim S1x8 ![1] bcast_S8_S1x8_1 (addi (tileStart a1) (tileCount a1)))))
/-- The expert of each tile of 512 rows, −1 for a tile of no expert: the prefetched table. -/
def tileExpert : IVec S136 32 :=
  select (Host.reduce IntOp.ori (inRange a1) (constantI S_ 1 0#1) reducesTo_S136x8_S136_d1 h_S_)
    (Host.reduce IntOp.addi
      (muli (extui 32 (inRange a1) natLt_1_32)
        (broadcastInDim S136x8 ![0, 1] bcast_S1x8_S136x8_0_1 (broadcastInDim S1x8 ![1] bcast_S8_S1x8_1 (iotaInDim S8 32 0))))
      (constantI S_ 32 0#32) reducesTo_S136x8_S136_d1 h_S_)
    (broadcastInDim S136 ![] bcast_S_S136 (id (constantI S_ 32 4294967295#32)))

/-! ## The region's float operands -/

/-- One half on the occupied rows, zero on the others, as a column. -/
def weight : FVec F S69632x1 .f32 :=
  shapeCast S69632x1 (mulf (uitofp .f32 (paddedValid a1)) (broadcastInDim S69632 ![] bcast_S_S69632 (constant S_ .f32 0x3F000000#32))) shapeCasts_S69632_S69632x1
/-- The token rows in the padded layout: row r is the row of token `paddedToken r`, narrowed. -/
def xPadded (a0 : FVec F S8x4096x512 .f32) : FVec F S69632x512 .bf16 :=
  Host.gather gather_S32768x512_S69632x1_S69632x512_1_0_n_n_0_1_1512
    (truncf .bf16 (shapeCast S32768x512 a0 shapeCasts_S8x4096x512_S32768x512) bitsLt_bf16_f32)
    (broadcastInDim S69632x1 ![0] bcast_S69632_S69632x1_0 (wrap69632 32768#32 (paddedToken a1)))
/-- The experts' matrices narrowed, their bias rows with a unit axis. -/
def w1 (a2 : FVec F S8x512x2048 .f32) : FVec F S8x512x2048 .bf16 := truncf .bf16 a2 bitsLt_bf16_f32
def w2 (a4 : FVec F S8x2048x512 .f32) : FVec F S8x2048x512 .bf16 := truncf .bf16 a4 bitsLt_bf16_f32
def b1r (a3 : FVec F S8x2048 .f32) : FVec F S8x1x2048 .f32 := shapeCast S8x1x2048 a3 shapeCasts_S8x2048_S8x1x2048
def b2r (a5 : FVec F S8x512 .f32) : FVec F S8x1x512 .f32 := shapeCast S8x1x512 a5 shapeCasts_S8x512_S8x1x512

/-! ## After the region: each (token, slot) pair's row, and the sum of a token's two rows -/

/-- The slot of each sorted position: its pair modulo 2. -/
def sortedSlot : IVec S65536 32 := remainderP (order a1) (constantI S_ 32 2#32)
/-- The (token, slot) cells as two-component scatter indices. -/
def cellIdx : IVec S65536x2 32 :=
  concatenate S65536x2 1 [⟨S65536x1, col65536 (wrap65536 32768#32 (sortedToken a1))⟩, ⟨S65536x1, col65536 (wrap65536 2#32 (sortedSlot a1))⟩]
    concatenates_S65536x1_S65536x1_S65536x2_d1
/-- The row of each (token, slot) cell. -/
def pos : IVec S32768x2 32 :=
  Host.scatter scatter_S32768x2_S65536x2_S65536_n_01_01_1 (fun _ b => b) (broadcastInDim S32768x2 ![] bcast_S_S32768x2 (constantI S_ 32 0#32)) (cellIdx a1) (destIndex a1)
/-- The rows of the pairs, pairs in row-major order, as gather indices. -/
abbrev posIdx : IVec S65536x1 32 := col65536 (wrap65536 69632#32 (shapeCast S65536 (pos a1) shapeCasts_S32768x2_S65536))
/-- The program's result from the region's output `y`: each token's two rows, widened and added. -/
def result (y : FVec F S69632x512 .bf16) : FVec F S8x4096x512 .f32 :=
  shapeCast S8x4096x512
    (Host.reduceAdd
      (shapeCast S32768x2x512 (extf .f32 (Host.gather gather_S69632x512_S65536x1_S65536x512_1_0_n_n_0_1_1512 y (posIdx a1)) bitsLt_bf16_f32) shapeCasts_S65536x512_S32768x2x512)
      (constant S_ .f32 0x00000000#32) reducesTo_S32768x2x512_S32768x512_d1 h_S_)
    shapeCasts_S32768x512_S8x4096x512

end Cert.KernelIdeal.Chain

end
-- ==== Proof.HostSpec.lean ====
/-
  The routing tables read as natural numbers: what each stage of the host's integer chain computes, stated as
  facts about `Chain`'s definitions, so that each stage is proved from the stage before it as a hypothesis.

  P = 65536 pairs; pair p has expert `key p` in [0, 8) (under `InRange`); `cnt e` pairs have expert e; a bijection σ of
  the pairs lists them in order of their experts; the pair at sorted position j goes to row
  `dest σ j = padStart (key (σ j)) + (j − runStart (key (σ j)))` of a layout in which expert e owns the rows from
  `padStart e` on, `padCnt e` of them (its count rounded up to whole tiles of 512 rows).
-/
import proofs.«423054_j31275951850054_3_alg».proof.Proof.Chain
import proofs.«423054_j31275951850054_3_alg».proof.Proof.LibGroupLayout
import Idealize.ShloMosaic.Lib.SortFacts

noncomputable section

namespace Cert.KernelIdeal.Host

open Cert.KernelIdeal Cert.KernelIdeal.Chain Cert.Moe Idealize.ShloMosaic
open Facts₀ Facts

variable [Facts] (a1 : IVec S8x4096x2 32)

/-- Every entry of the assignment array is an expert's number: a word in [0, 8). -/
def InRange : Prop := ∀ i : S8x4096x2.Idx, (a1 i).toNat < 8

/-- The expert of pair `p`, as a number. -/
def key (p : Fin 65536) : ℕ := (pairExpert a1 (Shape.Idx.ofFin p)).toNat
/-- The number of pairs of expert `e`. -/
def cnt (e : Fin 8) : ℕ := (Finset.univ.filter fun p : Fin 65536 => key a1 p = e.val).card

/-- The experts are in range, pair by pair. -/
structure KeyFacts : Prop where
  key_lt : ∀ p : Fin 65536, key a1 p < 8
  pairExpert_eq : ∀ p : Fin 65536, pairExpert a1 (Shape.Idx.ofFin p) = BitVec.ofNat 32 (key a1 p)

/-- The expert of pair `p` as an element of `Fin 8`. -/
def keyF (hk : KeyFacts a1) (p : Fin 65536) : Fin 8 := ⟨key a1 p, hk.key_lt p⟩

/-- What the counting stage computes: the counts, the padded counts, both kinds of run starts, and the runs in tiles. -/
structure CountFacts : Prop where
  counts_eq : ∀ e : Fin 8, counts a1 (Shape.Idx.ofFin e) = BitVec.ofNat 32 (cnt a1 e)
  paddedCount_eq : ∀ e : Fin 8, paddedCount a1 (Shape.Idx.ofFin e) = BitVec.ofNat 32 (padCnt 512 (cnt a1) e)
  paddedStart_eq : ∀ e : Fin 8, paddedStart a1 (Shape.Idx.ofFin e) = BitVec.ofNat 32 (padStart 512 (cnt a1) e)
  unpaddedStart_eq : ∀ e : Fin 8, unpaddedStart a1 (Shape.Idx.ofFin e) = BitVec.ofNat 32 (runStart (cnt a1) e)
  tileStart_eq : ∀ e : Fin 8, tileStart a1 (Shape.Idx.ofFin e) = BitVec.ofNat 32 (padStart 512 (cnt a1) e / 512)
  tileCount_eq : ∀ e : Fin 8, tileCount a1 (Shape.Idx.ofFin e) = BitVec.ofNat 32 (padCnt 512 (cnt a1) e / 512)
  sum_cnt : ∑ e : Fin 8, cnt a1 e = 65536

/-- Tile `i` is one of expert `e`'s. -/
def Owns (e : Fin 8) (i : ℕ) : Prop :=
  padStart 512 (cnt a1) e / 512 ≤ i ∧ i < padStart 512 (cnt a1) e / 512 + padCnt 512 (cnt a1) e / 512

/-- What the table stage computes: a tile's word is its owner's number, or −1 when it has no owner. -/
structure TableFacts : Prop where
  of_owner : ∀ (i : Fin 136) (e : Fin 8), Owns a1 e i.val → tileExpert a1 (Shape.Idx.ofFin i) = BitVec.ofNat 32 e.val
  of_no_owner : ∀ i : Fin 136, (∀ e : Fin 8, ¬ Owns a1 e i.val) → tileExpert a1 (Shape.Idx.ofFin i) = 4294967295#32

/-- The row the pair at sorted position `j` is sent to, for an ordering σ of the pairs. -/
def dest (hk : KeyFacts a1) (σ : Fin 65536 → Fin 65536) (j : Fin 65536) : ℕ :=
  padStart 512 (cnt a1) (keyF a1 hk (σ j)) + (j.val - runStart (cnt a1) (keyF a1 hk (σ j)))

/-- What the sorting stage computes, for its ordering σ: σ lists the pairs in order of their experts, and at each
    sorted position the expert, token and slot of the pair there and its destination row. -/
structure SortFacts (hk : KeyFacts a1) (σ : Fin 65536 → Fin 65536) : Prop where
  bij : Function.Bijective σ
  sorted : ∀ i j : Fin 65536, i ≤ j → key a1 (σ i) ≤ key a1 (σ j)
  order_eq : ∀ j : Fin 65536, order a1 (Shape.Idx.ofFin j) = BitVec.ofNat 32 (σ j).val
  sortedExpert_eq : ∀ j : Fin 65536, sortedExpert a1 (Shape.Idx.ofFin j) = BitVec.ofNat 32 (key a1 (σ j))
  sortedToken_eq : ∀ j : Fin 65536, sortedToken a1 (Shape.Idx.ofFin j) = BitVec.ofNat 32 ((σ j).val / 2)
  sortedSlot_eq : ∀ j : Fin 65536, sortedSlot a1 (Shape.Idx.ofFin j) = BitVec.ofNat 32 ((σ j).val % 2)
  offset_lt : ∀ j : Fin 65536, runStart (cnt a1) (keyF a1 hk (σ j)) ≤ j.val ∧ j.val - runStart (cnt a1) (keyF a1 hk (σ j)) < cnt a1 (keyF a1 hk (σ j))
  destIndex_eq : ∀ j : Fin 65536, destIndex a1 (Shape.Idx.ofFin j) = BitVec.ofNat 32 (dest a1 hk σ j)
  dest_lt : ∀ j : Fin 65536, dest a1 hk σ j < 69632
  dest_inj : ∀ i j : Fin 65536, dest a1 hk σ i = dest a1 hk σ j → i = j

/-- What the value proof needs of the whole chain: each pair `p` (token p / 2, slot p % 2) has a row `row p`
    such that the cell's entry of `pos` is that row, the row's tile belongs to the pair's expert, the row holds the
    pair's token, and the row is marked occupied. -/
structure RowFacts (row : Fin 65536 → Fin 69632) : Prop where
  pos_eq : ∀ p : Fin 65536, shapeCast S65536 (pos a1) shapeCasts_S32768x2_S65536 (Shape.Idx.ofFin p) = BitVec.ofNat 32 (row p).val
  tile_eq : ∀ p : Fin 65536, ∀ h : (row p).val / 512 < 136, tileExpert a1 (Shape.Idx.ofFin ⟨(row p).val / 512, h⟩) = BitVec.ofNat 32 (key a1 p)
  token_eq : ∀ p : Fin 65536, paddedToken a1 (Shape.Idx.ofFin (row p)) = BitVec.ofNat 32 (p.val / 2)
  valid_eq : ∀ p : Fin 65536, paddedValid a1 (Shape.Idx.ofFin (row p)) = 1#1

/-- What the frame needs of the table: every word is −1 or an expert's number. -/
def TableRange : Prop := ∀ i : Fin 136, tileExpert a1 (Shape.Idx.ofFin i) = 4294967295#32 ∨ (tileExpert a1 (Shape.Idx.ofFin i)).toNat < 8

end Cert.KernelIdeal.Host

end
-- ==== Proof.Spec.lean ====
/-
  One expert's feed-forward block on one token row, over the extended reals: the row times the first matrix plus
  the first bias, negative entries replaced by zero, times the second matrix plus the second bias — read at one
  output column. Both programs compute this for each (token, expert) the routing selects; what differs is how the
  selected terms are weighted and added.
-/
import Mathlib.Data.EReal.Inv
import Mathlib.Algebra.BigOperators.Group.Finset.Basic
import Idealize.ShloMosaic.PureOps.Ideal
import Idealize.ShloMosaic.Lib.ValueIdx

namespace Cert.Moe

/-- `(max (x · W1 + b1) 0) · W2 + b2` at output column `q`. -/
noncomputable def ffn (W1 : Fin 512 → Fin 2048 → EReal) (b1 : Fin 2048 → EReal) (W2 : Fin 2048 → Fin 512 → EReal)
    (b2 : Fin 512 → EReal) (x : Fin 512 → EReal) (q : Fin 512) : EReal :=
  (∑ k : Fin 2048, max ((∑ j : Fin 512, x j * W1 j k) + b1 k) 0 * W2 k q) + b2 q

open Idealize.ShloMosaic Idealize.ShloMosaic.ValueIdx

/-- Token `t`'s row of the activations `[8, 4096, 512]`: token t = 4096·b + s is row s of batch b. -/
noncomputable def tokenRow (a0 : FVec Ideal ⟨3, ![8, 4096, 512]⟩ .f32) (t : Fin 32768) (j : Fin 512) : EReal :=
  a0 (ix3 (⟨t.val / 4096, by have := t.isLt; omega⟩ : Fin 8) (⟨t.val % 4096, Nat.mod_lt _ (by omega)⟩ : Fin 4096) j)

/-- Expert `e`'s feed-forward block on a row `x`, from the stacked parameter arrays: matrices `[8, 512, 2048]` and
    `[8, 2048, 512]`, biases `[8, 2048]` and `[8, 512]`. -/
noncomputable def expertOut (a2 : FVec Ideal ⟨3, ![8, 512, 2048]⟩ .f32) (a3 : FVec Ideal ⟨2, ![8, 2048]⟩ .f32)
    (a4 : FVec Ideal ⟨3, ![8, 2048, 512]⟩ .f32) (a5 : FVec Ideal ⟨2, ![8, 512]⟩ .f32) (e : Fin 8) (x : Fin 512 → EReal) (q : Fin 512) : EReal :=
  ffn (fun j k => a2 (ix3 e j k)) (fun k => a3 (ix2 e k)) (fun k q' => a4 (ix3 e k q')) (fun q' => a5 (ix2 e q')) x q

end Cert.Moe
-- ==== Proof.PayloadIdeal.lean ====
import proofs.«423054_j31275951850054_3_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Mathlib.Algebra.BigOperators.Group.Finset.Defs

/-!
# The kernel body's stored value, read at an index, over the extended reals

The body of the kernel stores one block of 512 × 512 values. As a function of the six blocks it has
loaded — the token rows `x` (512 × 512), the first matrix `W₁` (1 × 512 × 2048), the first bias `b₁`
(1 × 1 × 2048), the second matrix `W₂` (1 × 2048 × 512), the second bias `b₂` (1 × 1 × 512) and the
row weights `w` (512 × 1) — the stored block is

  `((max (x · W₁ + b₁) 0) · W₂ + b₂) * w`,

each bias added to every row and each row scaled by its own weight. Over the extended reals a change
of float format is the identity, a matrix product accumulated into zeros is the plain sum over the
contracted axis, and the zero word is `0`; so at row `p` and column `q` the stored value is

  `((∑ k, max ((∑ j, x p j * W₁ 0 j k) + b₁ 0 0 k) 0 * W₂ 0 k q) + b₂ 0 0 q) * w p 0`.

This module proves that reading (`pay1_apply`), and that the other stored block is zero everywhere
(`pay2_apply`). The steps: each contraction read at an index is a sum over one coordinate
(`matmul_first_apply`, `matmul_second_apply`); dropping a leading unit axis reads the operand at
`0` on that axis; a row broadcast over the rows reads the row, a column broadcast over the columns
reads the column (`broadcastTo_a1_ab_apply`); the remaining operations act element by element.
-/

set_option synthInstance.maxSize 4096

noncomputable section

namespace Cert.KernelIdeal.PayloadIdeal

open Cert.KernelIdeal Cert.KernelIdeal.Gen Idealize.ShloMosaic Idealize.SL.Sem Idealize.ShloMosaic.ValueIdx

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions read at an index

Each contracts the left operand's axis 1 with the right operand's axis 0 and has no batch axes: the
left index of output `(p, c)` and contraction coordinate `k` is `(p, k)`, the right index `(k, c)`. -/

theorem lhs_first_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_first_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_first_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_first_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem lhs_second_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_second_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_second_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_second_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The first product accumulated into zeros, at `(p, c)`: the sum over the 512 contracted coordinates. -/
theorem matmul_first_apply (a : FVec Ideal S512x512 .bf16) (b : FVec Ideal S512x2048 .bf16) (p : Fin 512) (c : Fin 2048) :
    matmul dot_S512x512_S512x2048_S512x2048_1_0_0_1_n_n none a b (constant (F := Ideal) S512x2048 .f32 0x00000000#32) (ix2 p c)
      = ∑ k : Fin 512, a (ix2 p k) * b (ix2 k c) := by
  refine (Ideal.matmul_constant_zero_apply dot_S512x512_S512x2048_S512x2048_1_0_0_1_n_n none a b (ix2 p c)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p c) ((contrEquiv1 dot_S512x512_S512x2048_S512x2048_1_0_0_1_n_n 512 rfl rfl).symm k) = ix2 p k := funext fun ax => Fin.ext (by
    match ax with
    | ⟨0, _⟩ => exact lhs_first_0 _ _
    | ⟨1, _⟩ => exact (lhs_first_1 _ _).trans hk)
  have er : dot_S512x512_S512x2048_S512x2048_1_0_0_1_n_n.rhsIdx (ix2 p c) ((contrEquiv1 dot_S512x512_S512x2048_S512x2048_1_0_0_1_n_n 512 rfl rfl).symm k) = ix2 k c := funext fun ax => Fin.ext (by
    match ax with
    | ⟨0, _⟩ => exact (rhs_first_0 _ _).trans hk
    | ⟨1, _⟩ => exact rhs_first_1 _ _)
  rw [el, er]

/-- The second product accumulated into zeros, at `(p, c)`: the sum over the 2048 contracted coordinates. -/
theorem matmul_second_apply (a : FVec Ideal S512x2048 .bf16) (b : FVec Ideal S2048x512 .bf16) (p : Fin 512) (c : Fin 512) :
    matmul dot_S512x2048_S2048x512_S512x512_1_0_0_1_n_n none a b (constant (F := Ideal) S512x512 .f32 0x00000000#32) (ix2 p c)
      = ∑ k : Fin 2048, a (ix2 p k) * b (ix2 k c) := by
  refine (Ideal.matmul_constant_zero_apply dot_S512x2048_S2048x512_S512x512_1_0_0_1_n_n none a b (ix2 p c)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p c) ((contrEquiv1 dot_S512x2048_S2048x512_S512x512_1_0_0_1_n_n 2048 rfl rfl).symm k) = ix2 p k := funext fun ax => Fin.ext (by
    match ax with
    | ⟨0, _⟩ => exact lhs_second_0 _ _
    | ⟨1, _⟩ => exact (lhs_second_1 _ _).trans hk)
  have er : dot_S512x2048_S2048x512_S512x512_1_0_0_1_n_n.rhsIdx (ix2 p c) ((contrEquiv1 dot_S512x2048_S2048x512_S512x512_1_0_0_1_n_n 2048 rfl rfl).symm k) = ix2 k c := funext fun ax => Fin.ext (by
    match ax with
    | ⟨0, _⟩ => exact (rhs_second_0 _ _).trans hk
    | ⟨1, _⟩ => exact rhs_second_1 _ _)
  rw [el, er]

/-! ## The stored block at an index -/

/-- The hidden activations `max (x · W₁ + b₁) 0` at row `p` and hidden coordinate `k`, whatever the
    format they are kept in: the first product's sum over the 512 token coordinates, plus the bias at
    `k`, cut off below at zero. -/
theorem hidden_apply (v8 : FVec Ideal S512x512 .bf16) (v10 : FVec Ideal S1x512x2048 .bf16) (v12 : FVec Ideal S1x1x2048 .f32)
    (h8 : S512x512.ShapeCasts S512x512) (h10 : S1x512x2048.ShapeCasts S512x2048) (h12 : S1x1x2048.ShapeCasts S1x2048)
    (hb : S1x2048.Broadcasts S512x2048) (hlt : FTy.bits .bf16 < FTy.bits .f32) (p : Fin 512) (k : Fin 2048) :
    (truncf .bf16 (maximumf (addf (matmul dot_S512x512_S512x2048_S512x2048_1_0_0_1_n_n none
        (shapeCast S512x512 v8 h8) (shapeCast S512x2048 v10 h10) (constant (F := Ideal) S512x2048 .f32 0x00000000#32))
        (broadcastTo S512x2048 (shapeCast S1x2048 v12 h12) hb))
        (broadcast S512x2048 (Scalar.ofBits (F := Ideal) .f32 0x00000000#32))) hlt : FVec Ideal S512x2048 .bf16) (ix2 p k)
      = max ((∑ j : Fin 512, v8 (ix2 p j) * v10 (ix3 0 j k)) + v12 (ix3 0 0 k)) 0 := by
  refine (truncf_apply (φ := .f32) (ψ := .bf16) _ hlt (ix2 p k)).trans ?_
  refine (maximumf_apply (φ := .f32) _ _ (ix2 p k)).trans ?_
  refine congrArg₂ max ?_ Ideal.ofBits_zero_f32
  refine (addf_apply (φ := .f32) _ _ (ix2 p k)).trans ?_
  refine congrArg₂ (· + ·) ?_ ?_
  · refine (matmul_first_apply _ _ p k).trans ?_
    refine Finset.sum_congr rfl fun j _ => ?_
    exact congrArg₂ (· * ·) (congrFun (shapeCast_self v8 h8) _) (shapeCast_1ab_ab_apply v10 h10 j k)
  · refine (broadcastTo_1b_ab_apply _ hb p k).trans ?_
    exact shapeCast_1ab_ab_apply v12 h12 (0 : Fin 1) k

/-- The kernel body's stored value at row `p` and column `q`: the second product of the hidden
    activations with `W₂`, summed over the 2048 hidden coordinates, plus the second bias at `q`, all
    times the row's weight. -/
theorem pay1_apply (v8 : Vec Ideal S512x512 .bf16) (v10 : Vec Ideal S1x512x2048 .bf16) (v12 : Vec Ideal S1x1x2048 .f32)
    (v14 : Vec Ideal S1x2048x512 .bf16) (v16 : Vec Ideal S1x1x512 .f32) (v18 : Vec Ideal S512x1 .f32) (p q : Fin 512) :
    k0_pay1 (F := Ideal) v8 v10 v12 v14 v16 v18 (ix2 p q)
      = ((∑ k : Fin 2048, max ((∑ j : Fin 512, v8 (ix2 p j) * v10 (ix3 0 j k)) + v12 (ix3 0 0 k)) 0 * v14 (ix3 0 k q))
          + v16 (ix3 0 0 q)) * v18 (ix2 p 0) := by
  unfold k0_pay1
  refine (truncf_apply (φ := .f32) (ψ := .bf16) _ _ (ix2 p q)).trans ?_
  refine (mulf_apply (φ := .f32) _ _ (ix2 p q)).trans ?_
  refine congrArg₂ (· * ·) ?_ ?_
  · refine (addf_apply (φ := .f32) _ _ (ix2 p q)).trans ?_
    refine congrArg₂ (· + ·) ?_ ?_
    · refine (matmul_second_apply _ _ p q).trans ?_
      refine Finset.sum_congr rfl fun k _ => ?_
      exact congrArg₂ (· * ·) (hidden_apply v8 v10 v12 _ _ _ _ _ p k) (shapeCast_1ab_ab_apply v14 _ k q)
    · refine (broadcastTo_1b_ab_apply _ _ p q).trans ?_
      exact shapeCast_1ab_ab_apply v16 _ (0 : Fin 1) q
  · refine (broadcastTo_a1_ab_apply _ _ p q).trans ?_
    exact congrFun (shapeCast_self v18 _) _

/-- The other stored block is zero at every index: the zero word of the storage format, broadcast. -/
theorem pay2_apply (i : S512x512.Idx) : k0_pay2 (F := Ideal) i = 0 := by
  unfold k0_pay2
  exact Ideal.ofBits_zero_bf16

end Cert.KernelIdeal.PayloadIdeal
-- ==== Proof.HostVals.lean ====
/-
  What the buffers the region reads hold when it is entered, and what the result buffer holds after the lines that
  follow it: each is one of the pure functions of the argument arrays that spell the host lines out.

  The lines before the region are cut in three where a later line joins two earlier values end to end (the
  exclusive prefix sums): a value joined there is first read at the cut, so that the joined pieces are named buffers
  of the valuation at the cut and not lines still to be read.
-/
import proofs.«423054_j31275951850054_3_alg».proof.Proof.Entry
import proofs.«423054_j31275951850054_3_alg».proof.Proof.Chain
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The lines before the region, cut where a later line joins two earlier values end to end -/

/-- The lines up to the running sums of the padded counts. -/
abbrev opsA : List (HloOp τ sig (Elt F)) := hostOps0 ++ (hostOps0_1 ++ (hostOps0_2 ++ (hostOps0_3 ++ (hostOps0_4 ++ hostOps0_5))))
/-- The lines that lay the padded runs out and sum the unpadded counts. -/
abbrev opsB : List (HloOp τ sig (Elt F)) := hostOps0_6 ++ hostOps0_7
/-- The rest of the lines before the region. -/
abbrev opsC : List (HloOp τ sig (Elt F)) := hostOps0_8 ++ (hostOps0_9 ++ (hostOps0_10 ++ (hostOps0_11 ++ (hostOps0_12 ++ (hostOps0_13 ++ hostOps0_14)))))

/-- Core `c`'s buffers after the first cut, and after the second. -/
def EA (c : Dev nD) : Valuation τ sig (Elt F) := StableHlo.after (opsA (F := F)) (fun b => m (c, b))
def EB (c : Dev nD) : Valuation τ sig (Elt F) := StableHlo.after (opsB (F := F)) (EA m c)

theorem V₀_eq (c : Dev nD) : V₀ m c = StableHlo.after (opsC (F := F)) (EB m c) := by
  unfold EB EA
  rw [← StableHlo.after_append, ← StableHlo.after_append]
  simp only [V₀, preOps, opsA, opsB, opsC, List.flatten_cons, List.flatten_nil, List.append_nil, List.append_assoc]

/-- Reads a buffer after a literal list of lines: each line's result at its own buffer, what was there at any other. -/
local macro "read_lines" : tactic =>
  `(tactic| (after_results_simp; try simp only [StableHlo.TRef.ofBuf, StableHlo.TRef.toBuf, cast_eq]))

/-! ### After the first cut: the flattened tokens, the pairs' experts, the sorted order, the counts and the padded counts -/

theorem EA_v0 (c : Dev nD) : EA m c (Proc.devRef .tc main_v0)
    = shapeCast S32768x512 (m ((c : Thread nD τ).loc main_arg0)) shapeCasts_S8x4096x512_S32768x512 := by
  unfold EA
  simp only [opsA, hostOps0, hostOps0_1, hostOps0_2, hostOps0_3, hostOps0_4, hostOps0_5, List.cons_append, List.nil_append]
  read_lines
  all_goals rfl

theorem EA_v6 (c : Dev nD) : EA m c (Proc.devRef .tc main_v6) = Chain.order (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v13 (c : Dev nD) : EA m c (Proc.devRef .tc main_v13) = Chain.sortedExpert (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v20 (c : Dev nD) : EA m c (Proc.devRef .tc main_v20) = Chain.sortedToken (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v29 (c : Dev nD) : EA m c (Proc.devRef .tc main_v29) = Chain.counts (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v36 (c : Dev nD) : EA m c (Proc.devRef .tc main_v36) = Chain.paddedCount (m ((c : Thread nD τ).loc main_arg1)) := by
  unfold EA
  simp only [opsA, hostOps0, hostOps0_1, hostOps0_2, hostOps0_3, hostOps0_4, hostOps0_5, List.cons_append, List.nil_append]
  read_lines
  all_goals rfl

theorem EA_v37 (c : Dev nD) : EA m c (Proc.devRef .tc main_v37) = broadcastInDim S1 ![] bcast_S_S1 (constantI S_ 32 0#32) := by
  unfold EA
  simp only [opsA, hostOps0, hostOps0_1, hostOps0_2, hostOps0_3, hostOps0_4, hostOps0_5, List.cons_append, List.nil_append]
  read_lines
  all_goals rfl

theorem EA_v38 (c : Dev nD) : EA m c (Proc.devRef .tc main_v38)
    = Chain.cumsum8 (Chain.paddedCount (m ((c : Thread nD τ).loc main_arg1))) := by
  unfold EA
  simp only [opsA, hostOps0, hostOps0_1, hostOps0_2, hostOps0_3, hostOps0_4, hostOps0_5, List.cons_append, List.nil_append]
  read_lines
  all_goals rfl

/-! ### After the second cut: where the padded runs start, the running sums of the counts, and what the cut leaves alone -/

theorem EB_v40 (c : Dev nD) : EB m c (Proc.devRef .tc main_v40) = Chain.paddedStart (m ((c : Thread nD τ).loc main_arg1)) := by
  unfold EB
  simp only [opsB, hostOps0_6, hostOps0_7, List.cons_append, List.nil_append]
  after_results
  rw [EA_v37, EA_v38]
  rfl

theorem EB_v41 (c : Dev nD) : EB m c (Proc.devRef .tc main_v41) = broadcastInDim S1 ![] bcast_S_S1 (constantI S_ 32 0#32) := by
  unfold EB
  simp only [opsB, hostOps0_6, hostOps0_7, List.cons_append, List.nil_append]
  read_lines
  all_goals rfl

theorem EB_v42 (c : Dev nD) : EB m c (Proc.devRef .tc main_v42)
    = Chain.cumsum8 (Chain.counts (m ((c : Thread nD τ).loc main_arg1))) := by
  unfold EB
  simp only [opsB, hostOps0_6, hostOps0_7, List.cons_append, List.nil_append]
  read_lines
  rw [EA_v29]
  rfl

theorem EB_v0 (c : Dev nD) : EB m c (Proc.devRef .tc main_v0)
    = shapeCast S32768x512 (m ((c : Thread nD τ).loc main_arg0)) shapeCasts_S8x4096x512_S32768x512 := by
  unfold EB
  simp only [opsB, hostOps0_6, hostOps0_7, List.cons_append, List.nil_append]
  read_lines
  exact EA_v0 m c

theorem EB_v6 (c : Dev nD) : EB m c (Proc.devRef .tc main_v6) = Chain.order (m ((c : Thread nD τ).loc main_arg1)) := by
  unfold EB
  simp only [opsB, hostOps0_6, hostOps0_7, List.cons_append, List.nil_append]
  read_lines
  exact EA_v6 m c

theorem EB_v13 (c : Dev nD) : EB m c (Proc.devRef .tc main_v13) = Chain.sortedExpert (m ((c : Thread nD τ).loc main_arg1)) := by
  unfold EB
  simp only [opsB, hostOps0_6, hostOps0_7, List.cons_append, List.nil_append]
  read_lines
  exact EA_v13 m c

theorem EB_v20 (c : Dev nD) : EB m c (Proc.devRef .tc main_v20) = Chain.sortedToken (m ((c : Thread nD τ).loc main_arg1)) := by
  unfold EB
  simp only [opsB, hostOps0_6, hostOps0_7, List.cons_append, List.nil_append]
  read_lines
  exact EA_v20 m c

theorem EB_v36 (c : Dev nD) : EB m c (Proc.devRef .tc main_v36) = Chain.paddedCount (m ((c : Thread nD τ).loc main_arg1)) := by
  unfold EB
  simp only [opsB, hostOps0_6, hostOps0_7, List.cons_append, List.nil_append]
  read_lines
  exact EA_v36 m c

/-! ## What the region finds -/

/-- The prefetched table is the expert of each tile. -/
theorem V_tbl (c : Dev nD) : V m c main_v104 = Chain.tileExpert (m ((c : Thread nD τ).loc main_arg1)) := by
  show V₀ m c (Proc.devRef .tc main_v104) = _
  rw [V₀_eq]
  simp only [opsC, hostOps0_8, hostOps0_9, hostOps0_10, hostOps0_11, hostOps0_12, hostOps0_13, hostOps0_14, List.cons_append, List.nil_append]
  read_lines
  rw [EB_v40, EB_v36]
  rfl

theorem tbl_eq : tbl m 0 = Chain.tileExpert (m (((0 : Dev nD) : Thread nD τ).loc main_arg1)) := V_tbl m 0

/-- The row each sorted position is sent to. The running sums of the counts are sliced by the first of the remaining
    lines, and joined to a zero by the second: the two joined pieces are read by hand. -/
theorem V₀_v61 (c : Dev nD) : V₀ m c (Proc.devRef .tc main_v61) = Chain.destIndex (m ((c : Thread nD τ).loc main_arg1)) := by
  rw [V₀_eq]
  simp only [opsC, hostOps0_8, hostOps0_9, hostOps0_10, hostOps0_11, hostOps0_12, hostOps0_13, hostOps0_14, List.cons_append, List.nil_append]
  read_lines
  rw [StableHlo.unary_result, StableHlo.unary_result_ne _ _ _ _ _ _ (by decide)]
  rw [EB_v40, EB_v13, EB_v41, EB_v42]
  rfl

/-- The sorted order and the token of each sorted position stay as the earlier lines left them. -/
theorem V₀_v6 (c : Dev nD) : V₀ m c (Proc.devRef .tc main_v6) = Chain.order (m ((c : Thread nD τ).loc main_arg1)) := by
  rw [V₀_eq]
  simp only [opsC, hostOps0_8, hostOps0_9, hostOps0_10, hostOps0_11, hostOps0_12, hostOps0_13, hostOps0_14, List.cons_append, List.nil_append]
  read_lines
  exact EB_v6 m c

theorem V₀_v20 (c : Dev nD) : V₀ m c (Proc.devRef .tc main_v20) = Chain.sortedToken (m ((c : Thread nD τ).loc main_arg1)) := by
  rw [V₀_eq]
  simp only [opsC, hostOps0_8, hostOps0_9, hostOps0_10, hostOps0_11, hostOps0_12, hostOps0_13, hostOps0_14, List.cons_append, List.nil_append]
  read_lines
  exact EB_v20 m c

/-- The token rows in the padded layout. -/
theorem V_xPadded (c : Dev nD) : V m c main_v112
    = Chain.xPadded (m ((c : Thread nD τ).loc main_arg1)) (m ((c : Thread nD τ).loc main_arg0)) := by
  show V₀ m c (Proc.devRef .tc main_v112) = _
  rw [V₀_eq]
  simp only [opsC, hostOps0_8, hostOps0_9, hostOps0_10, hostOps0_11, hostOps0_12, hostOps0_13, hostOps0_14, List.cons_append, List.nil_append]
  read_lines
  rw [StableHlo.unary_result, StableHlo.unary_result_ne _ _ _ _ _ _ (by decide)]
  rw [EB_v40, EB_v13, EB_v41, EB_v42, EB_v20, EB_v0]
  rfl

/-- The row weights: one half on the occupied rows. -/
theorem V_weight (c : Dev nD) : V m c main_v82 = Chain.weight (F := F) (m ((c : Thread nD τ).loc main_arg1)) := by
  show V₀ m c (Proc.devRef .tc main_v82) = _
  rw [V₀_eq]
  simp only [opsC, hostOps0_8, hostOps0_9, hostOps0_10, hostOps0_11, hostOps0_12, hostOps0_13, hostOps0_14, List.cons_append, List.nil_append]
  read_lines
  rw [StableHlo.unary_result, StableHlo.unary_result_ne _ _ _ _ _ _ (by decide)]
  rw [EB_v40, EB_v13, EB_v41, EB_v42]
  rfl

/-! The experts' matrices and bias rows are one line each from an argument no line writes. -/

theorem V_w1 (c : Dev nD) : V m c main_v113 = Chain.w1 (m ((c : Thread nD τ).loc main_arg2)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

theorem V_b1r (c : Dev nD) : V m c main_v115 = Chain.b1r (m ((c : Thread nD τ).loc main_arg3)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

theorem V_w2 (c : Dev nD) : V m c main_v114 = Chain.w2 (m ((c : Thread nD τ).loc main_arg4)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

theorem V_b2r (c : Dev nD) : V m c main_v116 = Chain.b2r (m ((c : Thread nD τ).loc main_arg5)) := by
  dsimp only [V, V₀]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  read_lines
  all_goals rfl

/-! ## The lines after the region

They are cut before the line that joins the token column and the slot column side by side: the two columns are read
at the cut. -/

/-- The lines after the region up to the two index columns, and the lines from the one that joins them on. -/
abbrev opsD : List (HloOp τ sig (Elt F)) := hostOps1 ++ (hostOps1_1 ++ hostOps1_2.take 16)
abbrev opsE : List (HloOp τ sig (Elt F)) := hostOps1_2.drop 16

theorem tail_cut (W : Valuation τ sig (Elt F)) :
    StableHlo.after (postOps (F := F)).flatten W = StableHlo.after (opsE (F := F)) (StableHlo.after (opsD (F := F)) W) := by
  rw [← StableHlo.after_append]
  simp only [postOps, opsD, opsE, List.flatten_cons, List.flatten_nil, List.append_nil, List.append_assoc, List.take_append_drop]

variable (W : Valuation τ sig (Elt F))

/-- The zero table of rows the pairs' rows are written into. -/
theorem D_v118 : StableHlo.after (opsD (F := F)) W (Proc.devRef .tc main_v118)
    = broadcastInDim S32768x2 ![] bcast_S_S32768x2 (constantI S_ 32 0#32) := by
  simp only [opsD, hostOps1, hostOps1_1, hostOps1_2, List.take_succ_cons, List.take_zero, List.cons_append, List.nil_append]
  read_lines
  all_goals rfl

/-- The token column: the token of each sorted position, as a scatter index. -/
theorem D_v130 : StableHlo.after (opsD (F := F)) W (Proc.devRef .tc main_v130)
    = Chain.col65536 (Chain.wrap65536 32768#32 (W (Proc.devRef .tc main_v20))) := by
  simp only [opsD, hostOps1, hostOps1_1, hostOps1_2, List.take_succ_cons, List.take_zero, List.cons_append, List.nil_append]
  read_lines
  all_goals rfl

/-- The slot column: each sorted pair modulo 2, as a scatter index. -/
theorem D_v131 : StableHlo.after (opsD (F := F)) W (Proc.devRef .tc main_v131)
    = Chain.col65536 (Chain.wrap65536 2#32 (Chain.remainderP (W (Proc.devRef .tc main_v6)) (constantI S_ 32 2#32))) := by
  simp only [opsD, hostOps1, hostOps1_1, hostOps1_2, List.take_succ_cons, List.take_zero, List.cons_append, List.nil_append]
  read_lines
  all_goals rfl

/-- These lines write neither the rows of the sorted positions nor the region's output. -/
theorem D_v61 : StableHlo.after (opsD (F := F)) W (Proc.devRef .tc main_v61) = W (Proc.devRef .tc main_v61) := by
  simp only [opsD, hostOps1, hostOps1_1, hostOps1_2, List.take_succ_cons, List.take_zero, List.cons_append, List.nil_append]
  read_lines

theorem D_v117 : StableHlo.after (opsD (F := F)) W (Proc.devRef .tc main_v117) = W (Proc.devRef .tc main_v117) := by
  simp only [opsD, hostOps1, hostOps1_1, hostOps1_2, List.take_succ_cons, List.take_zero, List.cons_append, List.nil_append]
  read_lines

/-- The result buffer after the lines, from any contents that hold the region's output `y`, the sorted order, the
    token and the row of each sorted position. -/
theorem tail_of (a1 : IVec S8x4096x2 32) (y : FVec F S69632x512 .bf16)
    (h117 : W (Proc.devRef .tc main_v117) = y) (h6 : W (Proc.devRef .tc main_v6) = Chain.order a1)
    (h20 : W (Proc.devRef .tc main_v20) = Chain.sortedToken a1) (h61 : W (Proc.devRef .tc main_v61) = Chain.destIndex a1) :
    StableHlo.after (postOps (F := F)).flatten W (Proc.devRef .tc main_v145) = Chain.result a1 y := by
  rw [tail_cut]
  simp only [opsE, hostOps1_2, List.drop_succ_cons, List.drop_zero]
  read_lines
  rw [D_v117, D_v118, D_v130, D_v131, D_v61, h117, h6, h20, h61]
  rfl

theorem tail_result (hO : Ok m) (c : Dev nD) :
    Pipeline.afterTail pcfgs (fun _ => adm m hO) (dats m hO) 0 (V₀ m) postOps c main_v145
      = Chain.result (m ((c : Thread nD τ).loc main_arg1)) ((dats m hO 0 c).arrAt 6 (cfgM m hO).N) := by
  unfold Pipeline.afterTail
  exact tail_of _ _ _
    (Pipeline.withArrays_arr spec0 winFacts0.arr_inj c (V₀ m c) (fun w => (dats m hO 0 c).arrAt w (cfgM m hO).N) 6)
    ((Pipeline.withArrays_of_ne spec0 c (V₀ m c) _ main_v6 (by decide)).trans (V₀_v6 m c))
    ((Pipeline.withArrays_of_ne spec0 c (V₀ m c) _ main_v20 (by decide)).trans (V₀_v20 m c))
    ((Pipeline.withArrays_of_ne spec0 c (V₀ m c) _ main_v61 (by decide)).trans (V₀_v61 m c))

end Cert.KernelIdeal.Hand

end
-- ==== Proof.OkOfRange.lean ====
/-
  The prefetched table of the one pipelined region, read as facts about its words.

  The region prefetches one table of 136 words, one per grid point. The index maps of four of its
  windows read the word w of the grid point and return the block index (max(w, 0), 0, 0) into an
  array of 8 blocks along its leading axis; the body's two conditions test the sign of w.

  When every word of the table is either −1 or a natural number below 8, max(w, 0) is below 8 at
  every grid point, so every block lies inside its array: this is the pipeline's side condition.
  The two windows of 16-bit elements also owe that their transfers' ends are whole words; their
  blocks take every row of the slabs they meet (512 of 512, 2048 of 2048), whatever the block index.

  Nothing here looks at what the table holds: its contents are a variable throughout.
-/
import proofs.«423054_j31275951850054_3_alg».proof.Proof.Gen.KernelIdeal
import Idealize.ShloMosaic.Lib.SortFacts
import Idealize.ShloMosaic.Lib.Affine
import Mathlib.Tactic.FinCases

noncomputable section

namespace Cert.KernelIdeal.Hand

open Cert.KernelIdeal Idealize.ShloMosaic

variable {F : FTy → Type} [FloatOps F]
variable [Facts]
open Facts₀ Facts

/-! ## The two conditions and the block index, as facts about a word -/

/-- The first condition holds exactly when the word, read signed, is not negative. -/
theorem cond1_iff (w : BitVec 32) : k0_cond1 w = 1#1 ↔ 0 ≤ w.toInt := by
  show Scalar.cmpi .ne (Scalar.extui (Scalar.cmpi .sge w 0#32)) 0#32 = 1#1 ↔ _
  rw [Scalar.guard_iff, Scalar.cmpi, IntOp.cmpi_sge, show (0#32 : BitVec 32).toInt = 0 from by decide]

/-- The second condition is the first one negated: it holds exactly when the word is negative. -/
theorem cond2_iff (w : BitVec 32) : k0_cond2 w = 1#1 ↔ w.toInt < 0 := by
  show Scalar.cmpi .ne (Scalar.extui (Scalar.xori (Scalar.cmpi .sge w 0#32) 1#1)) 0#32 = 1#1 ↔ _
  rw [Scalar.guard_iff]
  have hx : ∀ c : BitVec 1, Scalar.xori c 1#1 = 1#1 ↔ ¬ c = 1#1 := by decide
  rw [hx, Scalar.cmpi, IntOp.cmpi_sge, show (0#32 : BitVec 32).toInt = 0 from by decide]
  omega

/-- A word below 8 unsigned reads the same signed. -/
theorem toInt_of_nat (w : BitVec 32) (h : w.toNat < 8) : w.toInt = w.toNat :=
  BitVec.toInt_eq_toNat_of_lt (by omega)

theorem cond1_of_nat (w : BitVec 32) (h : w.toNat < 8) : k0_cond1 w = 1#1 := by
  rw [cond1_iff, toInt_of_nat w h]; omega

theorem cond1_of_neg1 : k0_cond1 4294967295#32 ≠ 1#1 := by
  rw [Ne, cond1_iff]; decide

theorem cond2_of_nat (w : BitVec 32) (h : w.toNat < 8) : k0_cond2 w ≠ 1#1 := by
  rw [Ne, cond2_iff, toInt_of_nat w h]; omega

theorem cond2_of_neg1 : k0_cond2 4294967295#32 = 1#1 := by
  rw [cond2_iff]; decide

/-- max(w, 0) of a word below 8 is the word. -/
theorem maxsi_of_nat (w : BitVec 32) (h : w.toNat < 8) : (Scalar.maxsi w 0#32).toNat = w.toNat := by
  rw [Scalar.maxsi_zero_of_nonneg (by omega)]

/-- max(−1, 0) = 0. -/
theorem maxsi_of_neg1 : (Scalar.maxsi 4294967295#32 0#32).toNat = 0 := by decide

/-! ## The word of a grid point -/

/-- The offset of grid point i's word lies inside the table of 136 words. -/
theorem off1_inb (i : grid0.Coords) : ∀ a, k0_off1 i a + 1 ≤ S136.size a := fun a => by
  have ha : a = 0 := Subsingleton.elim _ _
  subst ha
  exact k0_off1_inb i 0

/-- The table's word at offsets inside it is its entry there. -/
theorem atD_pos (pf : pre0.Contents (Elt F)) (off : Fin 1 → Nat) (h : ∀ a, off a + 1 ≤ S136.size a) :
    pf.atD 0 off = pf 0 (fun a => ⟨off a, h a⟩) := dif_pos h

/-- The word an index map reads through the unit rectangle at grid point i's offset is the word at that offset. -/
theorem at_eq_atD (pf : pre0.Contents (Elt F)) (i : grid0.Coords) :
    pf.at 0 (Rect.unit (s := S136) (k0_off1 i) S1.size (k0_off1_inb i)) numel1_S1 = pf.atD 0 (k0_off1 i) :=
  (atD_pos pf (k0_off1 i) (off1_inb i)).symm

/-- Grid point i's offset is the index i of the table. -/
theorem idx_eq (i : grid0.Coords) :
    ((fun a => ⟨k0_off1 i a, off1_inb i a⟩ : S136.Idx)) = Shape.Idx.ofFin (n := 136) ⟨(i 0).val, (i 0).isLt⟩ := by
  funext a
  have ha : a = 0 := Subsingleton.elim _ _
  subst ha
  apply Fin.ext
  show k0_off1 i 0 = (i 0).val
  rw [Gen.k0_off1_eq]; rfl

/-- The word for grid point i is the table's entry i. -/
theorem atD_eq (pf : pre0.Contents (Elt F)) (i : grid0.Coords) :
    pf.atD 0 (k0_off1 i) = pf 0 (Shape.Idx.ofFin (n := 136) ⟨(i 0).val, (i 0).isLt⟩) := by
  rw [atD_pos pf (k0_off1 i) (off1_inb i)]
  exact congrArg (pf 0) (idx_eq i)

/-! ## The four index maps that read the table: block (max(w, 0), 0, 0) -/

theorem transform1_at (pf : pre0.Contents (Elt F)) (i : grid0.Coords) :
    cc0_transform_1 k0_off1_inb numel1_S1 pf i
      = ![(Scalar.maxsi (pf.at 0 (Rect.unit (s := S136) (k0_off1 i) S1.size (k0_off1_inb i)) numel1_S1) 0#32).toNat, 0, 0] := rfl

theorem transform1_eq (pf : pre0.Contents (Elt F)) (i : grid0.Coords) :
    cc0_transform_1 k0_off1_inb numel1_S1 pf i = ![(Scalar.maxsi (pf.atD 0 (k0_off1 i)) 0#32).toNat, 0, 0] :=
  (transform1_at pf i).trans (congrArg (fun w : BitVec 32 => ![(Scalar.maxsi w 0#32).toNat, 0, 0]) (at_eq_atD pf i))

theorem transform2_at (pf : pre0.Contents (Elt F)) (i : grid0.Coords) :
    cc0_transform_2 k0_off1_inb numel1_S1 pf i
      = ![(Scalar.maxsi (pf.at 0 (Rect.unit (s := S136) (k0_off1 i) S1.size (k0_off1_inb i)) numel1_S1) 0#32).toNat, 0, 0] := rfl

theorem transform2_eq (pf : pre0.Contents (Elt F)) (i : grid0.Coords) :
    cc0_transform_2 k0_off1_inb numel1_S1 pf i = ![(Scalar.maxsi (pf.atD 0 (k0_off1 i)) 0#32).toNat, 0, 0] :=
  (transform2_at pf i).trans (congrArg (fun w : BitVec 32 => ![(Scalar.maxsi w 0#32).toNat, 0, 0]) (at_eq_atD pf i))

theorem transform3_at (pf : pre0.Contents (Elt F)) (i : grid0.Coords) :
    cc0_transform_3 k0_off1_inb numel1_S1 pf i
      = ![(Scalar.maxsi (pf.at 0 (Rect.unit (s := S136) (k0_off1 i) S1.size (k0_off1_inb i)) numel1_S1) 0#32).toNat, 0, 0] := rfl

theorem transform3_eq (pf : pre0.Contents (Elt F)) (i : grid0.Coords) :
    cc0_transform_3 k0_off1_inb numel1_S1 pf i = ![(Scalar.maxsi (pf.atD 0 (k0_off1 i)) 0#32).toNat, 0, 0] :=
  (transform3_at pf i).trans (congrArg (fun w : BitVec 32 => ![(Scalar.maxsi w 0#32).toNat, 0, 0]) (at_eq_atD pf i))

theorem transform4_at (pf : pre0.Contents (Elt F)) (i : grid0.Coords) :
    cc0_transform_4 k0_off1_inb numel1_S1 pf i
      = ![(Scalar.maxsi (pf.at 0 (Rect.unit (s := S136) (k0_off1 i) S1.size (k0_off1_inb i)) numel1_S1) 0#32).toNat, 0, 0] := rfl

theorem transform4_eq (pf : pre0.Contents (Elt F)) (i : grid0.Coords) :
    cc0_transform_4 k0_off1_inb numel1_S1 pf i = ![(Scalar.maxsi (pf.atD 0 (k0_off1 i)) 0#32).toNat, 0, 0] :=
  (transform4_at pf i).trans (congrArg (fun w : BitVec 32 => ![(Scalar.maxsi w 0#32).toNat, 0, 0]) (at_eq_atD pf i))

/-! ## The pipeline's side condition from the table's range -/

/-- With every word −1 or below 8, the block index read at any grid point is below 8. -/
theorem blk_lt (pf : pre0.Contents (Elt F))
    (h : ∀ i : Fin 136, pf 0 (Shape.Idx.ofFin i) = 4294967295#32 ∨ (pf 0 (Shape.Idx.ofFin i)).toNat < 8) (i : grid0.Coords) :
    (Scalar.maxsi (pf.atD 0 (k0_off1 i)) 0#32).toNat < 8 := by
  rw [atD_eq]
  rcases h ⟨(i 0).val, (i 0).isLt⟩ with e | e
  · rw [e, maxsi_of_neg1]; omega
  · rw [maxsi_of_nat _ e]; exact e

/-- Block (n, 0, 0) of sizes (1, b, c) lies inside an array of sizes (8, b, c) when n < 8. -/
theorem blk_inb {n b c : Nat} (hn : n < 8) :
    ∀ a, ((![n, 0, 0] : Fin 3 → Nat) a + 1) * (⟨3, ![1, b, c]⟩ : Shape).size a ≤ (⟨3, ![8, b, c]⟩ : Shape).size a := by
  intro a
  fin_cases a
  · show (n + 1) * 1 ≤ 8
    omega
  · show (0 + 1) * b ≤ b
    omega
  · show (0 + 1) * c ≤ c
    omega

theorem ok0_of_range (pf : pre0.Contents (Elt F))
    (h : ∀ i : Fin 136, pf 0 (Shape.Idx.ofFin i) = 4294967295#32 ∨ (pf 0 (Shape.Idx.ofFin i)).toNat < 8) :
    ok0 (F := F) pf := by
  refine ⟨fun i => ?_, fun i => ?_, fun i => ?_, fun i => ?_⟩
  · have hinb : ∀ a, (cc0_transform_1 k0_off1_inb numel1_S1 pf i a + 1) * S1x512x2048.size a ≤ S8x512x2048.size a := by
      rw [transform1_eq]; exact blk_inb (blk_lt pf h i)
    exact ⟨hinb, Or.inr (Affine.block_words_rows (by decide) rfl)⟩
  · have hinb : ∀ a, (cc0_transform_2 k0_off1_inb numel1_S1 pf i a + 1) * S1x1x2048.size a ≤ S8x1x2048.size a := by
      rw [transform2_eq]; exact blk_inb (blk_lt pf h i)
    exact ⟨hinb, Or.inl rfl⟩
  · have hinb : ∀ a, (cc0_transform_3 k0_off1_inb numel1_S1 pf i a + 1) * S1x2048x512.size a ≤ S8x2048x512.size a := by
      rw [transform3_eq]; exact blk_inb (blk_lt pf h i)
    exact ⟨hinb, Or.inr (Affine.block_words_rows (by decide) rfl)⟩
  · have hinb : ∀ a, (cc0_transform_4 k0_off1_inb numel1_S1 pf i a + 1) * S1x1x512.size a ≤ S8x1x512.size a := by
      rw [transform4_eq]; exact blk_inb (blk_lt pf h i)
    exact ⟨hinb, Or.inl rfl⟩

end Cert.KernelIdeal.Hand
-- ==== Proof.RegionValue.lean ====
/-
  The region's output array after the run, read entry by entry, and each input window's block read as entries of its array.

  The grid has 136 points; point `t` is tile `t` of 512 rows. Windows 0, 5 and 6 (token rows, row weights, output) move with
  the tile: their block at point `t` is rows `512 t … 512 t + 511`. Windows 1 to 4 (the two matrices and two bias rows of an
  expert) have as block index the table's word for the tile, clamped at 0. The output window's blocks tile its array and
  every point writes its block back, so the array after the run is one function of the row: row `r` is row `r % 512` of what
  the body leaves at tile `r / 512`.

  Every fact about the index maps is proved with the table's contents a variable and used at the program's table last.
-/
import proofs.«423054_j31275951850054_3_alg».proof.Proof.Entry
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

namespace RegionValue

/-! ## The index maps, at any admissible contents of the table -/

section Generic
variable (a : (pcfg0 (F := F)).Adm)

theorem N_at : (cfg0 a).N = 136 := N_0

theorem coords_at (t : Fin (cfg0 a).N) : ((cfg0 a).grid.coords t 0).val = t.val := by
  have ht : t.val < 136 := (N_at a) ▸ t.isLt
  show t.val / grid0.stride 0 % 136 = t.val
  rw [show grid0.stride 0 = 1 from by decide]
  omega

theorem tr0_eq (i : grid0.Coords) : cc0_transform_0 i = ![(i 0).val, 0] := by
  have h : (i 0).val < 136 := (i 0).isLt
  unfold cc0_transform_0
  simp only [BitVec.toNat_ofNat]
  rw [Nat.mod_eq_of_lt (by omega)]

theorem tr5_eq (i : grid0.Coords) : cc0_transform_5 i = ![(i 0).val, 0] := by
  have h : (i 0).val < 136 := (i 0).isLt
  unfold cc0_transform_5
  simp only [BitVec.toNat_ofNat]
  rw [Nat.mod_eq_of_lt (by omega)]

theorem tr6_eq (i : grid0.Coords) : cc0_transform_6 i = ![(i 0).val, 0] := by
  have h : (i 0).val < 136 := (i 0).isLt
  unfold cc0_transform_6
  simp only [BitVec.toNat_ofNat]
  rw [Nat.mod_eq_of_lt (by omega)]

theorem index0_at (t : Fin (cfg0 a).N) : ((cfg0 a).win 0).index t = ![t.val, 0] := by
  show cc0_transform_0 ((cfg0 a).grid.coords t) = _
  rw [tr0_eq, coords_at]

theorem index5_at (t : Fin (cfg0 a).N) : ((cfg0 a).win 5).index t = ![t.val, 0] := by
  show cc0_transform_5 ((cfg0 a).grid.coords t) = _
  rw [tr5_eq, coords_at]

theorem index6_at (t : Fin (cfg0 a).N) : ((cfg0 a).win 6).index t = ![t.val, 0] := by
  show cc0_transform_6 ((cfg0 a).grid.coords t) = _
  rw [tr6_eq, coords_at]

/-- The table's word the index maps load is the word the body loads. -/
theorem at_eq_atD (pf : pre0.Contents (Elt F)) (i : grid0.Coords) :
    pf.at 0 (Rect.unit (s := S136) (k0_off1 i) S1.size (k0_off1_inb i)) numel1_S1 = pf.atD 0 (k0_off1 i) := by
  unfold Pipeline.Prefetch.Contents.atD
  split
  · refine congrArg (pf 0) (funext fun b => Fin.ext ?_)
    have hb : b = (0 : Fin 1) := Subsingleton.elim (α := Fin 1) _ _
    subst hb
    show k0_off1 i 0 + 1 * 0 = k0_off1 i 0
    omega
  · next hn =>
    refine absurd (fun b => ?_) hn
    have hb : b = (0 : Fin 1) := Subsingleton.elim (α := Fin 1) _ _
    subst hb
    exact k0_off1_inb i 0

theorem tr1_eq (pf : pre0.Contents (Elt F)) (i : grid0.Coords) :
    cc0_transform_1 k0_off1_inb numel1_S1 pf i = ![(Scalar.maxsi (pf.atD 0 (k0_off1 i)) 0#32).toNat, 0, 0] := by
  rw [← at_eq_atD]
  rfl

end Generic

/-! ## The output window: every point writes back, and which rows its block holds -/

section Generic6
variable (a : (pcfg0 (F := F)).Adm)

/-- The output window's block index moves at every point: every point writes its block back. -/
theorem flush6_at (t : Fin (cfg0 a).N) : ((cfg0 a).win 6).flush t = true := by
  have ht : t.val < (cfg0 a).grid.N := t.isLt
  unfold Window.flush
  show (true && _) = true
  rw [Bool.true_and, Bool.or_eq_true, decide_eq_true_eq, decide_eq_true_eq]
  by_cases h : t.val + 1 = (cfg0 a).grid.N
  · exact .inl h
  · refine .inr ⟨by omega, fun e => ?_⟩
    rw [index6_at, index6_at] at e
    have h0 : t.val + 1 = t.val := congrFun e 0
    omega

theorem mem_blk6_at (t : Fin (cfg0 a).N) (i : S69632x512.Idx) :
    i ∈ (((cfg0 a).win 6).blk t).view.set ↔ ∀ b : Fin 2, ((cfg0 a).win 6).index t b * S512x512.size b ≤ (i b).val ∧ (i b).val < ((cfg0 a).win 6).index t b * S512x512.size b + S512x512.size b := by
  have e : (((cfg0 a).win 6).blk t).view.set = (((cfg0 a).win 6).rect t).set := View.set_slice_whole main_v117 _
  exact (Finset.ext_iff.mp e i).trans Rect.mem_set_unit

theorem mem_blk6_rows (t : Fin (cfg0 a).N) (i : S69632x512.Idx) :
    i ∈ (((cfg0 a).win 6).blk t).view.set ↔ t.val * 512 ≤ (i 0).val ∧ (i 0).val < t.val * 512 + 512 := by
  rw [mem_blk6_at]
  have e0 : ((cfg0 a).win 6).index t (0 : Fin 2) = t.val := congrFun (index6_at a t) (0 : Fin 2)
  have e1 : ((cfg0 a).win 6).index t (1 : Fin 2) = 0 := congrFun (index6_at a t) (1 : Fin 2)
  have h1 : (i 1).val < 512 := idx2_lt1 i
  constructor
  · intro h
    have b0 : ((cfg0 a).win 6).index t (0 : Fin 2) * 512 ≤ (i 0).val ∧ (i 0).val < ((cfg0 a).win 6).index t (0 : Fin 2) * 512 + 512 := h 0
    omega
  · intro h b
    match b with
    | ⟨0, _⟩ => show ((cfg0 a).win 6).index t (0 : Fin 2) * 512 ≤ (i 0).val ∧ (i 0).val < ((cfg0 a).win 6).index t (0 : Fin 2) * 512 + 512; omega
    | ⟨1, _⟩ => show ((cfg0 a).win 6).index t (1 : Fin 2) * 512 ≤ (i 1).val ∧ (i 1).val < ((cfg0 a).win 6).index t (1 : Fin 2) * 512 + 512; omega

theorem emb6_row (t : Fin (cfg0 a).N) (j : S512x512.Idx) : ((((cfg0 a).win 6).blk t).view.emb j (0 : Fin 2)).val = t.val * 512 + (j 0).val := by
  show ((cfg0 a).win 6).index t (0 : Fin 2) * 512 + 1 * (j 0).val = _
  rw [index6_at]
  show t.val * 512 + 1 * (j 0).val = _
  omega

theorem emb6_col (t : Fin (cfg0 a).N) (j : S512x512.Idx) : ((((cfg0 a).win 6).blk t).view.emb j (1 : Fin 2)).val = (j 1).val := by
  show ((cfg0 a).win 6).index t (1 : Fin 2) * 512 + 1 * (j 1).val = _
  rw [index6_at]
  show 0 * 512 + 1 * (j 1).val = _
  omega

end Generic6

/-! ## The input windows' blocks as entries of their arrays -/

section GenericIn
variable (a : (pcfg0 (F := F)).Adm)

theorem tr2_eq (pf : pre0.Contents (Elt F)) (i : grid0.Coords) :
    cc0_transform_2 k0_off1_inb numel1_S1 pf i = ![(Scalar.maxsi (pf.atD 0 (k0_off1 i)) 0#32).toNat, 0, 0] := by
  rw [← at_eq_atD]
  rfl

theorem tr3_eq (pf : pre0.Contents (Elt F)) (i : grid0.Coords) :
    cc0_transform_3 k0_off1_inb numel1_S1 pf i = ![(Scalar.maxsi (pf.atD 0 (k0_off1 i)) 0#32).toNat, 0, 0] := by
  rw [← at_eq_atD]
  rfl

theorem tr4_eq (pf : pre0.Contents (Elt F)) (i : grid0.Coords) :
    cc0_transform_4 k0_off1_inb numel1_S1 pf i = ![(Scalar.maxsi (pf.atD 0 (k0_off1 i)) 0#32).toNat, 0, 0] := by
  rw [← at_eq_atD]
  rfl

/-- The expert the table names for the point of coordinates `i`, clamped at 0: the block index of the four per-expert windows. -/
abbrev expertAt (pf : pre0.Contents (Elt F)) (i : grid0.Coords) : Nat := (Scalar.maxsi (pf.atD 0 (k0_off1 i)) 0#32).toNat

theorem index1_at (t : Fin (cfg0 a).N) : ((cfg0 a).win 1).index t = ![expertAt a.1 ((cfg0 a).grid.coords t), 0, 0] := by
  show cc0_transform_1 k0_off1_inb numel1_S1 a.1 ((cfg0 a).grid.coords t) = _
  rw [tr1_eq]
theorem index2_at (t : Fin (cfg0 a).N) : ((cfg0 a).win 2).index t = ![expertAt a.1 ((cfg0 a).grid.coords t), 0, 0] := by
  show cc0_transform_2 k0_off1_inb numel1_S1 a.1 ((cfg0 a).grid.coords t) = _
  rw [tr2_eq]
theorem index3_at (t : Fin (cfg0 a).N) : ((cfg0 a).win 3).index t = ![expertAt a.1 ((cfg0 a).grid.coords t), 0, 0] := by
  show cc0_transform_3 k0_off1_inb numel1_S1 a.1 ((cfg0 a).grid.coords t) = _
  rw [tr3_eq]
theorem index4_at (t : Fin (cfg0 a).N) : ((cfg0 a).win 4).index t = ![expertAt a.1 ((cfg0 a).grid.coords t), 0, 0] := by
  show cc0_transform_4 k0_off1_inb numel1_S1 a.1 ((cfg0 a).grid.coords t) = _
  rw [tr4_eq]

/-- Window 0's block at point `t` is rows `512 t … 512 t + 511` of its array. -/
theorem read0_at (A : S69632x512.Idx → Elt F .bf16) (t : Fin (cfg0 a).N) (ρ q : Fin 512) (h : 512 * t.val + ρ.val < 69632) :
    (((cfg0 a).win 0).blk t).view.read (Elt F) A (ix2 ρ q) = A (ix2 ⟨512 * t.val + ρ.val, h⟩ q) := by
  show A ((((cfg0 a).win 0).blk t).view.emb (ix2 ρ q)) = A _
  refine congrArg A (funext fun b => Fin.ext ?_)
  have e0 : ((cfg0 a).win 0).index t (0 : Fin 2) = t.val := congrFun (index0_at a t) (0 : Fin 2)
  have e1 : ((cfg0 a).win 0).index t (1 : Fin 2) = 0 := congrFun (index0_at a t) (1 : Fin 2)
  match b with
  | ⟨0, _⟩ => show ((cfg0 a).win 0).index t (0 : Fin 2) * 512 + 1 * ρ.val = 512 * t.val + ρ.val; omega
  | ⟨1, _⟩ => show ((cfg0 a).win 0).index t (1 : Fin 2) * 512 + 1 * q.val = q.val; omega

/-- Window 5's block at point `t` is rows `512 t … 512 t + 511` of its one-column array. -/
theorem read5_at (A : S69632x1.Idx → Elt F .f32) (t : Fin (cfg0 a).N) (ρ : Fin 512) (h : 512 * t.val + ρ.val < 69632) :
    (((cfg0 a).win 5).blk t).view.read (Elt F) A (ix2 ρ (0 : Fin 1)) = A (ix2 ⟨512 * t.val + ρ.val, h⟩ (0 : Fin 1)) := by
  show A ((((cfg0 a).win 5).blk t).view.emb (ix2 ρ (0 : Fin 1))) = A _
  refine congrArg A (funext fun b => Fin.ext ?_)
  have e0 : ((cfg0 a).win 5).index t (0 : Fin 2) = t.val := congrFun (index5_at a t) (0 : Fin 2)
  have e1 : ((cfg0 a).win 5).index t (1 : Fin 2) = 0 := congrFun (index5_at a t) (1 : Fin 2)
  match b with
  | ⟨0, _⟩ => show ((cfg0 a).win 5).index t (0 : Fin 2) * 512 + 1 * ρ.val = 512 * t.val + ρ.val; omega
  | ⟨1, _⟩ => show ((cfg0 a).win 5).index t (1 : Fin 2) * 1 + 1 * 0 = 0; omega

/-- Window 1's block at point `t` is the first matrix of the point's expert. -/
theorem read1_at (A : S8x512x2048.Idx → Elt F .bf16) (t : Fin (cfg0 a).N) (j : Fin 512) (k : Fin 2048)
    (he : expertAt a.1 ((cfg0 a).grid.coords t) < 8) :
    (((cfg0 a).win 1).blk t).view.read (Elt F) A (ix3 (0 : Fin 1) j k) = A (ix3 ⟨expertAt a.1 ((cfg0 a).grid.coords t), he⟩ j k) := by
  show A ((((cfg0 a).win 1).blk t).view.emb (ix3 (0 : Fin 1) j k)) = A _
  refine congrArg A (funext fun b => Fin.ext ?_)
  have e0 : ((cfg0 a).win 1).index t (0 : Fin 3) = expertAt a.1 ((cfg0 a).grid.coords t) := congrFun (index1_at a t) (0 : Fin 3)
  have e1 : ((cfg0 a).win 1).index t (1 : Fin 3) = 0 := congrFun (index1_at a t) (1 : Fin 3)
  have e2 : ((cfg0 a).win 1).index t (2 : Fin 3) = 0 := congrFun (index1_at a t) (2 : Fin 3)
  match b with
  | ⟨0, _⟩ => show ((cfg0 a).win 1).index t (0 : Fin 3) * 1 + 1 * 0 = expertAt a.1 ((cfg0 a).grid.coords t); omega
  | ⟨1, _⟩ => show ((cfg0 a).win 1).index t (1 : Fin 3) * 512 + 1 * j.val = j.val; omega
  | ⟨2, _⟩ => show ((cfg0 a).win 1).index t (2 : Fin 3) * 2048 + 1 * k.val = k.val; omega

/-- Window 2's block at point `t` is the first bias row of the point's expert. -/
theorem read2_at (A : S8x1x2048.Idx → Elt F .f32) (t : Fin (cfg0 a).N) (k : Fin 2048)
    (he : expertAt a.1 ((cfg0 a).grid.coords t) < 8) :
    (((cfg0 a).win 2).blk t).view.read (Elt F) A (ix3 (0 : Fin 1) (0 : Fin 1) k) = A (ix3 ⟨expertAt a.1 ((cfg0 a).grid.coords t), he⟩ (0 : Fin 1) k) := by
  show A ((((cfg0 a).win 2).blk t).view.emb (ix3 (0 : Fin 1) (0 : Fin 1) k)) = A _
  refine congrArg A (funext fun b => Fin.ext ?_)
  have e0 : ((cfg0 a).win 2).index t (0 : Fin 3) = expertAt a.1 ((cfg0 a).grid.coords t) := congrFun (index2_at a t) (0 : Fin 3)
  have e1 : ((cfg0 a).win 2).index t (1 : Fin 3) = 0 := congrFun (index2_at a t) (1 : Fin 3)
  have e2 : ((cfg0 a).win 2).index t (2 : Fin 3) = 0 := congrFun (index2_at a t) (2 : Fin 3)
  match b with
  | ⟨0, _⟩ => show ((cfg0 a).win 2).index t (0 : Fin 3) * 1 + 1 * 0 = expertAt a.1 ((cfg0 a).grid.coords t); omega
  | ⟨1, _⟩ => show ((cfg0 a).win 2).index t (1 : Fin 3) * 1 + 1 * 0 = 0; omega
  | ⟨2, _⟩ => show ((cfg0 a).win 2).index t (2 : Fin 3) * 2048 + 1 * k.val = k.val; omega

/-- Window 3's block at point `t` is the second matrix of the point's expert. -/
theorem read3_at (A : S8x2048x512.Idx → Elt F .bf16) (t : Fin (cfg0 a).N) (k : Fin 2048) (q : Fin 512)
    (he : expertAt a.1 ((cfg0 a).grid.coords t) < 8) :
    (((cfg0 a).win 3).blk t).view.read (Elt F) A (ix3 (0 : Fin 1) k q) = A (ix3 ⟨expertAt a.1 ((cfg0 a).grid.coords t), he⟩ k q) := by
  show A ((((cfg0 a).win 3).blk t).view.emb (ix3 (0 : Fin 1) k q)) = A _
  refine congrArg A (funext fun b => Fin.ext ?_)
  have e0 : ((cfg0 a).win 3).index t (0 : Fin 3) = expertAt a.1 ((cfg0 a).grid.coords t) := congrFun (index3_at a t) (0 : Fin 3)
  have e1 : ((cfg0 a).win 3).index t (1 : Fin 3) = 0 := congrFun (index3_at a t) (1 : Fin 3)
  have e2 : ((cfg0 a).win 3).index t (2 : Fin 3) = 0 := congrFun (index3_at a t) (2 : Fin 3)
  match b with
  | ⟨0, _⟩ => show ((cfg0 a).win 3).index t (0 : Fin 3) * 1 + 1 * 0 = expertAt a.1 ((cfg0 a).grid.coords t); omega
  | ⟨1, _⟩ => show ((cfg0 a).win 3).index t (1 : Fin 3) * 2048 + 1 * k.val = k.val; omega
  | ⟨2, _⟩ => show ((cfg0 a).win 3).index t (2 : Fin 3) * 512 + 1 * q.val = q.val; omega

/-- Window 4's block at point `t` is the second bias row of the point's expert. -/
theorem read4_at (A : S8x1x512.Idx → Elt F .f32) (t : Fin (cfg0 a).N) (q : Fin 512)
    (he : expertAt a.1 ((cfg0 a).grid.coords t) < 8) :
    (((cfg0 a).win 4).blk t).view.read (Elt F) A (ix3 (0 : Fin 1) (0 : Fin 1) q) = A (ix3 ⟨expertAt a.1 ((cfg0 a).grid.coords t), he⟩ (0 : Fin 1) q) := by
  show A ((((cfg0 a).win 4).blk t).view.emb (ix3 (0 : Fin 1) (0 : Fin 1) q)) = A _
  refine congrArg A (funext fun b => Fin.ext ?_)
  have e0 : ((cfg0 a).win 4).index t (0 : Fin 3) = expertAt a.1 ((cfg0 a).grid.coords t) := congrFun (index4_at a t) (0 : Fin 3)
  have e1 : ((cfg0 a).win 4).index t (1 : Fin 3) = 0 := congrFun (index4_at a t) (1 : Fin 3)
  have e2 : ((cfg0 a).win 4).index t (2 : Fin 3) = 0 := congrFun (index4_at a t) (2 : Fin 3)
  match b with
  | ⟨0, _⟩ => show ((cfg0 a).win 4).index t (0 : Fin 3) * 1 + 1 * 0 = expertAt a.1 ((cfg0 a).grid.coords t); omega
  | ⟨1, _⟩ => show ((cfg0 a).win 4).index t (1 : Fin 3) * 1 + 1 * 0 = 0; omega
  | ⟨2, _⟩ => show ((cfg0 a).win 4).index t (2 : Fin 3) * 512 + 1 * q.val = q.val; omega

end GenericIn

/-! ## At the program's table -/

variable (m : (ℓ : Loc nD τ sig) → Buf (Elt F) ℓ)

/-- The grid has 136 points. -/
theorem N_cfgM (hO : Ok m) : (cfgM m hO).N = 136 := N_at _

/-- Row `r` of the output lies in tile `r / 512`, a point of the grid. -/
theorem tile_lt (hO : Ok m) (r : Fin 69632) : r.val / 512 < (cfgM m hO).N := by
  rw [N_cfgM]; have := r.isLt; omega

theorem outAt_congr (hO : Ok m) (c : Dev nD) {t t' : Fin (cfgM m hO).N} {x x' : S512x512.Idx} (ht : t = t') (hx : x = x') :
    outAt m hO c t x = outAt m hO c t' x' := by subst ht; subst hx; rfl

/-- The whole output array after the run: row `r` is row `r % 512` of what the body leaves at tile `r / 512`. -/
def outArr (hO : Ok m) (c : Dev nD) : S69632x512.Idx → Elt F .bf16 := fun i =>
  outAt m hO c ⟨(i 0).val / 512, tile_lt m hO (i 0)⟩ (ix2 ⟨(i 0).val % 512, Nat.mod_lt _ (by decide)⟩ (i 1))

/-- What point `t` writes back is block `t` of that array. -/
theorem flushed6_eq (hO : Ok m) (c : Dev nD) (t : Fin (cfgM m hO).N) :
    (dats m hO 0 c).flushed 6 t = (((cfgM m hO).win 6).blk t).view.read (Elt F) (outArr m hO c) := by
  show ((cfgM m hO).win 6).cut ((cfgM m hO).grid.coords t) ((dats m hO 0 c).after 6 t) = _
  dsimp only [dats]
  refine funext fun (j : S512x512.Idx) => ?_
  show outAt m hO c t (((cfgM m hO).win 6).xinj ((cfgM m hO).grid.coords t) j)
    = outArr m hO c ((((cfgM m hO).win 6).blk t).view.emb j)
  unfold outArr
  have hr := emb6_row (adm m hO) t j
  have hc := emb6_col (adm m hO) t j
  have hj : (j 0).val < 512 := idx2_lt0 j
  refine outAt_congr m hO c (Fin.ext ?_) (funext fun b => Fin.ext ?_)
  · show t.val = ((((cfgM m hO).win 6).blk t).view.emb j (0 : Fin 2)).val / 512
    rw [hr]; omega
  · match b with
    | ⟨0, _⟩ =>
      show (j 0).val = ((((cfgM m hO).win 6).blk t).view.emb j (0 : Fin 2)).val % 512
      rw [hr]; omega
    | ⟨1, _⟩ =>
      show (j 1).val = ((((cfgM m hO).win 6).blk t).view.emb j (1 : Fin 2)).val
      rw [hc]

/-- Every index of the output array is in the block of the point its row's tile names. -/
theorem cover6 (hO : Ok m) (i : S69632x512.Idx) :
    ∃ t : Fin (cfgM m hO).N, ((cfgM m hO).win 6).flush t = true ∧ i ∈ (((cfgM m hO).win 6).blk t).view.set := by
  refine ⟨⟨(i 0).val / 512, tile_lt m hO (i 0)⟩, flush6_at (adm m hO) _, ?_⟩
  rw [mem_blk6_rows (adm m hO)]
  show (i 0).val / 512 * 512 ≤ (i 0).val ∧ (i 0).val < (i 0).val / 512 * 512 + 512
  omega

/-- The output array after the run is `outArr`. -/
theorem final6 (hO : Ok m) (c : Dev nD) : (dats m hO 0 c).arrAt 6 (cfgM m hO).N = outArr m hO c :=
  (dats m hO 0 c).arrAt_eq_of_cover 6 (outArr m hO c) (fun t _ => flushed6_eq m hO c t) (cover6 m hO)

/-- Row `ρ` of tile `t` is a row of the padded arrays. -/
theorem row_lt (hO : Ok m) (t : Fin (cfgM m hO).N) (ρ : Fin 512) : 512 * t.val + ρ.val < 69632 := by
  have ht : t.val < 136 := (N_cfgM m hO) ▸ t.isLt
  have := ρ.isLt
  omega

/-- The expert the table names for a point, clamped at 0, is one of the eight: the per-expert blocks are inside their arrays. -/
theorem expert_lt (hO : Ok m) (t : Fin (cfgM m hO).N) : (Scalar.maxsi (word m hO t) 0#32).toNat < 8 := by
  have hO' : ok0 (tbl m) := hO
  unfold ok0 at hO'
  obtain ⟨h, -⟩ := hO'.1 ((cfgM m hO).grid.coords t)
  have h0 := h (0 : Fin 3)
  rw [tr1_eq] at h0
  have h0' : ((Scalar.maxsi (word m hO t) 0#32).toNat + 1) * 1 ≤ 8 := h0
  omega

end RegionValue

open RegionValue

variable (m : (ℓ : Loc nD τ sig) → Buf (Elt F) ℓ)

/-! ## The statements the other modules cite -/

/-- THE OUTPUT ARRAY AFTER THE RUN, entry by entry: row `r`, column `q` is what the body leaves at tile `r / 512`,
    at row `r % 512` and column `q` of its block. -/
theorem final_out (hO : Ok m) (c : Dev nD) (r : Fin 69632) (q : Fin 512) :
    (dats m hO 0 c).arrAt 6 (cfgM m hO).N (ix2 r q)
      = outAt m hO c ⟨r.val / 512, tile_lt m hO r⟩ (ix2 ⟨r.val % 512, Nat.mod_lt _ (by decide)⟩ q) := by
  rw [final6]
  rfl

/-- The token block of tile `t`, read as entries of the padded token array. -/
theorem iblk0_apply (hO : Ok m) (c : Dev nD) (t : Fin (cfgM m hO).N) (ρ q : Fin 512) :
    iblk m hO c 0 t (ix2 ρ q) = V m c main_v112 (ix2 ⟨512 * t.val + ρ.val, row_lt m hO t ρ⟩ q) := by
  unfold iblk
  exact read0_at (adm m hO) (V m c main_v112) t ρ q _

/-- The row-weight block of tile `t`, read as entries of the padded weight column. -/
theorem iblk5_apply (hO : Ok m) (c : Dev nD) (t : Fin (cfgM m hO).N) (ρ : Fin 512) :
    iblk m hO c 5 t (ix2 ρ (0 : Fin 1)) = V m c main_v82 (ix2 ⟨512 * t.val + ρ.val, row_lt m hO t ρ⟩ (0 : Fin 1)) := by
  unfold iblk
  exact read5_at (adm m hO) (V m c main_v82) t ρ _

/-- The first-matrix block of tile `t` is the first matrix of the tile's expert. -/
theorem iblk1_apply (hO : Ok m) (c : Dev nD) (t : Fin (cfgM m hO).N) (j : Fin 512) (k : Fin 2048)
    (he : (Scalar.maxsi (word m hO t) 0#32).toNat < 8) :
    iblk m hO c 1 t (ix3 (0 : Fin 1) j k) = V m c main_v113 (ix3 ⟨(Scalar.maxsi (word m hO t) 0#32).toNat, he⟩ j k) := by
  unfold iblk
  exact read1_at (adm m hO) (V m c main_v113) t j k he

/-- The first-bias block of tile `t` is the first bias row of the tile's expert. -/
theorem iblk2_apply (hO : Ok m) (c : Dev nD) (t : Fin (cfgM m hO).N) (k : Fin 2048)
    (he : (Scalar.maxsi (word m hO t) 0#32).toNat < 8) :
    iblk m hO c 2 t (ix3 (0 : Fin 1) (0 : Fin 1) k) = V m c main_v115 (ix3 ⟨(Scalar.maxsi (word m hO t) 0#32).toNat, he⟩ (0 : Fin 1) k) := by
  unfold iblk
  exact read2_at (adm m hO) (V m c main_v115) t k he

/-- The second-matrix block of tile `t` is the second matrix of the tile's expert. -/
theorem iblk3_apply (hO : Ok m) (c : Dev nD) (t : Fin (cfgM m hO).N) (k : Fin 2048) (q : Fin 512)
    (he : (Scalar.maxsi (word m hO t) 0#32).toNat < 8) :
    iblk m hO c 3 t (ix3 (0 : Fin 1) k q) = V m c main_v114 (ix3 ⟨(Scalar.maxsi (word m hO t) 0#32).toNat, he⟩ k q) := by
  unfold iblk
  exact read3_at (adm m hO) (V m c main_v114) t k q he

/-- The second-bias block of tile `t` is the second bias row of the tile's expert. -/
theorem iblk4_apply (hO : Ok m) (c : Dev nD) (t : Fin (cfgM m hO).N) (q : Fin 512)
    (he : (Scalar.maxsi (word m hO t) 0#32).toNat < 8) :
    iblk m hO c 4 t (ix3 (0 : Fin 1) (0 : Fin 1) q) = V m c main_v116 (ix3 ⟨(Scalar.maxsi (word m hO t) 0#32).toNat, he⟩ (0 : Fin 1) q) := by
  unfold iblk
  exact read4_at (adm m hO) (V m c main_v116) t q he

end Cert.KernelIdeal.Hand

end
-- ==== Proof.OperandReads.lean ====
/-
  The region's float operands read at the row of a pair, over the extended reals.

  The routed layer lays the (token, slot) pairs out in 69632 rows; pair p (token p / 2, slot p % 2) has a row `row p`
  which holds its token and is marked occupied (`RowFacts`). Here each operand of the region is read at that row:

  * the activations: row r of the padded layout is the gather of row `paddedToken r` of the activations reshaped to
    [32768, 512]. At `row p` the token word is the natural number p / 2 < 32768, so the wrap of a negative index is the
    identity on it and the clamp of the start index into [0, 32767] is inactive; narrowing is the identity on extended
    reals; and row t of the row-major reshape of [8, 4096, 512] is row t % 4096 of batch t / 4096 — token t's row;
  * the weight column: the occupied bit, read as a number, times one half; at `row p` the bit is 1;
  * the experts' matrices: narrowing is the identity; their bias rows: a unit axis put in, row-major.

  The one general fact is the gather of whole rows of a table at a column of start indices, read at an entry.
-/
import proofs.«423054_j31275951850054_3_alg».proof.Proof.HostSpec
import proofs.«423054_j31275951850054_3_alg».proof.Proof.Spec
import proofs.«423054_j31275951850054_3_alg».proof.Proof.LibWord
import Idealize.ShloMosaic.PureOps.Ideal.Laws
import Idealize.ShloMosaic.Lib.ValueIdx
import Idealize.ShloMosaic.Lib.Pipeline.Value
import Idealize.ShloMosaic.Lib.SortFacts

noncomputable section

namespace Cert.KernelIdeal.ValueIdeal

open Cert.KernelIdeal Cert.KernelIdeal.Chain Cert.KernelIdeal.Host Cert.Moe Idealize.ShloMosaic Idealize.ShloMosaic.ValueIdx
open Facts₀ Facts

variable [Facts]

/-- THE ROW GATHER. A gather of whole rows of an [N × C] table at an [n × 1] column of start indices: the row axis collapsed and
    start-indexed, the column axis the one offset axis, no batching axes, the index vector on axis 1. Result entry (p, j)
    is the table's entry (r, j), r the start index of position p read signed and clamped into [0, N − 1]. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (j : Fin C) (hN : 0 < N) :
    Host.gather d x idx (ix2 p j) = x (ix2 (⟨min (idx (ix2 p (0 : Fin 1))).toInt.toNat (N - 1), by omega⟩ : Fin N) j) := by
  unfold Host.gather
  congr 1
  funext a
  apply Fin.ext
  have hb : ∀ a : Fin 2, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p j) idx 0 + d.batchCoord (ix2 p j) 0 + d.offCoord (ix2 p j) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = _
    rw [hsl]
    congr 3
    congr 1
    funext b
    apply Fin.ext
    match b with
    | ⟨0, _⟩ =>
      unfold GatherDims.siIdx
      rw [dif_neg (by rw [hivd]; simp)]
      unfold GatherDims.siCoord
      simp only [Fin.val_cast]
      -- the result's one batch axis is axis 0: it is not the offset axis
      have e : ∀ (k : ℕ) (hk : k < d.batchDims.length), d.batchDims[k] = (0 : Fin 2) := by
        intro k hk
        have hmem : d.batchDims[k] ∈ d.batchDims := List.getElem_mem hk
        have hne : d.batchDims[k] ∉ d.offsetDims := by
          have := (List.mem_filter.mp hmem).2
          simpa using this
        rw [hoff] at hne
        have h1 : d.batchDims[k] ≠ 1 := fun h => hne (List.mem_singleton.mpr h)
        have hlt := (d.batchDims[k]).isLt
        apply Fin.ext
        have h1' : (d.batchDims[k]).val ≠ 1 := fun h => h1 (Fin.ext h)
        show (d.batchDims[k]).val = 0
        change (d.batchDims[k]).val < 2 at hlt
        omega
      rw [e]
    | ⟨1, _⟩ =>
      unfold GatherDims.siIdx
      rw [dif_pos (by rw [hivd])]
      show List.idxOf (0 : Fin 2) d.startIndexMap = 0
      rw [hsim]; simp
  | ⟨1, _⟩ =>
    have hk : (1 : Fin 2) ∈ d.sKept := by rw [GatherDims.mem_sKept, hcoll]; exact ⟨by simp, hb 1⟩
    have hm : (1 : Fin 2) ∉ d.startIndexMap := by rw [hsim]; simp
    show d.start (ix2 p j) idx 1 + d.batchCoord (ix2 p j) 1 + d.offCoord (ix2 p j) 1 = j.val
    rw [GatherDims.batchCoord_eq_zero _ _ _ (hb 1), Nat.add_zero]
    unfold GatherDims.start GatherDims.offCoord
    rw [dif_neg hm, dif_pos hk, Nat.zero_add]
    have e : ∀ (k : ℕ) (hk : k < d.offsetDims.length), d.offsetDims[k] = (1 : Fin 2) := by
      intro k hk
      have hmem : d.offsetDims[k] ∈ d.offsetDims := List.getElem_mem hk
      have hall : ∀ y ∈ d.offsetDims, y = (1 : Fin 2) := by
        rw [hoff]; intro y hy; exact List.mem_singleton.mp hy
      exact hall _ hmem
    rw [e]

/-! ## The index column of the row gather -/

/-- The index wrap over 69632 entries leaves a natural-number word alone. -/
theorem wrap69632_apply (n : BitVec 32) (x : IVec S69632 32) (i : S69632.Idx) {k : ℕ} (hx : IsNat (x i) k) :
    wrap69632 n x i = x i := by
  unfold wrap69632
  exact wrap_select_apply x _ _ i hx (bcast0_at _ _ i)

/-- A vector of 69632 words as a column reads, at (r, 0), the vector at r. -/
theorem col69632_apply {α : Type} (x : S69632.Idx → α) (r : Fin 69632) :
    broadcastInDim S69632x1 ![0] bcast_S69632_S69632x1_0 x (ix2 r (0 : Fin 1)) = x (Shape.Idx.ofFin r) := by
  refine broadcastInDim_apply _ _ _ _ (Shape.Idx.ofFin r) ?_
  intro a
  obtain rfl : a = 0 := Subsingleton.elim _ _
  rfl

/-- The token word at the row of pair p is the natural number p / 2. -/
theorem paddedToken_isNat (a1 : IVec S8x4096x2 32) (row : Fin 65536 → Fin 69632) (h : RowFacts a1 row) (p : Fin 65536) :
    IsNat (paddedToken a1 (Shape.Idx.ofFin (row p))) (p.val / 2) :=
  ⟨h.token_eq p, by have := p.isLt; omega⟩

/-- The start index of the token gather at the row of pair p: the token p / 2, the wrap being the identity on it. -/
theorem tokenIdx_row (a1 : IVec S8x4096x2 32) (row : Fin 65536 → Fin 69632) (h : RowFacts a1 row) (p : Fin 65536) :
    broadcastInDim S69632x1 ![0] bcast_S69632_S69632x1_0 (wrap69632 32768#32 (paddedToken a1)) (ix2 (row p) (0 : Fin 1))
      = paddedToken a1 (Shape.Idx.ofFin (row p)) := by
  rw [col69632_apply]
  exact wrap69632_apply _ _ _ (paddedToken_isNat a1 row h p)

/-! ## The operands at the row of a pair -/

theorem xPadded_row (a1 : IVec S8x4096x2 32) (a0 : FVec Ideal S8x4096x512 .f32) (row : Fin 65536 → Fin 69632) (h : RowFacts a1 row)
    (p : Fin 65536) (j : Fin 512) :
    xPadded (F := Ideal) a1 a0 (ix2 (row p) j) = tokenRow a0 ⟨p.val / 2, by have := p.isLt; omega⟩ j := by
  have hp := p.isLt
  have hstart : (broadcastInDim S69632x1 ![0] bcast_S69632_S69632x1_0 (wrap69632 32768#32 (paddedToken a1))
      (ix2 (row p) (0 : Fin 1))).toInt.toNat = p.val / 2 := by
    rw [tokenIdx_row a1 row h p]
    exact (paddedToken_isNat a1 row h p).toInt_toNat
  unfold xPadded
  refine (gather_rows gather_S32768x512_S69632x1_S69632x512_1_0_n_n_0_1_1512 rfl rfl rfl rfl rfl _ _ (row p) j (by decide)).trans ?_
  -- the narrowing is the identity; the reshape is row-major
  show shapeCast S32768x512 a0 shapeCasts_S8x4096x512_S32768x512 _ = _
  unfold tokenRow
  refine shapeCast_apply _ _ _ _ ?_
  rw [Shape.rowMajor_val_two, Shape.rowMajor_val_three]
  show (p.val / 2 / 4096 * 4096 + p.val / 2 % 4096) * 512 + j.val
    = min (broadcastInDim S69632x1 ![0] bcast_S69632_S69632x1_0 (wrap69632 32768#32 (paddedToken a1))
        (ix2 (row p) (0 : Fin 1))).toInt.toNat (32768 - 1) * 512 + j.val
  rw [hstart]
  omega

theorem weight_row (a1 : IVec S8x4096x2 32) (row : Fin 65536 → Fin 69632) (h : RowFacts a1 row) (p : Fin 65536) :
    weight (F := Ideal) a1 (ix2 (row p) 0) = (1 : EReal) * Ideal.ofBits .f32 0x3F000000#32 := by
  unfold weight
  refine (shapeCast_apply _ _ (ix2 (row p) (0 : Fin 1)) (Shape.Idx.ofFin (row p)) ?_).trans ?_
  · rw [Shape.rowMajor_val_one, Shape.rowMajor_val_two]
    show (row p).val = (row p).val * 1 + 0
    omega
  · rw [mulf_apply]
    have e1 : (uitofp .f32 (paddedValid a1) : FVec Ideal S69632 .f32) (Shape.Idx.ofFin (row p)) = 1 := by
      show (((paddedValid a1 (Shape.Idx.ofFin (row p))).toNat : ℝ) : EReal) = 1
      rw [h.valid_eq p]
      have : (1#1 : BitVec 1).toNat = 1 := rfl
      rw [this, Nat.cast_one, EReal.coe_one]
    have e2 : broadcastInDim S69632 ![] bcast_S_S69632 (constant (F := Ideal) S_ .f32 0x3F000000#32) (Shape.Idx.ofFin (row p))
        = Ideal.ofBits .f32 0x3F000000#32 := bcast0_at _ _ _
    rw [e1, e2]

theorem w1_apply (a2 : FVec Ideal S8x512x2048 .f32) (e : Fin 8) (j : Fin 512) (k : Fin 2048) :
    w1 (F := Ideal) a2 (ix3 e j k) = a2 (ix3 e j k) := rfl

theorem w2_apply (a4 : FVec Ideal S8x2048x512 .f32) (e : Fin 8) (k : Fin 2048) (q : Fin 512) :
    w2 (F := Ideal) a4 (ix3 e k q) = a4 (ix3 e k q) := rfl

theorem b1r_apply (a3 : FVec Ideal S8x2048 .f32) (e : Fin 8) (k : Fin 2048) :
    b1r (F := Ideal) a3 (ix3 e 0 k) = a3 (ix2 e k) := by
  unfold b1r
  refine shapeCast_apply _ _ (ix3 e (0 : Fin 1) k) (ix2 e k) ?_
  rw [Shape.rowMajor_val_two, Shape.rowMajor_val_three]
  show e.val * 2048 + k.val = (e.val * 1 + 0) * 2048 + k.val
  omega

theorem b2r_apply (a5 : FVec Ideal S8x512 .f32) (e : Fin 8) (q : Fin 512) :
    b2r (F := Ideal) a5 (ix3 e 0 q) = a5 (ix2 e q) := by
  unfold b2r
  refine shapeCast_apply _ _ (ix3 e (0 : Fin 1) q) (ix2 e q) ?_
  rw [Shape.rowMajor_val_two, Shape.rowMajor_val_three]
  show e.val * 512 + q.val = (e.val * 1 + 0) * 512 + q.val
  omega

end Cert.KernelIdeal.ValueIdeal

end
-- ==== Proof.ResultRead.lean ====
/-
  The program's result read from the region's output array, at the ideal values.

  After the region the host gathers, for each (token, slot) pair p, row `pos p` of the region's output y
  (69632 rows of 512 columns), widens it, regroups the 65536 gathered rows as 32768 tokens of 2 slots, adds over the
  two slots from the initial value zero, and regroups the 32768 tokens as 8 batches of 4096. Where the word of
  `pos` at pair p is the natural number `row p` below 69632, the index wrap of a negative word does not fire and
  the gather's clamp is inactive, so the gathered row p is row `row p` of y; row-major regrouping sends pair
  p = 2 t + slot to (t, slot) and token t = 4096 b + s to (b, s). Hence the result at (b, s, q) is
  y (row (2 t), q) + y (row (2 t + 1), q) with t = 4096 b + s.
-/
import proofs.«423054_j31275951850054_3_alg».proof.Proof.HostSpec
import proofs.«423054_j31275951850054_3_alg».proof.Proof.LibWord
import Idealize.ShloMosaic.PureOps.Ideal.Laws
import Idealize.ShloMosaic.Lib.ValueIdx
import Idealize.ShloMosaic.Lib.StableHlo.Predicate
import Idealize.ShloMosaic.Lib.Pipeline.Value

noncomputable section

namespace Cert.KernelIdeal.ValueIdeal

open Cert.KernelIdeal Cert.KernelIdeal.Chain Cert.KernelIdeal.Host Cert.Moe Idealize.ShloMosaic Idealize.ShloMosaic.ValueIdx
open Idealize.ShloMosaic.StableHlo.Predicate (ixP bcast_col1)
open Facts₀ Facts

namespace Result

/-- A gather of whole rows: operand `[N, C]`, start indices an `[n, 1]` column, result `[n, C]`; the row axis is
    collapsed and start-indexed, the column axis is the one offset axis, the index vector lies on axis 1. Result element
    `(p, q)` is the operand at `(r, q)`, `r` the start index of position `p` read signed and clamped into `[0, N − 1]`. -/
theorem gather_rows_apply {α : Type} {N C n w : Nat} (d : GatherDims ⟨2, ![N, C]⟩ ⟨2, ![n, 1]⟩ ⟨2, ![n, C]⟩)
    (hod : d.offsetDims = [1]) (hcd : d.collapsedSliceDims = [0]) (hob : d.operandBatchingDims = [])
    (hsm : d.startIndexMap = [0]) (hiv : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ixP p)).toInt.toNat (N - 1), by omega⟩ : Fin N) q) := by
  obtain ⟨od, cd, ob, sb, sm, iv, ss, wf⟩ := d
  dsimp only at hod hcd hob hsm hiv
  subst hod hcd hob hsm hiv
  unfold Host.gather
  congr 1
  funext a
  apply Fin.ext
  match a with
  | ⟨0, h0⟩ =>
    -- the row axis: no batching or offset coordinate; the start is the clamped start index
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ [(0 : Fin 2)] from List.mem_singleton.mpr rfl)]
    have hsl : ss 0 = 1 := wf.2.2.2.2.2.2.2.2.2.2.2.1 0 (List.mem_singleton.mpr rfl)
    show min (idx _).toInt.toNat (N - ss 0) = _
    rw [hsl]
    congr 3
    congr 1
    funext b
    apply Fin.ext
    match b with
    | ⟨0, _⟩ => rfl
    | ⟨1, _⟩ => rfl
  | ⟨1, h1⟩ =>
    -- the column axis: start zero, no batching coordinate; the offset coordinate is the result's column
    show GatherDims.start _ _ idx _ + GatherDims.batchCoord _ _ _ + GatherDims.offCoord _ _ _ = _
    rw [GatherDims.batchCoord_eq_zero _ _ _ List.not_mem_nil]
    unfold GatherDims.start
    rw [dif_neg (show ¬ (⟨1, h1⟩ : Fin 2) ∈ [(0 : Fin 2)] from (by decide : ¬ (1 : Fin 2) ∈ [(0 : Fin 2)]))]
    unfold GatherDims.offCoord
    rw [dif_pos ((GatherDims.mem_sKept _ _).mpr ⟨(by decide : ¬ (1 : Fin 2) ∈ [(0 : Fin 2)]), List.not_mem_nil⟩)]
    simp only [Nat.add_zero, Nat.zero_add]
    rfl

variable [Facts]

/-- The gather column of the rows: at pair `p` the word is the row of `p` (a natural number, so the wrap of a
    negative index does not fire). -/
theorem posIdx_apply (a1 : IVec S8x4096x2 32) (row : Fin 65536 → Fin 69632)
    (hpos : ∀ p : Fin 65536, shapeCast S65536 (pos a1) shapeCasts_S32768x2_S65536 (Shape.Idx.ofFin p) = BitVec.ofNat 32 (row p).val)
    (p : Fin 65536) : posIdx a1 (ixP p) = BitVec.ofNat 32 (row p).val := by
  refine (bcast_col1 bcast_S65536_S65536x1_0 _ p).trans ?_
  unfold wrap65536
  refine (wrap_select_apply _ _ _ _ (k := (row p).val) ?_ ?_).trans (hpos p)
  · rw [hpos p]
    exact isNat_ofNat (by have := (row p).isLt; omega)
  · exact (bcast0_at _ _ _).trans rfl

/-- The gathered rows: row `p` of the gather is row `row p` of the region's output. -/
theorem gathered_apply (a1 : IVec S8x4096x2 32) (y : FVec Ideal S69632x512 .bf16) (row : Fin 65536 → Fin 69632)
    (hpos : ∀ p : Fin 65536, shapeCast S65536 (pos a1) shapeCasts_S32768x2_S65536 (Shape.Idx.ofFin p) = BitVec.ofNat 32 (row p).val)
    (p : Fin 65536) (q : Fin 512) :
    Host.gather gather_S69632x512_S65536x1_S65536x512_1_0_n_n_0_1_1512 y (posIdx a1) (ix2 p q) = y (ix2 (row p) q) := by
  refine (gather_rows_apply _ rfl rfl rfl rfl rfl y (posIdx a1) p q (by decide)).trans ?_
  refine congrArg (fun r => y (ix2 r q)) (Fin.ext ?_)
  show min (posIdx a1 (ixP p)).toInt.toNat (69632 - 1) = (row p).val
  have hr := (row p).isLt
  rw [posIdx_apply a1 row hpos p, (isNat_ofNat (k := (row p).val) (by omega)).toInt_toNat]
  omega

end Result

open Result

variable [Facts]

theorem result_apply (a1 : IVec S8x4096x2 32) (y : FVec Ideal S69632x512 .bf16) (row : Fin 65536 → Fin 69632)
    (hpos : ∀ p : Fin 65536, shapeCast S65536 (pos a1) shapeCasts_S32768x2_S65536 (Shape.Idx.ofFin p) = BitVec.ofNat 32 (row p).val)
    (b : Fin 8) (s : Fin 4096) (q : Fin 512) :
    result (F := Ideal) a1 y (ix3 b s q)
      = y (ix2 (row ⟨2 * (4096 * b.val + s.val), by omega⟩) q) + y (ix2 (row ⟨2 * (4096 * b.val + s.val) + 1, by omega⟩) q) := by
  have hb := b.isLt
  have hs := s.isLt
  have hR : S32768x2x512.Reduces [1] S32768x512 := by decide
  unfold result
  -- the last reshape: token t = 4096 b + s
  refine (shapeCast_apply _ shapeCasts_S32768x512_S8x4096x512 (ix3 b s q)
    (ix2 (⟨4096 * b.val + s.val, by omega⟩ : Fin 32768) q) ?_).trans ?_
  · rw [Shape.rowMajor_val_two, Shape.rowMajor_val_three]
    show (4096 * b.val + s.val) * 512 + q.val = (b.val * 4096 + s.val) * 512 + q.val
    omega
  -- the sum over the axis of 2
  refine (Ideal.hostReduceAdd_single reducesTo_S32768x2x512_S32768x512_d1 hR _ _ _).trans ?_
  -- the initial value is zero; the axis has the two slots
  refine (congrArg₂ (· + ·) Ideal.ofBits_zero_f32 (Fin.sum_univ_two _)).trans ?_
  refine (zero_add _).trans ?_
  refine congrArg₂ (· + ·) ?_ ?_
  · -- slot 0: pair 2 t
    refine (shapeCast_apply _ shapeCasts_S65536x512_S32768x2x512 _
      (ix2 (⟨2 * (4096 * b.val + s.val), by omega⟩ : Fin 65536) q) ?_).trans ?_
    · rw [Shape.rowMajor_val_two, Shape.rowMajor_val_three]
      show 2 * (4096 * b.val + s.val) * 512 + q.val = ((4096 * b.val + s.val) * 2 + 0) * 512 + q.val
      omega
    · exact gathered_apply a1 y row hpos _ q
  · -- slot 1: pair 2 t + 1
    refine (shapeCast_apply _ shapeCasts_S65536x512_S32768x2x512 _
      (ix2 (⟨2 * (4096 * b.val + s.val) + 1, by omega⟩ : Fin 65536) q) ?_).trans ?_
    · rw [Shape.rowMajor_val_two, Shape.rowMajor_val_three]
      show (2 * (4096 * b.val + s.val) + 1) * 512 + q.val = ((4096 * b.val + s.val) * 2 + 1) * 512 + q.val
      omega
    · exact gathered_apply a1 y row hpos _ q

end Cert.KernelIdeal.ValueIdeal
end
-- ==== Proof.KernelValue.lean ====
/-
  The kernel program's result, read at an index, over the extended reals.

  The program lays the 65536 (token, slot) pairs out in 69632 rows, tiles of 512 rows each belonging to one
  expert; its one region writes, tile by tile, the tile's expert's feed-forward block on the tile's rows, each row
  times its weight; the lines after the region add the two rows of each token.

  Pair p has a row `row p`. Its tile is `row p / 512`, its place in the tile `row p % 512`, and
  512 · (row p / 512) + row p % 512 = row p. The table's word for that tile is the pair's expert, a number below 8:
  so the region's condition holds there, the block it writes is the weighted feed-forward block, and the blocks of
  the experts' matrices and biases it reads are the pair's expert's. The row of the padded activations at `row p` is the
  row of token p / 2, and the weight there is one times one half. So the output at `row p` and column q is the
  pair's expert's feed-forward block on the token's row, at q, times one times one half (`row_value`).

  The result at token t = 4096 b + s and column q adds the output's rows of the pairs 2t and 2t + 1, both of
  token t (`kernel_value`).
-/
import proofs.«423054_j31275951850054_3_alg».proof.Proof.Entry
import proofs.«423054_j31275951850054_3_alg».proof.Proof.HostSpec
import proofs.«423054_j31275951850054_3_alg».proof.Proof.Spec
import proofs.«423054_j31275951850054_3_alg».proof.Proof.PayloadIdeal
import proofs.«423054_j31275951850054_3_alg».proof.Proof.HostVals
import proofs.«423054_j31275951850054_3_alg».proof.Proof.OkOfRange
import proofs.«423054_j31275951850054_3_alg».proof.Proof.RegionValue
import proofs.«423054_j31275951850054_3_alg».proof.Proof.OperandReads
import proofs.«423054_j31275951850054_3_alg».proof.Proof.ResultRead

set_option maxRecDepth 16384

noncomputable section

namespace Cert.KernelIdeal.ValueIdeal

open Cert.KernelIdeal Cert.KernelIdeal.Gen Cert.KernelIdeal.Hand Cert.KernelIdeal.Chain Cert.KernelIdeal.Host
open Cert.KernelIdeal.PayloadIdeal Cert.Moe
open Idealize.ShloMosaic Idealize.ShloMosaic.TcCoe Idealize.ShloMosaic.ValueIdx

variable (m : (ℓ : Loc nD τ sig) → Buf (Elt Ideal) ℓ)

-- the six argument arrays as core `c` holds them at the launch
set_option quotPrecheck false in
local notation "A0" c:max => m ((c : Thread nD τ).loc main_arg0)
set_option quotPrecheck false in
local notation "A1" c:max => m ((c : Thread nD τ).loc main_arg1)
set_option quotPrecheck false in
local notation "A2" c:max => m ((c : Thread nD τ).loc main_arg2)
set_option quotPrecheck false in
local notation "A3" c:max => m ((c : Thread nD τ).loc main_arg3)
set_option quotPrecheck false in
local notation "A4" c:max => m ((c : Thread nD τ).loc main_arg4)
set_option quotPrecheck false in
local notation "A5" c:max => m ((c : Thread nD τ).loc main_arg5)

namespace KernelValue

/-! ## Rows, tiles, tokens and pairs as numbers -/

/-- A row's tile is one of the 136. -/
theorem tile_lt (r : Fin 69632) : r.val / 512 < 136 := by have := r.isLt; omega
/-- A row's place in its tile. -/
theorem inner_lt (r : Fin 69632) : r.val % 512 < 512 := Nat.mod_lt _ (by omega)
/-- A pair's token. -/
theorem half_lt (p : Fin 65536) : p.val / 2 < 32768 := by have := p.isLt; omega
/-- Place ρ of tile t is a row. -/
theorem join_lt (t ρ : ℕ) (h1 : t < 136) (h2 : ρ < 512) : 512 * t + ρ < 69632 := by omega
/-- Token 4096 b + s. -/
theorem token_lt (b : Fin 8) (s : Fin 4096) : 4096 * b.val + s.val < 32768 := by
  have h1 := b.isLt; have h2 := s.isLt; omega
/-- Its first pair. -/
theorem pair0_lt (b : Fin 8) (s : Fin 4096) : 2 * (4096 * b.val + s.val) < 65536 := by
  have h1 := b.isLt; have h2 := s.isLt; omega
/-- Its second pair. -/
theorem pair1_lt (b : Fin 8) (s : Fin 4096) : 2 * (4096 * b.val + s.val) + 1 < 65536 := by
  have h1 := b.isLt; have h2 := s.isLt; omega

/-- A number below 8 written as a 32-bit word reads back as itself. -/
theorem toNat_ofNat_lt8 (n : ℕ) (h : n < 8) : (BitVec.ofNat 32 n).toNat = n := by
  rw [BitVec.toNat_ofNat]; exact Nat.mod_eq_of_lt (by omega)

/-! ## The table's word for the tile of a pair's row -/

/-- On the grid of 136 points in a line, a point's one coordinate is its number: the stride of the one axis is 1. -/
theorem coords0_val (hO : Ok m) (t : Fin (cfgM m hO).N) : (((cfgM m hO).grid.coords t) 0).val = t.val := by
  have ht : t.val < 136 := t.isLt
  show t.val / grid0.stride 0 % 136 = t.val
  have hs : grid0.stride 0 = 1 := by decide
  rw [hs, Nat.div_one, Nat.mod_eq_of_lt ht]

/-- The word of the tile that holds the row of pair p is the pair's expert: the word for a grid point is the table's
    entry at the point's number, the table is the tiles' experts, and the tile of `row p` belongs to the expert of p. -/
theorem word_row (hO : Ok m) (c : Dev nD) (row : Fin 65536 → Fin 69632) (hrow : RowFacts (A1 c) row) (p : Fin 65536)
    (t : Fin (cfgM m hO).N) (ht : t.val = (row p).val / 512) :
    word m hO t = BitVec.ofNat 32 (key (A1 c) p) := by
  obtain rfl : c = 0 := Subsingleton.elim _ _
  unfold word
  refine (atD_eq (tbl m) ((cfgM m hO).grid.coords t)).trans ?_
  rw [tbl_eq]
  refine Eq.trans (congrArg (tileExpert (A1 (0 : Dev nD))) (congrArg Shape.Idx.ofFin (Fin.ext ?_))) (hrow.tile_eq p (tile_lt (row p)))
  exact (coords0_val m hO t).trans ht

end KernelValue

open KernelValue

/-! ## The region's output at the row of a pair -/

/-- The region's output at the row of pair p and column q: the pair's expert's feed-forward block on the pair's token
    row, at q, times the row's weight, one times one half. -/
theorem row_value (hO : Ok m) (c : Dev nD) (hk : KeyFacts (A1 c)) (row : Fin 65536 → Fin 69632) (hrow : RowFacts (A1 c) row)
    (p : Fin 65536) (q : Fin 512) :
    (dats m hO 0 c).arrAt 6 (cfgM m hO).N (ix2 (row p) q)
      = expertOut (A2 c) (A3 c) (A4 c) (A5 c) (keyF (A1 c) hk p) (tokenRow (A0 c) ⟨p.val / 2, half_lt p⟩) q
          * (1 * Ideal.ofBits .f32 0x3F000000#32) := by
  -- the tile's word is the pair's expert, a number below 8
  have hw : word m hO ⟨(row p).val / 512, tile_lt (row p)⟩ = BitVec.ofNat 32 (key (A1 c) p) :=
    word_row m hO c row hrow p ⟨(row p).val / 512, tile_lt (row p)⟩ rfl
  have hkey : (BitVec.ofNat 32 (key (A1 c) p)).toNat = key (A1 c) p := toNat_ofNat_lt8 _ (hk.key_lt p)
  have hlt : (word m hO ⟨(row p).val / 512, tile_lt (row p)⟩).toNat < 8 := by rw [hw, hkey]; exact hk.key_lt p
  -- so the condition holds, and the block index the four per-expert windows read is the pair's expert
  have hcond : k0_cond1 (word m hO ⟨(row p).val / 512, tile_lt (row p)⟩) = 1#1 := cond1_of_nat _ hlt
  have he : (Scalar.maxsi (word m hO ⟨(row p).val / 512, tile_lt (row p)⟩) 0#32).toNat = key (A1 c) p :=
    (maxsi_of_nat _ hlt).trans (by rw [hw, hkey])
  have he8 : (Scalar.maxsi (word m hO ⟨(row p).val / 512, tile_lt (row p)⟩) 0#32).toNat < 8 := by rw [he]; exact hk.key_lt p
  have hE : (⟨_, he8⟩ : Fin 8) = keyF (A1 c) hk p := Fin.ext he
  -- the tile's rows start at 512 · (row p / 512): place row p % 512 is row p
  have hR : (⟨512 * ((row p).val / 512) + (row p).val % 512, join_lt _ _ (tile_lt (row p)) (inner_lt (row p))⟩ : Fin 69632) = row p :=
    Fin.ext (Nat.div_add_mod _ 512)
  refine (final_out m hO c (row p) q).trans ?_
  show outAt m hO c ⟨(row p).val / 512, tile_lt (row p)⟩ (ix2 ⟨(row p).val % 512, inner_lt (row p)⟩ q) = _
  unfold outAt
  rw [if_pos hcond]
  refine (pay1_apply _ _ _ _ _ _ ⟨(row p).val % 512, inner_lt (row p)⟩ q).trans ?_
  unfold expertOut ffn
  refine congrArg₂ (· * ·) (congrArg₂ (· + ·) (Finset.sum_congr rfl fun k _ => congrArg₂ (· * ·) (congrArg (fun z => max z 0)
    (congrArg₂ (· + ·) (Finset.sum_congr rfl fun j _ => congrArg₂ (· * ·) ?_ ?_) ?_)) ?_) ?_) ?_
  · -- the token row
    refine (iblk0_apply m hO c _ _ j).trans ?_
    rw [V_xPadded]
    refine Eq.trans (congrArg (fun r : Fin 69632 => xPadded (F := Ideal) (A1 c) (A0 c) (ix2 r j)) hR) ?_
    exact xPadded_row (A1 c) (A0 c) row hrow p j
  · -- the first matrix
    refine (iblk1_apply m hO c _ (j := j) (k := k) (he := he8)).trans ?_
    rw [V_w1]
    exact Eq.trans (congrArg (fun e : Fin 8 => w1 (F := Ideal) (A2 c) (ix3 e j k)) hE) (w1_apply (A2 c) _ j k)
  · -- the first bias
    refine (iblk2_apply m hO c _ (k := k) (he := he8)).trans ?_
    rw [V_b1r]
    exact Eq.trans (congrArg (fun e : Fin 8 => b1r (F := Ideal) (A3 c) (ix3 e 0 k)) hE) (b1r_apply (A3 c) _ k)
  · -- the second matrix
    refine (iblk3_apply m hO c _ (k := k) (q := q) (he := he8)).trans ?_
    rw [V_w2]
    exact Eq.trans (congrArg (fun e : Fin 8 => w2 (F := Ideal) (A4 c) (ix3 e k q)) hE) (w2_apply (A4 c) _ k q)
  · -- the second bias
    refine (iblk4_apply m hO c _ (q := q) (he := he8)).trans ?_
    rw [V_b2r]
    exact Eq.trans (congrArg (fun e : Fin 8 => b2r (F := Ideal) (A5 c) (ix3 e 0 q)) hE) (b2r_apply (A5 c) _ q)
  · -- the row's weight
    refine (iblk5_apply m hO c _ _).trans ?_
    rw [V_weight]
    refine Eq.trans (congrArg (fun r : Fin 69632 => weight (F := Ideal) (A1 c) (ix2 r 0)) hR) ?_
    exact weight_row (A1 c) row hrow p

/-! ## The result at a token -/

/-- The kernel program's result at token 4096 b + s and column q: the feed-forward blocks of the token's two experts
    on the token's row, each times one times one half, added. -/
theorem kernel_value (hO : Ok m) (c : Dev nD) (hk : KeyFacts (A1 c)) (row : Fin 65536 → Fin 69632) (hrow : RowFacts (A1 c) row)
    (b : Fin 8) (s : Fin 4096) (q : Fin 512) :
    Pipeline.afterTail pcfgs (fun _ => adm m hO) (dats m hO) 0 (V₀ m) postOps c main_v145 (ix3 b s q)
      = expertOut (A2 c) (A3 c) (A4 c) (A5 c) (keyF (A1 c) hk ⟨2 * (4096 * b.val + s.val), pair0_lt b s⟩)
            (tokenRow (A0 c) ⟨4096 * b.val + s.val, token_lt b s⟩) q * (1 * Ideal.ofBits .f32 0x3F000000#32)
        + expertOut (A2 c) (A3 c) (A4 c) (A5 c) (keyF (A1 c) hk ⟨2 * (4096 * b.val + s.val) + 1, pair1_lt b s⟩)
            (tokenRow (A0 c) ⟨4096 * b.val + s.val, token_lt b s⟩) q * (1 * Ideal.ofBits .f32 0x3F000000#32) := by
  refine (congrFun (tail_result m hO c) (ix3 b s q)).trans ?_
  refine (result_apply (A1 c) _ row hrow.pos_eq b s q).trans ?_
  -- both pairs of token t are pairs of token t: (2t) / 2 = t and (2t + 1) / 2 = t
  have h0 : (⟨2 * (4096 * b.val + s.val) / 2, half_lt ⟨2 * (4096 * b.val + s.val), pair0_lt b s⟩⟩ : Fin 32768)
      = ⟨4096 * b.val + s.val, token_lt b s⟩ :=
    Fin.ext (by show 2 * (4096 * b.val + s.val) / 2 = 4096 * b.val + s.val; omega)
  have h1 : (⟨(2 * (4096 * b.val + s.val) + 1) / 2, half_lt ⟨2 * (4096 * b.val + s.val) + 1, pair1_lt b s⟩⟩ : Fin 32768)
      = ⟨4096 * b.val + s.val, token_lt b s⟩ :=
    Fin.ext (by show (2 * (4096 * b.val + s.val) + 1) / 2 = 4096 * b.val + s.val; omega)
  refine congrArg₂ (· + ·) ?_ ?_
  · refine (row_value m hO c hk row hrow ⟨2 * (4096 * b.val + s.val), pair0_lt b s⟩ q).trans ?_
    exact congrArg (fun t : Fin 32768 => expertOut (A2 c) (A3 c) (A4 c) (A5 c) (keyF (A1 c) hk ⟨2 * (4096 * b.val + s.val), pair0_lt b s⟩)
      (tokenRow (A0 c) t) q * (1 * Ideal.ofBits .f32 0x3F000000#32)) h0
  · refine (row_value m hO c hk row hrow ⟨2 * (4096 * b.val + s.val) + 1, pair1_lt b s⟩ q).trans ?_
    exact congrArg (fun t : Fin 32768 => expertOut (A2 c) (A3 c) (A4 c) (A5 c) (keyF (A1 c) hk ⟨2 * (4096 * b.val + s.val) + 1, pair1_lt b s⟩)
      (tokenRow (A0 c) t) q * (1 * Ideal.ofBits .f32 0x3F000000#32)) h1

end Cert.KernelIdeal.ValueIdeal

end
-- ==== Proof.RefRun.lean ====
/- The reference program's run.

   @main is a straight line of 269 tensor operations: the input and the index pairs reshaped to rows, a zero
   accumulator, and then eight times the same 33 operations, one round per slice `e` of the weights: the count of a
   row's index pairs equal to `e`, halved; the row times the slice's first matrix plus its bias, the larger of that and
   zero, times the second matrix plus its bias; that scaled by the halved count and added to the accumulator. The last
   operation reshapes the accumulator back.

   The line is cut where the printed program cuts it, into five windows. For each window, the buffers that later
   windows read are shown to hold, after the window, the stage values of the read-at-an-index module (`ReadP.val_…`, each
   a function of the arguments), given that the buffers the window reads from earlier windows hold theirs; the
   arguments' buffers are never written. No term is then larger than one window's composition. The five statements
   chain to the whole line, and `run_seq` carries that to every weakly fair execution. -/
import proofs.«423054_j31275951850054_3_alg».proof.Proof.RefReadP
import proofs.«423054_j31275951850054_3_alg».proof.Proof.Gen.ReferenceIdeal
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window

A called function's operations stand in its call's place, over the call's own buffers. -/

/-- @main's operations 1 … 64 (window `main_part0`): the reshapes, the zero accumulator, round 0, and round 1 up to its second bias row. -/
abbrev ops_part0 : List (HloOp τ sig (Elt F)) :=
  [ reshape main_arg0 main_v0 rfl shapeCasts_S8x4096x512_S32768x512,
    reshape main_arg1 main_v1 rfl shapeCasts_S8x4096x2_S32768x2,
    nullary main_cst (constant S_ .f32 0x00000000#32),
    unary main_cst main_v2 (broadcastInDim S32768x512 ![] bcast_S_S32768x512 : (⟨S_, .f32⟩ : BufTy).Contents (Elt F) → (⟨S32768x512, .f32⟩ : BufTy).Contents (Elt F)),
    nullary main_c (constantI S_ 32 0#32),
    unary main_c main_v3 (broadcastInDim S32768x2 ![] bcast_S_S32768x2 : (⟨S_, .i32⟩ : BufTy).Contents (Elt F) → (⟨S32768x2, .i32⟩ : BufTy).Contents (Elt F)),
    binary main_v1 main_v3 main_v4 (cmpi .eq : (⟨S32768x2, .i32⟩ : BufTy).Contents (Elt F) → (⟨S32768x2, .i32⟩ : BufTy).Contents (Elt F) → (⟨S32768x2, .i1⟩ : BufTy).Contents (Elt F)),
    unary main_v4 main_v5 ((extui 32 · natLt_1_32) : (⟨S32768x2, .i1⟩ : BufTy).Contents (Elt F) → (⟨S32768x2, .i32⟩ : BufTy).Contents (Elt F)),
    nullary main_c_0 (constantI S_ 32 0#32),
    binary main_v5 main_c_0 main_v6 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v6 main_v7 (sitofp .f32 : (⟨S32768, .i32⟩ : BufTy).Contents (Elt F) → (⟨S32768, .f32⟩ : BufTy).Contents (Elt F)),
    nullary main_cst_1 (constant S_ .f32 0x3F000000#32),
    unary main_cst_1 main_v8 (broadcastInDim S32768 ![] bcast_S_S32768 : (⟨S_, .f32⟩ : BufTy).Contents (Elt F) → (⟨S32768, .f32⟩ : BufTy).Contents (Elt F)),
    binary main_v7 main_v8 main_v9 (mulf : (⟨S32768, .f32⟩ : BufTy).Contents (Elt F) → (⟨S32768, .f32⟩ : BufTy).Contents (Elt F) → (⟨S32768, .f32⟩ : BufTy).Contents (Elt F)),
    unary main_arg2 main_v10 ((extractStridedSlice S1x512x2048 ![0, 0, 0] · slices_S8x512x2048_S1x512x2048_0_0_0) : (⟨S8x512x2048, .f32⟩ : BufTy).Contents (Elt F) → (⟨S1x512x2048, .f32⟩ : BufTy).Contents (Elt F)),
    reshape main_v10 main_v11 rfl shapeCasts_S1x512x2048_S512x2048,
    binary main_v0 main_v11 main_v12 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v13 ((extractStridedSlice S1x2048 ![0, 0] · slices_S8x2048_S1x2048_0_0) : (⟨S8x2048, .f32⟩ : BufTy).Contents (Elt F) → (⟨S1x2048, .f32⟩ : BufTy).Contents (Elt F)),
    reshape main_v13 main_v14 rfl shapeCasts_S1x2048_S2048,
    unary main_v14 main_v15 (broadcastInDim S1x2048 ![1] bcast_S2048_S1x2048_1 : (⟨S2048, .f32⟩ : BufTy).Contents (Elt F) → (⟨S1x2048, .f32⟩ : BufTy).Contents (Elt F)),
    unary main_v15 main_v16 (broadcastInDim S32768x2048 ![0, 1] bcast_S1x2048_S32768x2048_0_1 : (⟨S1x2048, .f32⟩ : BufTy).Contents (Elt F) → (⟨S32768x2048, .f32⟩ : BufTy).Contents (Elt F)),
    binary main_v12 main_v16 main_v17 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x2048, .f32⟩) main_call0_v0) (broadcastInDim S32768x2048 ![] bcast_S_S32768x2048),
    TRef.binary (TRef.of (T := ⟨S32768x2048, .f32⟩) main_v17) (TRef.of (T := ⟨S32768x2048, .f32⟩) main_call0_v0) (TRef.of (T := ⟨S32768x2048, .f32⟩) main_v18) maximumf,
    unary main_arg4 main_v19 ((extractStridedSlice S1x2048x512 ![0, 0, 0] · slices_S8x2048x512_S1x2048x512_0_0_0) : (⟨S8x2048x512, .f32⟩ : BufTy).Contents (Elt F) → (⟨S1x2048x512, .f32⟩ : BufTy).Contents (Elt F)),
    reshape main_v19 main_v20 rfl shapeCasts_S1x2048x512_S2048x512,
    binary main_v18 main_v20 main_v21 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v22 ((extractStridedSlice S1x512 ![0, 0] · slices_S8x512_S1x512_0_0) : (⟨S8x512, .f32⟩ : BufTy).Contents (Elt F) → (⟨S1x512, .f32⟩ : BufTy).Contents (Elt F)),
    reshape main_v22 main_v23 rfl shapeCasts_S1x512_S512,
    unary main_v23 main_v24 (broadcastInDim S1x512 ![1] bcast_S512_S1x512_1 : (⟨S512, .f32⟩ : BufTy).Contents (Elt F) → (⟨S1x512, .f32⟩ : BufTy).Contents (Elt F)),
    unary main_v24 main_v25 (broadcastInDim S32768x512 ![0, 1] bcast_S1x512_S32768x512_0_1 : (⟨S1x512, .f32⟩ : BufTy).Contents (Elt F) → (⟨S32768x512, .f32⟩ : BufTy).Contents (Elt F)),
    binary main_v21 main_v25 main_v26 (addf : (⟨S32768x512, .f32⟩ : BufTy).Contents (Elt F) → (⟨S32768x512, .f32⟩ : BufTy).Contents (Elt F) → (⟨S32768x512, .f32⟩ : BufTy).Contents (Elt F)),
    unary main_v9 main_v27 (broadcastInDim S32768x1 ![0] bcast_S32768_S32768x1_0 : (⟨S32768, .f32⟩ : BufTy).Contents (Elt F) → (⟨S32768x1, .f32⟩ : BufTy).Contents (Elt F)),
    unary main_v27 main_v28 (broadcastInDim S32768x512 ![0, 1] bcast_S32768x1_S32768x512_0_1 : (⟨S32768x1, .f32⟩ : BufTy).Contents (Elt F) → (⟨S32768x512, .f32⟩ : BufTy).Contents (Elt F)),
    binary main_v26 main_v28 main_v29 (mulf : (⟨S32768x512, .f32⟩ : BufTy).Contents (Elt F) → (⟨S32768x512, .f32⟩ : BufTy).Contents (Elt F) → (⟨S32768x512, .f32⟩ : BufTy).Contents (Elt F)),
    binary main_v2 main_v29 main_v30 (addf : (⟨S32768x512, .f32⟩ : BufTy).Contents (Elt F) → (⟨S32768x512, .f32⟩ : BufTy).Contents (Elt F) → (⟨S32768x512, .f32⟩ : BufTy).Contents (Elt F)),
    nullary main_c_2 (constantI S_ 32 1#32),
    unary main_c_2 main_v31 (broadcastInDim S32768x2 ![] bcast_S_S32768x2 : (⟨S_, .i32⟩ : BufTy).Contents (Elt F) → (⟨S32768x2, .i32⟩ : BufTy).Contents (Elt F)),
    binary main_v1 main_v31 main_v32 (cmpi .eq : (⟨S32768x2, .i32⟩ : BufTy).Contents (Elt F) → (⟨S32768x2, .i32⟩ : BufTy).Contents (Elt F) → (⟨S32768x2, .i1⟩ : BufTy).Contents (Elt F)),
    unary main_v32 main_v33 ((extui 32 · natLt_1_32) : (⟨S32768x2, .i1⟩ : BufTy).Contents (Elt F) → (⟨S32768x2, .i32⟩ : BufTy).Contents (Elt F)),
    nullary main_c_3 (constantI S_ 32 0#32),
    binary main_v33 main_c_3 main_v34 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v34 main_v35 (sitofp .f32 : (⟨S32768, .i32⟩ : BufTy).Contents (Elt F) → (⟨S32768, .f32⟩ : BufTy).Contents (Elt F)),
    nullary main_cst_4 (constant S_ .f32 0x3F000000#32),
    unary main_cst_4 main_v36 (broadcastInDim S32768 ![] bcast_S_S32768 : (⟨S_, .f32⟩ : BufTy).Contents (Elt F) → (⟨S32768, .f32⟩ : BufTy).Contents (Elt F)),
    binary main_v35 main_v36 main_v37 (mulf : (⟨S32768, .f32⟩ : BufTy).Contents (Elt F) → (⟨S32768, .f32⟩ : BufTy).Contents (Elt F) → (⟨S32768, .f32⟩ : BufTy).Contents (Elt F)),
    unary main_arg2 main_v38 ((extractStridedSlice S1x512x2048 ![1, 0, 0] · slices_S8x512x2048_S1x512x2048_1_0_0) : (⟨S8x512x2048, .f32⟩ : BufTy).Contents (Elt F) → (⟨S1x512x2048, .f32⟩ : BufTy).Contents (Elt F)),
    reshape main_v38 main_v39 rfl shapeCasts_S1x512x2048_S512x2048,
    binary main_v0 main_v39 main_v40 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v41 ((extractStridedSlice S1x2048 ![1, 0] · slices_S8x2048_S1x2048_1_0) : (⟨S8x2048, .f32⟩ : BufTy).Contents (Elt F) → (⟨S1x2048, .f32⟩ : BufTy).Contents (Elt F)),
    reshape main_v41 main_v42 rfl shapeCasts_S1x2048_S2048,
    unary main_v42 main_v43 (broadcastInDim S1x2048 ![1] bcast_S2048_S1x2048_1 : (⟨S2048, .f32⟩ : BufTy).Contents (Elt F) → (⟨S1x2048, .f32⟩ : BufTy).Contents (Elt F)),
    unary main_v43 main_v44 (broadcastInDim S32768x2048 ![0, 1] bcast_S1x2048_S32768x2048_0_1 : (⟨S1x2048, .f32⟩ : BufTy).Contents (Elt F) → (⟨S32768x2048, .f32⟩ : BufTy).Contents (Elt F)),
    binary main_v40 main_v44 main_v45 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x2048, .f32⟩) main_call1_v0) (broadcastInDim S32768x2048 ![] bcast_S_S32768x2048),
    TRef.binary (TRef.of (T := ⟨S32768x2048, .f32⟩) main_v45) (TRef.of (T := ⟨S32768x2048, .f32⟩) main_call1_v0) (TRef.of (T := ⟨S32768x2048, .f32⟩) main_v46) maximumf,
    unary main_arg4 main_v47 ((extractStridedSlice S1x2048x512 ![1, 0, 0] · slices_S8x2048x512_S1x2048x512_1_0_0) : (⟨S8x2048x512, .f32⟩ : BufTy).Contents (Elt F) → (⟨S1x2048x512, .f32⟩ : BufTy).Contents (Elt F)),
    reshape main_v47 main_v48 rfl shapeCasts_S1x2048x512_S2048x512,
    binary main_v46 main_v48 main_v49 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v50 ((extractStridedSlice S1x512 ![1, 0] · slices_S8x512_S1x512_1_0) : (⟨S8x512, .f32⟩ : BufTy).Contents (Elt F) → (⟨S1x512, .f32⟩ : BufTy).Contents (Elt F)),
    reshape main_v50 main_v51 rfl shapeCasts_S1x512_S512,
    unary main_v51 main_v52 (broadcastInDim S1x512 ![1] bcast_S512_S1x512_1 : (⟨S512, .f32⟩ : BufTy).Contents (Elt F) → (⟨S1x512, .f32⟩ : BufTy).Contents (Elt F)) ]

/-- @main's operations 65 … 128 (window `main_part1`): the rest of round 1, round 2, and round 3 up to its second bias slice. -/
abbrev ops_part1 : List (HloOp τ sig (Elt F)) :=
  [ unary main_v52 main_v53 (broadcastInDim S32768x512 ![0, 1] bcast_S1x512_S32768x512_0_1 : (⟨S1x512, .f32⟩ : BufTy).Contents (Elt F) → (⟨S32768x512, .f32⟩ : BufTy).Contents (Elt F)),
    binary main_v49 main_v53 main_v54 (addf : (⟨S32768x512, .f32⟩ : BufTy).Contents (Elt F) → (⟨S32768x512, .f32⟩ : BufTy).Contents (Elt F) → (⟨S32768x512, .f32⟩ : BufTy).Contents (Elt F)),
    unary main_v37 main_v55 (broadcastInDim S32768x1 ![0] bcast_S32768_S32768x1_0 : (⟨S32768, .f32⟩ : BufTy).Contents (Elt F) → (⟨S32768x1, .f32⟩ : BufTy).Contents (Elt F)),
    unary main_v55 main_v56 (broadcastInDim S32768x512 ![0, 1] bcast_S32768x1_S32768x512_0_1 : (⟨S32768x1, .f32⟩ : BufTy).Contents (Elt F) → (⟨S32768x512, .f32⟩ : BufTy).Contents (Elt F)),
    binary main_v54 main_v56 main_v57 (mulf : (⟨S32768x512, .f32⟩ : BufTy).Contents (Elt F) → (⟨S32768x512, .f32⟩ : BufTy).Contents (Elt F) → (⟨S32768x512, .f32⟩ : BufTy).Contents (Elt F)),
    binary main_v30 main_v57 main_v58 (addf : (⟨S32768x512, .f32⟩ : BufTy).Contents (Elt F) → (⟨S32768x512, .f32⟩ : BufTy).Contents (Elt F) → (⟨S32768x512, .f32⟩ : BufTy).Contents (Elt F)),
    nullary main_c_5 (constantI S_ 32 2#32),
    unary main_c_5 main_v59 (broadcastInDim S32768x2 ![] bcast_S_S32768x2 : (⟨S_, .i32⟩ : BufTy).Contents (Elt F) → (⟨S32768x2, .i32⟩ : BufTy).Contents (Elt F)),
    binary main_v1 main_v59 main_v60 (cmpi .eq : (⟨S32768x2, .i32⟩ : BufTy).Contents (Elt F) → (⟨S32768x2, .i32⟩ : BufTy).Contents (Elt F) → (⟨S32768x2, .i1⟩ : BufTy).Contents (Elt F)),
    unary main_v60 main_v61 ((extui 32 · natLt_1_32) : (⟨S32768x2, .i1⟩ : BufTy).Contents (Elt F) → (⟨S32768x2, .i32⟩ : BufTy).Contents (Elt F)),
    nullary main_c_6 (constantI S_ 32 0#32),
    binary main_v61 main_c_6 main_v62 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v62 main_v63 (sitofp .f32 : (⟨S32768, .i32⟩ : BufTy).Contents (Elt F) → (⟨S32768, .f32⟩ : BufTy).Contents (Elt F)),
    nullary main_cst_7 (constant S_ .f32 0x3F000000#32),
    unary main_cst_7 main_v64 (broadcastInDim S32768 ![] bcast_S_S32768 : (⟨S_, .f32⟩ : BufTy).Contents (Elt F) → (⟨S32768, .f32⟩ : BufTy).Contents (Elt F)),
    binary main_v63 main_v64 main_v65 (mulf : (⟨S32768, .f32⟩ : BufTy).Contents (Elt F) → (⟨S32768, .f32⟩ : BufTy).Contents (Elt F) → (⟨S32768, .f32⟩ : BufTy).Contents (Elt F)),
    unary main_arg2 main_v66 ((extractStridedSlice S1x512x2048 ![2, 0, 0] · slices_S8x512x2048_S1x512x2048_2_0_0) : (⟨S8x512x2048, .f32⟩ : BufTy).Contents (Elt F) → (⟨S1x512x2048, .f32⟩ : BufTy).Contents (Elt F)),
    reshape main_v66 main_v67 rfl shapeCasts_S1x512x2048_S512x2048,
    binary main_v0 main_v67 main_v68 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v69 ((extractStridedSlice S1x2048 ![2, 0] · slices_S8x2048_S1x2048_2_0) : (⟨S8x2048, .f32⟩ : BufTy).Contents (Elt F) → (⟨S1x2048, .f32⟩ : BufTy).Contents (Elt F)),
    reshape main_v69 main_v70 rfl shapeCasts_S1x2048_S2048,
    unary main_v70 main_v71 (broadcastInDim S1x2048 ![1] bcast_S2048_S1x2048_1 : (⟨S2048, .f32⟩ : BufTy).Contents (Elt F) → (⟨S1x2048, .f32⟩ : BufTy).Contents (Elt F)),
    unary main_v71 main_v72 (broadcastInDim S32768x2048 ![0, 1] bcast_S1x2048_S32768x2048_0_1 : (⟨S1x2048, .f32⟩ : BufTy).Contents (Elt F) → (⟨S32768x2048, .f32⟩ : BufTy).Contents (Elt F)),
    binary main_v68 main_v72 main_v73 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x2048, .f32⟩) main_call2_v0) (broadcastInDim S32768x2048 ![] bcast_S_S32768x2048),
    TRef.binary (TRef.of (T := ⟨S32768x2048, .f32⟩) main_v73) (TRef.of (T := ⟨S32768x2048, .f32⟩) main_call2_v0) (TRef.of (T := ⟨S32768x2048, .f32⟩) main_v74) maximumf,
    unary main_arg4 main_v75 ((extractStridedSlice S1x2048x512 ![2, 0, 0] · slices_S8x2048x512_S1x2048x512_2_0_0) : (⟨S8x2048x512, .f32⟩ : BufTy).Contents (Elt F) → (⟨S1x2048x512, .f32⟩ : BufTy).Contents (Elt F)),
    reshape main_v75 main_v76 rfl shapeCasts_S1x2048x512_S2048x512,
    binary main_v74 main_v76 main_v77 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v78 ((extractStridedSlice S1x512 ![2, 0] · slices_S8x512_S1x512_2_0) : (⟨S8x512, .f32⟩ : BufTy).Contents (Elt F) → (⟨S1x512, .f32⟩ : BufTy).Contents (Elt F)),
    reshape main_v78 main_v79 rfl shapeCasts_S1x512_S512,
    unary main_v79 main_v80 (broadcastInDim S1x512 ![1] bcast_S512_S1x512_1 : (⟨S512, .f32⟩ : BufTy).Contents (Elt F) → (⟨S1x512, .f32⟩ : BufTy).Contents (Elt F)),
    unary main_v80 main_v81 (broadcastInDim S32768x512 ![0, 1] bcast_S1x512_S32768x512_0_1 : (⟨S1x512, .f32⟩ : BufTy).Contents (Elt F) → (⟨S32768x512, .f32⟩ : BufTy).Contents (Elt F)),
    binary main_v77 main_v81 main_v82 (addf : (⟨S32768x512, .f32⟩ : BufTy).Contents (Elt F) → (⟨S32768x512, .f32⟩ : BufTy).Contents (Elt F) → (⟨S32768x512, .f32⟩ : BufTy).Contents (Elt F)),
    unary main_v65 main_v83 (broadcastInDim S32768x1 ![0] bcast_S32768_S32768x1_0 : (⟨S32768, .f32⟩ : BufTy).Contents (Elt F) → (⟨S32768x1, .f32⟩ : BufTy).Contents (Elt F)),
    unary main_v83 main_v84 (broadcastInDim S32768x512 ![0, 1] bcast_S32768x1_S32768x512_0_1 : (⟨S32768x1, .f32⟩ : BufTy).Contents (Elt F) → (⟨S32768x512, .f32⟩ : BufTy).Contents (Elt F)),
    binary main_v82 main_v84 main_v85 (mulf : (⟨S32768x512, .f32⟩ : BufTy).Contents (Elt F) → (⟨S32768x512, .f32⟩ : BufTy).Contents (Elt F) → (⟨S32768x512, .f32⟩ : BufTy).Contents (Elt F)),
    binary main_v58 main_v85 main_v86 (addf : (⟨S32768x512, .f32⟩ : BufTy).Contents (Elt F) → (⟨S32768x512, .f32⟩ : BufTy).Contents (Elt F) → (⟨S32768x512, .f32⟩ : BufTy).Contents (Elt F)),
    nullary main_c_8 (constantI S_ 32 3#32),
    unary main_c_8 main_v87 (broadcastInDim S32768x2 ![] bcast_S_S32768x2 : (⟨S_, .i32⟩ : BufTy).Contents (Elt F) → (⟨S32768x2, .i32⟩ : BufTy).Contents (Elt F)),
    binary main_v1 main_v87 main_v88 (cmpi .eq : (⟨S32768x2, .i32⟩ : BufTy).Contents (Elt F) → (⟨S32768x2, .i32⟩ : BufTy).Contents (Elt F) → (⟨S32768x2, .i1⟩ : BufTy).Contents (Elt F)),
    unary main_v88 main_v89 ((extui 32 · natLt_1_32) : (⟨S32768x2, .i1⟩ : BufTy).Contents (Elt F) → (⟨S32768x2, .i32⟩ : BufTy).Contents (Elt F)),
    nullary main_c_9 (constantI S_ 32 0#32),
    binary main_v89 main_c_9 main_v90 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v90 main_v91 (sitofp .f32 : (⟨S32768, .i32⟩ : BufTy).Contents (Elt F) → (⟨S32768, .f32⟩ : BufTy).Contents (Elt F)),
    nullary main_cst_10 (constant S_ .f32 0x3F000000#32),
    unary main_cst_10 main_v92 (broadcastInDim S32768 ![] bcast_S_S32768 : (⟨S_, .f32⟩ : BufTy).Contents (Elt F) → (⟨S32768, .f32⟩ : BufTy).Contents (Elt F)),
    binary main_v91 main_v92 main_v93 (mulf : (⟨S32768, .f32⟩ : BufTy).Contents (Elt F) → (⟨S32768, .f32⟩ : BufTy).Contents (Elt F) → (⟨S32768, .f32⟩ : BufTy).Contents (Elt F)),
    unary main_arg2 main_v94 ((extractStridedSlice S1x512x2048 ![3, 0, 0] · slices_S8x512x2048_S1x512x2048_3_0_0) : (⟨S8x512x2048, .f32⟩ : BufTy).Contents (Elt F) → (⟨S1x512x2048, .f32⟩ : BufTy).Contents (Elt F)),
    reshape main_v94 main_v95 rfl shapeCasts_S1x512x2048_S512x2048,
    binary main_v0 main_v95 main_v96 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v97 ((extractStridedSlice S1x2048 ![3, 0] · slices_S8x2048_S1x2048_3_0) : (⟨S8x2048, .f32⟩ : BufTy).Contents (Elt F) → (⟨S1x2048, .f32⟩ : BufTy).Contents (Elt F)),
    reshape main_v97 main_v98 rfl shapeCasts_S1x2048_S2048,
    unary main_v98 main_v99 (broadcastInDim S1x2048 ![1] bcast_S2048_S1x2048_1 : (⟨S2048, .f32⟩ : BufTy).Contents (Elt F) → (⟨S1x2048, .f32⟩ : BufTy).Contents (Elt F)),
    unary main_v99 main_v100 (broadcastInDim S32768x2048 ![0, 1] bcast_S1x2048_S32768x2048_0_1 : (⟨S1x2048, .f32⟩ : BufTy).Contents (Elt F) → (⟨S32768x2048, .f32⟩ : BufTy).Contents (Elt F)),
    binary main_v96 main_v100 main_v101 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x2048, .f32⟩) main_call3_v0) (broadcastInDim S32768x2048 ![] bcast_S_S32768x2048),
    TRef.binary (TRef.of (T := ⟨S32768x2048, .f32⟩) main_v101) (TRef.of (T := ⟨S32768x2048, .f32⟩) main_call3_v0) (TRef.of (T := ⟨S32768x2048, .f32⟩) main_v102) maximumf,
    unary main_arg4 main_v103 ((extractStridedSlice S1x2048x512 ![3, 0, 0] · slices_S8x2048x512_S1x2048x512_3_0_0) : (⟨S8x2048x512, .f32⟩ : BufTy).Contents (Elt F) → (⟨S1x2048x512, .f32⟩ : BufTy).Contents (Elt F)),
    reshape main_v103 main_v104 rfl shapeCasts_S1x2048x512_S2048x512,
    binary main_v102 main_v104 main_v105 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v106 ((extractStridedSlice S1x512 ![3, 0] · slices_S8x512_S1x512_3_0) : (⟨S8x512, .f32⟩ : BufTy).Contents (Elt F) → (⟨S1x512, .f32⟩ : BufTy).Contents (Elt F)) ]

/-- @main's operations 129 … 192 (window `main_part2`): the rest of round 3, round 4, and round 5 up to its second matrix. -/
abbrev ops_part2 : List (HloOp τ sig (Elt F)) :=
  [ reshape main_v106 main_v107 rfl shapeCasts_S1x512_S512,
    unary main_v107 main_v108 (broadcastInDim S1x512 ![1] bcast_S512_S1x512_1 : (⟨S512, .f32⟩ : BufTy).Contents (Elt F) → (⟨S1x512, .f32⟩ : BufTy).Contents (Elt F)),
    unary main_v108 main_v109 (broadcastInDim S32768x512 ![0, 1] bcast_S1x512_S32768x512_0_1 : (⟨S1x512, .f32⟩ : BufTy).Contents (Elt F) → (⟨S32768x512, .f32⟩ : BufTy).Contents (Elt F)),
    binary main_v105 main_v109 main_v110 (addf : (⟨S32768x512, .f32⟩ : BufTy).Contents (Elt F) → (⟨S32768x512, .f32⟩ : BufTy).Contents (Elt F) → (⟨S32768x512, .f32⟩ : BufTy).Contents (Elt F)),
    unary main_v93 main_v111 (broadcastInDim S32768x1 ![0] bcast_S32768_S32768x1_0 : (⟨S32768, .f32⟩ : BufTy).Contents (Elt F) → (⟨S32768x1, .f32⟩ : BufTy).Contents (Elt F)),
    unary main_v111 main_v112 (broadcastInDim S32768x512 ![0, 1] bcast_S32768x1_S32768x512_0_1 : (⟨S32768x1, .f32⟩ : BufTy).Contents (Elt F) → (⟨S32768x512, .f32⟩ : BufTy).Contents (Elt F)),
    binary main_v110 main_v112 main_v113 (mulf : (⟨S32768x512, .f32⟩ : BufTy).Contents (Elt F) → (⟨S32768x512, .f32⟩ : BufTy).Contents (Elt F) → (⟨S32768x512, .f32⟩ : BufTy).Contents (Elt F)),
    binary main_v86 main_v113 main_v114 (addf : (⟨S32768x512, .f32⟩ : BufTy).Contents (Elt F) → (⟨S32768x512, .f32⟩ : BufTy).Contents (Elt F) → (⟨S32768x512, .f32⟩ : BufTy).Contents (Elt F)),
    nullary main_c_11 (constantI S_ 32 4#32),
    unary main_c_11 main_v115 (broadcastInDim S32768x2 ![] bcast_S_S32768x2 : (⟨S_, .i32⟩ : BufTy).Contents (Elt F) → (⟨S32768x2, .i32⟩ : BufTy).Contents (Elt F)),
    binary main_v1 main_v115 main_v116 (cmpi .eq : (⟨S32768x2, .i32⟩ : BufTy).Contents (Elt F) → (⟨S32768x2, .i32⟩ : BufTy).Contents (Elt F) → (⟨S32768x2, .i1⟩ : BufTy).Contents (Elt F)),
    unary main_v116 main_v117 ((extui 32 · natLt_1_32) : (⟨S32768x2, .i1⟩ : BufTy).Contents (Elt F) → (⟨S32768x2, .i32⟩ : BufTy).Contents (Elt F)),
    nullary main_c_12 (constantI S_ 32 0#32),
    binary main_v117 main_c_12 main_v118 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v118 main_v119 (sitofp .f32 : (⟨S32768, .i32⟩ : BufTy).Contents (Elt F) → (⟨S32768, .f32⟩ : BufTy).Contents (Elt F)),
    nullary main_cst_13 (constant S_ .f32 0x3F000000#32),
    unary main_cst_13 main_v120 (broadcastInDim S32768 ![] bcast_S_S32768 : (⟨S_, .f32⟩ : BufTy).Contents (Elt F) → (⟨S32768, .f32⟩ : BufTy).Contents (Elt F)),
    binary main_v119 main_v120 main_v121 (mulf : (⟨S32768, .f32⟩ : BufTy).Contents (Elt F) → (⟨S32768, .f32⟩ : BufTy).Contents (Elt F) → (⟨S32768, .f32⟩ : BufTy).Contents (Elt F)),
    unary main_arg2 main_v122 ((extractStridedSlice S1x512x2048 ![4, 0, 0] · slices_S8x512x2048_S1x512x2048_4_0_0) : (⟨S8x512x2048, .f32⟩ : BufTy).Contents (Elt F) → (⟨S1x512x2048, .f32⟩ : BufTy).Contents (Elt F)),
    reshape main_v122 main_v123 rfl shapeCasts_S1x512x2048_S512x2048,
    binary main_v0 main_v123 main_v124 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v125 ((extractStridedSlice S1x2048 ![4, 0] · slices_S8x2048_S1x2048_4_0) : (⟨S8x2048, .f32⟩ : BufTy).Contents (Elt F) → (⟨S1x2048, .f32⟩ : BufTy).Contents (Elt F)),
    reshape main_v125 main_v126 rfl shapeCasts_S1x2048_S2048,
    unary main_v126 main_v127 (broadcastInDim S1x2048 ![1] bcast_S2048_S1x2048_1 : (⟨S2048, .f32⟩ : BufTy).Contents (Elt F) → (⟨S1x2048, .f32⟩ : BufTy).Contents (Elt F)),
    unary main_v127 main_v128 (broadcastInDim S32768x2048 ![0, 1] bcast_S1x2048_S32768x2048_0_1 : (⟨S1x2048, .f32⟩ : BufTy).Contents (Elt F) → (⟨S32768x2048, .f32⟩ : BufTy).Contents (Elt F)),
    binary main_v124 main_v128 main_v129 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32768x2048, .f32⟩) main_call4_v0) (broadcastInDim S32768x2048 ![] bcast_S_S32768x2048),
    TRef.binary (TRef.of (T := ⟨S32768x2048, .f32⟩) main_v129) (TRef.of (T := ⟨S32768x2048, .f32⟩) main_call4_v0) (TRef.of (T := ⟨S32768x2048, .f32⟩) main_v130) maximumf,
    unary main_arg4 main_v131 ((extractStridedSlice S1x2048x512 ![4, 0, 0] · slices_S8x2048x512_S1x2048x512_4_0_0) : (⟨S8x2048x512, .f32⟩ : BufTy).Contents (Elt F) → (⟨S1x2048x512, .f32⟩ : BufTy).Contents (Elt F)),
    reshape main_v131 main_v132 rfl shapeCasts_S1x2048x512_S2048x512,
    binary main_v130 main_v132 main_v133 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v134 ((extractStridedSlice S1x512 ![4, 0] · slices_S8x512_S1x512_4_0) : (⟨S8x512, .f32⟩ : BufTy).Contents (Elt F) → (⟨S1x512, .f32⟩ : BufTy).Contents (Elt F)),
    reshape main_v134 main_v135 rfl shapeCasts_S1x512_S512,
    unary main_v135 main_v136 (broadcastInDim S1x512 ![1] bcast_S512_S1x512_1 : (⟨S512, .f32⟩ : BufTy).Contents (Elt F) → (⟨S1x512, .f32⟩ : BufTy).Contents (Elt F)),
    unary main_v136 main_v137 (broadcastInDim S32768x512 ![0, 1] bcast_S1x512_S32768x512_0_1 : (⟨S1x512, .f32⟩ : BufTy).Contents (Elt F) → (⟨S32768x512, .f32⟩ : BufTy).Contents (Elt F)),
    binary main_v133 main_v137 main_v138 (addf : (⟨S32768x512, .f32⟩ : BufTy).Contents (Elt F) → (⟨S32768x512, .f32⟩ : BufTy).Contents (Elt F) → (⟨S32768x512, .f32⟩ : BufTy).Contents (Elt F)),
    unary main_v121 main_v139 (broadcastInDim S32768x1 ![0] bcast_S32768_S32768x1_0 : (⟨S32768, .f32⟩ : BufTy).Contents (Elt F) → (⟨S32768x1, .f32⟩ : BufTy).Contents (Elt F)),
    unary main_v139 main_v140 (broadcastInDim S32768x512 ![0, 1] bcast_S32768x1_S32768x512_0_1 : (⟨S32768x1, .f32⟩ : BufTy).Contents (Elt F) → (⟨S32768x512, .f32⟩ : BufTy).Contents (Elt F)),
    binary main_v138 main_v140 main_v141 (mulf : (⟨S32768x512, .f32⟩ : BufTy).Contents (Elt F) → (⟨S32768x512, .f32⟩ : BufTy).Contents (Elt F) → (⟨S32768x512, .f32⟩ : BufTy).Contents (Elt F)),
    binary main_v114 main_v141 main_v142 (addf : (⟨S32768x512, .f32⟩ : BufTy).Contents (Elt F) → (⟨S32768x512, .f32⟩ : BufTy).Contents (Elt F) → (⟨S32768x512, .f32⟩ : BufTy).Contents (Elt F)),
    nullary main_c_14 (constantI S_ 32 5#32),
    unary main_c_14 main_v143 (broadcastInDim S32768x2 ![] bcast_S_S32768x2 : (⟨S_, .i32⟩ : BufTy).Contents (Elt F) → (⟨S32768x2, .i32⟩ : BufTy).Contents (Elt F)),
    binary main_v1 main_v143 main_v144 (cmpi .eq : (⟨S32768x2, .i32⟩ : BufTy).Contents (Elt F) → (⟨S32768x2, .i32⟩ : BufTy).Contents (Elt F) → (⟨S32768x2, .i1⟩ : BufTy).Contents (Elt F)),
    unary main_v144 main_v145 ((extui 32 · natLt_1_32) : (⟨S32768x2, .i1⟩ : BufTy).Contents (Elt F) → (⟨S32768x2, .i32⟩ : BufTy).Contents (Elt F)),
    nullary main_c_15 (constantI S_ 32 0#32),
    binary main_v145 main_c_15 main_v146 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v146 main_v147 (sitofp .f32 : (⟨S32768, .i32⟩ : BufTy).Contents (Elt F) → (⟨S32768, .f32⟩ : BufTy).Contents (Elt F)),
    nullary main_cst_16 (constant S_ .f32 0x3F000000#32),
    unary main_cst_16 main_v148 (broadcastInDim S32768 ![] bcast_S_S32768 : (⟨S_, .f32⟩ : BufTy).Contents (Elt F) → (⟨S32768, .f32⟩ : BufTy).Contents (Elt F)),
    binary main_v147 main_v148 main_v149 (mulf : (⟨S32768, .f32⟩ : BufTy).Contents (Elt F) → (⟨S32768, .f32⟩ : BufTy).Contents (Elt F) → (⟨S32768, .f32⟩ : BufTy).Contents (Elt F)),
    unary main_arg2 main_v150 ((extractStridedSlice S1x512x2048 ![5, 0, 0] · slices_S8x512x2048_S1x512x2048_5_0_0) : (⟨S8x512x2048, .f32⟩ : BufTy).Contents (Elt F) → (⟨S1x512x2048, .f32⟩ : BufTy).Contents (Elt F)),
    reshape main_v150 main_v151 rfl shapeCasts_S1x512x2048_S512x2048,
    binary main_v0 main_v151 main_v152 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v153 ((extractStridedSlice S1x2048 ![5, 0] · slices_S8x2048_S1x2048_5_0) : (⟨S8x2048, .f32⟩ : BufTy).Contents (Elt F) → (⟨S1x2048, .f32⟩ : BufTy).Contents (Elt F)),
    reshape main_v153 main_v154 rfl shapeCasts_S1x2048_S2048,
    unary main_v154 main_v155 (broadcastInDim S1x2048 ![1] bcast_S2048_S1x2048_1 : (⟨S2048, .f32⟩ : BufTy).Contents (Elt F) → (⟨S1x2048, .f32⟩ : BufTy).Contents (Elt F)),
    unary main_v155 main_v156 (broadcastInDim S32768x2048 ![0, 1] bcast_S1x2048_S32768x2048_0_1 : (⟨S1x2048, .f32⟩ : BufTy).Contents (Elt F) → (⟨S32768x2048, .f32⟩ : BufTy).Contents (Elt F)),
    binary main_v152 main_v156 main_v157 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32768x2048, .f32⟩) main_call5_v0) (broadcastInDim S32768x2048 ![] bcast_S_S32768x2048),
    TRef.binary (TRef.of (T := ⟨S32768x2048, .f32⟩) main_v157) (TRef.of (T := ⟨S32768x2048, .f32⟩) main_call5_v0) (TRef.of (T := ⟨S32768x2048, .f32⟩) main_v158) maximumf,
    unary main_arg4 main_v159 ((extractStridedSlice S1x2048x512 ![5, 0, 0] · slices_S8x2048x512_S1x2048x512_5_0_0) : (⟨S8x2048x512, .f32⟩ : BufTy).Contents (Elt F) → (⟨S1x2048x512, .f32⟩ : BufTy).Contents (Elt F)),
    reshape main_v159 main_v160 rfl shapeCasts_S1x2048x512_S2048x512 ]

/-- @main's operations 193 … 256 (window `main_part3`): the rest of round 5, round 6, and round 7 up to its rectifier. -/
abbrev ops_part3 : List (HloOp τ sig (Elt F)) :=
  [ binary main_v158 main_v160 main_v161 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v162 ((extractStridedSlice S1x512 ![5, 0] · slices_S8x512_S1x512_5_0) : (⟨S8x512, .f32⟩ : BufTy).Contents (Elt F) → (⟨S1x512, .f32⟩ : BufTy).Contents (Elt F)),
    reshape main_v162 main_v163 rfl shapeCasts_S1x512_S512,
    unary main_v163 main_v164 (broadcastInDim S1x512 ![1] bcast_S512_S1x512_1 : (⟨S512, .f32⟩ : BufTy).Contents (Elt F) → (⟨S1x512, .f32⟩ : BufTy).Contents (Elt F)),
    unary main_v164 main_v165 (broadcastInDim S32768x512 ![0, 1] bcast_S1x512_S32768x512_0_1 : (⟨S1x512, .f32⟩ : BufTy).Contents (Elt F) → (⟨S32768x512, .f32⟩ : BufTy).Contents (Elt F)),
    binary main_v161 main_v165 main_v166 (addf : (⟨S32768x512, .f32⟩ : BufTy).Contents (Elt F) → (⟨S32768x512, .f32⟩ : BufTy).Contents (Elt F) → (⟨S32768x512, .f32⟩ : BufTy).Contents (Elt F)),
    unary main_v149 main_v167 (broadcastInDim S32768x1 ![0] bcast_S32768_S32768x1_0 : (⟨S32768, .f32⟩ : BufTy).Contents (Elt F) → (⟨S32768x1, .f32⟩ : BufTy).Contents (Elt F)),
    unary main_v167 main_v168 (broadcastInDim S32768x512 ![0, 1] bcast_S32768x1_S32768x512_0_1 : (⟨S32768x1, .f32⟩ : BufTy).Contents (Elt F) → (⟨S32768x512, .f32⟩ : BufTy).Contents (Elt F)),
    binary main_v166 main_v168 main_v169 (mulf : (⟨S32768x512, .f32⟩ : BufTy).Contents (Elt F) → (⟨S32768x512, .f32⟩ : BufTy).Contents (Elt F) → (⟨S32768x512, .f32⟩ : BufTy).Contents (Elt F)),
    binary main_v142 main_v169 main_v170 (addf : (⟨S32768x512, .f32⟩ : BufTy).Contents (Elt F) → (⟨S32768x512, .f32⟩ : BufTy).Contents (Elt F) → (⟨S32768x512, .f32⟩ : BufTy).Contents (Elt F)),
    nullary main_c_17 (constantI S_ 32 6#32),
    unary main_c_17 main_v171 (broadcastInDim S32768x2 ![] bcast_S_S32768x2 : (⟨S_, .i32⟩ : BufTy).Contents (Elt F) → (⟨S32768x2, .i32⟩ : BufTy).Contents (Elt F)),
    binary main_v1 main_v171 main_v172 (cmpi .eq : (⟨S32768x2, .i32⟩ : BufTy).Contents (Elt F) → (⟨S32768x2, .i32⟩ : BufTy).Contents (Elt F) → (⟨S32768x2, .i1⟩ : BufTy).Contents (Elt F)),
    unary main_v172 main_v173 ((extui 32 · natLt_1_32) : (⟨S32768x2, .i1⟩ : BufTy).Contents (Elt F) → (⟨S32768x2, .i32⟩ : BufTy).Contents (Elt F)),
    nullary main_c_18 (constantI S_ 32 0#32),
    binary main_v173 main_c_18 main_v174 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v174 main_v175 (sitofp .f32 : (⟨S32768, .i32⟩ : BufTy).Contents (Elt F) → (⟨S32768, .f32⟩ : BufTy).Contents (Elt F)),
    nullary main_cst_19 (constant S_ .f32 0x3F000000#32),
    unary main_cst_19 main_v176 (broadcastInDim S32768 ![] bcast_S_S32768 : (⟨S_, .f32⟩ : BufTy).Contents (Elt F) → (⟨S32768, .f32⟩ : BufTy).Contents (Elt F)),
    binary main_v175 main_v176 main_v177 (mulf : (⟨S32768, .f32⟩ : BufTy).Contents (Elt F) → (⟨S32768, .f32⟩ : BufTy).Contents (Elt F) → (⟨S32768, .f32⟩ : BufTy).Contents (Elt F)),
    unary main_arg2 main_v178 ((extractStridedSlice S1x512x2048 ![6, 0, 0] · slices_S8x512x2048_S1x512x2048_6_0_0) : (⟨S8x512x2048, .f32⟩ : BufTy).Contents (Elt F) → (⟨S1x512x2048, .f32⟩ : BufTy).Contents (Elt F)),
    reshape main_v178 main_v179 rfl shapeCasts_S1x512x2048_S512x2048,
    binary main_v0 main_v179 main_v180 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v181 ((extractStridedSlice S1x2048 ![6, 0] · slices_S8x2048_S1x2048_6_0) : (⟨S8x2048, .f32⟩ : BufTy).Contents (Elt F) → (⟨S1x2048, .f32⟩ : BufTy).Contents (Elt F)),
    reshape main_v181 main_v182 rfl shapeCasts_S1x2048_S2048,
    unary main_v182 main_v183 (broadcastInDim S1x2048 ![1] bcast_S2048_S1x2048_1 : (⟨S2048, .f32⟩ : BufTy).Contents (Elt F) → (⟨S1x2048, .f32⟩ : BufTy).Contents (Elt F)),
    unary main_v183 main_v184 (broadcastInDim S32768x2048 ![0, 1] bcast_S1x2048_S32768x2048_0_1 : (⟨S1x2048, .f32⟩ : BufTy).Contents (Elt F) → (⟨S32768x2048, .f32⟩ : BufTy).Contents (Elt F)),
    binary main_v180 main_v184 main_v185 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32768x2048, .f32⟩) main_call6_v0) (broadcastInDim S32768x2048 ![] bcast_S_S32768x2048),
    TRef.binary (TRef.of (T := ⟨S32768x2048, .f32⟩) main_v185) (TRef.of (T := ⟨S32768x2048, .f32⟩) main_call6_v0) (TRef.of (T := ⟨S32768x2048, .f32⟩) main_v186) maximumf,
    unary main_arg4 main_v187 ((extractStridedSlice S1x2048x512 ![6, 0, 0] · slices_S8x2048x512_S1x2048x512_6_0_0) : (⟨S8x2048x512, .f32⟩ : BufTy).Contents (Elt F) → (⟨S1x2048x512, .f32⟩ : BufTy).Contents (Elt F)),
    reshape main_v187 main_v188 rfl shapeCasts_S1x2048x512_S2048x512,
    binary main_v186 main_v188 main_v189 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v190 ((extractStridedSlice S1x512 ![6, 0] · slices_S8x512_S1x512_6_0) : (⟨S8x512, .f32⟩ : BufTy).Contents (Elt F) → (⟨S1x512, .f32⟩ : BufTy).Contents (Elt F)),
    reshape main_v190 main_v191 rfl shapeCasts_S1x512_S512,
    unary main_v191 main_v192 (broadcastInDim S1x512 ![1] bcast_S512_S1x512_1 : (⟨S512, .f32⟩ : BufTy).Contents (Elt F) → (⟨S1x512, .f32⟩ : BufTy).Contents (Elt F)),
    unary main_v192 main_v193 (broadcastInDim S32768x512 ![0, 1] bcast_S1x512_S32768x512_0_1 : (⟨S1x512, .f32⟩ : BufTy).Contents (Elt F) → (⟨S32768x512, .f32⟩ : BufTy).Contents (Elt F)),
    binary main_v189 main_v193 main_v194 (addf : (⟨S32768x512, .f32⟩ : BufTy).Contents (Elt F) → (⟨S32768x512, .f32⟩ : BufTy).Contents (Elt F) → (⟨S32768x512, .f32⟩ : BufTy).Contents (Elt F)),
    unary main_v177 main_v195 (broadcastInDim S32768x1 ![0] bcast_S32768_S32768x1_0 : (⟨S32768, .f32⟩ : BufTy).Contents (Elt F) → (⟨S32768x1, .f32⟩ : BufTy).Contents (Elt F)),
    unary main_v195 main_v196 (broadcastInDim S32768x512 ![0, 1] bcast_S32768x1_S32768x512_0_1 : (⟨S32768x1, .f32⟩ : BufTy).Contents (Elt F) → (⟨S32768x512, .f32⟩ : BufTy).Contents (Elt F)),
    binary main_v194 main_v196 main_v197 (mulf : (⟨S32768x512, .f32⟩ : BufTy).Contents (Elt F) → (⟨S32768x512, .f32⟩ : BufTy).Contents (Elt F) → (⟨S32768x512, .f32⟩ : BufTy).Contents (Elt F)),
    binary main_v170 main_v197 main_v198 (addf : (⟨S32768x512, .f32⟩ : BufTy).Contents (Elt F) → (⟨S32768x512, .f32⟩ : BufTy).Contents (Elt F) → (⟨S32768x512, .f32⟩ : BufTy).Contents (Elt F)),
    nullary main_c_20 (constantI S_ 32 7#32),
    unary main_c_20 main_v199 (broadcastInDim S32768x2 ![] bcast_S_S32768x2 : (⟨S_, .i32⟩ : BufTy).Contents (Elt F) → (⟨S32768x2, .i32⟩ : BufTy).Contents (Elt F)),
    binary main_v1 main_v199 main_v200 (cmpi .eq : (⟨S32768x2, .i32⟩ : BufTy).Contents (Elt F) → (⟨S32768x2, .i32⟩ : BufTy).Contents (Elt F) → (⟨S32768x2, .i1⟩ : BufTy).Contents (Elt F)),
    unary main_v200 main_v201 ((extui 32 · natLt_1_32) : (⟨S32768x2, .i1⟩ : BufTy).Contents (Elt F) → (⟨S32768x2, .i32⟩ : BufTy).Contents (Elt F)),
    nullary main_c_21 (constantI S_ 32 0#32),
    binary main_v201 main_c_21 main_v202 ((fun x v => Host.reduce IntOp.addi x v reducesTo_S32768x2_S32768_d1 h_S_) : (⟨S32768x2, .i32⟩ : BufTy).Contents (Elt F) → (⟨S_, .i32⟩ : BufTy).Contents (Elt F) → (⟨S32768, .i32⟩ : BufTy).Contents (Elt F)),
    unary main_v202 main_v203 (sitofp .f32 : (⟨S32768, .i32⟩ : BufTy).Contents (Elt F) → (⟨S32768, .f32⟩ : BufTy).Contents (Elt F)),
    nullary main_cst_22 (constant S_ .f32 0x3F000000#32),
    unary main_cst_22 main_v204 (broadcastInDim S32768 ![] bcast_S_S32768 : (⟨S_, .f32⟩ : BufTy).Contents (Elt F) → (⟨S32768, .f32⟩ : BufTy).Contents (Elt F)),
    binary main_v203 main_v204 main_v205 (mulf : (⟨S32768, .f32⟩ : BufTy).Contents (Elt F) → (⟨S32768, .f32⟩ : BufTy).Contents (Elt F) → (⟨S32768, .f32⟩ : BufTy).Contents (Elt F)),
    unary main_arg2 main_v206 ((extractStridedSlice S1x512x2048 ![7, 0, 0] · slices_S8x512x2048_S1x512x2048_7_0_0) : (⟨S8x512x2048, .f32⟩ : BufTy).Contents (Elt F) → (⟨S1x512x2048, .f32⟩ : BufTy).Contents (Elt F)),
    reshape main_v206 main_v207 rfl shapeCasts_S1x512x2048_S512x2048,
    binary main_v0 main_v207 main_v208 ((fun l r => Host.dotGeneral dot_S32768x512_S512x2048_S32768x2048_1_0_0_1_n_n none l r) : (⟨S32768x512, .f32⟩ : BufTy).Contents (Elt F) → (⟨S512x2048, .f32⟩ : BufTy).Contents (Elt F) → (⟨S32768x2048, .f32⟩ : BufTy).Contents (Elt F)),
    unary main_arg3 main_v209 ((extractStridedSlice S1x2048 ![7, 0] · slices_S8x2048_S1x2048_7_0) : (⟨S8x2048, .f32⟩ : BufTy).Contents (Elt F) → (⟨S1x2048, .f32⟩ : BufTy).Contents (Elt F)),
    reshape main_v209 main_v210 rfl shapeCasts_S1x2048_S2048,
    unary main_v210 main_v211 (broadcastInDim S1x2048 ![1] bcast_S2048_S1x2048_1 : (⟨S2048, .f32⟩ : BufTy).Contents (Elt F) → (⟨S1x2048, .f32⟩ : BufTy).Contents (Elt F)),
    unary main_v211 main_v212 (broadcastInDim S32768x2048 ![0, 1] bcast_S1x2048_S32768x2048_0_1 : (⟨S1x2048, .f32⟩ : BufTy).Contents (Elt F) → (⟨S32768x2048, .f32⟩ : BufTy).Contents (Elt F)),
    binary main_v208 main_v212 main_v213 (addf : (⟨S32768x2048, .f32⟩ : BufTy).Contents (Elt F) → (⟨S32768x2048, .f32⟩ : BufTy).Contents (Elt F) → (⟨S32768x2048, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x2048, .f32⟩) main_call7_v0) (broadcastInDim S32768x2048 ![] bcast_S_S32768x2048),
    TRef.binary (TRef.of (T := ⟨S32768x2048, .f32⟩) main_v213) (TRef.of (T := ⟨S32768x2048, .f32⟩) main_call7_v0) (TRef.of (T := ⟨S32768x2048, .f32⟩) main_v214) maximumf ]

/-- @main's operations 257 … 269 (window `main_part4`): the rest of round 7 and the closing reshape. -/
abbrev ops_part4 : List (HloOp τ sig (Elt F)) :=
  [ unary main_arg4 main_v215 ((extractStridedSlice S1x2048x512 ![7, 0, 0] · slices_S8x2048x512_S1x2048x512_7_0_0) : (⟨S8x2048x512, .f32⟩ : BufTy).Contents (Elt F) → (⟨S1x2048x512, .f32⟩ : BufTy).Contents (Elt F)),
    reshape main_v215 main_v216 rfl shapeCasts_S1x2048x512_S2048x512,
    binary main_v214 main_v216 main_v217 ((fun l r => Host.dotGeneral dot_S32768x2048_S2048x512_S32768x512_1_0_0_1_n_n none l r) : (⟨S32768x2048, .f32⟩ : BufTy).Contents (Elt F) → (⟨S2048x512, .f32⟩ : BufTy).Contents (Elt F) → (⟨S32768x512, .f32⟩ : BufTy).Contents (Elt F)),
    unary main_arg5 main_v218 ((extractStridedSlice S1x512 ![7, 0] · slices_S8x512_S1x512_7_0) : (⟨S8x512, .f32⟩ : BufTy).Contents (Elt F) → (⟨S1x512, .f32⟩ : BufTy).Contents (Elt F)),
    reshape main_v218 main_v219 rfl shapeCasts_S1x512_S512,
    unary main_v219 main_v220 (broadcastInDim S1x512 ![1] bcast_S512_S1x512_1 : (⟨S512, .f32⟩ : BufTy).Contents (Elt F) → (⟨S1x512, .f32⟩ : BufTy).Contents (Elt F)),
    unary main_v220 main_v221 (broadcastInDim S32768x512 ![0, 1] bcast_S1x512_S32768x512_0_1 : (⟨S1x512, .f32⟩ : BufTy).Contents (Elt F) → (⟨S32768x512, .f32⟩ : BufTy).Contents (Elt F)),
    binary main_v217 main_v221 main_v222 (addf : (⟨S32768x512, .f32⟩ : BufTy).Contents (Elt F) → (⟨S32768x512, .f32⟩ : BufTy).Contents (Elt F) → (⟨S32768x512, .f32⟩ : BufTy).Contents (Elt F)),
    unary main_v205 main_v223 (broadcastInDim S32768x1 ![0] bcast_S32768_S32768x1_0 : (⟨S32768, .f32⟩ : BufTy).Contents (Elt F) → (⟨S32768x1, .f32⟩ : BufTy).Contents (Elt F)),
    unary main_v223 main_v224 (broadcastInDim S32768x512 ![0, 1] bcast_S32768x1_S32768x512_0_1 : (⟨S32768x1, .f32⟩ : BufTy).Contents (Elt F) → (⟨S32768x512, .f32⟩ : BufTy).Contents (Elt F)),
    binary main_v222 main_v224 main_v225 (mulf : (⟨S32768x512, .f32⟩ : BufTy).Contents (Elt F) → (⟨S32768x512, .f32⟩ : BufTy).Contents (Elt F) → (⟨S32768x512, .f32⟩ : BufTy).Contents (Elt F)),
    binary main_v198 main_v225 main_v226 (addf : (⟨S32768x512, .f32⟩ : BufTy).Contents (Elt F) → (⟨S32768x512, .f32⟩ : BufTy).Contents (Elt F) → (⟨S32768x512, .f32⟩ : BufTy).Contents (Elt F)),
    reshape main_v226 main_v227 rfl shapeCasts_S32768x512_S8x4096x512 ]

/-- @main's 269 operations, in order. -/
abbrev ops : List (HloOp τ sig (Elt F)) :=
  ops_part0 ++ (ops_part1 ++ (ops_part2 ++ (ops_part3 ++ ops_part4)))

/-! ## @main is the line -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl

set_option maxRecDepth 8192 in
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The side conditions of the run: TensorCore buffers only, every result determined -/

set_option maxRecDepth 8192 in
theorem ops_part0_sub : (ops_part0 : List (HloOp τ sig (Elt F))).Forall fun op => op.bufs ⊆ tcRefs τ sig :=
  ⟨reshape_bufs_sub .., reshape_bufs_sub .., nullary_bufs_sub .., unary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩
set_option maxRecDepth 8192 in
theorem ops_part1_sub : (ops_part1 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub ..⟩
set_option maxRecDepth 8192 in
theorem ops_part2_sub : (ops_part2 : List (HloOp τ sig (Elt F))).Forall fun op => op.bufs ⊆ tcRefs τ sig :=
  ⟨reshape_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub ..⟩
set_option maxRecDepth 8192 in
theorem ops_part3_sub : (ops_part3 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
set_option maxRecDepth 8192 in
theorem ops_part4_sub : (ops_part4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h]

set_option maxRecDepth 8192 in
theorem ops_part0_fresh : ∀ op ∈ (ops_part0 : List (HloOp τ sig (Elt F))), op.fresh = ∅ := by
  intro _ h; (repeat (cases h with | head => rfl | tail _ h => ?_)); exact nomatch h
set_option maxRecDepth 8192 in
theorem ops_part1_fresh : ∀ op ∈ (ops_part1 : List (HloOp τ sig (Elt F))), op.fresh = ∅ := by
  intro _ h; (repeat (cases h with | head => rfl | tail _ h => ?_)); exact nomatch h
set_option maxRecDepth 8192 in
theorem ops_part2_fresh : ∀ op ∈ (ops_part2 : List (HloOp τ sig (Elt F))), op.fresh = ∅ := by
  intro _ h; (repeat (cases h with | head => rfl | tail _ h => ?_)); exact nomatch h
set_option maxRecDepth 8192 in
theorem ops_part3_fresh : ∀ op ∈ (ops_part3 : List (HloOp τ sig (Elt F))), op.fresh = ∅ := by
  intro _ h; (repeat (cases h with | head => rfl | tail _ h => ?_)); exact nomatch h
set_option maxRecDepth 8192 in
theorem ops_part4_fresh : ∀ op ∈ (ops_part4 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h
  exacts [ops_part0_fresh op h, ops_part1_fresh op h, ops_part2_fresh op h, ops_part3_fresh op h, ops_part4_fresh op h]

/-! ## The stages

`V` is any contents of the device's buffers and `x0 … x5` the six arguments. -/

variable (V : Valuation τ sig (Elt F))
  (x0 : (⟨S8x4096x512, .f32⟩ : BufTy).Contents (Elt F)) (x1 : (⟨S8x4096x2, .i32⟩ : BufTy).Contents (Elt F))
  (x2 : (⟨S8x512x2048, .f32⟩ : BufTy).Contents (Elt F)) (x3 : (⟨S8x2048, .f32⟩ : BufTy).Contents (Elt F))
  (x4 : (⟨S8x2048x512, .f32⟩ : BufTy).Contents (Elt F)) (x5 : (⟨S8x512, .f32⟩ : BufTy).Contents (Elt F))

/-- The six argument buffers hold `x0 … x5`. -/
def ArgsAt : Prop :=
  V (Proc.devRef .tc main_arg0) = x0 ∧ V (Proc.devRef .tc main_arg1) = x1 ∧ V (Proc.devRef .tc main_arg2) = x2
    ∧ V (Proc.devRef .tc main_arg3) = x3 ∧ V (Proc.devRef .tc main_arg4) = x4 ∧ V (Proc.devRef .tc main_arg5) = x5

set_option maxRecDepth 8192 in
set_option maxHeartbeats 4000000 in
/-- After the first window: the reshaped input and index pairs, the accumulator after round 0, and of round 1 its
    halved count, its second product and its second bias row; the arguments as they were. -/
theorem stage0 (hA : ArgsAt V x0 x1 x2 x3 x4 x5) :
    ArgsAt (after ops_part0 V) x0 x1 x2 x3 x4 x5
      ∧ after ops_part0 V (Proc.devRef .tc main_v0) = ReadP.val_main_v0 x0
      ∧ after ops_part0 V (Proc.devRef .tc main_v1) = ReadP.val_main_v1 x1
      ∧ after ops_part0 V (Proc.devRef .tc main_v30) = ReadP.val_main_v30 x0 x1 x2 x3 x4 x5
      ∧ after ops_part0 V (Proc.devRef .tc main_v37) = ReadP.val_main_v37 x1
      ∧ after ops_part0 V (Proc.devRef .tc main_v49) = ReadP.val_main_v49 x0 x2 x3 x4
      ∧ after ops_part0 V (Proc.devRef .tc main_v52) = ReadP.val_main_v52 x5 := by
  obtain ⟨h0, h1, h2, h3, h4, h5⟩ := hA
  simp only [ArgsAt]
  after_results_simp
  rw [h0, h1, h2, h3, h4, h5]
  exact ⟨⟨rfl, rfl, rfl, rfl, rfl, rfl⟩, rfl, rfl, rfl, rfl, rfl, rfl⟩

set_option maxRecDepth 8192 in
set_option maxHeartbeats 4000000 in
/-- After the second window, from what the first leaves: the accumulator after round 2, and of round 3 its halved
    count, its second product and its second bias slice. -/
theorem stage1 (hA : ArgsAt V x0 x1 x2 x3 x4 x5)
    (hv0 : V (Proc.devRef .tc main_v0) = ReadP.val_main_v0 x0)
    (hv1 : V (Proc.devRef .tc main_v1) = ReadP.val_main_v1 x1)
    (hv30 : V (Proc.devRef .tc main_v30) = ReadP.val_main_v30 x0 x1 x2 x3 x4 x5)
    (hv37 : V (Proc.devRef .tc main_v37) = ReadP.val_main_v37 x1)
    (hv49 : V (Proc.devRef .tc main_v49) = ReadP.val_main_v49 x0 x2 x3 x4)
    (hv52 : V (Proc.devRef .tc main_v52) = ReadP.val_main_v52 x5) :
    ArgsAt (after ops_part1 V) x0 x1 x2 x3 x4 x5
      ∧ after ops_part1 V (Proc.devRef .tc main_v0) = ReadP.val_main_v0 x0
      ∧ after ops_part1 V (Proc.devRef .tc main_v1) = ReadP.val_main_v1 x1
      ∧ after ops_part1 V (Proc.devRef .tc main_v86) = ReadP.val_main_v86 x0 x1 x2 x3 x4 x5
      ∧ after ops_part1 V (Proc.devRef .tc main_v93) = ReadP.val_main_v93 x1
      ∧ after ops_part1 V (Proc.devRef .tc main_v105) = ReadP.val_main_v105 x0 x2 x3 x4
      ∧ after ops_part1 V (Proc.devRef .tc main_v106) = ReadP.val_main_v106 x5 := by
  obtain ⟨h0, h1, h2, h3, h4, h5⟩ := hA
  simp only [ArgsAt]
  after_results_simp
  rw [h0, h1, h2, h3, h4, h5, hv0, hv1, hv30, hv37, hv49, hv52]
  exact ⟨⟨rfl, rfl, rfl, rfl, rfl, rfl⟩, rfl, rfl, rfl, rfl, rfl, rfl⟩

set_option maxRecDepth 8192 in
set_option maxHeartbeats 4000000 in
/-- After the third window, from what the second leaves: the accumulator after round 4, and of round 5 its halved
    count, its rectified first product and its second matrix. -/
theorem stage2 (hA : ArgsAt V x0 x1 x2 x3 x4 x5)
    (hv0 : V (Proc.devRef .tc main_v0) = ReadP.val_main_v0 x0)
    (hv1 : V (Proc.devRef .tc main_v1) = ReadP.val_main_v1 x1)
    (hv86 : V (Proc.devRef .tc main_v86) = ReadP.val_main_v86 x0 x1 x2 x3 x4 x5)
    (hv93 : V (Proc.devRef .tc main_v93) = ReadP.val_main_v93 x1)
    (hv105 : V (Proc.devRef .tc main_v105) = ReadP.val_main_v105 x0 x2 x3 x4)
    (hv106 : V (Proc.devRef .tc main_v106) = ReadP.val_main_v106 x5) :
    ArgsAt (after ops_part2 V) x0 x1 x2 x3 x4 x5
      ∧ after ops_part2 V (Proc.devRef .tc main_v0) = ReadP.val_main_v0 x0
      ∧ after ops_part2 V (Proc.devRef .tc main_v1) = ReadP.val_main_v1 x1
      ∧ after ops_part2 V (Proc.devRef .tc main_v142) = ReadP.val_main_v142 x0 x1 x2 x3 x4 x5
      ∧ after ops_part2 V (Proc.devRef .tc main_v149) = ReadP.val_main_v149 x1
      ∧ after ops_part2 V (Proc.devRef .tc main_v158) = ReadP.val_main_v158 x0 x2 x3
      ∧ after ops_part2 V (Proc.devRef .tc main_v160) = ReadP.val_main_v160 x4 := by
  obtain ⟨h0, h1, h2, h3, h4, h5⟩ := hA
  simp only [ArgsAt]
  after_results_simp
  rw [h0, h1, h2, h3, h4, h5, hv0, hv1, hv86, hv93, hv105, hv106]
  exact ⟨⟨rfl, rfl, rfl, rfl, rfl, rfl⟩, rfl, rfl, rfl, rfl, rfl, rfl⟩

set_option maxRecDepth 8192 in
set_option maxHeartbeats 4000000 in
/-- After the fourth window, from what the third leaves: the accumulator after round 6, and of round 7 its halved
    count and its rectified first product. -/
theorem stage3 (hA : ArgsAt V x0 x1 x2 x3 x4 x5)
    (hv0 : V (Proc.devRef .tc main_v0) = ReadP.val_main_v0 x0)
    (hv1 : V (Proc.devRef .tc main_v1) = ReadP.val_main_v1 x1)
    (hv142 : V (Proc.devRef .tc main_v142) = ReadP.val_main_v142 x0 x1 x2 x3 x4 x5)
    (hv149 : V (Proc.devRef .tc main_v149) = ReadP.val_main_v149 x1)
    (hv158 : V (Proc.devRef .tc main_v158) = ReadP.val_main_v158 x0 x2 x3)
    (hv160 : V (Proc.devRef .tc main_v160) = ReadP.val_main_v160 x4) :
    ArgsAt (after ops_part3 V) x0 x1 x2 x3 x4 x5
      ∧ after ops_part3 V (Proc.devRef .tc main_v198) = ReadP.val_main_v198 x0 x1 x2 x3 x4 x5
      ∧ after ops_part3 V (Proc.devRef .tc main_v205) = ReadP.val_main_v205 x1
      ∧ after ops_part3 V (Proc.devRef .tc main_v214) = ReadP.val_main_v214 x0 x2 x3 := by
  obtain ⟨h0, h1, h2, h3, h4, h5⟩ := hA
  simp only [ArgsAt]
  after_results_simp
  rw [h0, h1, h2, h3, h4, h5, hv0, hv1, hv142, hv149, hv158, hv160]
  exact ⟨⟨rfl, rfl, rfl, rfl, rfl, rfl⟩, rfl, rfl, rfl⟩

set_option maxRecDepth 8192 in
set_option maxHeartbeats 4000000 in
/-- After the last window, from what the fourth leaves: the result buffer holds the last stage. -/
theorem stage4 (hA : ArgsAt V x0 x1 x2 x3 x4 x5)
    (hv198 : V (Proc.devRef .tc main_v198) = ReadP.val_main_v198 x0 x1 x2 x3 x4 x5)
    (hv205 : V (Proc.devRef .tc main_v205) = ReadP.val_main_v205 x1)
    (hv214 : V (Proc.devRef .tc main_v214) = ReadP.val_main_v214 x0 x2 x3) :
    ArgsAt (after ops_part4 V) x0 x1 x2 x3 x4 x5
      ∧ after ops_part4 V (Proc.devRef .tc main_v227) = ReadP.val_main_v227 x0 x1 x2 x3 x4 x5 := by
  obtain ⟨h0, h1, h2, h3, h4, h5⟩ := hA
  simp only [ArgsAt]
  after_results_simp
  rw [h0, h1, h2, h3, h4, h5, hv198, hv205, hv214]
  exact ⟨⟨rfl, rfl, rfl, rfl, rfl, rfl⟩, rfl⟩

/-- The whole line, from any contents whose argument buffers hold `x0 … x5`: the result buffer ends at the last stage
    and the arguments are as they were. -/
theorem after_ops (hA : ArgsAt V x0 x1 x2 x3 x4 x5) :
    ArgsAt (after ops V) x0 x1 x2 x3 x4 x5
      ∧ after ops V (Proc.devRef .tc main_v227) = ReadP.val_main_v227 x0 x1 x2 x3 x4 x5 := by
  obtain ⟨a, hv0, hv1, hv30, hv37, hv49, hv52⟩ := stage0 V x0 x1 x2 x3 x4 x5 hA
  obtain ⟨a, hv0, hv1, hv86, hv93, hv105, hv106⟩ := stage1 _ x0 x1 x2 x3 x4 x5 a hv0 hv1 hv30 hv37 hv49 hv52
  obtain ⟨a, hv0, hv1, hv142, hv149, hv158, hv160⟩ := stage2 _ x0 x1 x2 x3 x4 x5 a hv0 hv1 hv86 hv93 hv105 hv106
  obtain ⟨a, hv198, hv205, hv214⟩ := stage3 _ x0 x1 x2 x3 x4 x5 a hv0 hv1 hv142 hv149 hv158 hv160
  have h := stage4 _ x0 x1 x2 x3 x4 x5 a hv198 hv205 hv214
  simp only [ops, after_append]
  exact h

/-! ## The run -/

/-- On every device, for any float values, from any memory with zero counters: every weakly fair execution of
    @main terminates with the result buffer at the last stage of the arguments' launch contents, and the arguments
    unchanged. -/
theorem run (m : (ℓ : Loc nD τ sig) → Buf (Elt F) ℓ) (ρ : Dev nD → PrngReg) :
    θ_run Cert.ReferenceIdeal.defs (onTc (τ := τ) (Cert.ReferenceIdeal.main (F := F))) ⟨m, fun _ => 0, ρ⟩ fun r => ∀ c : Dev nD,
      r.2.mem ((c.tc : Thread nD τ).loc main_v227)
          = Cert.ReferenceIdeal.ReadP.val_main_v227 (F := F) (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨⟨a0, a1, a2, a3, a4, a5⟩, hv⟩ := after_ops (launchContents m c)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        ⟨rfl, rfl, rfl, rfl, rfl, rfl⟩
      exact ⟨(h c main_v227).trans hv, (h c main_arg0).trans a0, (h c main_arg1).trans a1, (h c main_arg2).trans a2,
        (h c main_arg3).trans a3, (h c main_arg4).trans a4, (h c main_arg5).trans a5⟩)
    (run_seq scopedRefs_eq scopedSems_eq defs main (fun _ => ops) main_eq (fun _ => ops_sub) m ρ (fun _ => ops_fresh))

end Cert.ReferenceIdeal.RunP

end
-- ==== Proof.RefValue.lean ====
/-
  The reference's result read at an index, at the ideal instance. The program starts from zeros and, for each of the
  eight experts in turn, adds the expert's feed-forward block on the token's row times the token's routing weight
  for that expert: half the number of the token's two slots that name the expert. Each of the eight stretches is
  the same chain of operations on a different slice of the stacked parameters, so the chain is read once, with the
  stretch's arrays as variables, and instantiated eight times.
-/
import proofs.«423054_j31275951850054_3_alg».proof.Proof.RefReadP
import proofs.«423054_j31275951850054_3_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Mathlib.Algebra.BigOperators.Fin
import Mathlib.Algebra.BigOperators.Group.Finset.Piecewise
import Mathlib.Data.EReal.Basic

noncomputable section

namespace Cert.ReferenceIdeal.RefValue

open Cert.ReferenceIdeal Cert.ReferenceIdeal.ReadP Cert.Moe Idealize.ShloMosaic Idealize.ShloMosaic.ValueIdx

/-- How many of token (b, s)'s two routing slots name expert `e`. -/
def slotMatch (x1 : IVec S8x4096x2 32) (b : Fin 8) (s : Fin 4096) (e : Fin 8) : ℕ :=
  (if x1 (ix3 b s 0) = BitVec.ofNat 32 e.val then 1 else 0) + (if x1 (ix3 b s 1) = BitVec.ofNat 32 e.val then 1 else 0)

/-- Expert `e`'s contribution to output element (b, s, q): its feed-forward block on the token's row, times the
    token's routing weight for it (the number of matching slots times one half). -/
def term (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) (e : Fin 8) : EReal :=
  expertOut x2 x3 x4 x5 e (tokenRow x0 ⟨4096 * b.val + s.val, by omega⟩) q
    * ((((slotMatch x1 b s e : ℕ) : ℝ) : EReal) * Ideal.ofBits .f32 0x3F000000#32)

/-- The flat token index of (b, s). -/
abbrev tok (b : Fin 8) (s : Fin 4096) : Fin 32768 := ⟨4096 * b.val + s.val, by omega⟩

/-! ## Index equations shared by the eight experts -/

theorem idx_v227 (b : Fin 8) (s : Fin 4096) (q : Fin 512) : idx_main_v227 (ix3 b s q) = ix2 (tok b s) q :=
  funext fun a => Fin.ext (by
    have hb := b.isLt; have hs := s.isLt; have hq := q.isLt
    match a with
    | ⟨0, _⟩ => show ((b.val * 4096 + s.val) * 512 + q.val) / 512 = 4096 * b.val + s.val; omega
    | ⟨1, _⟩ => show ((b.val * 4096 + s.val) * 512 + q.val) % 512 = q.val; omega)

theorem idx_v0 (t : Fin 32768) (j : Fin 512) :
    idx_main_v0 (ix2 t j) = ix3 (⟨t.val / 4096, by have := t.isLt; omega⟩ : Fin 8) (⟨t.val % 4096, Nat.mod_lt _ (by omega)⟩ : Fin 4096) j :=
  funext fun a => Fin.ext (by
    have ht := t.isLt; have hj := j.isLt
    match a with
    | ⟨0, _⟩ => show (t.val * 512 + j.val) / 2097152 = t.val / 4096; omega
    | ⟨1, _⟩ => show (t.val * 512 + j.val) / 512 % 4096 = t.val % 4096; omega
    | ⟨2, _⟩ => show (t.val * 512 + j.val) % 512 = j.val; omega)

theorem idx_v1 (b : Fin 8) (s : Fin 4096) (l : Fin 2) : idx_main_v1 (ix2 (tok b s) l) = ix3 b s l :=
  funext fun a => Fin.ext (by
    have hb := b.isLt; have hs := s.isLt; have hl := l.isLt
    match a with
    | ⟨0, _⟩ => show ((4096 * b.val + s.val) * 2 + l.val) / 8192 = b.val; omega
    | ⟨1, _⟩ => show ((4096 * b.val + s.val) * 2 + l.val) / 2 % 4096 = s.val; omega
    | ⟨2, _⟩ => show ((4096 * b.val + s.val) * 2 + l.val) % 2 = l.val; omega)

/-- The reshaped activations at (token, column) are the token's row. -/
theorem v0_read (x0 : FVec Ideal S8x4096x512 .f32) (t : Fin 32768) (j : Fin 512) :
    val_main_v0 (F := Ideal) x0 (ix2 t j) = tokenRow x0 t j := by
  rw [val_main_v0_apply, idx_v0]; rfl

/-! ## The slot count: the integer sum over the two slots, then the conversion to a real -/

/-- Summing the widened bits of a [32768 × 2] mask over its two columns and reading the word as a signed number
    gives, at token `t`, the number of set bits in row `t`. -/
theorem count_two (m : IVec S32768x2 1) (hw : 1 < 32) (h : S32768x2.ReducesTo [1] S32768) (hu : 0 < S_.numel)
    (t : Fin 32768) :
    FloatOps.sitofp (F := Ideal) .f32 (Host.reduce IntOp.addi (extui 32 m hw) (constantI S_ 32 0#32) h hu (ix1 t))
      = ((((if m (ix2 t 0) = 1#1 then 1 else 0) + (if m (ix2 t 1) = 1#1 then 1 else 0) : ℕ) : ℝ) : EReal) := by
  have hc : (Host.reduce IntOp.addi (extui 32 m hw) (constantI S_ 32 0#32) h hu (ix1 t)).toNat
      = (if m (ix2 t 0) = 1#1 then 1 else 0) + (if m (ix2 t 1) = 1#1 then 1 else 0) := by
    have h0 := StableHlo.Predicate.toNat_reduce_count_cols (n := 32768) (m := 2) (by decide) m hw h hu (ix1 t)
    rw [Finset.card_filter, Fin.sum_univ_two] at h0
    have e0 : StableHlo.Predicate.ij t (0 : Fin 2) = ix2 t 0 :=
      funext fun a => by match a with | ⟨0, _⟩ => rfl | ⟨1, _⟩ => rfl
    have e1 : StableHlo.Predicate.ij t (1 : Fin 2) = ix2 t 1 :=
      funext fun a => by match a with | ⟨0, _⟩ => rfl | ⟨1, _⟩ => rfl
    rw [← e0, ← e1]
    exact h0
  generalize Host.reduce IntOp.addi (extui 32 m hw) (constantI S_ 32 0#32) h hu (ix1 t) = c at hc
  have hlt : c.toNat < 2 ^ 31 := by
    rw [hc]; split <;> split <;> decide
  show (((c.toInt : ℝ)) : EReal) = _
  rw [StableHlo.Predicate.toInt_eq_toNat_of_lt hlt, hc]
  norm_cast

/-! ## The sliced parameter arrays, the zero array and the weight at an index, for any expert `e` -/

/-- Slice [e : e+1] of the first matrices, reshaped to [512, 2048], at (j, k). -/
theorem w1_read (e : Fin 8) (x2 : FVec Ideal S8x512x2048 .f32) (hs : S8x512x2048.Slices ![e.val, 0, 0] S1x512x2048)
    (hc : S1x512x2048.ShapeCasts S512x2048) (j : Fin 512) (k : Fin 2048) :
    shapeCast S512x2048 (extractStridedSlice S1x512x2048 ![e.val, 0, 0] x2 hs) hc (ix2 j k) = x2 (ix3 e j k) := by
  refine (shapeCast_apply _ hc (ix2 j k) (ix3 (0 : Fin 1) j k) ?_).trans
    (extractStridedSlice_apply ![e.val, 0, 0] x2 hs (ix3 (0 : Fin 1) j k) (ix3 e j k) fun a => ?_)
  · rewrite [Shape.rowMajor_val_three, Shape.rowMajor_val_two]
    show (0 * 512 + j.val) * 2048 + k.val = j.val * 2048 + k.val
    omega
  · match a with
    | ⟨0, _⟩ => show e.val = e.val + 0; omega
    | ⟨1, _⟩ => show j.val = 0 + j.val; omega
    | ⟨2, _⟩ => show k.val = 0 + k.val; omega

/-- Slice [e : e+1] of the second matrices, reshaped to [2048, 512], at (k, q). -/
theorem w2_read (e : Fin 8) (x4 : FVec Ideal S8x2048x512 .f32) (hs : S8x2048x512.Slices ![e.val, 0, 0] S1x2048x512)
    (hc : S1x2048x512.ShapeCasts S2048x512) (k : Fin 2048) (q : Fin 512) :
    shapeCast S2048x512 (extractStridedSlice S1x2048x512 ![e.val, 0, 0] x4 hs) hc (ix2 k q) = x4 (ix3 e k q) := by
  refine (shapeCast_apply _ hc (ix2 k q) (ix3 (0 : Fin 1) k q) ?_).trans
    (extractStridedSlice_apply ![e.val, 0, 0] x4 hs (ix3 (0 : Fin 1) k q) (ix3 e k q) fun a => ?_)
  · rewrite [Shape.rowMajor_val_three, Shape.rowMajor_val_two]
    show (0 * 2048 + k.val) * 512 + q.val = k.val * 512 + q.val
    omega
  · match a with
    | ⟨0, _⟩ => show e.val = e.val + 0; omega
    | ⟨1, _⟩ => show k.val = 0 + k.val; omega
    | ⟨2, _⟩ => show q.val = 0 + q.val; omega

/-- Slice [e : e+1] of the first biases, reshaped to [2048] and broadcast along the tokens, at (t, k). -/
theorem b1_read (e : Fin 8) (x3 : FVec Ideal S8x2048 .f32) (hs : S8x2048.Slices ![e.val, 0] S1x2048)
    (hc : S1x2048.ShapeCasts S2048) (hb1 : S2048.BroadcastsInDim S1x2048 (![1] : Fin 1 → Fin S1x2048.rank))
    (hb2 : S1x2048.BroadcastsInDim S32768x2048 (![0, 1] : Fin 2 → Fin S32768x2048.rank))
    (t : Fin 32768) (k : Fin 2048) :
    broadcastInDim S32768x2048 ![0, 1] hb2 (broadcastInDim S1x2048 ![1] hb1
      (shapeCast S2048 (extractStridedSlice S1x2048 ![e.val, 0] x3 hs) hc)) (ix2 t k) = x3 (ix2 e k) := by
  refine (broadcastInDim_apply _ hb2 _ (ix2 t k) (ix2 (0 : Fin 1) k) fun a => ?_).trans
    ((broadcastInDim_apply _ hb1 _ (ix2 (0 : Fin 1) k) (ix1 k) fun a => ?_).trans
    ((shapeCast_apply _ hc (ix1 k) (ix2 (0 : Fin 1) k) ?_).trans
    (extractStridedSlice_apply ![e.val, 0] x3 hs (ix2 (0 : Fin 1) k) (ix2 e k) fun a => ?_)))
  · match a with
    | ⟨0, _⟩ => show 0 = if (1 : Nat) = 1 then 0 else t.val; rw [if_pos rfl]
    | ⟨1, _⟩ => show k.val = if (2048 : Nat) = 1 then 0 else k.val; rw [if_neg (by decide)]
  · match a with
    | ⟨0, _⟩ => show k.val = if (2048 : Nat) = 1 then 0 else k.val; rw [if_neg (by decide)]
  · rewrite [Shape.rowMajor_val_two, Shape.rowMajor_val_one]
    show 0 * 2048 + k.val = k.val
    omega
  · match a with
    | ⟨0, _⟩ => show e.val = e.val + 0; omega
    | ⟨1, _⟩ => show k.val = 0 + k.val; omega

/-- Slice [e : e+1] of the second biases, reshaped to [512] and broadcast along the tokens, at (t, q). -/
theorem b2_read (e : Fin 8) (x5 : FVec Ideal S8x512 .f32) (hs : S8x512.Slices ![e.val, 0] S1x512)
    (hc : S1x512.ShapeCasts S512) (hb1 : S512.BroadcastsInDim S1x512 (![1] : Fin 1 → Fin S1x512.rank))
    (hb2 : S1x512.BroadcastsInDim S32768x512 (![0, 1] : Fin 2 → Fin S32768x512.rank))
    (t : Fin 32768) (q : Fin 512) :
    broadcastInDim S32768x512 ![0, 1] hb2 (broadcastInDim S1x512 ![1] hb1
      (shapeCast S512 (extractStridedSlice S1x512 ![e.val, 0] x5 hs) hc)) (ix2 t q) = x5 (ix2 e q) := by
  refine (broadcastInDim_apply _ hb2 _ (ix2 t q) (ix2 (0 : Fin 1) q) fun a => ?_).trans
    ((broadcastInDim_apply _ hb1 _ (ix2 (0 : Fin 1) q) (ix1 q) fun a => ?_).trans
    ((shapeCast_apply _ hc (ix1 q) (ix2 (0 : Fin 1) q) ?_).trans
    (extractStridedSlice_apply ![e.val, 0] x5 hs (ix2 (0 : Fin 1) q) (ix2 e q) fun a => ?_)))
  · match a with
    | ⟨0, _⟩ => show 0 = if (1 : Nat) = 1 then 0 else t.val; rw [if_pos rfl]
    | ⟨1, _⟩ => show q.val = if (512 : Nat) = 1 then 0 else q.val; rw [if_neg (by decide)]
  · match a with
    | ⟨0, _⟩ => show q.val = if (512 : Nat) = 1 then 0 else q.val; rw [if_neg (by decide)]
  · rewrite [Shape.rowMajor_val_two, Shape.rowMajor_val_one]
    show 0 * 512 + q.val = q.val
    omega
  · match a with
    | ⟨0, _⟩ => show e.val = e.val + 0; omega
    | ⟨1, _⟩ => show q.val = 0 + q.val; omega

/-- The zero literal broadcast to any shape is zero everywhere. -/
theorem zero_read {s : Shape} (hb : S_.BroadcastsInDim s (![] : Fin 0 → Fin s.rank)) (i : s.Idx) :
    broadcastInDim s ![] hb (constant (F := Ideal) S_ .f32 0x00000000#32) i = 0 :=
  (broadcastInDim_apply _ hb _ i ix0 fun a => a.elim0).trans Ideal.ofBits_zero_f32

/-- The routing weight of token (b, s) for expert `e`, broadcast along the output columns: the number of the
    token's two slots that name `e`, as a real, times one half. -/
theorem weight_read (e : Fin 8) (x1 : IVec S8x4096x2 32) (hw : 1 < 32) (hr : S32768x2.ReducesTo [1] S32768)
    (hu : 0 < S_.numel) (hbc : S_.BroadcastsInDim S32768x2 (![] : Fin 0 → Fin S32768x2.rank))
    (hbh : S_.BroadcastsInDim S32768 (![] : Fin 0 → Fin S32768.rank))
    (hb1 : S32768.BroadcastsInDim S32768x1 (![0] : Fin 1 → Fin S32768x1.rank))
    (hb2 : S32768x1.BroadcastsInDim S32768x512 (![0, 1] : Fin 2 → Fin S32768x512.rank))
    (b : Fin 8) (s : Fin 4096) (q : Fin 512) :
    broadcastInDim S32768x512 ![0, 1] hb2 (broadcastInDim S32768x1 ![0] hb1
      (mulf (sitofp (F := Ideal) .f32 (Host.reduce IntOp.addi
          (extui 32 (cmpi .eq (val_main_v1 (F := Ideal) x1)
            (broadcastInDim S32768x2 ![] hbc (constantI S_ 32 (BitVec.ofNat 32 e.val)))) hw)
          (constantI S_ 32 0#32) hr hu))
        (broadcastInDim S32768 ![] hbh (constant (F := Ideal) S_ .f32 0x3F000000#32)))) (ix2 (tok b s) q)
      = (((slotMatch x1 b s e : ℕ) : ℝ) : EReal) * Ideal.ofBits .f32 0x3F000000#32 := by
  refine (broadcastInDim_apply _ hb2 _ (ix2 (tok b s) q) (ix2 (tok b s) (0 : Fin 1)) fun a => ?_).trans
    ((broadcastInDim_apply _ hb1 _ (ix2 (tok b s) (0 : Fin 1)) (ix1 (tok b s)) fun a => ?_).trans ?_)
  · match a with
    | ⟨0, _⟩ => show (tok b s).val = if (32768 : Nat) = 1 then 0 else (tok b s).val; rw [if_neg (by decide)]
    | ⟨1, _⟩ => show 0 = if (1 : Nat) = 1 then 0 else q.val; rw [if_pos rfl]
  · match a with
    | ⟨0, _⟩ => show (tok b s).val = if (32768 : Nat) = 1 then 0 else (tok b s).val; rw [if_neg (by decide)]
  · have hm : ∀ l : Fin 2, cmpi .eq (val_main_v1 (F := Ideal) x1)
          (broadcastInDim S32768x2 ![] hbc (constantI S_ 32 (BitVec.ofNat 32 e.val))) (ix2 (tok b s) l) = 1#1
        ↔ x1 (ix3 b s l) = BitVec.ofNat 32 e.val := fun l => by
      show IntOp.cmpi .eq (val_main_v1 (F := Ideal) x1 (ix2 (tok b s) l))
          (broadcastInDim S32768x2 ![] hbc (constantI S_ 32 (BitVec.ofNat 32 e.val)) (ix2 (tok b s) l)) = 1#1 ↔ _
      rw [StableHlo.Predicate.cmpi_eq_iff, val_main_v1_apply, idx_v1,
        broadcastInDim_apply _ hbc _ (ix2 (tok b s) l) ix0 fun a => a.elim0]
      exact Iff.rfl
    rw [mulf_apply, sitofp_apply, count_two, broadcastInDim_apply _ hbh _ (ix1 (tok b s)) ix0 fun a => a.elim0]
    unfold slotMatch
    simp only [hm]
    rfl

/-! ## One expert's stretch, read once

The eight stretches of the program are the same operations on different slices. The statement below takes the
stretch's arrays as variables, with the facts that tie them to one another and to the arguments as hypotheses: the
two products as sums over the contracted axis, the pointwise operations, and what the sliced parameter arrays, the
zero array and the broadcast weight are at an index. -/

theorem expert_read (e : Fin 8)
    (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    {V11 : FVec Ideal S512x2048 .f32} {V12 V16 V17 V18 Z : FVec Ideal S32768x2048 .f32}
    {V20 : FVec Ideal S2048x512 .f32} {V21 V25 V26 V28 V29 : FVec Ideal S32768x512 .f32}
    (h12 : ∀ i, V12 i = ∑ k : Fin 512, val_main_v0 (F := Ideal) x0 (lidx_main_v12 i k) * V11 (ridx_main_v12 i k))
    (h17 : ∀ i, V17 i = FloatOps.addf (V12 i) (V16 i))
    (h18 : ∀ i, V18 i = FloatOps.maximumf (V17 i) (Z i))
    (h21 : ∀ i, V21 i = ∑ k : Fin 2048, V18 (lidx_main_v21 i k) * V20 (ridx_main_v21 i k))
    (h26 : ∀ i, V26 i = FloatOps.addf (V21 i) (V25 i))
    (h29 : ∀ i, V29 i = FloatOps.mulf (V26 i) (V28 i))
    (h11 : ∀ j k, V11 (ix2 j k) = x2 (ix3 e j k))
    (h16 : ∀ t k, V16 (ix2 t k) = x3 (ix2 e k))
    (hZ : ∀ i, Z i = 0)
    (h20 : ∀ k q, V20 (ix2 k q) = x4 (ix3 e k q))
    (h25 : ∀ t q, V25 (ix2 t q) = x5 (ix2 e q))
    (h28 : ∀ b s q, V28 (ix2 (tok b s) q)
      = (((slotMatch x1 b s e : ℕ) : ℝ) : EReal) * Ideal.ofBits .f32 0x3F000000#32)
    (b : Fin 8) (s : Fin 4096) (q : Fin 512) :
    V29 (ix2 (tok b s) q) = term x0 x1 x2 x3 x4 x5 b s q e := by
  have el21 : ∀ k : Fin 2048, lidx_main_v21 (ix2 (tok b s) q) k = ix2 (tok b s) k := fun k =>
    funext fun a => by match a with | ⟨0, _⟩ => rfl | ⟨1, _⟩ => rfl
  have er21 : ∀ k : Fin 2048, ridx_main_v21 (ix2 (tok b s) q) k = ix2 k q := fun k =>
    funext fun a => by match a with | ⟨0, _⟩ => rfl | ⟨1, _⟩ => rfl
  have el12 : ∀ (k : Fin 2048) (j : Fin 512), lidx_main_v12 (ix2 (tok b s) k) j = ix2 (tok b s) j := fun k j =>
    funext fun a => by match a with | ⟨0, _⟩ => rfl | ⟨1, _⟩ => rfl
  have er12 : ∀ (k : Fin 2048) (j : Fin 512), ridx_main_v12 (ix2 (tok b s) k) j = ix2 j k := fun k j =>
    funext fun a => by match a with | ⟨0, _⟩ => rfl | ⟨1, _⟩ => rfl
  rw [h29, h26, h21, h25, h28]
  unfold term expertOut ffn
  simp only [el21, er21, h18, h17, h12, el12, er12, h11, h16, hZ, h20, v0_read, Ideal.addf_def, Ideal.mulf_def,
    Ideal.maximumf_def]

/-! ## The eight experts

Expert `e`'s stretch ends in the product of its feed-forward block and the token's weight for it, which the
program then adds to the running sum. -/

theorem expert0 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v29 (F := Ideal) x0 x1 x2 x3 x4 x5 (ix2 (tok b s) q) = term x0 x1 x2 x3 x4 x5 b s q 0 :=
  expert_read 0 x0 x1 x2 x3 x4 x5
    (val_main_v12_apply x0 x2) (val_main_v17_apply (F := Ideal) x0 x2 x3) (val_main_v18_apply (F := Ideal) x0 x2 x3)
    (val_main_v21_apply x0 x2 x3 x4) (val_main_v26_apply (F := Ideal) x0 x2 x3 x4 x5)
    (val_main_v29_apply (F := Ideal) x0 x1 x2 x3 x4 x5)
    (w1_read 0 x2 _ _) (b1_read 0 x3 _ _ _ _) (zero_read _) (w2_read 0 x4 _ _) (b2_read 0 x5 _ _ _ _)
    (weight_read 0 x1 _ _ _ _ _ _ _) b s q

theorem expert1 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v57 (F := Ideal) x0 x1 x2 x3 x4 x5 (ix2 (tok b s) q) = term x0 x1 x2 x3 x4 x5 b s q 1 :=
  expert_read 1 x0 x1 x2 x3 x4 x5
    (val_main_v40_apply x0 x2) (val_main_v45_apply (F := Ideal) x0 x2 x3) (val_main_v46_apply (F := Ideal) x0 x2 x3)
    (val_main_v49_apply x0 x2 x3 x4) (val_main_v54_apply (F := Ideal) x0 x2 x3 x4 x5)
    (val_main_v57_apply (F := Ideal) x0 x1 x2 x3 x4 x5)
    (w1_read 1 x2 _ _) (b1_read 1 x3 _ _ _ _) (zero_read _) (w2_read 1 x4 _ _) (b2_read 1 x5 _ _ _ _)
    (weight_read 1 x1 _ _ _ _ _ _ _) b s q

theorem expert2 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v85 (F := Ideal) x0 x1 x2 x3 x4 x5 (ix2 (tok b s) q) = term x0 x1 x2 x3 x4 x5 b s q 2 :=
  expert_read 2 x0 x1 x2 x3 x4 x5
    (val_main_v68_apply x0 x2) (val_main_v73_apply (F := Ideal) x0 x2 x3) (val_main_v74_apply (F := Ideal) x0 x2 x3)
    (val_main_v77_apply x0 x2 x3 x4) (val_main_v82_apply (F := Ideal) x0 x2 x3 x4 x5)
    (val_main_v85_apply (F := Ideal) x0 x1 x2 x3 x4 x5)
    (w1_read 2 x2 _ _) (b1_read 2 x3 _ _ _ _) (zero_read _) (w2_read 2 x4 _ _) (b2_read 2 x5 _ _ _ _)
    (weight_read 2 x1 _ _ _ _ _ _ _) b s q

theorem expert3 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v113 (F := Ideal) x0 x1 x2 x3 x4 x5 (ix2 (tok b s) q) = term x0 x1 x2 x3 x4 x5 b s q 3 :=
  expert_read 3 x0 x1 x2 x3 x4 x5
    (val_main_v96_apply x0 x2) (val_main_v101_apply (F := Ideal) x0 x2 x3) (val_main_v102_apply (F := Ideal) x0 x2 x3)
    (val_main_v105_apply x0 x2 x3 x4) (val_main_v110_apply (F := Ideal) x0 x2 x3 x4 x5)
    (val_main_v113_apply (F := Ideal) x0 x1 x2 x3 x4 x5)
    (w1_read 3 x2 _ _) (b1_read 3 x3 _ _ _ _) (zero_read _) (w2_read 3 x4 _ _) (b2_read 3 x5 _ _ _ _)
    (weight_read 3 x1 _ _ _ _ _ _ _) b s q

theorem expert4 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v141 (F := Ideal) x0 x1 x2 x3 x4 x5 (ix2 (tok b s) q) = term x0 x1 x2 x3 x4 x5 b s q 4 :=
  expert_read 4 x0 x1 x2 x3 x4 x5
    (val_main_v124_apply x0 x2) (val_main_v129_apply (F := Ideal) x0 x2 x3) (val_main_v130_apply (F := Ideal) x0 x2 x3)
    (val_main_v133_apply x0 x2 x3 x4) (val_main_v138_apply (F := Ideal) x0 x2 x3 x4 x5)
    (val_main_v141_apply (F := Ideal) x0 x1 x2 x3 x4 x5)
    (w1_read 4 x2 _ _) (b1_read 4 x3 _ _ _ _) (zero_read _) (w2_read 4 x4 _ _) (b2_read 4 x5 _ _ _ _)
    (weight_read 4 x1 _ _ _ _ _ _ _) b s q

theorem expert5 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v169 (F := Ideal) x0 x1 x2 x3 x4 x5 (ix2 (tok b s) q) = term x0 x1 x2 x3 x4 x5 b s q 5 :=
  expert_read 5 x0 x1 x2 x3 x4 x5
    (val_main_v152_apply x0 x2) (val_main_v157_apply (F := Ideal) x0 x2 x3) (val_main_v158_apply (F := Ideal) x0 x2 x3)
    (val_main_v161_apply x0 x2 x3 x4) (val_main_v166_apply (F := Ideal) x0 x2 x3 x4 x5)
    (val_main_v169_apply (F := Ideal) x0 x1 x2 x3 x4 x5)
    (w1_read 5 x2 _ _) (b1_read 5 x3 _ _ _ _) (zero_read _) (w2_read 5 x4 _ _) (b2_read 5 x5 _ _ _ _)
    (weight_read 5 x1 _ _ _ _ _ _ _) b s q

theorem expert6 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v197 (F := Ideal) x0 x1 x2 x3 x4 x5 (ix2 (tok b s) q) = term x0 x1 x2 x3 x4 x5 b s q 6 :=
  expert_read 6 x0 x1 x2 x3 x4 x5
    (val_main_v180_apply x0 x2) (val_main_v185_apply (F := Ideal) x0 x2 x3) (val_main_v186_apply (F := Ideal) x0 x2 x3)
    (val_main_v189_apply x0 x2 x3 x4) (val_main_v194_apply (F := Ideal) x0 x2 x3 x4 x5)
    (val_main_v197_apply (F := Ideal) x0 x1 x2 x3 x4 x5)
    (w1_read 6 x2 _ _) (b1_read 6 x3 _ _ _ _) (zero_read _) (w2_read 6 x4 _ _) (b2_read 6 x5 _ _ _ _)
    (weight_read 6 x1 _ _ _ _ _ _ _) b s q

theorem expert7 (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v225 (F := Ideal) x0 x1 x2 x3 x4 x5 (ix2 (tok b s) q) = term x0 x1 x2 x3 x4 x5 b s q 7 :=
  expert_read 7 x0 x1 x2 x3 x4 x5
    (val_main_v208_apply x0 x2) (val_main_v213_apply (F := Ideal) x0 x2 x3) (val_main_v214_apply (F := Ideal) x0 x2 x3)
    (val_main_v217_apply x0 x2 x3 x4) (val_main_v222_apply (F := Ideal) x0 x2 x3 x4 x5)
    (val_main_v225_apply (F := Ideal) x0 x1 x2 x3 x4 x5)
    (w1_read 7 x2 _ _) (b1_read 7 x3 _ _ _ _) (zero_read _) (w2_read 7 x4 _ _) (b2_read 7 x5 _ _ _ _)
    (weight_read 7 x1 _ _ _ _ _ _ _) b s q

/-! ## The result -/

/-- The reference's result at (b, s, q): the running sum, from zero, of the eight experts' contributions in the
    program's order. -/
theorem ref_value (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (b : Fin 8) (s : Fin 4096) (q : Fin 512) :
    val_main_v227 (F := Ideal) x0 x1 x2 x3 x4 x5 (ix3 b s q)
      = ((((((((0 : EReal) + term x0 x1 x2 x3 x4 x5 b s q 0) + term x0 x1 x2 x3 x4 x5 b s q 1)
          + term x0 x1 x2 x3 x4 x5 b s q 2) + term x0 x1 x2 x3 x4 x5 b s q 3) + term x0 x1 x2 x3 x4 x5 b s q 4)
          + term x0 x1 x2 x3 x4 x5 b s q 5) + term x0 x1 x2 x3 x4 x5 b s q 6) + term x0 x1 x2 x3 x4 x5 b s q 7 := by
  rw [val_main_v227_apply, idx_v227, val_main_v226_apply, val_main_v198_apply, val_main_v170_apply,
    val_main_v142_apply, val_main_v114_apply, val_main_v86_apply, val_main_v58_apply, val_main_v30_apply,
    expert0, expert1, expert2, expert3, expert4, expert5, expert6, expert7,
    show val_main_v2 (F := Ideal) (ix2 (tok b s) q) = 0 from zero_read _ _]
  rfl

end Cert.ReferenceIdeal.RefValue

end
-- ==== Proof.Bridge.lean ====
/-
  The law that joins the two programs. For one token and one output column let `F e` be expert e's output. The
  reference adds, over the eight experts in order from zero, `F e · (n e · h)`, where `n e` counts the token's slots
  assigned to e and `h` is one half; the kernel adds the two slots' outputs, each times `1 · h`. With `k0`, `k1` the
  two slots' experts, `n e = [k0 = e] + [k1 = e]`, and the two sums agree whenever every `F e` and `h` are real
  numbers: distributing a product over a sum is a law of the reals, not of the extended reals.
  Also: an expert's output on a real row from real parameters is a real number.
-/
import proofs.«423054_j31275951850054_3_alg».proof.Proof.Spec
import Mathlib.Algebra.BigOperators.Fin
import Mathlib.Tactic.Ring
import Mathlib.Tactic.FinCases
import Mathlib.Tactic.NormNum

namespace Cert.Moe

open Finset

/-- A finite sum of reals, read in the extended reals, is the real sum. -/
theorem ereal_sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, read in the extended reals, is the real maximum. -/
theorem ereal_max_coe (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- One expert's block on a real row with real parameters is a real number. -/
theorem ffn_real (W1 : Fin 512 → Fin 2048 → EReal) (b1 : Fin 2048 → EReal) (W2 : Fin 2048 → Fin 512 → EReal) (b2 : Fin 512 → EReal)
    (x : Fin 512 → EReal) (hW1 : ∀ j k, ∃ r : ℝ, W1 j k = (r : EReal)) (hb1 : ∀ k, ∃ r : ℝ, b1 k = (r : EReal))
    (hW2 : ∀ k q, ∃ r : ℝ, W2 k q = (r : EReal)) (hb2 : ∀ q, ∃ r : ℝ, b2 q = (r : EReal)) (hx : ∀ j, ∃ r : ℝ, x j = (r : EReal))
    (q : Fin 512) : ∃ r : ℝ, ffn W1 b1 W2 b2 x q = (r : EReal) := by
  choose w1 hw1 using hW1
  choose c1 hc1 using hb1
  choose w2 hw2 using hW2
  choose c2 hc2 using hb2
  choose y hy using hx
  refine ⟨(∑ k : Fin 2048, max ((∑ j : Fin 512, y j * w1 j k) + c1 k) 0 * w2 k q) + c2 q, ?_⟩
  unfold ffn
  have hin : ∀ k : Fin 2048, (∑ j : Fin 512, x j * W1 j k) = ((∑ j : Fin 512, y j * w1 j k : ℝ) : EReal) := fun k => by
    rw [← ereal_sum_coe]; exact Finset.sum_congr rfl fun j _ => by rw [hy, hw1, EReal.coe_mul]
  have hterm : ∀ k : Fin 2048, max ((∑ j : Fin 512, x j * W1 j k) + b1 k) 0 * W2 k q
      = ((max ((∑ j : Fin 512, y j * w1 j k) + c1 k) 0 * w2 k q : ℝ) : EReal) := fun k => by
    rw [hin, hc1, hw2, ← EReal.coe_add, ← EReal.coe_zero, ereal_max_coe, ← EReal.coe_mul]
  rw [Finset.sum_congr rfl fun k _ => hterm k, ereal_sum_coe, hc2, ← EReal.coe_add]

/-- The reference's weighted sum over the experts is the kernel's sum over the two slots. -/
theorem combine (F : Fin 8 → EReal) (hF : ∀ e, ∃ r : ℝ, F e = (r : EReal)) (h : EReal) (hh : ∃ r : ℝ, h = (r : EReal))
    (k0 k1 : Fin 8) (n : Fin 8 → ℕ) (hn : ∀ e, n e = (if k0 = e then 1 else 0) + (if k1 = e then 1 else 0)) :
    ((((((((0 : EReal) + F 0 * ((((n 0 : ℕ) : ℝ) : EReal) * h)) + F 1 * ((((n 1 : ℕ) : ℝ) : EReal) * h)) + F 2 * ((((n 2 : ℕ) : ℝ) : EReal) * h))
        + F 3 * ((((n 3 : ℕ) : ℝ) : EReal) * h)) + F 4 * ((((n 4 : ℕ) : ℝ) : EReal) * h)) + F 5 * ((((n 5 : ℕ) : ℝ) : EReal) * h))
        + F 6 * ((((n 6 : ℕ) : ℝ) : EReal) * h)) + F 7 * ((((n 7 : ℕ) : ℝ) : EReal) * h)
      = F k0 * (1 * h) + F k1 * (1 * h) := by
  choose f hf using hF
  obtain ⟨c, rfl⟩ := hh
  have key : (0 + f 0 * ((n 0 : ℝ) * c) + f 1 * ((n 1 : ℝ) * c) + f 2 * ((n 2 : ℝ) * c) + f 3 * ((n 3 : ℝ) * c) + f 4 * ((n 4 : ℝ) * c)
        + f 5 * ((n 5 : ℝ) * c) + f 6 * ((n 6 : ℝ) * c) + f 7 * ((n 7 : ℝ) * c) : ℝ) = f k0 * (1 * c) + f k1 * (1 * c) := by
    simp only [hn]
    fin_cases k0 <;> fin_cases k1 <;> simp <;> ring
  simp only [hf]
  rw [← EReal.coe_one]
  simp only [← EReal.coe_mul, ← EReal.coe_add, ← EReal.coe_zero]
  exact congrArg _ key

end Cert.Moe
-- ==== Proof.SlotKeys.lean ====
/-
  Pair p = 2·(4096·b + s) + slot is token (b, s)'s slot: its expert is the assignment array's entry at (b, s, slot), the
  array flattened row-major. So "the entry at (b, s, slot) is expert e" and "the pair's expert is e" say the same.
-/
import proofs.«423054_j31275951850054_3_alg».proof.Proof.HostSpec
import Idealize.ShloMosaic.Lib.Pipeline.Value
import Idealize.ShloMosaic.Lib.ValueIdx

noncomputable section

namespace Cert.KernelIdeal.Host

open Cert.KernelIdeal Cert.KernelIdeal.Chain Cert.Moe Idealize.ShloMosaic Idealize.ShloMosaic.ValueIdx
open Facts₀ Facts

variable [Facts] (a1 : IVec S8x4096x2 32)

/-- The pair's expert is the array's entry. -/
theorem pairExpert_at (b : Fin 8) (s : Fin 4096) (slot : Fin 2) (hp : 2 * (4096 * b.val + s.val) + slot.val < 65536) :
    pairExpert a1 (Shape.Idx.ofFin ⟨2 * (4096 * b.val + s.val) + slot.val, hp⟩) = a1 (ix3 b s slot) := by
  unfold pairExpert
  have hts : 4096 * b.val + s.val < 32768 := by have := b.isLt; have := s.isLt; omega
  refine (shapeCast_apply _ shapeCasts_S32768x2_S65536 _ (ix2 (⟨4096 * b.val + s.val, hts⟩ : Fin 32768) slot) ?_).trans ?_
  · rw [Shape.rowMajor_val_two, Shape.rowMajor_val_one]
    show (4096 * b.val + s.val) * 2 + slot.val = 2 * (4096 * b.val + s.val) + slot.val
    omega
  · refine shapeCast_apply a1 shapeCasts_S8x4096x2_S32768x2 _ (ix3 b s slot) ?_
    rw [Shape.rowMajor_val_three, Shape.rowMajor_val_two]
    show (b.val * 4096 + s.val) * 2 + slot.val = (4096 * b.val + s.val) * 2 + slot.val
    omega

/-- The pair's expert, as a number, is the entry's. -/
theorem key_at (b : Fin 8) (s : Fin 4096) (slot : Fin 2) (hp : 2 * (4096 * b.val + s.val) + slot.val < 65536) :
    key a1 ⟨2 * (4096 * b.val + s.val) + slot.val, hp⟩ = (a1 (ix3 b s slot)).toNat := by
  unfold key; rw [pairExpert_at]

/-- The entry is expert e's number exactly when the pair's expert is e. -/
theorem entry_eq_iff (hk : KeyFacts a1) (b : Fin 8) (s : Fin 4096) (slot : Fin 2) (hp : 2 * (4096 * b.val + s.val) + slot.val < 65536) (e : Fin 8) :
    a1 (ix3 b s slot) = BitVec.ofNat 32 e.val ↔ keyF a1 hk ⟨2 * (4096 * b.val + s.val) + slot.val, hp⟩ = e := by
  have hkey := key_at a1 b s slot hp
  have hlt := hk.key_lt ⟨2 * (4096 * b.val + s.val) + slot.val, hp⟩
  constructor
  · intro h
    apply Fin.ext
    show key a1 _ = e.val
    rw [hkey, h]
    have := e.isLt
    simp only [BitVec.toNat_ofNat]
    omega
  · intro h
    have hv : key a1 ⟨2 * (4096 * b.val + s.val) + slot.val, hp⟩ = e.val := congrArg Fin.val h
    rw [← pairExpert_at a1 b s slot hp, hk.pairExpert_eq, hv]

end Cert.KernelIdeal.Host

end
-- ==== Proof.ValuesAgree.lean ====
/-
  At one token (b, s) and one output column q the two programs' values agree. The reference's is the sum over the eight
  experts of the expert's block on the token's row times (the number of the token's two slots assigned to that expert) times
  one half; the kernel's is slot 0's expert's block times (1 · one half) plus slot 1's. The slot counts are the indicator
  sums of the two slots' experts, every block is a real number because every input entry is, and over the reals the
  two sums are equal.
-/
import proofs.«423054_j31275951850054_3_alg».proof.Proof.RefValue
import proofs.«423054_j31275951850054_3_alg».proof.Proof.Bridge
import proofs.«423054_j31275951850054_3_alg».proof.Proof.SlotKeys
import Idealize.ShloMosaic.PureOps.Ideal.Laws

noncomputable section

namespace Cert.Proof.Moe

open Idealize.ShloMosaic Idealize.ShloMosaic.ValueIdx
open Cert.Moe Cert.KernelIdeal.Host Cert.ReferenceIdeal.RefValue

/-- Expert e's block on a token's row is a real number when the arrays' entries are. -/
theorem expertOut_real (x0 : FVec Ideal ⟨3, ![8, 4096, 512]⟩ .f32) (x2 : FVec Ideal ⟨3, ![8, 512, 2048]⟩ .f32) (x3 : FVec Ideal ⟨2, ![8, 2048]⟩ .f32)
    (x4 : FVec Ideal ⟨3, ![8, 2048, 512]⟩ .f32) (x5 : FVec Ideal ⟨2, ![8, 512]⟩ .f32)
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) (e : Fin 8) (t : Fin 32768) (q : Fin 512) :
    ∃ r : ℝ, expertOut x2 x3 x4 x5 e (tokenRow x0 t) q = (r : EReal) :=
  ffn_real _ _ _ _ _ (fun j k => h2 _) (fun k => h3 _) (fun k q' => h4 _) (fun q' => h5 _) (fun j => h0 _) q

/-- One half is a real number. -/
theorem half_real : ∃ r : ℝ, Ideal.ofBits .f32 0x3F000000#32 = (r : EReal) := by
  refine ⟨1 / 2, ?_⟩
  simp [Ideal.ofBits, Ideal.ieee]
  rw [← EReal.coe_mul]
  exact congrArg _ (by norm_num)

/-- The number of the token's slots assigned to expert e, from the two slots' experts. -/
theorem slotMatch_eq [Cert.KernelIdeal.Facts] (x1 : IVec ⟨3, ![8, 4096, 2]⟩ 32) (hk : KeyFacts x1) (b : Fin 8) (s : Fin 4096)
    (hp0 : 2 * (4096 * b.val + s.val) < 65536) (hp1 : 2 * (4096 * b.val + s.val) + 1 < 65536) (e : Fin 8) :
    slotMatch x1 b s e = (if keyF x1 hk ⟨2 * (4096 * b.val + s.val), hp0⟩ = e then 1 else 0)
      + (if keyF x1 hk ⟨2 * (4096 * b.val + s.val) + 1, hp1⟩ = e then 1 else 0) := by
  unfold slotMatch
  have e0 := entry_eq_iff x1 hk b s (0 : Fin 2) (by simpa using hp0) e
  have e1 := entry_eq_iff x1 hk b s (1 : Fin 2) (by simpa using hp1) e
  have f0 : (⟨2 * (4096 * b.val + s.val) + (0 : Fin 2).val, by simpa using hp0⟩ : Fin 65536) = ⟨2 * (4096 * b.val + s.val), hp0⟩ := Fin.ext (by simp)
  have f1 : (⟨2 * (4096 * b.val + s.val) + (1 : Fin 2).val, by simpa using hp1⟩ : Fin 65536) = ⟨2 * (4096 * b.val + s.val) + 1, hp1⟩ := Fin.ext (by simp)
  rw [f0] at e0
  rw [f1] at e1
  rw [if_congr e0 rfl rfl, if_congr e1 rfl rfl]

/-- The reference's sum over the experts is the kernel's sum over the two slots. -/
theorem values_agree [Cert.KernelIdeal.Facts] (x0 : FVec Ideal ⟨3, ![8, 4096, 512]⟩ .f32) (x1 : IVec ⟨3, ![8, 4096, 2]⟩ 32) (x2 : FVec Ideal ⟨3, ![8, 512, 2048]⟩ .f32)
    (x3 : FVec Ideal ⟨2, ![8, 2048]⟩ .f32) (x4 : FVec Ideal ⟨3, ![8, 2048, 512]⟩ .f32) (x5 : FVec Ideal ⟨2, ![8, 512]⟩ .f32)
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal))
    (hk : KeyFacts x1) (b : Fin 8) (s : Fin 4096) (q : Fin 512)
    (ht : 4096 * b.val + s.val < 32768) (hp0 : 2 * (4096 * b.val + s.val) < 65536) (hp1 : 2 * (4096 * b.val + s.val) + 1 < 65536) :
    ((((((((0 : EReal) + term x0 x1 x2 x3 x4 x5 b s q 0) + term x0 x1 x2 x3 x4 x5 b s q 1) + term x0 x1 x2 x3 x4 x5 b s q 2)
          + term x0 x1 x2 x3 x4 x5 b s q 3) + term x0 x1 x2 x3 x4 x5 b s q 4) + term x0 x1 x2 x3 x4 x5 b s q 5)
          + term x0 x1 x2 x3 x4 x5 b s q 6) + term x0 x1 x2 x3 x4 x5 b s q 7
      = expertOut x2 x3 x4 x5 (keyF x1 hk ⟨2 * (4096 * b.val + s.val), hp0⟩) (tokenRow x0 ⟨4096 * b.val + s.val, ht⟩) q * (1 * Ideal.ofBits .f32 0x3F000000#32)
        + expertOut x2 x3 x4 x5 (keyF x1 hk ⟨2 * (4096 * b.val + s.val) + 1, hp1⟩) (tokenRow x0 ⟨4096 * b.val + s.val, ht⟩) q * (1 * Ideal.ofBits .f32 0x3F000000#32) := by
  unfold term
  exact combine (fun e => expertOut x2 x3 x4 x5 e (tokenRow x0 ⟨4096 * b.val + s.val, ht⟩) q)
    (fun e => expertOut_real x0 x2 x3 x4 x5 h0 h2 h3 h4 h5 e _ q) (Ideal.ofBits .f32 0x3F000000#32) half_real
    (keyF x1 hk ⟨2 * (4096 * b.val + s.val), hp0⟩) (keyF x1 hk ⟨2 * (4096 * b.val + s.val) + 1, hp1⟩)
    (fun e => slotMatch x1 b s e) (fun e => slotMatch_eq x1 hk b s hp0 hp1 e)

end Cert.Proof.Moe

end
-- ==== Proof.PreDecode.lean ====
import proofs.«423054_j31275951850054_3_alg».proof.Pre_finite_inputs
import proofs.«423054_j31275951850054_3_alg».proof.Proof.Gen.Pre_finite_inputs
import Idealize.ShloMosaic.Lib.ReduceAll
import Idealize.ShloMosaic.Lib.ValueIdx
import Idealize.ShloMosaic.PureOps.Ideal
import Mathlib.Data.EReal.Basic

/-!
  The precondition, decoded. The printed predicate is the conjunction of seven "all entries satisfy p": |x| < +∞ over
  each of the five float arrays, and 0 ≤ a and a < 8 over the assignment array. From "the predicate is 1" we read back:
  every entry of the assignment array, as a natural number, is below 8 (whatever the float values are), and at the
  ideal values every entry of the five float arrays is a real number.
-/

noncomputable section

namespace Cert.Pre_finite_inputs.Decode

open Idealize.ShloMosaic

variable [Cert.Pre_finite_inputs.Facts]

/-- The rank-0 shape has one index. -/
instance : Subsingleton S_.Idx := ⟨fun a b => funext fun d => d.elim0⟩

/-! ## Scalars -/

/-- The f32 pattern 0x7F800000 (sign 0, exponent field all ones, fraction 0) denotes +∞. -/
theorem ofBits_inf : Ideal.ofBits .f32 0x7F800000#32 = (⊤ : EReal) := by
  show Ideal.ieee 8 23 (0x7F800000#32) = ⊤
  unfold Ideal.ieee
  dsimp only
  have e1 : ((0x7F800000#32).extractLsb' 23 8).toNat = 2 ^ 8 - 1 := by decide
  have e2 : ((0x7F800000#32).extractLsb' 0 23).toNat = 0 := by decide
  have e3 : ((0x7F800000#32).extractLsb' (8 + 23) 1 == 1#1) = false := by decide
  rw [if_pos e1, if_pos e2, e3]
  rfl

/-- An extended real whose absolute value max x (-x) is below +∞ is neither infinity: it is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element fact of a float conjunct: the comparison |x| < +∞ came out 1, so x is a real. -/
theorem real_of_cmp (x : EReal) (h : Ideal.cmp .olt (max x (-x)) (Ideal.ofBits .f32 0x7F800000#32) = 1#1) :
    ∃ r : ℝ, x = (r : EReal) := by
  rw [ofBits_inf] at h
  refine real_of_abs_lt_top x ?_
  unfold Ideal.cmp at h
  dsimp only at h
  by_contra hn
  rw [decide_eq_false hn] at h
  exact absurd h (by decide)

/-- A 32-bit word that is, as a signed integer, at least 0 and below 8 is, as a natural number, below 8. -/
theorem toNat_lt_eight (a : BitVec 32) (h0 : (0#32).toInt ≤ a.toInt) (h8 : a.toInt < (8#32).toInt) : a.toNat < 8 := by
  have e0 : (0#32).toInt = 0 := by decide
  have e8 : (8#32).toInt = 8 := by decide
  rw [e0] at h0
  rw [e8] at h8
  have hlt : a.toNat < 2 ^ 32 := a.isLt
  rw [BitVec.toInt_eq_toNat_cond] at h0 h8
  split at h0 <;> omega

/-! ## One conjunct -/

/-- A reduction by "and" over all axes that came out 1 met a 1 at every index. -/
theorem all_of_reduce {s : Shape} {axes : List (Fin s.rank)} (p : IVec s 1) (hr : s.ReducesTo axes S_) (hu : 0 < S_.numel)
    (e : Host.reduce IntOp.andi p (constantI S_ 1 1#1) hr hu ValueIdx.ix0 = 1#1) (i : s.Idx) : p i = 1#1 :=
  Host.reduce_andi_all p _ hr hu _ e i

/-- The entrywise "and" of two arrays of one-bit words is 1 at an index exactly when both are 1 there. -/
theorem andi_apply_eq_one {s : Shape} (a b : IVec s 1) (j : s.Idx) : andi a b j = 1#1 ↔ a j = 1#1 ∧ b j = 1#1 :=
  IntOp.andi_eq_one

/-! ## The predicate, split into its seven conjuncts -/

/-- The printed predicate is 1 exactly when each of its seven reductions is 1 (one direction). -/
theorem split {F : FTy → Type} [FloatOps F] (x0 : FVec F S8x4096x512 .f32) (x1 : IVec S8x4096x2 32)
    (x2 : FVec F S8x512x2048 .f32) (x3 : FVec F S8x2048 .f32) (x4 : FVec F S8x2048x512 .f32) (x5 : FVec F S8x512 .f32)
    (h : fn (F := F) x0 x1 x2 x3 x4 x5 = fun _ => 1#1) :
    (∀ i, cmpf .olt (Host.absf x0) (broadcastInDim S8x4096x512 ![] Facts.bcast_S_S8x4096x512 (constant S_ .f32 0x7F800000#32)) i = 1#1) ∧
    (∀ i, cmpf .olt (Host.absf x2) (broadcastInDim S8x512x2048 ![] Facts.bcast_S_S8x512x2048 (constant S_ .f32 0x7F800000#32)) i = 1#1) ∧
    (∀ i, cmpf .olt (Host.absf x3) (broadcastInDim S8x2048 ![] Facts.bcast_S_S8x2048 (constant S_ .f32 0x7F800000#32)) i = 1#1) ∧
    (∀ i, cmpf .olt (Host.absf x4) (broadcastInDim S8x2048x512 ![] Facts.bcast_S_S8x2048x512 (constant S_ .f32 0x7F800000#32)) i = 1#1) ∧
    (∀ i, cmpf .olt (Host.absf x5) (broadcastInDim S8x512 ![] Facts.bcast_S_S8x512 (constant S_ .f32 0x7F800000#32)) i = 1#1) ∧
    (∀ i, cmpi .sge x1 (broadcastInDim S8x4096x2 ![] Facts.bcast_S_S8x4096x2 (constantI S_ 32 0#32)) i = 1#1) ∧
    (∀ i, cmpi .slt x1 (broadcastInDim S8x4096x2 ![] Facts.bcast_S_S8x4096x2 (constantI S_ 32 8#32)) i = 1#1) := by
  have h0 := congrFun h ValueIdx.ix0
  dsimp only [fn, fn_part1] at h0
  obtain ⟨h0, e7⟩ := (andi_apply_eq_one _ _ _).1 h0
  obtain ⟨h0, e6⟩ := (andi_apply_eq_one _ _ _).1 h0
  obtain ⟨h0, e5⟩ := (andi_apply_eq_one _ _ _).1 h0
  obtain ⟨h0, e4⟩ := (andi_apply_eq_one _ _ _).1 h0
  obtain ⟨h0, e3⟩ := (andi_apply_eq_one _ _ _).1 h0
  obtain ⟨e1, e2⟩ := (andi_apply_eq_one _ _ _).1 h0
  exact ⟨all_of_reduce _ _ _ e1, all_of_reduce _ _ _ e2, all_of_reduce _ _ _ e3, all_of_reduce _ _ _ e4,
    all_of_reduce _ _ _ e5, all_of_reduce _ _ _ e6, all_of_reduce _ _ _ e7⟩

/-! ## The two readings -/

/-- Under the precondition every entry of the assignment array is one of 0, …, 7. -/
theorem inRange_of_pre {F : FTy → Type} [FloatOps F] (x0 : FVec F S8x4096x512 .f32) (x1 : IVec S8x4096x2 32)
    (x2 : FVec F S8x512x2048 .f32) (x3 : FVec F S8x2048 .f32) (x4 : FVec F S8x2048x512 .f32) (x5 : FVec F S8x512 .f32)
    (h : fn (F := F) x0 x1 x2 x3 x4 x5 = fun _ => 1#1) : ∀ i : S8x4096x2.Idx, (x1 i).toNat < 8 := by
  obtain ⟨-, -, -, -, -, hge, hlt⟩ := split x0 x1 x2 x3 x4 x5 h
  intro i
  have a : IntOp.cmpi .sge (x1 i) (0#32) = 1#1 := hge i
  have b : IntOp.cmpi .slt (x1 i) (8#32) = 1#1 := hlt i
  exact toNat_lt_eight (x1 i) (IntOp.cmpi_sge.1 a) (IntOp.cmpi_slt.1 b)

/-- Under the precondition, at the ideal values, every entry of the five float arrays is a real number. -/
theorem real_of_pre (x0 : FVec Ideal S8x4096x512 .f32) (x1 : IVec S8x4096x2 32) (x2 : FVec Ideal S8x512x2048 .f32)
    (x3 : FVec Ideal S8x2048 .f32) (x4 : FVec Ideal S8x2048x512 .f32) (x5 : FVec Ideal S8x512 .f32)
    (h : fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal)) ∧
      (∀ i, ∃ r : ℝ, x4 i = (r : EReal)) ∧ (∀ i, ∃ r : ℝ, x5 i = (r : EReal)) := by
  obtain ⟨h0, h2, h3, h4, h5, -, -⟩ := split x0 x1 x2 x3 x4 x5 h
  exact ⟨fun i => real_of_cmp (x0 i) (h0 i), fun i => real_of_cmp (x2 i) (h2 i), fun i => real_of_cmp (x3 i) (h3 i),
    fun i => real_of_cmp (x4 i) (h4 i), fun i => real_of_cmp (x5 i) (h5 i)⟩

end Cert.Pre_finite_inputs.Decode

end
-- ==== Proof.FrameRun.lean ====
/-
  The launch: the program's run is the host lines before its region, the region at the prefetched table's contents, and
  the host lines after it. From the run's post: the frame claim (every argument ends as it was launched) and where the
  result's buffer ends.
-/
import proofs.«423054_j31275951850054_3_alg».proof.Proof.Entry
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a host line touches -/

/-- The program's arguments. -/
abbrev args : List (Ref sig .tc) := [main_arg0, main_arg1, main_arg2, main_arg3, main_arg4, main_arg5]
/-- The arrays of the region's seven windows, in window order. -/
abbrev arrs : List (Ref sig .tc) := [main_v112, main_v113, main_v115, main_v114, main_v116, main_v82, main_v117]

/-- Each window's array is one of `arrs`. -/
theorem arrRef_mem_arrs : ∀ w : Fin 7, Pipeline.arrRef spec0 w ∈ arrs := by decide
/-- No argument is a window's array. -/
theorem arrRef_ne_of_mem_args {r : Ref sig .tc} (hr : r ∈ args) (w : Fin 7) : Pipeline.arrRef spec0 w ≠ r := by
  intro e
  have h := arrRef_mem_arrs w
  rw [e] at h
  revert h
  simp only [args, List.mem_cons, List.mem_nil_iff, or_false] at hr
  rcases hr with rfl | rfl | rfl | rfl | rfl | rfl <;> decide

/-- A host line writes the one buffer `y`, which is none of the list `L`. -/
def WritesOutside (L : List (Ref sig .tc)) (op : HloOp τ sig (Elt F)) : Prop :=
  ∃ y : Ref sig .tc, op.writes = {Proc.devRef .tc y} ∧ y ∉ L

/-- Such a line writes no buffer of `L`. -/
theorem WritesOutside.not_mem {L : List (Ref sig .tc)} {op : HloOp τ sig (Elt F)} (h : WritesOutside L op)
    {r : Ref sig .tc} (hr : r ∈ L) : Proc.devRef (τ := τ) .tc r ∉ op.writes := by
  obtain ⟨y, hw, hy⟩ := h
  rw [hw, Finset.mem_singleton]
  exact StableHlo.devRef_ne_of_ne fun e => hy (e ▸ hr)

/-- A reference is in none of a line's buffers when it differs from each of them: by the number of buffers. -/
theorem not_mem_bufs1 {r y : Ref sig .tc} (hy : r ≠ y) :
    Proc.devRef (τ := τ) .tc r ∉ ({Proc.devRef .tc y} : Finset (DevRef τ sig)) := by
  rw [Finset.mem_singleton]; exact StableHlo.devRef_ne_of_ne hy
theorem not_mem_bufs2 {r x y : Ref sig .tc} (hx : r ≠ x) (hy : r ≠ y) :
    Proc.devRef (τ := τ) .tc r ∉ ({Proc.devRef .tc x, Proc.devRef .tc y} : Finset (DevRef τ sig)) := by
  rw [Finset.mem_insert, not_or]; exact ⟨StableHlo.devRef_ne_of_ne hx, not_mem_bufs1 hy⟩
theorem not_mem_bufs3 {r a x y : Ref sig .tc} (ha : r ≠ a) (hx : r ≠ x) (hy : r ≠ y) :
    Proc.devRef (τ := τ) .tc r ∉ ({Proc.devRef .tc a, Proc.devRef .tc x, Proc.devRef .tc y} : Finset (DevRef τ sig)) := by
  rw [Finset.mem_insert, not_or]; exact ⟨StableHlo.devRef_ne_of_ne ha, not_mem_bufs2 hx hy⟩
theorem not_mem_bufs4 {r b a x y : Ref sig .tc} (hb : r ≠ b) (ha : r ≠ a) (hx : r ≠ x) (hy : r ≠ y) :
    Proc.devRef (τ := τ) .tc r ∉ ({Proc.devRef .tc b, Proc.devRef .tc a, Proc.devRef .tc x, Proc.devRef .tc y} : Finset (DevRef τ sig)) := by
  rw [Finset.mem_insert, not_or]; exact ⟨StableHlo.devRef_ne_of_ne hb, not_mem_bufs3 ha hx hy⟩

/-- What the run asks of a line after the region: it allocates nothing, the prefetched table is none of its buffers, and
    the one buffer it writes is no argument and no window's array. -/
structure TailLine (op : HloOp τ sig (Elt F)) : Prop where
  fresh : op.fresh = ∅
  table : Proc.devRef (τ := τ) .tc main_v104 ∉ op.bufs
  writes : WritesOutside (args ++ arrs) op

/-- Every line after the region is such a line: stretch by stretch, line by line (the table and the line's buffers told
    apart as references). -/
theorem hostOps1_tailLine : ∀ op ∈ (hostOps1 : List (HloOp τ sig (Elt F))), TailLine op := by
  intro op hop
  ((repeat (cases hop with
      | head =>
        refine ⟨rfl, ?_, ⟨_, rfl, by decide⟩⟩
        first
          | (rw [StableHlo.nullary_bufs]; exact not_mem_bufs1 (by decide))
          | (rw [StableHlo.unary_bufs]; exact not_mem_bufs2 (by decide) (by decide))
          | (rw [StableHlo.reshape_bufs]; exact not_mem_bufs2 (by decide) (by decide))
          | (rw [StableHlo.binary_bufs]; exact not_mem_bufs3 (by decide) (by decide) (by decide))
          | (rw [StableHlo.ternary_bufs]; exact not_mem_bufs4 (by decide) (by decide) (by decide) (by decide))
      | tail _ hop => ?_)); exact nomatch hop)
theorem hostOps1_1_tailLine : ∀ op ∈ (hostOps1_1 : List (HloOp τ sig (Elt F))), TailLine op := by
  intro op hop
  ((repeat (cases hop with
      | head =>
        refine ⟨rfl, ?_, ⟨_, rfl, by decide⟩⟩
        first
          | (rw [StableHlo.nullary_bufs]; exact not_mem_bufs1 (by decide))
          | (rw [StableHlo.unary_bufs]; exact not_mem_bufs2 (by decide) (by decide))
          | (rw [StableHlo.reshape_bufs]; exact not_mem_bufs2 (by decide) (by decide))
          | (rw [StableHlo.binary_bufs]; exact not_mem_bufs3 (by decide) (by decide) (by decide))
          | (rw [StableHlo.ternary_bufs]; exact not_mem_bufs4 (by decide) (by decide) (by decide) (by decide))
      | tail _ hop => ?_)); exact nomatch hop)
theorem hostOps1_2_tailLine : ∀ op ∈ (hostOps1_2 : List (HloOp τ sig (Elt F))), TailLine op := by
  intro op hop
  ((repeat (cases hop with
      | head =>
        refine ⟨rfl, ?_, ⟨_, rfl, by decide⟩⟩
        first
          | (rw [StableHlo.nullary_bufs]; exact not_mem_bufs1 (by decide))
          | (rw [StableHlo.unary_bufs]; exact not_mem_bufs2 (by decide) (by decide))
          | (rw [StableHlo.reshape_bufs]; exact not_mem_bufs2 (by decide) (by decide))
          | (rw [StableHlo.binary_bufs]; exact not_mem_bufs3 (by decide) (by decide) (by decide))
          | (rw [StableHlo.ternary_bufs]; exact not_mem_bufs4 (by decide) (by decide) (by decide) (by decide))
      | tail _ hop => ?_)); exact nomatch hop)
theorem postOps_tailLine : ∀ ops ∈ (postOps (F := F)), ∀ op ∈ ops, TailLine op := by
  intro ops hops op hop
  simp only [postOps, List.mem_cons, List.mem_nil_iff, or_false] at hops
  rcases hops with rfl | rfl | rfl
  · exact hostOps1_tailLine op hop
  · exact hostOps1_1_tailLine op hop
  · exact hostOps1_2_tailLine op hop

/-- No line before the region writes an argument: each writes its own result's buffer. -/
theorem preOps_writes : ∀ ops ∈ (preOps (F := F)), ∀ op ∈ ops, WritesOutside args op := by
  intro ops hops op hop
  simp only [preOps, List.mem_cons, List.mem_nil_iff, or_false] at hops
  rcases hops with rfl | rfl | rfl | rfl | rfl | rfl | rfl | rfl | rfl | rfl | rfl | rfl | rfl | rfl | rfl <;>
    ((repeat (cases hop with | head => exact ⟨_, rfl, by decide⟩ | tail _ hop => ?_)); exact nomatch hop)

/-! ## The lines after the region, as the run wants them -/

/-- The lines after the region touch the pipeline's arrays and the bypassing buffers only: TensorCore references, none
    of them the prefetched table. -/
theorem sfx_sub : ∀ ops ∈ (postOps (F := F)), ∀ op ∈ ops, op.bufs ⊆ Pipeline.tailRefs sig pre0 spec0 := by
  intro ops hops op hop
  have h₁ : op.bufs ⊆ StableHlo.tcRefs τ sig := by
    have hops' := hops
    simp only [postOps, List.mem_cons, List.mem_nil_iff, or_false] at hops'
    rcases hops' with rfl | rfl | rfl
    · exact (List.forall_iff_forall_mem.mp hostOps1_sub) op hop
    · exact (List.forall_iff_forall_mem.mp hostOps1_1_sub) op hop
    · exact (List.forall_iff_forall_mem.mp hostOps1_2_sub) op hop
  refine Pipeline.sub_tailRefs pre0 spec0 op h₁ fun (k : Fin 1) => ?_
  obtain rfl : k = 0 := Subsingleton.elim _ _
  exact (postOps_tailLine ops hops op hop).table
/-- They allocate nothing. -/
theorem sfx_fresh : ∀ ops ∈ (postOps (F := F)), ∀ op ∈ ops, op.fresh = ∅ :=
  fun ops hops op hop => (postOps_tailLine ops hops op hop).fresh
/-- And write no array of the pipeline. -/
theorem sfx_keeps : ∀ ops ∈ (postOps (F := F)), ∀ op ∈ ops, ∀ w, Proc.devRef .tc (Pipeline.arrRef spec0 w) ∉ op.writes :=
  fun ops hops op hop w => (postOps_tailLine ops hops op hop).writes.not_mem (List.mem_append_right _ (arrRef_mem_arrs w))

/-! ## The run -/

-- matching the launch theorem's conclusion against this statement has to unfold definitions that occur inside the types
-- of its implicit arguments
set_option backward.isDefEq.respectTransparency.types false in
/-- From any memory with zero counters, given the body's obligation at the proof data: every weakly fair execution of
    @main on the TensorCore terminates, and every final state has each array of the pipeline at what the library computes
    from the proof data and every other unscoped buffer as the lines after the region leave it. -/
theorem run_main (hO : Ok m) (hbody : ∀ c, BodyObligation (dats (F := F) m hO 0 c) (defs₀ (F := F)) Variants.none () Set.univ) :
    θ_run defs (onTc (τ := τ) (main (F := F))) (s₀ m ρ)
      (Pipeline.FramePost (Pipeline.pin pcfgs fun _ => adm m hO) (dats m hO) 0
        (Pipeline.afterTail pcfgs (fun _ => adm m hO) (dats m hO) 0 (V₀ m) postOps)) :=
  Pipeline.θ_run_frameP_around pcfgs (fun _ => adm m hO) (dats m hO) (0 : Fin 1) launch0 defs₀ Variants.none m ρ main
    (hbody := fun c => (hbody c).loose) (hshare := fun c => (dats m hO 0 c).share_full fun _ => rfl)
    (howed := fun _ _ => rfl) (V₀ := V₀ m) (opss := postOps) (hsub := sfx_sub) (hfresh := sfx_fresh) (hkeep := sfx_keeps)
    (hmain := hmain m Variants.none) (hA := A_eq m hO) (hpf := V_pre m) (hΦ := fun _ _ => rfl)

/-! ## The arguments, before and after the region -/

/-- When the region is entered an argument holds what it was launched with: no line before the region writes it. -/
theorem V_arg (c : Dev nD) {r : Ref sig .tc} (hr : r ∈ args) : V m c r = m ((c : Thread nD τ).loc r) :=
  StableHlo.after_of_forall_not_mem (preOps (F := F)).flatten (fun b => m (c, b)) fun op hop => by
    obtain ⟨ops, hops, hop'⟩ := List.mem_flatten.mp hop
    exact (preOps_writes ops hops op hop').not_mem hr
theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)

/-- After the lines that follow the region it still does: none of them writes it, and it is no window's array. -/
theorem tail_arg (hO : Ok m) (c : Dev nD) {r : Ref sig .tc} (hr : r ∈ args) :
    Pipeline.afterTail pcfgs (fun _ => adm m hO) (dats m hO) 0 (V₀ m) postOps c r = m ((c : Thread nD τ).loc r) := by
  unfold Pipeline.afterTail
  refine (StableHlo.after_of_forall_not_mem _ _ fun op hop => ?_).trans
    ((Pipeline.withArrays_of_ne spec0 c (V₀ m c) _ r fun w => arrRef_ne_of_mem_args hr w).trans (V_arg m c hr))
  obtain ⟨ops, hops, hop'⟩ := List.mem_flatten.mp hop
  exact (postOps_tailLine ops hops op hop').writes.not_mem (List.mem_append_left _ hr)
theorem tail_main_arg0 (hO : Ok m) (c : Dev nD) :
    Pipeline.afterTail pcfgs (fun _ => adm m hO) (dats m hO) 0 (V₀ m) postOps c main_arg0 = m ((c : Thread nD τ).loc main_arg0) :=
  tail_arg m hO c (by decide)
theorem tail_main_arg1 (hO : Ok m) (c : Dev nD) :
    Pipeline.afterTail pcfgs (fun _ => adm m hO) (dats m hO) 0 (V₀ m) postOps c main_arg1 = m ((c : Thread nD τ).loc main_arg1) :=
  tail_arg m hO c (by decide)
theorem tail_main_arg2 (hO : Ok m) (c : Dev nD) :
    Pipeline.afterTail pcfgs (fun _ => adm m hO) (dats m hO) 0 (V₀ m) postOps c main_arg2 = m ((c : Thread nD τ).loc main_arg2) :=
  tail_arg m hO c (by decide)
theorem tail_main_arg3 (hO : Ok m) (c : Dev nD) :
    Pipeline.afterTail pcfgs (fun _ => adm m hO) (dats m hO) 0 (V₀ m) postOps c main_arg3 = m ((c : Thread nD τ).loc main_arg3) :=
  tail_arg m hO c (by decide)
theorem tail_main_arg4 (hO : Ok m) (c : Dev nD) :
    Pipeline.afterTail pcfgs (fun _ => adm m hO) (dats m hO) 0 (V₀ m) postOps c main_arg4 = m ((c : Thread nD τ).loc main_arg4) :=
  tail_arg m hO c (by decide)
theorem tail_main_arg5 (hO : Ok m) (c : Dev nD) :
    Pipeline.afterTail pcfgs (fun _ => adm m hO) (dats m hO) 0 (V₀ m) postOps c main_arg5 = m ((c : Thread nD τ).loc main_arg5) :=
  tail_arg m hO c (by decide)

/-! ## The frame, and where the result ends -/

/-- An argument bypasses the region: it is unscoped and no window's array. -/
theorem arg_mem_restRefs {r : Ref sig .tc} (hr : r ∈ args) : r ∈ Pipeline.restRefs sig spec0 := by
  refine Pipeline.mem_restRefs_of r ?_ fun w => arrRef_ne_of_mem_args hr w
  simp only [args, List.mem_cons, List.mem_nil_iff, or_false] at hr
  rcases hr with rfl | rfl | rfl | rfl | rfl | rfl <;> rfl
/-- So does the result's buffer. -/
theorem v145_mem_restRefs : main_v145 ∈ Pipeline.restRefs sig spec0 :=
  Pipeline.mem_restRefs_of main_v145 rfl (by decide)

/-- What the run's post says of an argument: it ends as it was launched. -/
theorem arg_of_post (hO : Ok m) {s : PUnit × MemSt nD τ sig (Elt F)}
    (h : Pipeline.FramePost (Pipeline.pin pcfgs fun _ => adm m hO) (dats m hO) 0
      (Pipeline.afterTail pcfgs (fun _ => adm m hO) (dats m hO) 0 (V₀ m) postOps) s)
    (c : Dev nD) {r : Ref sig .tc} (hr : r ∈ args) :
    s.2.mem ((c.tc : Thread nD τ).loc r) = m ((c.tc : Thread nD τ).loc r) :=
  ((h c).2 r (arg_mem_restRefs hr)).trans (tail_arg m hO c hr)

/-- THE FRAME: @main terminates and every argument ends as it was launched. -/
theorem frame (hO : Ok m) (hbody : ∀ c, BodyObligation (dats (F := F) m hO 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨arg_of_post m hO h c (by decide), arg_of_post m hO h c (by decide),
      arg_of_post m hO h c (by decide), arg_of_post m hO h c (by decide), arg_of_post m hO h c (by decide),
      arg_of_post m hO h c (by decide)⟩) (run_main m ρ hO hbody)

/-- THE RESULT: besides, the result's buffer ends at what the lines after the region compute from the region's exit. -/
theorem run_result (hO : Ok m) (hbody : ∀ c, BodyObligation (dats (F := F) m hO 0 c) (defs₀ (F := F)) Variants.none () Set.univ) :
    θ_run defs (onTc (τ := τ) (main (F := F))) ⟨m, fun _ => 0, ρ⟩ (fun r => ∀ c : Dev nD,
      r.2.mem ((c.tc : Thread nD τ).loc main_v145)
          = Pipeline.afterTail pcfgs (fun _ => adm m hO) (dats m hO) 0 (V₀ m) postOps c main_v145
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v145 v145_mem_restRefs, arg_of_post m hO h c (by decide),
      arg_of_post m hO h c (by decide), arg_of_post m hO h c (by decide), arg_of_post m hO h c (by decide),
      arg_of_post m hO h c (by decide), arg_of_post m hO h c (by decide)⟩) (run_main m ρ hO hbody)

end Cert.KernelIdeal.Hand

end
-- ==== Proof.BodyRun.lean ====
/-
  The kernel body on any staging memrefs. It reads one word of the prefetched table; where the word is
  non-negative it loads its six input buffers whole and stores the feed-forward block into the output buffer;
  where the word is negative it stores the zero block there. Exactly one of the two happens.
-/
import proofs.«423054_j31275951850054_3_alg».proof.Proof.Gen.KernelIdeal.Launch
import proofs.«423054_j31275951850054_3_alg».proof.Proof.Gen.KernelIdeal.Skeleton
import Idealize.ShloMosaic.Lib.Tactic
import Idealize.ShloMosaic.Lib.Pipeline.FrameBody
import Idealize.ShloMosaic.Lib.WritesUnit
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

theorem cond2_of_not_cond1 (w : BitVec 32) (h : k0_cond1 w ≠ 1#1) : k0_cond2 w = 1#1 := by
  unfold k0_cond1 at h; unfold k0_cond2
  simp only [Scalar.cmpi, IntOp.cmpi, Scalar.extui, Scalar.xori, IntOp.xori] at h ⊢
  cases hb : (0#32).sle w
  · rfl
  · exact absurd rfl (hb ▸ h)

theorem not_cond2_of_cond1 (w : BitVec 32) (h : k0_cond1 w = 1#1) : k0_cond2 w ≠ 1#1 := by
  unfold k0_cond1 at h; unfold k0_cond2
  simp only [Scalar.cmpi, IntOp.cmpi, Scalar.extui, Scalar.xori, IntOp.xori] at h ⊢
  cases hb : (0#32).sle w
  · rw [hb] at h; exact absurd h (by decide)
  · decide

/-! ## Whole loads and whole stores through a whole memref -/

/-- A load of the whole of a whole memref held at the contents that read `X` reads `X`. -/
theorem readAt_whole_unread {S : Shape} {e : EltTy} {sp : Space} (M : Memref sig .tc sp S e) (h : M.IsWhole) (X : S.Idx → Elt F e)
    (off : Fin S.rank → ℕ) (h0 : ∀ a, off a = 0) (inb : ∀ a, off a + S.size a ≤ S.size a) :
    M.view.readAt (Elt F) (Rect.unit (s := S) off S.size inb).toLoadRect (h.unread X) = X := by
  funext x
  refine (h.readAt_unread X _ x).trans (congrArg X (funext fun a => Fin.ext ?_))
  show off a + 1 * (x a).val = (x a).val
  rw [h0, Nat.zero_add, Nat.one_mul]

/-- After a store of `w` through the whole of a view, the view reads `w`, whatever was written before. -/
theorem read_writes_whole_unit {S : Shape} {e : EltTy} {sp : Space} (v : View sig .tc sp S e) (f : v.ty.Contents (Elt F))
    (off : Fin S.rank → ℕ) (h0 : ∀ a, off a = 0) (inb : ∀ a, off a + S.size a ≤ S.size a) (w : S.Idx → Elt F e)
    (L : List (View.Piece (Elt F) S e)) :
    v.read (Elt F) (v.writes (Elt F) f ((⟨Rect.unit (s := S) off S.size inb, w⟩ : View.Piece (Elt F) S e) :: L)) = w :=
  funext fun y => View.read_writes_cons_unit_of_mem v f inb w L y y rfl fun a => by rw [h0, Nat.zero_add]

/-! ## The table as the body is handed it -/

/-- The prefetched table as the body is handed it: its whole buffer as a memref. -/
abbrev tbM : Memref sig .tc .smem S136 .i32 := Memref.whole main_v104
abbrev htbM : tbM.IsWhole := Memref.isWhole_whole _
/-- The table's buffer on core `c`: its contents type, and it held at half the full share at `f` (the pipeline keeps the
    other half: the body only reads it). -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f
/-- The word the body's one scalar load reads at point `i` off the table's contents `xt`. -/
abbrev wordAt (c : Dev nD) (i : grid0.Coords) (xt : TbBuf (F := F) c) : BitVec 32 :=
  tbM.view.readAt (Elt F) (Rect.unit (s := S136) (k0_off1 i) S1.size (k0_off1_inb i)).toLoadRect xt (Shape.Idx.first (numel1_S1.symm ▸ Nat.one_pos))

/-! ## The run, by the word's sign -/

set_option maxHeartbeats 1000000 in
/-- The word non-negative: the six inputs are loaded whole and the feed-forward block of them is stored whole. -/
theorem kernelRun_pos (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c)
    (hw : k0_cond1 (wordAt c i xt) = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay1 x0 x1 x2 x3 x4 x5) ∗ tbPt c xt) -∗ K ⟨⟩))
      ⊢ wp frame (wpE (defs₀ (F := F)) Variants.none c none) Set.univ
          (cc0__moe_kernel (F := F) i tbM htbM arg2 harg2 arg3 harg3 arg4 harg4 arg5 harg5 arg6 harg6 arg7 harg7 arg8 harg8) K := by
  have hw2 : ¬ k0_cond2 (wordAt c i xt) = 1#1 := not_cond2_of_cond1 _ hw
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (read_writes_whole_unit _ _ _ (by decide) _ _ _).trans ?_
    rw [readAt_whole_unread arg2 harg2 x0 _ (by decide), readAt_whole_unread arg3 harg3 x1 _ (by decide),
      readAt_whole_unread arg4 harg4 x2 _ (by decide), readAt_whole_unread arg5 harg5 x3 _ (by decide),
      readAt_whole_unread arg6 harg6 x4 _ (by decide), readAt_whole_unread arg7 harg7 x5 _ (by decide)]
  iexact HT

set_option maxHeartbeats 1000000 in
/-- The word negative: the zero block is stored whole; the inputs are not read. -/
theorem kernelRun_neg (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c)
    (hw : ¬ k0_cond1 (wordAt c i xt) = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay2 (F := F)) ∗ tbPt c xt) -∗ K ⟨⟩))
      ⊢ wp frame (wpE (defs₀ (F := F)) Variants.none c none) Set.univ
          (cc0__moe_kernel (F := F) i tbM htbM arg2 harg2 arg3 harg3 arg4 harg4 arg5 harg5 arg6 harg6 arg7 harg7 arg8 harg8) K := by
  have hw2 : k0_cond2 (wordAt c i xt) = 1#1 := cond2_of_not_cond1 _ hw
  simp only [cc0__moe_kernel_eq_skeleton]; unfold cc0__moe_kernel_skel
  iintro ⟨H0, H1, H2, H3, H4, H5, ⟨%d6, H6⟩, HT, Hk⟩
  unfold owns
  icases H6 with ⟨%f6, -, H6⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    exact read_writes_whole_unit _ _ _ (by decide) _ _ _
  iexact HT

/-! ## The run -/

/-- THE BODY'S RUN on any whole staging memrefs: from the six inputs' buffers at `x0 … x5`, the output's at anything and
    the table's half at `xt`, the body runs to its return with the inputs and the table as they were and the output's
    buffer at the feed-forward block of the inputs where the word it read is non-negative, at the zero block where it is
    negative; stated over a continuation `K`, which takes whatever else the caller holds across the run. -/
theorem kernelRunK (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (if k0_cond1 (wordAt c i xt) = 1#1 then k0_pay1 x0 x1 x2 x3 x4 x5 else k0_pay2 (F := F))
            ∗ tbPt c xt) -∗ K ⟨⟩))
      ⊢ wp frame (wpE (defs₀ (F := F)) Variants.none c none) Set.univ
          (cc0__moe_kernel (F := F) i tbM htbM arg2 harg2 arg3 harg3 arg4 harg4 arg5 harg5 arg6 harg6 arg7 harg7 arg8 harg8) K := by
  by_cases hw : k0_cond1 (wordAt c i xt) = 1#1
  · rw [if_pos hw]; exact kernelRun_pos c i arg2 harg2 arg3 harg3 arg4 harg4 arg5 harg5 arg6 harg6 arg7 harg7 arg8 harg8 x0 x1 x2 x3 x4 x5 xt hw K
  · rw [if_neg hw]; exact kernelRun_neg c i arg2 harg2 arg3 harg3 arg4 harg4 arg5 harg5 arg6 harg6 arg7 harg7 arg8 harg8 x0 x1 x2 x3 x4 x5 xt hw K

/-- The same as a triple. -/
theorem kernelRun (c : Dev nD) (i : grid0.Coords)
    (arg2 : Memref sig .tc .vmem S512x512 .bf16) (harg2 : arg2.IsWhole) (arg3 : Memref sig .tc .vmem S1x512x2048 .bf16) (harg3 : arg3.IsWhole)
    (arg4 : Memref sig .tc .vmem S1x1x2048 .f32) (harg4 : arg4.IsWhole) (arg5 : Memref sig .tc .vmem S1x2048x512 .bf16) (harg5 : arg5.IsWhole)
    (arg6 : Memref sig .tc .vmem S1x1x512 .f32) (harg6 : arg6.IsWhole) (arg7 : Memref sig .tc .vmem S512x1 .f32) (harg7 : arg7.IsWhole)
    (arg8 : Memref sig .tc .vmem S512x512 .bf16) (harg8 : arg8.IsWhole)
    (x0 : Vec F S512x512 .bf16) (x1 : Vec F S1x512x2048 .bf16) (x2 : Vec F S1x1x2048 .f32) (x3 : Vec F S1x2048x512 .bf16)
    (x4 : Vec F S1x1x512 .f32) (x5 : Vec F S512x1 .f32) (xt : TbBuf (F := F) c) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ tbPt c xt)
      ⊢ wp frame (wpE (defs₀ (F := F)) Variants.none c none) Set.univ
          (cc0__moe_kernel (F := F) i tbM htbM arg2 harg2 arg3 harg3 arg4 harg4 arg5 harg5 arg6 harg6 arg7 harg7 arg8 harg8)
          (fun _ => iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (if k0_cond1 (wordAt c i xt) = 1#1 then k0_pay1 x0 x1 x2 x3 x4 x5 else k0_pay2 (F := F))
            ∗ tbPt c xt)) := by
  iintro ⟨H0, H1, H2, H3, H4, H5, H6, HT⟩
  iapply (kernelRunK c i arg2 harg2 arg3 harg3 arg4 harg4 arg5 harg5 arg6 harg6 arg7 harg7 arg8 harg8 x0 x1 x2 x3 x4 x5 xt _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT]; · iexact HT
  iintro H; iexact H

end Cert.KernelIdeal.Hand

end
-- ==== Proof.Body.lean ====
/-
  The body obligation of the pipeline's proof data: at every point the body, handed the invariant and each window's
  current staging buffer, runs to the invariant and the buffers at what the proof data state.
-/
import proofs.«423054_j31275951850054_3_alg».proof.Proof.Entry
import proofs.«423054_j31275951850054_3_alg».proof.Proof.BodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The table's half, and the word -/

/-- The tables' halves the region hands the body are the one table's. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-- The word the body's load reads off the table's contents is the table's element at the load's offsets. -/
theorem wordAt_tbl (hO : Ok m) (c : Dev nD) (t : Fin (cfgM m hO).N) :
    wordAt c (grid0.coords t) (tbl m 0) = word m hO t := by
  unfold word
  refine Eq.trans ?_ (dif_pos (show ∀ a, k0_off1 ((cfgM m hO).grid.coords t) a + 1 ≤ (pre0.ref 0).ty.shape.size a from
    Fin.forall_fin_one.mpr (k0_off1_inb _ 0))).symm
  exact congrArg (tbl m 0) (funext fun a => Fin.ext (by show _ + 1 * 0 = _; rw [Nat.mul_zero, Nat.add_zero]; rfl))

/-- The output window is idle at no point: one of the body's two stores runs. -/
theorem idle6 (hO : Ok m) (i : (cfgM m hO).grid.Coords) : (cfgM m hO).idle 6 i = false := by
  show (!(k0_cond1 ((tbl m).atD 0 (k0_off1 i)) == 1#1) && !(k0_cond2 ((tbl m).atD 0 (k0_off1 i)) == 1#1)) = false
  by_cases h : k0_cond1 ((tbl m).atD 0 (k0_off1 i)) = 1#1
  · simp [h]
  · simp [h, cond2_of_not_cond1 _ h]

/-! ## What the body leaves, window by window -/

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = outAt m hO c t := by dsimp only [dats]; try rfl

/-! ## What the body finds in each input's buffer -/

/-- An input window's current staging buffer holds its block at every point, fetched there or not: a window whose block
    index has not moved is not fetched again and still holds the block. -/
theorem before_in (hO : Ok m) (c : Dev nD) (w : Fin (cfgM m hO).W) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = (dats m hO 0 c).blockOf w t)
    (hfetched : ∀ t d, (dats m hO 0 c).fetched w t d = iblk m hO c w t)
    (t : Fin (cfgM m hO).N) (d) : (dats m hO 0 c).before w t d = iblk m hO c w t :=
  ((dats m hO 0 c).before_in_eq_fetched w hw hlive hclip hkeep t d).trans (hfetched t d)

theorem before_0 (hO : Ok m) (c : Dev nD) (t : Fin (cfgM m hO).N) (d) : (dats m hO 0 c).before 0 t d = iblk m hO c 0 t :=
  before_in m hO c 0 rfl (fun _ => rfl) (fun _ _ _ => rfl)
    (fun t => by rw [after_0]; unfold Dat.blockOf iblk; rw [A_eq]; try rfl)
    (fun t d => by unfold Dat.fetched Dat.blockOf iblk; rw [A_eq]; try rfl) t d
theorem before_1 (hO : Ok m) (c : Dev nD) (t : Fin (cfgM m hO).N) (d) : (dats m hO 0 c).before 1 t d = iblk m hO c 1 t :=
  before_in m hO c 1 rfl (fun _ => rfl) (fun _ _ _ => rfl)
    (fun t => by rw [after_1]; unfold Dat.blockOf iblk; rw [A_eq]; try rfl)
    (fun t d => by unfold Dat.fetched Dat.blockOf iblk; rw [A_eq]; try rfl) t d
theorem before_2 (hO : Ok m) (c : Dev nD) (t : Fin (cfgM m hO).N) (d) : (dats m hO 0 c).before 2 t d = iblk m hO c 2 t :=
  before_in m hO c 2 rfl (fun _ => rfl) (fun _ _ _ => rfl)
    (fun t => by rw [after_2]; unfold Dat.blockOf iblk; rw [A_eq]; try rfl)
    (fun t d => by unfold Dat.fetched Dat.blockOf iblk; rw [A_eq]; try rfl) t d
theorem before_3 (hO : Ok m) (c : Dev nD) (t : Fin (cfgM m hO).N) (d) : (dats m hO 0 c).before 3 t d = iblk m hO c 3 t :=
  before_in m hO c 3 rfl (fun _ => rfl) (fun _ _ _ => rfl)
    (fun t => by rw [after_3]; unfold Dat.blockOf iblk; rw [A_eq]; try rfl)
    (fun t d => by unfold Dat.fetched Dat.blockOf iblk; rw [A_eq]; try rfl) t d
theorem before_4 (hO : Ok m) (c : Dev nD) (t : Fin (cfgM m hO).N) (d) : (dats m hO 0 c).before 4 t d = iblk m hO c 4 t :=
  before_in m hO c 4 rfl (fun _ => rfl) (fun _ _ _ => rfl)
    (fun t => by rw [after_4]; unfold Dat.blockOf iblk; rw [A_eq]; try rfl)
    (fun t d => by unfold Dat.fetched Dat.blockOf iblk; rw [A_eq]; try rfl) t d
theorem before_5 (hO : Ok m) (c : Dev nD) (t : Fin (cfgM m hO).N) (d) : (dats m hO 0 c).before 5 t d = iblk m hO c 5 t :=
  before_in m hO c 5 rfl (fun _ => rfl) (fun _ _ _ => rfl)
    (fun t => by rw [after_5]; unfold Dat.blockOf iblk; rw [A_eq]; try rfl)
    (fun t d => by unfold Dat.fetched Dat.blockOf iblk; rw [A_eq]; try rfl) t d

/-! ## The body at a point -/

/-- Each window's current staging memref at point `t`, spelled as the pipeline passes it, and its wholeness. -/
abbrev ms0 (hO : Ok m) (t : Fin (cfgM m hO).N) : Memref sig .tc .vmem S512x512 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x512x2048 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x2048x512 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x512 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S512x1 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S512x512 .bf16 := spec0_6.stage ((cfgM m hO).slots t 6)
abbrev hs6 (hO : Ok m) (t : Fin (cfgM m hO).N) : (ms6 m hO t).IsWhole := hstage0_6 (((cfgM m hO).slots t 6).cast nbuf0_6)

/-- The kernel body at point `t`, on what the pipeline calls it with. -/
abbrev bodyAt (hO : Ok m) (t : Fin (cfgM m hO).N) : Prog (TpuEff nD τ sig (Elt F) Λ₀ .tc) PUnit :=
  cc0__moe_kernel (grid0.coords t) tbM htbM (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t)

/-- What the body is called with at point `t`: the invariant, what the core owes, each window's current buffer at what it
    then holds. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t))

/-- The body at any point: the inputs' buffers hold their blocks, the word the load reads is the table's word for the
    point, so the run applies; the invariant passes through, the table's half read and handed back; the core owes
    nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6]
  rw [show (dats m hO 0 c).Φ t.castSucc = iprop(Pipeline.ΦA spec0 c ∗ Pipeline.ΦT pre0 (tbl m) c) from rfl, PhiT_eq]
  unfold outAt
  rw [← wordAt_tbl m hO c t]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (kernelRunK c (grid0.coords t) _ _ _ _ _ _ _ _ _ _ _ _ _ _ (iblk m hO c 0 t) (iblk m hO c 1 t) (iblk m hO c 2 t) (iblk m hO c 3 t) (iblk m hO c 4 t) (iblk m hO c 5 t) (tbl m 0) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT]; · iexact HT
  iintro ⟨H0, H1, H2, H3, H4, H5, H6, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- The library's body obligation, at every point: the windows conjoined one by one, the output window live (not idle) at
    the point, and the body's run. -/
theorem body_obligation (hO : Ok m) (c : Dev nD) : BodyObligation (dats (F := F) m hO 0 c) (defs₀ (F := F)) Variants.none () Set.univ := fun t => by
  rw [bigSep_W0, bigSep_W0]
  refine (sound_body m hO c t).trans (wp_mono _ _ _ fun _ => ?_)
  unfold bodyPost
  refine sep_mono .rfl (sep_mono .rfl (sep_mono .rfl (sep_mono .rfl (sep_mono .rfl (sep_mono .rfl (sep_mono .rfl (sep_mono .rfl ?_)))))))
  show _ ⊢ (dats m hO 0 c).leavesExact 6 t
  unfold Dat.leavesExact
  rw [idle6 m hO]
  exact .rfl

end Cert.KernelIdeal.Hand

end
-- ==== Proof.HostCounts.lean ====
/-
  The counting stage of the host's integer chain, read as natural numbers.

  Every pair's expert is an entry of the assignment array, so under `InRange` it is a number below 8. The scatter
  that adds a one at each pair's expert holds, at expert e, the number of pairs whose expert is e. From these counts
  everything else is arithmetic on numbers far below 2³¹: the count rounded up to whole tiles of 512 rows, the
  exclusive prefix sums of the counts and of the rounded counts, and both of the latter in tiles.
-/
import proofs.«423054_j31275951850054_3_alg».proof.Proof.HostSpec
import proofs.«423054_j31275951850054_3_alg».proof.Proof.LibScatter
import proofs.«423054_j31275951850054_3_alg».proof.Proof.LibPrefix
import proofs.«423054_j31275951850054_3_alg».proof.Proof.LibWord
import Idealize.ShloMosaic.Lib.ValueIdx
import Idealize.ShloMosaic.Lib.SortFacts
import Idealize.ShloMosaic.Lib.Pipeline.Value
import Mathlib.Data.Fintype.Card
import Mathlib.Algebra.BigOperators.Fin

noncomputable section

namespace Cert.KernelIdeal.Host

open Cert.KernelIdeal Cert.KernelIdeal.Chain Cert.Moe Idealize.ShloMosaic
open Facts₀ Facts

variable [Facts] (a1 : IVec S8x4096x2 32)

/-! ## The experts of the pairs -/

/-- Each pair's expert is an entry of the assignment array: the two reshapes only re-index. -/
theorem pairExpert_entry (j : S65536.Idx) : ∃ i : S8x4096x2.Idx, pairExpert a1 j = a1 i := ⟨_, rfl⟩

/-- The experts are in range, pair by pair. -/
theorem keyFacts (ha : InRange a1) : KeyFacts a1 := by
  have hlt : ∀ p : Fin 65536, key a1 p < 8 := by
    intro p
    obtain ⟨i, hi⟩ := pairExpert_entry a1 (Shape.Idx.ofFin p)
    unfold key
    rw [hi]
    exact ha i
  refine ⟨hlt, fun p => ?_⟩
  have h := hlt p
  exact (isNat_of_toNat_lt (v := pairExpert a1 (Shape.Idx.ofFin p)) (by unfold key at h; omega)).1

/-- A pair's expert is the natural number `key`. -/
theorem pairExpert_isNat (hk : KeyFacts a1) (p : Fin 65536) : IsNat (pairExpert a1 (Shape.Idx.ofFin p)) (key a1 p) :=
  ⟨hk.pairExpert_eq p, by have := hk.key_lt p; omega⟩

/-! ## The counts -/

/-- A vector as a column, read at row `p`. -/
theorem col65536_apply (x : IVec S65536 32) (p : Fin 65536) :
    col65536 x (ValueIdx.ix2 p 0) = x (Shape.Idx.ofFin p) := by
  refine broadcastInDim_apply ![0] bcast_S65536_S65536x1_0 x _ _ fun a => ?_
  have ha : a = 0 := Subsingleton.elim _ _
  subst ha
  exact (if_neg (by decide)).symm

/-- The scatter's index column at row `p` is pair `p`'s expert: a number below 8 is not wrapped. -/
theorem expertCol_apply (hk : KeyFacts a1) (p : Fin 65536) :
    col65536 (wrap65536 8#32 (pairExpert a1)) (ValueIdx.ix2 p 0) = BitVec.ofNat 32 (key a1 p) := by
  refine (col65536_apply _ p).trans ?_
  unfold wrap65536
  refine (wrap_select_apply (pairExpert a1) (fill65536 0#32) (fill65536 8#32) (Shape.Idx.ofFin p)
    (pairExpert_isNat a1 hk p) rfl).trans ?_
  exact hk.pairExpert_eq p

/-- Update `n` of the counting scatter lands at expert `e` exactly when pair `n`'s expert is `e`. -/
theorem count_hit_iff (hk : KeyFacts a1) (n : S65536.Idx) (e : Fin 8) :
    scatter_S8_S65536x1_S65536_n_0_0_1.resultIdx? n (col65536 (wrap65536 8#32 (pairExpert a1))) = some (Shape.Idx.ofFin e)
      ↔ key a1 (n 0) = e.val := by
  rw [resultIdx?_take scatter_S8_S65536x1_S65536_n_0_0_1 rfl rfl rfl rfl, expertCol_apply a1 hk (n 0),
    (isNat_ofNat (by have := hk.key_lt (n 0); omega)).toInt_eq]
  show ((key a1 (n 0) : ℕ) : ℤ) = ((e.val : ℕ) : ℤ) ↔ _
  exact Nat.cast_inj

/-- The counting scatter holds at expert `e` the number of pairs of expert `e`. -/
theorem counts_apply (hk : KeyFacts a1) (e : Fin 8) :
    counts a1 (Shape.Idx.ofFin e) = BitVec.ofNat 32 (cnt a1 e) := by
  unfold counts
  refine (scatter_add_ones_apply scatter_S8_S65536x1_S65536_n_0_0_1 (fill8 0#32)
    (col65536 (wrap65536 8#32 (pairExpert a1))) (fill65536 1#32) (fun _ => rfl) (Shape.Idx.ofFin e)).trans ?_
  refine (BitVec.zero_add _).trans (congrArg (BitVec.ofNat 32) ?_)
  unfold cnt
  refine Finset.card_bij (fun n _ => (show Fin 65536 from n 0)) (fun n hn => ?_) (fun n₁ _ n₂ _ h => ?_) (fun p hp => ?_)
  · exact Finset.mem_filter.mpr ⟨Finset.mem_univ _, (count_hit_iff a1 hk n e).mp (Finset.mem_filter.mp hn).2⟩
  · have h' : n₁ 0 = n₂ 0 := h
    rw [Shape.Idx.eq_ofFin n₁, Shape.Idx.eq_ofFin n₂, h']
  · refine ⟨Shape.Idx.ofFin p, ?_, rfl⟩
    exact Finset.mem_filter.mpr
      ⟨Finset.mem_univ _, (count_hit_iff a1 hk (Shape.Idx.ofFin p) e).mpr (Finset.mem_filter.mp hp).2⟩

/-- An expert has at most all the pairs. -/
theorem cnt_le (e : Fin 8) : cnt a1 e ≤ 65536 := by
  unfold cnt
  refine (Finset.card_filter_le _ _).trans ?_
  rw [Finset.card_univ, Fintype.card_fin]

/-- The counts add up to the number of pairs. -/
theorem sum_cnt (hk : KeyFacts a1) : ∑ e : Fin 8, cnt a1 e = 65536 := by
  refine Eq.trans (Finset.sum_congr rfl fun e _ => ?_) (sum_cnt_eq (keyF a1 hk))
  unfold cnt
  refine congrArg Finset.card (Finset.filter_congr fun p _ => ?_)
  exact (Fin.ext_iff (a := keyF a1 hk p) (b := e)).symm

/-! ## Rounded counts, run starts, tiles -/

/-- Floor division of 8 natural-number words by a positive scalar. -/
theorem floorDiv8_isNat (x : IVec S8 32) (i : S8.Idx) {k D : ℕ} (hx : IsNat (x i) k) (hD : 0 < D) (hD' : D < 2 ^ 31) :
    IsNat (floorDiv8 x (constantI S_ 32 (BitVec.ofNat 32 D)) i) (k / D) :=
  floorDiv_vec_isNat bcast_S_S8 x (constantI S_ 32 (BitVec.ofNat 32 D)) i hx (fun _ => rfl) hD hD'

theorem counts_isNat (hk : KeyFacts a1) (e : Fin 8) : IsNat (counts a1 (Shape.Idx.ofFin e)) (cnt a1 e) :=
  ⟨counts_apply a1 hk e, by have := cnt_le a1 e; omega⟩

/-- The rounded count: (count + 512 − 1) floor-divided by 512, times 512. -/
theorem paddedCount_isNat (hk : KeyFacts a1) (e : Fin 8) :
    IsNat (paddedCount a1 (Shape.Idx.ofFin e)) (padCnt 512 (cnt a1) e) := by
  have hc := cnt_le a1 e
  have h1 : IsNat (addi (counts a1) (fill8 512#32) (Shape.Idx.ofFin e)) (cnt a1 e + 512) :=
    (counts_isNat a1 hk e).add (isNat_ofNat (k := 512) (by omega)) (by omega)
  have h2 : IsNat (subi (addi (counts a1) (fill8 512#32)) (fill8 1#32) (Shape.Idx.ofFin e)) (cnt a1 e + 512 - 1) :=
    h1.sub isNat_one (by omega)
  have h3 := floorDiv8_isNat (subi (addi (counts a1) (fill8 512#32)) (fill8 1#32)) (Shape.Idx.ofFin e) h2
    (D := 512) (by omega) (by omega)
  have hq : (cnt a1 e + 512 - 1) / 512 * 512 < 2 ^ 31 :=
    Nat.lt_of_le_of_lt (Nat.div_mul_le_self _ _) (by omega)
  exact h3.mul (isNat_ofNat (k := 512) (by omega)) hq

/-- The exclusive prefix sums of 8 words that are the naturals `c`. -/
theorem exclPrefix8_apply (c : Fin 8 → ℕ) (x : IVec S8 32)
    (hx : ∀ k : Fin 8, x (Shape.Idx.ofFin k) = BitVec.ofNat 32 (c k)) (e : Fin 8) :
    exclPrefix8 x (Shape.Idx.ofFin e) = BitVec.ofNat 32 (∑ k ∈ Finset.univ.filter (fun k : Fin 8 => k < e), c k) := by
  unfold exclPrefix8
  refine (exclPrefix8_ofNat c (cumsum8 x) (fun i => ?_) _ (fun _ => rfl) slices_S8_S7_0 concatenates_S1_S7_S8_d0 e).trans ?_
  · unfold cumsum8
    exact cumsum8_ofNat c x hx _ (fun _ => rfl) reduceWindows_S8_S8_w8s1p7_0 h_S_ i
  · exact congrArg (BitVec.ofNat 32) (Finset.sum_congr (Finset.filter_congr fun k _ => Fin.lt_def.symm) fun _ _ => rfl)

/-- A padded run ends within the 65536 pairs plus 8 tiles' worth of rounding. -/
theorem padStart_add_padCnt_le' (hk : KeyFacts a1) (e : Fin 8) :
    padStart 512 (cnt a1) e + padCnt 512 (cnt a1) e ≤ 69624 := by
  have h := padStart_add_padCnt_le_total 512 (cnt a1) (by omega) e
  rw [sum_cnt a1 hk] at h
  exact h

theorem paddedStart_isNat (hk : KeyFacts a1) (e : Fin 8) :
    IsNat (paddedStart a1 (Shape.Idx.ofFin e)) (padStart 512 (cnt a1) e) := by
  refine ⟨?_, by have := padStart_add_padCnt_le' a1 hk e; omega⟩
  unfold paddedStart
  exact exclPrefix8_apply (padCnt 512 (cnt a1)) (paddedCount a1) (fun k => (paddedCount_isNat a1 hk k).1) e

/-- What the counting stage computes. -/
theorem countFacts (ha : InRange a1) : CountFacts a1 := by
  have hk := keyFacts a1 ha
  refine ⟨counts_apply a1 hk, fun e => (paddedCount_isNat a1 hk e).1, fun e => (paddedStart_isNat a1 hk e).1,
    fun e => ?_, fun e => ?_, fun e => ?_, sum_cnt a1 hk⟩
  · unfold unpaddedStart
    exact exclPrefix8_apply (cnt a1) (counts a1) (counts_apply a1 hk) e
  · unfold tileStart
    exact (floorDiv8_isNat (paddedStart a1) (Shape.Idx.ofFin e) (paddedStart_isNat a1 hk e) (D := 512) (by omega) (by omega)).1
  · unfold tileCount
    exact (floorDiv8_isNat (paddedCount a1) (Shape.Idx.ofFin e) (paddedCount_isNat a1 hk e) (D := 512) (by omega) (by omega)).1

end Cert.KernelIdeal.Host

end
-- ==== Proof.HostTable.lean ====
/-
  The table stage of the host's integer chain: the word of each tile of 512 rows.

  Expert e owns the tiles from padStart e / 512 on, padCnt e / 512 of them.  The program builds the [136, 8] array of
  bits "tile i is one of expert e's" from two signed comparisons of the tile number with the expert's first tile and
  with the tile after its last, reduces it along the experts with "or" to know whether the tile has an owner and, weighted
  by the experts' numbers, with "+" to know which, and selects between that sum and −1.

  Every word compared is a natural number below 137, so the comparisons are those of the naturals and a bit of the array
  is set exactly when the expert owns the tile.  The padded runs do not overlap, so at most one bit of a row is set:
  the weighted sum of a row with a set bit is the number of the one expert whose bit it is.
-/
import proofs.«423054_j31275951850054_3_alg».proof.Proof.HostSpec
import proofs.«423054_j31275951850054_3_alg».proof.Proof.LibWord
import Idealize.ShloMosaic.Lib.StableHlo.Predicate
import Idealize.ShloMosaic.Lib.Affine
import Idealize.ShloMosaic.PureOps.Reduce

noncomputable section

namespace Cert.KernelIdeal.Host

open Cert.KernelIdeal Cert.KernelIdeal.Chain Cert.Moe Idealize.ShloMosaic
open Idealize.ShloMosaic.StableHlo.Predicate (ij)
open Facts₀ Facts

namespace Table

/-! ## Folds of bits under "or" and of words under "+" over a finite set -/

/-- An "or" of bits is set exactly when one of the bits is. -/
theorem fold_ori_eq_one_iff {ι : Type} [DecidableEq ι] (S : Finset ι) (f : ι → BitVec 1) :
    S.fold IntOp.ori 0#1 f = 1#1 ↔ ∃ k ∈ S, f k = 1#1 := by
  induction S using Finset.induction_on with
  | empty =>
    rw [Finset.fold_empty]
    constructor
    · intro h; exact absurd h (by decide)
    · rintro ⟨k, hk, -⟩; exact absurd hk (Finset.notMem_empty k)
  | insert a S ha ih =>
    rw [Finset.fold_insert ha, IntOp.ori_eq_one, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.mp hk with rfl | hk
      · exact Or.inl h
      · exact Or.inr ⟨k, hk, h⟩

/-- A sum of zero words is zero. -/
theorem fold_addi_eq_zero {ι : Type} [DecidableEq ι] (S : Finset ι) (f : ι → BitVec 32) (h0 : ∀ k ∈ S, f k = 0#32) :
    S.fold IntOp.addi 0#32 f = 0#32 := by
  induction S using Finset.induction_on with
  | empty => rfl
  | insert a S ha ih =>
    rw [Finset.fold_insert ha, h0 a (Finset.mem_insert_self a S), ih fun k hk => h0 k (Finset.mem_insert_of_mem hk)]
    rfl

/-- A sum of words all zero but one is that one. -/
theorem fold_addi_eq_single {ι : Type} [DecidableEq ι] (S : Finset ι) (f : ι → BitVec 32) (e : ι) (he : e ∈ S)
    (h0 : ∀ k ∈ S, k ≠ e → f k = 0#32) : S.fold IntOp.addi 0#32 f = f e := by
  rw [← Finset.insert_erase he, Finset.fold_insert (Finset.notMem_erase e S),
    fold_addi_eq_zero _ _ fun k hk => h0 k (Finset.mem_of_mem_erase hk) (Finset.ne_of_mem_erase hk)]
  exact BitVec.add_zero (f e)

/-! ## A reduction of the [136, 8] array along its second axis, read at a row -/

/-- The index of the [136, 8] array over row `i` with column `k` inserted is (i, k). -/
theorem lift_row (h : S136x8.Reduces [1] S136) (i : Fin 136) (k : Fin 8) :
    h.lift (Shape.Idx.ofFin i) k = ij i k := by
  funext c
  match c with
  | ⟨0, _⟩ => exact Fin.ext rfl
  | ⟨1, _⟩ => exact Fin.ext rfl

variable [Facts]

/-- A commutative and associative reduction over the experts is, at tile `i`, the fold of row `i`. -/
theorem reduce_row {α : Type} (f : α → α → α) [Std.Commutative f] [Std.Associative f] (x : S136x8.Idx → α)
    (init : S_.Idx → α) (i : Fin 136) :
    Host.reduce f x init reducesTo_S136x8_S136_d1 h_S_ (Shape.Idx.ofFin i)
      = (Finset.univ : Finset (Fin 8)).fold f (init (Shape.Idx.first h_S_)) (fun k => x (ij i k)) := by
  have h : S136x8.Reduces [1] S136 := by decide
  refine (Host.reduce_eq_fold_single f x init reducesTo_S136x8_S136_d1 h h_S_ (Shape.Idx.ofFin i)).trans ?_
  show (Finset.univ : Finset (Fin 8)).fold f _ (x ∘ h.lift (Shape.Idx.ofFin i)) = _
  congr 1
  funext k
  exact congrArg x (lift_row h i k)

variable (a1 : IVec S8x4096x2 32)

/-! ## The array of bits -/

/-- An expert's tiles end by tile 135: the padded runs fit in 65536 + 8 · 511 rows. -/
theorem tiles_le (hc : CountFacts a1) (e : Fin 8) :
    padStart 512 (cnt a1) e / 512 + padCnt 512 (cnt a1) e / 512 ≤ 135 := by
  have h := padStart_add_padCnt_le_total 512 (cnt a1) (by omega) e
  rw [hc.sum_cnt] at h
  obtain ⟨a, ha⟩ := dvd_padStart 512 (cnt a1) e
  obtain ⟨b, hb⟩ := dvd_padCnt 512 (cnt a1) e
  rw [ha, hb] at h ⊢
  rw [Nat.mul_div_cancel_left _ (by omega), Nat.mul_div_cancel_left _ (by omega)]
  omega

/-- The bit of tile i and expert e: the two comparisons of the tile's number with the expert's words. -/
theorem inRange_apply (i : Fin 136) (e : Fin 8) :
    inRange a1 (ij i e) =
      IntOp.andi (IntOp.cmpi .sge (BitVec.ofNat 32 i.val) (tileStart a1 (Shape.Idx.ofFin e)))
        (IntOp.cmpi .slt (BitVec.ofNat 32 i.val)
          (IntOp.addi (tileStart a1 (Shape.Idx.ofFin e)) (tileCount a1 (Shape.Idx.ofFin e)))) := by
  unfold inRange
  rw [andi_at, cmpi_at, cmpi_at, StableHlo.Predicate.bcast_rows, StableHlo.Predicate.bcast_cols,
    StableHlo.Predicate.bcast_cols, StableHlo.Predicate.iota_apply, addi_at]

/-- The bit is set exactly when the expert owns the tile. -/
theorem inRange_eq_one_iff (hc : CountFacts a1) (i : Fin 136) (e : Fin 8) :
    inRange a1 (ij i e) = 1#1 ↔ Owns a1 e i.val := by
  have hle := tiles_le a1 hc e
  have hs : IsNat (tileStart a1 (Shape.Idx.ofFin e)) (padStart 512 (cnt a1) e / 512) :=
    ⟨hc.tileStart_eq e, by omega⟩
  have hn : IsNat (tileCount a1 (Shape.Idx.ofFin e)) (padCnt 512 (cnt a1) e / 512) :=
    ⟨hc.tileCount_eq e, by omega⟩
  have hi : IsNat (BitVec.ofNat 32 i.val) i.val := isNat_ofNat (by have := i.isLt; omega)
  rw [inRange_apply, IntOp.andi_eq_one, hi.sge_iff hs, hi.slt_iff (hs.add hn (by omega))]
  rfl

/-! ## The table -/

/-- A cleared bit weighs nothing; a set bit weighs the expert's number. -/
theorem weight_zero (x : BitVec 32) : IntOp.muli ((0#1 : BitVec 1).setWidth 32) x = 0#32 := by
  show (0#1 : BitVec 1).setWidth 32 * x = 0#32
  rw [show (0#1 : BitVec 1).setWidth 32 = 0#32 from rfl, BitVec.zero_mul]
theorem weight_one (x : BitVec 32) : IntOp.muli ((1#1 : BitVec 1).setWidth 32) x = x := by
  show (1#1 : BitVec 1).setWidth 32 * x = x
  rw [show (1#1 : BitVec 1).setWidth 32 = 1#32 from rfl, BitVec.one_mul]

/-- The weighted bit of tile i and expert k: the bit widened, times the expert's number. -/
theorem weighted_apply (i : Fin 136) (k : Fin 8) :
    muli (extui 32 (inRange a1) natLt_1_32)
        (broadcastInDim S136x8 ![0, 1] bcast_S1x8_S136x8_0_1 (broadcastInDim S1x8 ![1] bcast_S8_S1x8_1 (iotaInDim S8 32 0)))
        (ij i k)
      = IntOp.muli ((inRange a1 (ij i k)).setWidth 32) (BitVec.ofNat 32 k.val) := by
  rw [muli_at, StableHlo.Predicate.bcast_cols, StableHlo.Predicate.iota_apply]
  rfl

/-- The word of tile i: the selection, on the "or" of row i, between the weighted sum of row i and −1. -/
theorem tileExpert_apply (i : Fin 136) :
    tileExpert a1 (Shape.Idx.ofFin i) =
      Scalar.select ((Finset.univ : Finset (Fin 8)).fold IntOp.ori 0#1 fun k => inRange a1 (ij i k))
        ((Finset.univ : Finset (Fin 8)).fold IntOp.addi 0#32 fun k =>
          IntOp.muli ((inRange a1 (ij i k)).setWidth 32) (BitVec.ofNat 32 k.val))
        4294967295#32 := by
  unfold tileExpert
  rw [select_at, reduce_row, reduce_row, bcast0_at]
  simp only [weighted_apply]
  rfl

end Table

open Table

variable [Facts] (a1 : IVec S8x4096x2 32)

/-- THE TABLE STAGE: a tile's word is its owner's number, or −1 when it has no owner. -/
theorem tableFacts (hc : CountFacts a1) : TableFacts a1 := by
  refine ⟨fun i e ho => ?_, fun i hno => ?_⟩
  · have hbit : ∀ k : Fin 8, k ≠ e → inRange a1 (ij i k) = 0#1 := fun k hk =>
      (bit_eq_zero_iff _).mpr fun h1 =>
        hk (tile_owner_unique 512 (cnt a1) (by omega) i.val ((inRange_eq_one_iff a1 hc i k).mp h1) ho)
    have hone : inRange a1 (ij i e) = 1#1 := (inRange_eq_one_iff a1 hc i e).mpr ho
    have hor : (Finset.univ : Finset (Fin 8)).fold IntOp.ori 0#1 (fun k => inRange a1 (ij i k)) = 1#1 :=
      (fold_ori_eq_one_iff _ _).mpr ⟨e, Finset.mem_univ e, hone⟩
    rw [tileExpert_apply, select_of_one hor,
      fold_addi_eq_single _ _ e (Finset.mem_univ e) fun k _ hk => by rw [hbit k hk]; exact weight_zero _,
      hone]
    exact weight_one _
  · have hor : ¬(Finset.univ : Finset (Fin 8)).fold IntOp.ori 0#1 (fun k => inRange a1 (ij i k)) = 1#1 := by
      rw [fold_ori_eq_one_iff]
      rintro ⟨k, -, hk⟩
      exact hno k ((inRange_eq_one_iff a1 hc i k).mp hk)
    rw [tileExpert_apply, select_of_not hor]

/-- Every word of the table is −1 or an expert's number: a tile has an owner or has none. -/
theorem tableRange (ht : TableFacts a1) : TableRange a1 := by
  intro i
  by_cases h : ∃ e : Fin 8, Owns a1 e i.val
  · obtain ⟨e, he⟩ := h
    refine Or.inr ?_
    rw [ht.of_owner i e he, BitVec.toNat_ofNat]
    have := e.isLt
    omega
  · exact Or.inl (ht.of_no_owner i fun e he => h ⟨e, he⟩)

end Cert.KernelIdeal.Host

end
-- ==== Proof.HostRange.lean ====
/-
  The table's range from the assignment array's entries being experts' numbers: what the pipeline's side condition needs.
-/
import proofs.«423054_j31275951850054_3_alg».proof.Proof.HostCounts
import proofs.«423054_j31275951850054_3_alg».proof.Proof.HostTable

noncomputable section

namespace Cert.KernelIdeal.Host

open Cert.KernelIdeal Cert.KernelIdeal.Chain Cert.Moe Idealize.ShloMosaic
open Facts₀ Facts

variable [Facts] (a1 : IVec S8x4096x2 32)

/-- Every word of the table is −1 or an expert's number. -/
theorem table_range (ha : InRange a1) : TableRange a1 :=
  tableRange a1 (tableFacts a1 (countFacts a1 ha))

end Cert.KernelIdeal.Host

end
-- ==== Proof.FrameOfPre.lean ====
/-
  The frame from the assignment array's range: when every entry is an expert's number, every word of the prefetched
  table is −1 or an expert's number, so each block the table selects lies inside its array, and the program runs to
  its end with its arguments unchanged.
-/
import proofs.«423054_j31275951850054_3_alg».proof.Proof.FrameRun
import proofs.«423054_j31275951850054_3_alg».proof.Proof.Body
import proofs.«423054_j31275951850054_3_alg».proof.Proof.HostVals
import proofs.«423054_j31275951850054_3_alg».proof.Proof.OkOfRange
import proofs.«423054_j31275951850054_3_alg».proof.Proof.HostRange

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The pipeline's side condition of the table, from the range of the assignment array. -/
theorem ok_of_inRange (ha : Host.InRange (m (((0 : Dev nD) : Thread nD τ).loc main_arg1))) : Ok m :=
  ok0_of_range (tbl m) (by
    intro i
    rw [tbl_eq m]
    exact Host.table_range _ ha i)

/-- The frame claim's post, from the range of the assignment array. -/
theorem frame_of_inRange (ha : Host.InRange (m (((0 : Dev nD) : Thread nD τ).loc main_arg1))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m ρ (ok_of_inRange m ha) (fun c => body_obligation m (ok_of_inRange m ha) c)

end Cert.KernelIdeal.Hand

end
-- ==== Proof.LibSort2.lean ====
/-
  The two-operand stable sort along the one axis of a rank-1 table, carrying the positions 0..n−1 as its
  second operand: an argsort. Both results read their operand through ONE self-map σ of the positions, the
  stable sorting permutation of the comparator on the pairs. σ is a bijection; the second result is σ given as
  words; and under the signed "less than" on the keys, the keys read through σ are non-decreasing.
-/
import Idealize.ShloMosaic.Lib.SortFacts
import Idealize.ShloMosaic.PureOps.ShapeOps
import Mathlib.Logic.Function.Basic

namespace Cert.Moe
open Idealize.ShloMosaic

/-- "Position k's pair sorts strictly before position k''s" on a rank-1 pair of tables. -/
def pairBefore {n : ℕ} {α β : Type} (cmp : α × β → α × β → BitVec 1)
    (x : (⟨1, ![n]⟩ : Shape).Idx → α) (y : (⟨1, ![n]⟩ : Shape).Idx → β) (k k' : Fin n) : Bool :=
  cmp (x (Shape.Idx.ofFin k), y (Shape.Idx.ofFin k)) (x (Shape.Idx.ofFin k'), y (Shape.Idx.ofFin k')) == 1#1

/-- On a rank-1 shape the first result of the two-operand sort reads the first table through the stable
    sorting permutation of the pairs. -/
theorem sort2_rank1_fst {n : ℕ} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j = x (Shape.Idx.ofFin (sortedFrom (pairBefore cmp x y) (j 0))) := by
  unfold Host.sort2 pairBefore
  simp

/-- … and the second result reads the second table through the same permutation. -/
theorem sort2_rank1_snd {n : ℕ} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortedFrom (pairBefore cmp x y) (j 0))) := by
  unfold Host.sort2 pairBefore
  simp

/-- The signed "less than" as a one-bit word is `1` exactly when the signed values compare so. -/
theorem cmpi_slt_beq_one (a b : BitVec 32) : (IntOp.cmpi .slt a b == 1#1) = decide (a.toInt < b.toInt) := by
  unfold IntOp.cmpi
  by_cases h : a.toInt < b.toInt
  · have hs : a.slt b = true := by rw [BitVec.slt_iff_toInt_lt]; exact h
    simp only [hs, h, decide_true]
    rfl
  · have hs : a.slt b = false := by
      cases e : a.slt b
      · rfl
      · exact absurd (BitVec.slt_iff_toInt_lt.mp e) h
    simp only [hs, h, decide_false]
    rfl

theorem argsort_perm {n : ℕ} (hn : n ≤ 2 ^ 31) (cmp : BitVec 32 × BitVec 32 → BitVec 32 × BitVec 32 → BitVec 1)
    (hcmp : ∀ l r, cmp l r = IntOp.cmpi .slt l.1 r.1) (x : IVec ⟨1, ![n]⟩ 32) :
    ∃ σ : Fin n → Fin n, Function.Bijective σ ∧
      (∀ j : Fin n, (Host.sort2 ⟨1, ![n]⟩ 0 cmp x (iotaInDim ⟨1, ![n]⟩ 32 0)).2 (Shape.Idx.ofFin j)
        = BitVec.ofNat 32 (σ j).val) ∧
      (∀ i j : Fin n, i ≤ j → (x (Shape.Idx.ofFin (σ i))).toInt ≤ (x (Shape.Idx.ofFin (σ j))).toInt) := by
  -- the relation the sort uses: the signed order of the keys alone
  have hB : pairBefore cmp x (iotaInDim ⟨1, ![n]⟩ 32 0)
      = fun k k' => decide ((x (Shape.Idx.ofFin k)).toInt < (x (Shape.Idx.ofFin k')).toInt) := by
    funext k k'
    unfold pairBefore
    rw [hcmp]
    exact cmpi_slt_beq_one _ _
  refine ⟨sortedFrom (pairBefore cmp x (iotaInDim ⟨1, ![n]⟩ 32 0)),
    ⟨sortedFrom_injective _, sortedFrom_surjective _⟩, fun j => ?_, fun i j hij => ?_⟩
  · rw [sort2_rank1_snd]
    unfold iotaInDim
    simp only [Shape.Idx.ofFin_zero]
  · rcases lt_or_eq_of_le hij with hlt | rfl
    · -- a stable sort under a relation with transitive "not before" leaves no inversion
      have h := sortedFrom_noInversion (pairBefore cmp x (iotaInDim ⟨1, ![n]⟩ 32 0))
        (pairBefore cmp x (iotaInDim ⟨1, ![n]⟩ 32 0))
        (fun a b hab => by
          rw [hB] at hab ⊢
          simp only [decide_eq_true_eq, decide_eq_false_iff_not] at hab ⊢
          omega)
        (fun _ _ hab => hab)
        (fun a b c hab hbc => by
          rw [hB] at hab hbc ⊢
          simp only [decide_eq_false_iff_not] at hab hbc ⊢
          omega)
        i j hlt
      rw [hB] at h ⊢
      simp only [decide_eq_false_iff_not, not_lt] at h
      exact h
    · exact le_refl _

end Cert.Moe
-- ==== Proof.HostSort.lean ====
/-
  The sorting stage of the host's integer chain.

  The pairs are sorted by expert with a stable sort that carries the positions 0 … 65535 along: its second result,
  `order`, is a bijection σ of the pairs given as words, and the experts read through σ do not decrease.  The
  expert, token and slot at sorted position j are those of pair σ j: a take-gather at a column of in-range,
  non-negative indices reads its table at the index (the wrap of negative indices and the clamp are both
  inactive), pair p has token p / 2 (the row-major reading of the [32768, 2] cells), and its slot is p % 2.
  Position j lies inside the run of its expert, so its offset j − runStart e is computed without wrapping, and
  so is the destination row padStart e + (j − runStart e), which stays below 69632 and is injective in j.
-/
import proofs.«423054_j31275951850054_3_alg».proof.Proof.HostSpec
import proofs.«423054_j31275951850054_3_alg».proof.Proof.LibSort2
import proofs.«423054_j31275951850054_3_alg».proof.Proof.LibWord
import Idealize.ShloMosaic.Lib.StableHlo.Predicate
import Idealize.ShloMosaic.Lib.ValueIdx
import Idealize.ShloMosaic.Lib.SortFacts
import Mathlib.Data.Finset.Filter
import Mathlib.Tactic.NormNum.Basic

noncomputable section

namespace Cert.KernelIdeal.Host

open Cert.KernelIdeal Cert.KernelIdeal.Chain Cert.Moe Idealize.ShloMosaic
open Facts₀ Facts

variable [Facts] (a1 : IVec S8x4096x2 32)

namespace Sorting

/-! ## Reading the repeated pieces at an index -/

/-- A scalar word spread over 65536 entries reads the word everywhere. -/
theorem fill65536_apply (n : BitVec 32) (i : S65536.Idx) : fill65536 n i = n := rfl

/-- The index wrap leaves a natural-number word as it is. -/
theorem wrap65536_apply (n : BitVec 32) (x : IVec S65536 32) (i : S65536.Idx) {k : ℕ} (hx : IsNat (x i) k) :
    wrap65536 n x i = x i :=
  wrap_select_apply x (fill65536 0#32) (fill65536 n) i hx rfl

/-- A vector as a column reads, in row p, the vector at p. -/
theorem col65536_apply (x : IVec S65536 32) (p : Fin 65536) :
    col65536 x (StableHlo.Predicate.ixP p) = x (Shape.Idx.ofFin p) :=
  StableHlo.Predicate.bcast_col1 bcast_S65536_S65536x1_0 x p

/-- A take-gather from a table of N entries, at a column of wrapped indices whose entry at p is the natural number
    k < N, reads the table at k: neither the wrap nor the clamp changes the index. -/
theorem take_apply {α : Type} {N : ℕ} (d : GatherDims ⟨1, ![N]⟩ S65536x1 S65536)
    (hcoll : d.collapsedSliceDims = [0]) (hob : d.operandBatchingDims = [])
    (hsim : d.startIndexMap = [0]) (hivd : d.indexVectorDim = 1)
    (T : (⟨1, ![N]⟩ : Shape).Idx → α) (n : BitVec 32) (x : IVec S65536 32) (p : Fin 65536) {k : ℕ}
    (hx : IsNat (x (Shape.Idx.ofFin p)) k) (hk : k < N) :
    Host.gather d T (col65536 (wrap65536 n x)) (Shape.Idx.ofFin p) = T (Shape.Idx.ofFin ⟨k, hk⟩) := by
  rw [StableHlo.Predicate.gather_take d hcoll hob hsim hivd T _ p (by omega)]
  congr 2
  apply Fin.ext
  show min ((col65536 (wrap65536 n x)) (StableHlo.Predicate.ixP p)).toInt.toNat (N - 1) = k
  rw [col65536_apply, wrap65536_apply n x _ hx, hx.toInt_toNat]
  omega

/-! ## The pairs' tokens and experts -/

/-- The token of pair p is p / 2: the positions along the 32768 tokens, repeated over the two slots, read in row-major order. -/
theorem pairToken_apply (p : Fin 65536) : pairToken (Shape.Idx.ofFin p) = BitVec.ofNat 32 (p.val / 2) := by
  have hp := p.isLt
  have h : Shape.reshapeEquiv shapeCasts_S32768x2_S65536 (Shape.Idx.ofFin p)
      = (ValueIdx.ix2 (⟨p.val / 2, by omega⟩ : Fin 32768) (⟨p.val % 2, by omega⟩ : Fin 2) : S32768x2.Idx) :=
    Shape.reshapeEquiv_eq_of_rowMajor _ (by
      rw [Shape.rowMajor_val_two, Shape.rowMajor_val_one]
      show p.val / 2 * 2 + p.val % 2 = p.val
      omega)
  unfold pairToken shapeCast
  rw [h]
  rfl

/-- The expert of pair p, as a natural-number word. -/
theorem pairExpert_isNat (hk : KeyFacts a1) (p : Fin 65536) : IsNat (pairExpert a1 (Shape.Idx.ofFin p)) (key a1 p) :=
  ⟨hk.pairExpert_eq p, by have := hk.key_lt p; omega⟩

end Sorting

open Sorting

/-! ## The ordering, and what sits at each sorted position -/

/-- The stable sort of the pairs by expert: a bijection σ of the pairs, given as words by `order`, along which the experts do not decrease. -/
theorem exists_order (hk : KeyFacts a1) :
    ∃ σ : Fin 65536 → Fin 65536, Function.Bijective σ ∧
      (∀ j : Fin 65536, order a1 (Shape.Idx.ofFin j) = BitVec.ofNat 32 (σ j).val) ∧
      (∀ i j : Fin 65536, i ≤ j → key a1 (σ i) ≤ key a1 (σ j)) := by
  obtain ⟨σ, hb, ho, hs⟩ := argsort_perm (n := 65536) (by norm_num) comparator_i32_i32_d0 (fun _ _ => rfl) (pairExpert a1)
  refine ⟨σ, hb, fun j => ?_, fun i j hij => ?_⟩
  · unfold order
    exact ho j
  · have h := hs i j hij
    rw [(pairExpert_isNat a1 hk (σ i)).toInt_eq, (pairExpert_isNat a1 hk (σ j)).toInt_eq] at h
    exact_mod_cast h

namespace Sorting

section Sorted

variable {a1}
variable (hk : KeyFacts a1) (hc : CountFacts a1) {σ : Fin 65536 → Fin 65536}
  (hb : Function.Bijective σ)
  (ho : ∀ j : Fin 65536, order a1 (Shape.Idx.ofFin j) = BitVec.ofNat 32 (σ j).val)
  (hs : ∀ i j : Fin 65536, i ≤ j → key a1 (σ i) ≤ key a1 (σ j))

include ho in
/-- The pair at sorted position j, as a natural-number word. -/
theorem order_isNat (j : Fin 65536) : IsNat (order a1 (Shape.Idx.ofFin j)) (σ j).val :=
  ⟨ho j, by have := (σ j).isLt; omega⟩

include hk ho in
/-- The expert at sorted position j is the expert of the pair there. -/
theorem sortedExpert_apply (j : Fin 65536) : sortedExpert a1 (Shape.Idx.ofFin j) = BitVec.ofNat 32 (key a1 (σ j)) := by
  unfold sortedExpert
  rw [take_apply gather_S65536_S65536x1_S65536_n_0_n_n_0_1_1 rfl rfl rfl rfl (pairExpert a1) 65536#32 (order a1) j
    (order_isNat ho j) (σ j).isLt]
  exact hk.pairExpert_eq (σ j)

include ho in
/-- The token at sorted position j is the token of the pair there. -/
theorem sortedToken_apply (j : Fin 65536) : sortedToken a1 (Shape.Idx.ofFin j) = BitVec.ofNat 32 ((σ j).val / 2) := by
  unfold sortedToken
  rw [take_apply gather_S65536_S65536x1_S65536_n_0_n_n_0_1_1 rfl rfl rfl rfl pairToken 65536#32 (order a1) j
    (order_isNat ho j) (σ j).isLt]
  exact pairToken_apply (σ j)

include ho in
/-- The slot at sorted position j is the slot of the pair there. -/
theorem sortedSlot_apply (j : Fin 65536) : sortedSlot a1 (Shape.Idx.ofFin j) = BitVec.ofNat 32 ((σ j).val % 2) := by
  unfold sortedSlot remainderP
  exact remainder_vec_apply bcast_S_S65536 (order a1) (constantI S_ 32 2#32) (Shape.Idx.ofFin j) (order_isNat ho j)
    (fun _ => rfl) (by norm_num) (by norm_num)

end Sorted

/-! ## Offsets and destination rows -/

/-- The count of expert e is the number of pairs whose expert, as an element of `Fin 8`, is e. -/
theorem cnt_eq (hk : KeyFacts a1) :
    cnt a1 = fun e : Fin 8 => (Finset.univ.filter fun p : Fin 65536 => keyF a1 hk p = e).card := by
  funext e
  unfold cnt
  refine congrArg Finset.card (Finset.filter_congr fun p _ => ?_)
  exact (Fin.ext_iff (a := keyF a1 hk p) (b := e)).symm

/-- Every padded run ends within 65536 + 8 · 511 rows: the pairs, and less than a tile of padding per expert. -/
theorem padStart_add_padCnt_le_69624 (hc : CountFacts a1) (e : Fin 8) :
    padStart 512 (cnt a1) e + padCnt 512 (cnt a1) e ≤ 69624 := by
  have h := padStart_add_padCnt_le_total 512 (cnt a1) (by norm_num) e
  rw [hc.sum_cnt] at h
  omega

section Dest

variable {a1}
variable (hk : KeyFacts a1) (hc : CountFacts a1) {σ : Fin 65536 → Fin 65536}
  (hb : Function.Bijective σ)
  (ho : ∀ j : Fin 65536, order a1 (Shape.Idx.ofFin j) = BitVec.ofNat 32 (σ j).val)
  (hs : ∀ i j : Fin 65536, i ≤ j → key a1 (σ i) ≤ key a1 (σ j))

include hb hs in
/-- Sorted position j lies inside the run of its pair's expert. -/
theorem offset_lt_of_sorted (j : Fin 65536) :
    runStart (cnt a1) (keyF a1 hk (σ j)) ≤ j.val ∧
      j.val - runStart (cnt a1) (keyF a1 hk (σ j)) < cnt a1 (keyF a1 hk (σ j)) := by
  have h := offset_bounds (keyF a1 hk) σ hb (fun i j hij => Fin.le_def.mpr (hs i j hij)) j
  rw [cnt_eq a1 hk]
  exact h

include hc hb hs in
/-- The destination row of sorted position j lies inside its expert's padded run, hence below 69624. -/
theorem dest_lt_of_sorted (j : Fin 65536) : dest a1 hk σ j < 69624 := by
  have h1 := (offset_lt_of_sorted hk hb hs j).2
  have h2 := cnt_le_padCnt 512 (cnt a1) (by norm_num) (keyF a1 hk (σ j))
  have h3 := padStart_add_padCnt_le_69624 a1 hc (keyF a1 hk (σ j))
  unfold dest
  omega

include hk hc ho in
/-- The table of run starts read at the sorted experts: the run start of the expert of the pair at position j. -/
theorem unpaddedStart_at (j : Fin 65536) :
    Host.gather gather_S8_S65536x1_S65536_n_0_n_n_0_1_1 (unpaddedStart a1) (sortedExpertIdx a1) (Shape.Idx.ofFin j)
      = BitVec.ofNat 32 (runStart (cnt a1) (keyF a1 hk (σ j))) := by
  rw [take_apply gather_S8_S65536x1_S65536_n_0_n_n_0_1_1 rfl rfl rfl rfl (unpaddedStart a1) 8#32 (sortedExpert a1) j
    (k := key a1 (σ j)) ⟨sortedExpert_apply hk ho j, by have := hk.key_lt (σ j); omega⟩ (hk.key_lt (σ j))]
  exact hc.unpaddedStart_eq (keyF a1 hk (σ j))

include hk hc ho in
/-- The table of padded run starts read at the sorted experts. -/
theorem paddedStart_at (j : Fin 65536) :
    Host.gather gather_S8_S65536x1_S65536_n_0_n_n_0_1_1 (paddedStart a1) (sortedExpertIdx a1) (Shape.Idx.ofFin j)
      = BitVec.ofNat 32 (padStart 512 (cnt a1) (keyF a1 hk (σ j))) := by
  rw [take_apply gather_S8_S65536x1_S65536_n_0_n_n_0_1_1 rfl rfl rfl rfl (paddedStart a1) 8#32 (sortedExpert a1) j
    (k := key a1 (σ j)) ⟨sortedExpert_apply hk ho j, by have := hk.key_lt (σ j); omega⟩ (hk.key_lt (σ j))]
  exact hc.paddedStart_eq (keyF a1 hk (σ j))

include hk hc hb ho hs in
/-- The offset of sorted position j inside its run: the subtraction does not wrap. -/
theorem localOffset_isNat (j : Fin 65536) :
    IsNat (localOffset a1 (Shape.Idx.ofFin j)) (j.val - runStart (cnt a1) (keyF a1 hk (σ j))) := by
  have hj := j.isLt
  have h1 := (offset_lt_of_sorted hk hb hs j).1
  unfold localOffset
  rw [subi_at, unpaddedStart_at hk hc ho j, StableHlo.Predicate.iota_apply]
  exact IsNat.sub (isNat_ofNat (by omega)) (isNat_ofNat (by omega)) h1

include hk hc hb ho hs in
/-- The destination word of sorted position j is its destination row: the sum does not wrap. -/
theorem destIndex_isNat (j : Fin 65536) : IsNat (destIndex a1 (Shape.Idx.ofFin j)) (dest a1 hk σ j) := by
  have h1 := dest_lt_of_sorted hk hc hb hs j
  unfold destIndex
  rw [addi_at, paddedStart_at hk hc ho j]
  unfold dest at h1 ⊢
  exact IsNat.add (isNat_ofNat (by omega)) (localOffset_isNat hk hc hb ho hs j) (by omega)

include hb hs in
/-- Distinct sorted positions go to distinct rows. -/
theorem dest_inj_of_sorted (i j : Fin 65536) (h : dest a1 hk σ i = dest a1 hk σ j) : i = j := by
  obtain ⟨hi1, hi2⟩ := offset_lt_of_sorted hk hb hs i
  obtain ⟨hj1, hj2⟩ := offset_lt_of_sorted hk hb hs j
  unfold dest at h
  obtain ⟨he, hoff⟩ := dest_injective 512 (cnt a1) (by norm_num) hi2 hj2 h
  rw [he] at hoff hi1
  exact Fin.ext (by omega)

end Dest

end Sorting

/-- The sorting stage: an ordering σ of the pairs by expert, and at each sorted position the expert, token and slot of
    the pair there and its destination row. -/
theorem exists_sortFacts (hk : KeyFacts a1) (hc : CountFacts a1) : ∃ σ : Fin 65536 → Fin 65536, SortFacts a1 hk σ := by
  obtain ⟨σ, hb, ho, hs⟩ := exists_order a1 hk
  exact ⟨σ, {
    bij := hb
    sorted := hs
    order_eq := ho
    sortedExpert_eq := sortedExpert_apply hk ho
    sortedToken_eq := sortedToken_apply ho
    sortedSlot_eq := sortedSlot_apply ho
    offset_lt := offset_lt_of_sorted hk hb hs
    destIndex_eq := fun j => (destIndex_isNat hk hc hb ho hs j).1
    dest_lt := fun j => by have := dest_lt_of_sorted hk hc hb hs j; omega
    dest_inj := dest_inj_of_sorted hk hb hs }⟩

end Cert.KernelIdeal.Host

end
-- ==== Proof.HostRows.lean ====
/-
  The scatters of the routing chain: which token each occupied row holds, which rows are occupied, the row of each
  (token, slot) cell, and the tile of that row.

  The pair at sorted position j goes to row dest j = padStart e + (j − runStart e), e its expert. The rows are
  distinct (the sorting stage's injectivity), so the scatter of the sorted tokens at the rows leaves at row dest j the
  token of the pair there, and the scatter of ones marks it occupied. The cell scatter writes dest j at the cell
  (σ j / 2, σ j % 2), that is at the cell whose row-major number is σ j; σ is a bijection, so the cell numbered p
  holds dest (σ⁻¹ p): the row of pair p. That row lies in its expert's padded run, so its tile is one of the expert's.
-/
import proofs.«423054_j31275951850054_3_alg».proof.Proof.HostSpec
import proofs.«423054_j31275951850054_3_alg».proof.Proof.LibScatter
import proofs.«423054_j31275951850054_3_alg».proof.Proof.LibWord
import Idealize.ShloMosaic.Lib.StableHlo.Predicate
import Idealize.ShloMosaic.Lib.Pipeline.Value
import Idealize.ShloMosaic.Lib.ValueIdx
import Idealize.ShloMosaic.Lib.SortFacts
import Mathlib.Logic.Equiv.Defs

noncomputable section

namespace Cert.KernelIdeal.Host

open Cert.KernelIdeal Cert.KernelIdeal.Chain Cert.Moe Idealize.ShloMosaic
open Facts₀ Facts

variable [Facts] (a1 : IVec S8x4096x2 32)

namespace Rows

/-! ## Index columns read at a row -/

/-- The index (p, 0) of an [n × 1] column, spelt two ways. -/
theorem ixP_eq_ix2 {n : ℕ} (p : Fin n) : StableHlo.Predicate.ixP p = ValueIdx.ix2 p (0 : Fin 1) := by
  funext d
  match d with
  | ⟨0, _⟩ => rfl
  | ⟨1, _⟩ => rfl

/-- A vector as a column reads, at (j, 0), the vector at j. -/
theorem col65536_apply (x : IVec S65536 32) (j : Fin 65536) :
    col65536 x (ValueIdx.ix2 j (0 : Fin 1)) = x (Shape.Idx.ofFin j) := by
  rw [← ixP_eq_ix2]
  exact StableHlo.Predicate.bcast_col1 bcast_S65536_S65536x1_0 x j

/-- The wrap of a negative index leaves a natural-number word alone. -/
theorem wrap65536_apply (n : BitVec 32) (x : IVec S65536 32) (i : S65536.Idx) {k : ℕ} (hx : IsNat (x i) k) :
    wrap65536 n x i = x i := by
  unfold wrap65536
  exact wrap_select_apply x _ _ i hx (bcast0_at _ _ i)

/-- A wrapped column of natural-number words reads, at (j, 0), the word at j. -/
theorem col_wrap_apply (n : BitVec 32) (x : IVec S65536 32) (j : Fin 65536) {k : ℕ}
    (hx : IsNat (x (Shape.Idx.ofFin j)) k) :
    col65536 (wrap65536 n x) (ValueIdx.ix2 j (0 : Fin 1)) = x (Shape.Idx.ofFin j) := by
  rw [col65536_apply, wrap65536_apply n x _ hx]

/-! ## The scatter into the rows -/

variable (hk : KeyFacts a1) (σ : Fin 65536 → Fin 65536)

/-- The destination word of sorted position j is the natural number dest j. -/
theorem destIndex_isNat (hs : SortFacts a1 hk σ) (j : Fin 65536) :
    IsNat (destIndex a1 (Shape.Idx.ofFin j)) (dest a1 hk σ j) :=
  ⟨hs.destIndex_eq j, by have := hs.dest_lt j; omega⟩

/-- The scatter index of sorted position j into the rows is its destination row. -/
theorem destIdx_isNat (hs : SortFacts a1 hk σ) (j : Fin 65536) :
    IsNat (destIdx a1 (ValueIdx.ix2 j (0 : Fin 1))) (dest a1 hk σ j) := by
  have h := destIndex_isNat a1 hk σ hs j
  show IsNat (col65536 (wrap65536 69632#32 (destIndex a1)) (ValueIdx.ix2 j (0 : Fin 1))) _
  rw [col_wrap_apply 69632#32 (destIndex a1) j h]
  exact h

/-- Update n of the row scatters lands at row r exactly when the destination of sorted position n is r. -/
theorem row_hit_iff (hs : SortFacts a1 hk σ) (n : S65536.Idx) (r : Fin 69632) :
    scatter_S69632_S65536x1_S65536_n_0_0_1.resultIdx? n (destIdx a1) = some (Shape.Idx.ofFin r)
      ↔ dest a1 hk σ (n 0) = r.val := by
  rw [resultIdx?_take scatter_S69632_S65536x1_S65536_n_0_0_1 rfl rfl rfl rfl (destIdx a1) n (Shape.Idx.ofFin r),
    (destIdx_isNat a1 hk σ hs (n 0)).toInt_eq, Shape.Idx.ofFin_zero]
  exact Nat.cast_inj

/-- The row of sorted position j holds the token of the pair there. -/
theorem paddedToken_dest (hs : SortFacts a1 hk σ) (j : Fin 65536) :
    paddedToken a1 (Shape.Idx.ofFin (⟨dest a1 hk σ j, hs.dest_lt j⟩ : Fin 69632)) = BitVec.ofNat 32 ((σ j).val / 2) := by
  unfold paddedToken
  refine (scatter_set_apply_of_unique_hit _ _ _ _ _ (Shape.Idx.ofFin j) ?_ ?_).trans (hs.sortedToken_eq j)
  · exact (row_hit_iff a1 hk σ hs _ _).2 (by rw [Shape.Idx.ofFin_zero])
  · intro n hn
    have h := (row_hit_iff a1 hk σ hs n _).1 hn
    rw [Shape.Idx.eq_ofFin n]
    exact congrArg Shape.Idx.ofFin (hs.dest_inj _ _ h)

/-- The row of sorted position j is marked occupied. -/
theorem paddedValid_dest (hs : SortFacts a1 hk σ) (j : Fin 65536) :
    paddedValid a1 (Shape.Idx.ofFin (⟨dest a1 hk σ j, hs.dest_lt j⟩ : Fin 69632)) = 1#1 := by
  unfold paddedValid
  rw [bcast0 bcast_S_S65536 (constantI S_ 1 1#1)]
  exact scatter_set_const_apply_of_hit _ _ _ _ _ (Shape.Idx.ofFin j)
    ((row_hit_iff a1 hk σ hs _ _).2 (by rw [Shape.Idx.ofFin_zero]))

/-! ## The scatter into the (token, slot) cells -/

/-- The first component of the cell index of sorted position j is the token column there. -/
theorem cellIdx_fst (j : Fin 65536) :
    cellIdx a1 (ValueIdx.ix2 j (0 : Fin 2)) = col65536 (wrap65536 32768#32 (sortedToken a1)) (ValueIdx.ix2 j (0 : Fin 1)) := by
  unfold cellIdx
  have h := concatenate_pair_apply_left (t := S65536x2) (s₁ := S65536x1) (s₂ := S65536x1) (1 : Fin 2)
    (col65536 (wrap65536 32768#32 (sortedToken a1))) (col65536 (wrap65536 2#32 (sortedSlot a1)))
    concatenates_S65536x1_S65536x1_S65536x2_d1 (ValueIdx.ix2 j (0 : Fin 2)) rfl (ValueIdx.ix2 j (0 : Fin 1))
    (fun b => match b with | ⟨0, _⟩ => rfl | ⟨1, _⟩ => rfl)
  exact h

/-- The second component is the slot column there. -/
theorem cellIdx_snd (j : Fin 65536) :
    cellIdx a1 (ValueIdx.ix2 j (1 : Fin 2)) = col65536 (wrap65536 2#32 (sortedSlot a1)) (ValueIdx.ix2 j (0 : Fin 1)) := by
  unfold cellIdx
  have h := concatenate_pair_apply_right (t := S65536x2) (s₁ := S65536x1) (s₂ := S65536x1) (1 : Fin 2)
    (col65536 (wrap65536 32768#32 (sortedToken a1))) (col65536 (wrap65536 2#32 (sortedSlot a1)))
    concatenates_S65536x1_S65536x1_S65536x2_d1 (ValueIdx.ix2 j (1 : Fin 2)) rfl rfl (ValueIdx.ix2 j (0 : Fin 1))
    (fun b => match b with | ⟨0, _⟩ => fun _ => rfl | ⟨1, _⟩ => fun h => absurd rfl h) rfl
  exact h

/-- The token component of the cell index of sorted position j is the natural number σ j / 2. -/
theorem cellIdx_fst_isNat (hs : SortFacts a1 hk σ) (j : Fin 65536) :
    IsNat (cellIdx a1 (ValueIdx.ix2 j (0 : Fin 2))) ((σ j).val / 2) := by
  have h : IsNat (sortedToken a1 (Shape.Idx.ofFin j)) ((σ j).val / 2) :=
    ⟨hs.sortedToken_eq j, by have := (σ j).isLt; omega⟩
  rw [cellIdx_fst, col_wrap_apply 32768#32 (sortedToken a1) j h]
  exact h

/-- The slot component is the natural number σ j % 2. -/
theorem cellIdx_snd_isNat (hs : SortFacts a1 hk σ) (j : Fin 65536) :
    IsNat (cellIdx a1 (ValueIdx.ix2 j (1 : Fin 2))) ((σ j).val % 2) := by
  have h : IsNat (sortedSlot a1 (Shape.Idx.ofFin j)) ((σ j).val % 2) :=
    ⟨hs.sortedSlot_eq j, by omega⟩
  rw [cellIdx_snd, col_wrap_apply 2#32 (sortedSlot a1) j h]
  exact h

/-- Update n of the cell scatter lands at cell (t, s) exactly when the pair at sorted position n is pair 2t + s. -/
theorem cell_hit_iff (hs : SortFacts a1 hk σ) (n : S65536.Idx) (t : Fin 32768) (s : Fin 2) :
    scatter_S32768x2_S65536x2_S65536_n_01_01_1.resultIdx? n (cellIdx a1) = some (ValueIdx.ix2 t s)
      ↔ (σ (n 0)).val = 2 * t.val + s.val := by
  rw [resultIdx?_cell scatter_S32768x2_S65536x2_S65536_n_01_01_1 rfl rfl rfl rfl (cellIdx a1) n (ValueIdx.ix2 t s),
    (cellIdx_fst_isNat a1 hk σ hs (n 0)).toInt_eq, (cellIdx_snd_isNat a1 hk σ hs (n 0)).toInt_eq]
  show (((σ (n 0)).val / 2 : ℕ) : ℤ) = (t.val : ℤ) ∧ (((σ (n 0)).val % 2 : ℕ) : ℤ) = (s.val : ℤ) ↔ _
  have hs2 := s.isLt
  omega

/-- The cell of the pair at sorted position j holds the row that position is sent to. -/
theorem pos_cell (hs : SortFacts a1 hk σ) (j : Fin 65536) (t : Fin 32768) (s : Fin 2)
    (h : (σ j).val = 2 * t.val + s.val) :
    pos a1 (ValueIdx.ix2 t s) = BitVec.ofNat 32 (dest a1 hk σ j) := by
  unfold pos
  refine (scatter_set_apply_of_unique_hit _ _ _ _ _ (Shape.Idx.ofFin j) ?_ ?_).trans (hs.destIndex_eq j)
  · exact (cell_hit_iff a1 hk σ hs _ t s).2 (by rw [Shape.Idx.ofFin_zero]; exact h)
  · intro n hn
    have h' := (cell_hit_iff a1 hk σ hs n t s).1 hn
    rw [Shape.Idx.eq_ofFin n]
    exact congrArg Shape.Idx.ofFin (hs.bij.1 (Fin.ext (h'.trans h.symm)))

/-- The cells in row-major order: entry p is the cell (p / 2, p % 2). -/
theorem pos_flat (p : Fin 65536) :
    shapeCast S65536 (pos a1) shapeCasts_S32768x2_S65536 (Shape.Idx.ofFin p)
      = pos a1 (ValueIdx.ix2 (⟨p.val / 2, by have := p.isLt; omega⟩ : Fin 32768) (⟨p.val % 2, by omega⟩ : Fin 2)) := by
  refine shapeCast_apply _ _ _ _ ?_
  rw [Shape.rowMajor_val_two, Shape.rowMajor_val_one]
  show p.val / 2 * 2 + p.val % 2 = p.val
  omega

/-! ## The tile of a row, and the rows of all pairs -/

/-- The tile of the row of sorted position j is one of the tiles of the expert of the pair there. -/
theorem owns_dest (hs : SortFacts a1 hk σ) (j : Fin 65536) :
    Owns a1 (keyF a1 hk (σ j)) (dest a1 hk σ j / 512) :=
  tile_of_dest 512 (cnt a1) (by omega) (keyF a1 hk (σ j)) _ (hs.offset_lt j).2

end Rows

/-- Every pair has a row: the cell of the pair holds it, its tile is the pair's expert's, it holds the pair's token,
    and it is marked occupied. -/
theorem exists_rowFacts (hk : KeyFacts a1) (hc : CountFacts a1) (ht : TableFacts a1) (σ : Fin 65536 → Fin 65536)
    (hs : SortFacts a1 hk σ) : ∃ row : Fin 65536 → Fin 69632, RowFacts a1 row := by
  let e : Fin 65536 ≃ Fin 65536 := Equiv.ofBijective σ hs.bij
  have he : ∀ p, σ (e.symm p) = p := fun p => e.apply_symm_apply p
  refine ⟨fun p => ⟨dest a1 hk σ (e.symm p), hs.dest_lt _⟩, ?_, ?_, ?_, ?_⟩
  · intro p
    rw [Rows.pos_flat]
    exact Rows.pos_cell a1 hk σ hs (e.symm p) _ _ (by rw [he p]; show p.val = 2 * (p.val / 2) + p.val % 2; omega)
  · intro p h
    have ho := Rows.owns_dest a1 hk σ hs (e.symm p)
    have h1 := ht.of_owner ⟨dest a1 hk σ (e.symm p) / 512, h⟩ (keyF a1 hk (σ (e.symm p))) ho
    rw [he p] at h1
    exact h1
  · intro p
    have h1 := Rows.paddedToken_dest a1 hk σ hs (e.symm p)
    rw [he p] at h1
    exact h1
  · intro p
    exact Rows.paddedValid_dest a1 hk σ hs (e.symm p)

end Cert.KernelIdeal.Host

end
-- ==== Proof.HostMain.lean ====
/-
  The integer chain assembled: from the assignment array's entries being experts' numbers, the rows of the pairs: what
  the value needs.
-/
import proofs.«423054_j31275951850054_3_alg».proof.Proof.HostRange
import proofs.«423054_j31275951850054_3_alg».proof.Proof.HostSort
import proofs.«423054_j31275951850054_3_alg».proof.Proof.HostRows

noncomputable section

namespace Cert.KernelIdeal.Host

open Cert.KernelIdeal Cert.KernelIdeal.Chain Cert.Moe Idealize.ShloMosaic
open Facts₀ Facts

variable [Facts] (a1 : IVec S8x4096x2 32)

/-- The experts are in range pair by pair, and every pair has its row. -/
theorem exists_rows (ha : InRange a1) : ∃ (_ : KeyFacts a1) (row : Fin 65536 → Fin 69632), RowFacts a1 row := by
  have hk := keyFacts a1 ha
  have hc := countFacts a1 ha
  have ht := tableFacts a1 hc
  obtain ⟨σ, hs⟩ := exists_sortFacts a1 hk hc
  obtain ⟨row, hr⟩ := exists_rowFacts a1 hk hc ht σ hs
  exact ⟨hk, row, hr⟩

end Cert.KernelIdeal.Host

end
-- ==== Proof.Algebraic.lean ====
/-
  The two idealized programs, run from memories that agree on the arguments, end with equal results. The kernel
  program's run leaves its result buffer at what its host lines after the region make of the region's output; the
  reference's run leaves its result at its last stage. Read at a token and a column, the first is the two slots' experts'
  blocks, each times (1 · one half); the second is the sum over the experts of the block times the slot count times one
  half; these agree because the precondition makes every input entry a real number and every assignment an expert's number.
-/
import proofs.«423054_j31275951850054_3_alg».proof.Defs
import proofs.«423054_j31275951850054_3_alg».proof.Proof.KernelValue
import proofs.«423054_j31275951850054_3_alg».proof.Proof.RefRun
import proofs.«423054_j31275951850054_3_alg».proof.Proof.ValuesAgree
import proofs.«423054_j31275951850054_3_alg».proof.Proof.PreDecode
import proofs.«423054_j31275951850054_3_alg».proof.Proof.FrameOfPre
import proofs.«423054_j31275951850054_3_alg».proof.Proof.HostMain

noncomputable section

namespace Cert.Proof.Moe

open Idealize.ShloMosaic Idealize.ShloMosaic.TcCoe Idealize.SL.Sem Idealize.ShloMosaic.ValueIdx
open Cert.Moe Cert.KernelIdeal.Host

/-- The kernel program's frame: under the precondition the assignment array's entries are experts' numbers. -/
theorem frame_ki : Cert.frame_KernelIdeal := fun m ρ hpre =>
  Cert.KernelIdeal.Hand.frame_of_inRange m ρ (fun i => Cert.Pre_finite_inputs.Decode.inRange_of_pre _ _ _ _ _ _ (hpre 0) i)

/-- The reference's frame: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end with one result. -/
theorem algebraic : Cert.algebraic_KernelIdeal_ReferenceIdeal := by
  intro m ρ m' ρ' hpre hagree
  have hp := hpre 0
  have ha : InRange (m (((0 : Dev Cert.KernelIdeal.nD) : Thread Cert.KernelIdeal.nD Cert.KernelIdeal.τ).loc Cert.KernelIdeal.main_arg1)) :=
    fun i => Cert.Pre_finite_inputs.Decode.inRange_of_pre _ _ _ _ _ _ hp i
  obtain ⟨h0, h2, h3, h4, h5⟩ := Cert.Pre_finite_inputs.Decode.real_of_pre _ _ _ _ _ _ hp
  have hO := Cert.KernelIdeal.Hand.ok_of_inRange m ha
  have hbody := fun c => Cert.KernelIdeal.Hand.body_obligation m hO c
  refine ⟨fun c => Pipeline.afterTail Cert.KernelIdeal.pcfgs (fun _ => Cert.KernelIdeal.Hand.adm m hO) (Cert.KernelIdeal.Hand.dats m hO) 0
      (Cert.KernelIdeal.Hand.V₀ m) Cert.KernelIdeal.Hand.postOps c Cert.KernelIdeal.main_v145,
    Cert.KernelIdeal.Hand.run_result m ρ hO hbody, ?_⟩
  refine (θ_run Cert.ReferenceIdeal.defs _ _).mono (fun r h c => ⟨(h c).1.trans ?_, (h c).2⟩)
    (Cert.ReferenceIdeal.RunP.run (F := Ideal) m' ρ')
  obtain rfl : c = 0 := Subsingleton.elim _ _
  obtain ⟨e0, e1, e2, e3, e4, e5⟩ := hagree 0
  rw [e0, e1, e2, e3, e4, e5]
  obtain ⟨hk, row, hrow⟩ := exists_rows _ ha
  funext i
  obtain ⟨b, s, q, rfl⟩ : ∃ b s q, i = ix3 b s q := ⟨i 0, i 1, i 2, eq_ix3 i⟩
  have hb := b.isLt
  have hs := s.isLt
  rw [Cert.ReferenceIdeal.RefValue.ref_value]
  refine (values_agree _ _ _ _ _ _ h0 h2 h3 h4 h5 hk b s q (by omega) (by omega) (by omega)).trans ?_
  exact (Cert.KernelIdeal.ValueIdeal.kernel_value m hO 0 hk row hrow b s q).symm

end Cert.Proof.Moe

end
-- ==== Proof.lean ====
/-
  The certificate's claims assembled. The word-level program and its idealization have the same text, so their frames are
  one argument read at two float instances: the host lines compute the table of tile experts, whose words are −1 or an
  expert's number whenever the assignment array's entries are experts' numbers (the precondition's added conjunct), so
  every block the table selects lies inside its array; the body either computes a tile's weighted feed-forward block or
  stores zeros, and the lines after the region read each token's two rows back. The reference's frame is its run. The
  idealization rewrote nothing, so `preserves` is trivial. The two idealized programs agree because every input entry is a
  real number under the precondition and the weighted sum over the experts regroups, over the reals, into the sum over
  the token's two slots.
-/
import proofs.«423054_j31275951850054_3_alg».proof.Defs
import proofs.«423054_j31275951850054_3_alg».proof.Proof.Gen.Kernel
import proofs.«423054_j31275951850054_3_alg».proof.Proof.Gen.KernelIdeal
import proofs.«423054_j31275951850054_3_alg».proof.Proof.Gen.ReferenceIdeal
import proofs.«423054_j31275951850054_3_alg».proof.Proof.Gen.Pre_finite_inputs
import proofs.«423054_j31275951850054_3_alg».proof.Proof.FrameOfPreBits
import proofs.«423054_j31275951850054_3_alg».proof.Proof.Algebraic

noncomputable section

namespace Cert.Proof

open Idealize.ShloMosaic Idealize.SL.Sem

/-- The word-level program's frame: the same argument at the word-level instance. -/
theorem frame_k : Cert.frame_Kernel := fun m ρ hpre =>
  Cert.Kernel.Hand.frame_of_inRange m ρ (fun i => Cert.Pre_finite_inputs.Decode.inRange_of_pre _ _ _ _ _ _ (hpre 0) i)

theorem claim : Cert.Claim :=
  ⟨Cert.Kernel.Gen.facts, Cert.KernelIdeal.Gen.facts, Cert.ReferenceIdeal.Gen.facts, Cert.Pre_finite_inputs.Gen.facts,
    frame_k, Cert.Proof.Moe.frame_ki, Cert.Proof.Moe.frame_ri, trivial, Cert.Proof.Moe.algebraic⟩

end Cert.Proof

end
